-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S4 : Shape := ⟨1, ![4]⟩
abbrev S8192x8192 : Shape := ⟨2, ![8192, 8192]⟩
abbrev S8192 : Shape := ⟨1, ![8192]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : IVec S4x4096 32) (main_arg1 : FVec F S4 .f32) (main_arg2 : FVec F S8192x8192 .f32) (main_arg3 : FVec F S8192 .f32) : IVec S_ 1 :=
  let main_v0 : FVec F S4 .f32 := Host.absf main_arg1
  let main_cst : FVec F S_ .f32 := constant S_ .f32 0x7F800000#32
  let main_v1 : FVec F S4 .f32 := broadcastInDim S4 ![] bcast_S_S4 main_cst
  let main_v2 : IVec S4 1 := cmpf .olt main_v0 main_v1
  let main_c : IVec S_ 1 := constantI S_ 1 1#1
  let main_v3 : IVec S_ 1 := (fun x v => Host.reduce IntOp.andi x v reducesTo_S4_S_d0 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4x4096 : Shape := ⟨2, ![4, 4096]⟩
abbrev S4 : Shape := ⟨1, ![4]⟩
abbrev S8192x8192 : Shape := ⟨2, ![8192, 8192]⟩
abbrev S8192 : Shape := ⟨1, ![8192]⟩
abbrev S_ : Shape := ⟨0, ![]⟩
abbrev S512x512 : Shape := ⟨2, ![512, 512]⟩
abbrev S512 : Shape := ⟨1, ![512]⟩
abbrev S512x1 : Shape := ⟨2, ![512, 1]⟩
abbrev S4x1 : Shape := ⟨2, ![4, 1]⟩
abbrev S1x8192 : Shape := ⟨2, ![1, 8192]⟩
abbrev S4x8192 : Shape := ⟨2, ![4, 8192]⟩
abbrev S4x1x8192 : Shape := ⟨3, ![4, 1, 8192]⟩
abbrev S4x4096x8192 : Shape := ⟨3, ![4, 4096, 8192]⟩
abbrev S1x1x8192 : Shape := ⟨3, ![1, 1, 8192]⟩
abbrev S1x128x8192 : Shape := ⟨3, ![1, 128, 8192]⟩
abbrev S2x8192 : Shape := ⟨2, ![2, 8192]⟩
abbrev S2 : Shape := ⟨1, ![2]⟩
abbrev S1x1 : Shape := ⟨2, ![1, 1]⟩
abbrev S1 : Shape := ⟨1, ![1]⟩

abbrev nBuf : Space → Nat
  | .hbm => 26
  | .vmem => 12
  | .smem => 1
  | _ => 0

abbrev bufTy : (tb : Table) → Fin (tcTables nBuf tb) → BufTy
  | .hbm, ⟨0, _⟩ => ⟨S4x4096, .i32⟩
  | .hbm, ⟨1, _⟩ => ⟨S4, .f32⟩
  | .hbm, ⟨2, _⟩ => ⟨S8192x8192, .f32⟩
  | .hbm, ⟨3, _⟩ => ⟨S8192, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4x4096, .i32⟩
  | .hbm, ⟨8, _⟩ => ⟨S4x4096, .i32⟩
  | .hbm, ⟨9, _⟩ => ⟨S_, .i32⟩
  | .hbm, ⟨10, _⟩ => ⟨S4x4096, .i32⟩
  | .hbm, ⟨11, _⟩ => ⟨S8192x8192, .f32⟩
  | .hbm, ⟨12, _⟩ => ⟨S8192, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4x1, .f32⟩
  | .hbm, ⟨17, _⟩ => ⟨S1x8192, .f32⟩
  | .hbm, ⟨18, _⟩ => ⟨S4x8192, .f32⟩
  | .hbm, ⟨19, _⟩ => ⟨S4x8192, .f32⟩
  | .hbm, ⟨20, _⟩ => ⟨S4x8192, .f32⟩
  | .hbm, ⟨21, _⟩ => ⟨S1x8192, .f32⟩
  | .hbm, ⟨22, _⟩ => ⟨S4x8192, .f32⟩
  | .hbm, ⟨23, _⟩ => ⟨S4x8192, .f32⟩
  | .hbm, ⟨24, _⟩ => ⟨S4x1x8192, .f32⟩
  | .hbm, ⟨25, _⟩ => ⟨S4x4096x8192, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512, .f32⟩
  | .local _ .vmem, ⟨5, _⟩ => ⟨S512, .f32⟩
  | .local _ .vmem, ⟨6, _⟩ => ⟨S512x1, .f32⟩
  | .local _ .vmem, ⟨7, _⟩ => ⟨S1x1x8192, .f32⟩
  | .local _ .vmem, ⟨8, _⟩ => ⟨S1x1x8192, .f32⟩
  | .local _ .vmem, ⟨9, _⟩ => ⟨S1x128x8192, .f32⟩
  | .local _ .vmem, ⟨10, _⟩ => ⟨S1x128x8192, .f32⟩
  | .local _ .vmem, ⟨11, _⟩ => ⟨S2x8192, .f32⟩
  | .local _ .smem, ⟨0, _⟩ => ⟨S4x4096, .i32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1_0 : Ref sig .tc := ⟨.hbm, 11, rfl⟩
abbrev main_v1_1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 32], ![false, false]⟩

abbrev pre1 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let arg0 : BitVec 32 := BitVec.ofNat 32 (i 0).val
  let v2 : Index := Scalar.indexCast arg0
  let arg1 : BitVec 32 := BitVec.ofNat 32 (i 1).val
  let c128_i32 : BitVec 32 := 128#32
  let v0 : BitVec 32 := Scalar.muli arg1 c128_i32
  let c0_i32 : BitVec 32 := 0#32
  let v1 : BitVec 32 := Scalar.addi v0 c0_i32
  let v3 : Index := Scalar.indexCast v1
  ![v2.toNat, v3.toNat]
def k1_off2 (v4 : BitVec 32) : Fin 2 → Nat :=
  let c0_i32_3 : BitVec 32 := 0#32
  ![v4.toNat, 0]

def k1_chk1 (v4 : BitVec 32) : Prop :=
  (∀ a, (k1_off2 v4) a + S1x8192.size a ≤ S8192x8192.size a)
instance k1_chk1.dec : ∀ (v4 : BitVec 32), Decidable (k1_chk1 v4) := fun v4 => decidable_of_iff' _ (Iff.of_eq (k1_chk1.eq_1 v4))
theorem k1_off2_inb : ∀ (v4 : BitVec 32) (k1_hw1 : k1_chk1 v4), ∀ a, (k1_off2 v4) a + S1x8192.size a ≤ S8192x8192.size a := fun v4 k1_hw1 => k1_hw1

def k1_off3 (i : grid1.Coords) : Fin 2 → Nat :=
  let arg0 : BitVec 32 := BitVec.ofNat 32 (i 0).val
  let v20 : Index := Scalar.indexCast arg0
  let arg1 : BitVec 32 := BitVec.ofNat 32 (i 1).val
  let c128_i32 : BitVec 32 := 128#32
  let v0 : BitVec 32 := Scalar.muli arg1 c128_i32
  let c1_i32 : BitVec 32 := 1#32
  let v19 : BitVec 32 := Scalar.addi v0 c1_i32
  let v21 : Index := Scalar.indexCast v19
  ![v20.toNat, v21.toNat]
def k1_off4 (v22 : BitVec 32) : Fin 2 → Nat :=
  let c0_i32_14 : BitVec 32 := 0#32
  ![v22.toNat, 0]

def k1_chk2 (v22 : BitVec 32) : Prop :=
  (∀ a, (k1_off4 v22) a + S1x8192.size a ≤ S8192x8192.size a)
instance k1_chk2.dec : ∀ (v22 : BitVec 32), Decidable (k1_chk2 v22) := fun v22 => decidable_of_iff' _ (Iff.of_eq (k1_chk2.eq_1 v22))
theorem k1_off4_inb : ∀ (v22 : BitVec 32) (k1_hw2 : k1_chk2 v22), ∀ a, (k1_off4 v22) a + S1x8192.size a ≤ S8192x8192.size a := fun v22 k1_hw2 => k1_hw2

def k1_off5 (i : grid1.Coords) : Fin 2 → Nat :=
  let arg0 : BitVec 32 := BitVec.ofNat 32 (i 0).val
  let v43 : Index := Scalar.indexCast arg0
  let arg1 : BitVec 32 := BitVec.ofNat 32 (i 1).val
  let c128_i32 : BitVec 32 := 128#32
  let v0 : BitVec 32 := Scalar.muli arg1 c128_i32
  let c2_i32 : BitVec 32 := 2#32
  let v42 : BitVec 32 := Scalar.addi v0 c2_i32
  let v44 : Index := Scalar.indexCast v42
  ![v43.toNat, v44.toNat]
def k1_off6 (v45 : BitVec 32) : Fin 2 → Nat :=
  let c0_i32_28 : BitVec 32 := 0#32
  ![v45.toNat, 0]

def k1_chk3 (v45 : BitVec 32) : Prop :=
  (∀ a, (k1_off6 v45) a + S1x8192.size a ≤ S8192x8192.size a)
instance k1_chk3.dec : ∀ (v45 : BitVec 32), Decidable (k1_chk3 v45) := fun v45 => decidable_of_iff' _ (Iff.of_eq (k1_chk3.eq_1 v45))
theorem k1_off6_inb : ∀ (v45 : BitVec 32) (k1_hw3 : k1_chk3 v45), ∀ a, (k1_off6 v45) a + S1x8192.size a ≤ S8192x8192.size a := fun v45 k1_hw3 => k1_hw3

def k1_off7 (i : grid1.Coords) : Fin 2 → Nat :=
  let arg0 : BitVec 32 := BitVec.ofNat 32 (i 0).val
  let v66 : Index := Scalar.indexCast arg0
  let arg1 : BitVec 32 := BitVec.ofNat 32 (i 1).val
  let c128_i32 : BitVec 32 := 128#32
  let v0 : BitVec 32 := Scalar.muli arg1 c128_i32
  let c3_i32 : BitVec 32 := 3#32
  let v65 : BitVec 32 := Scalar.addi v0 c3_i32
  let v67 : Index := Scalar.indexCast v65
  ![v66.toNat, v67.toNat]
def k1_off8 (v68 : BitVec 32) : Fin 2 → Nat :=
  let c0_i32_41 : BitVec 32 := 0#32
  ![v68.toNat, 0]

def k1_chk4 (v68 : BitVec 32) : Prop :=
  (∀ a, (k1_off8 v68) a + S1x8192.size a ≤ S8192x8192.size a)
instance k1_chk4.dec : ∀ (v68 : BitVec 32), Decidable (k1_chk4 v68) := fun v68 => decidable_of_iff' _ (Iff.of_eq (k1_chk4.eq_1 v68))
theorem k1_off8_inb : ∀ (v68 : BitVec 32) (k1_hw4 : k1_chk4 v68), ∀ a, (k1_off8 v68) a + S1x8192.size a ≤ S8192x8192.size a := fun v68 k1_hw4 => k1_hw4

def k1_off9 (i : grid1.Coords) : Fin 2 → Nat :=
  let arg0 : BitVec 32 := BitVec.ofNat 32 (i 0).val
  let v89 : Index := Scalar.indexCast arg0
  let arg1 : BitVec 32 := BitVec.ofNat 32 (i 1).val
  let c128_i32 : BitVec 32 := 128#32
  let v0 : BitVec 32 := Scalar.muli arg1 c128_i32
  let c4_i32 : BitVec 32 := 4#32
  let v88 : BitVec 32 := Scalar.addi v0 c4_i32
  let v90 : Index := Scalar.indexCast v88
  ![v89.toNat, v90.toNat]
def k1_off10 (v91 : BitVec 32) : Fin 2 → Nat :=
  let c0_i32_54 : BitVec 32 := 0#32
  ![v91.toNat, 0]

def k1_chk5 (v91 : BitVec 32) : Prop :=
  (∀ a, (k1_off10 v91) a + S1x8192.size a ≤ S8192x8192.size a)
instance k1_chk5.dec : ∀ (v91 : BitVec 32), Decidable (k1_chk5 v91) := fun v91 => decidable_of_iff' _ (Iff.of_eq (k1_chk5.eq_1 v91))
theorem k1_off10_inb : ∀ (v91 : BitVec 32) (k1_hw5 : k1_chk5 v91), ∀ a, (k1_off10 v91) a + S1x8192.size a ≤ S8192x8192.size a := fun v91 k1_hw5 => k1_hw5

def k1_off11 (i : grid1.Coords) : Fin 2 → Nat :=
  let arg0 : BitVec 32 := BitVec.ofNat 32 (i 0).val
  let v112 : Index := Scalar.indexCast arg0
  let arg1 : BitVec 32 := BitVec.ofNat 32 (i 1).val
  let c128_i32 : BitVec 32 := 128#32
  let v0 : BitVec 32 := Scalar.muli arg1 c128_i32
  let c5_i32 : BitVec 32 := 5#32
  let v111 : BitVec 32 := Scalar.addi v0 c5_i32
  let v113 : Index := Scalar.indexCast v111
  ![v112.toNat, v113.toNat]
def k1_off12 (v114 : BitVec 32) : Fin 2 → Nat :=
  let c0_i32_67 : BitVec 32 := 0#32
  ![v114.toNat, 0]

def k1_chk6 (v114 : BitVec 32) : Prop :=
  (∀ a, (k1_off12 v114) a + S1x8192.size a ≤ S8192x8192.size a)
instance k1_chk6.dec : ∀ (v114 : BitVec 32), Decidable (k1_chk6 v114) := fun v114 => decidable_of_iff' _ (Iff.of_eq (k1_chk6.eq_1 v114))
theorem k1_off12_inb : ∀ (v114 : BitVec 32) (k1_hw6 : k1_chk6 v114), ∀ a, (k1_off12 v114) a + S1x8192.size a ≤ S8192x8192.size a := fun v114 k1_hw6 => k1_hw6

def k1_off13 (i : grid1.Coords) : Fin 2 → Nat :=
  let arg0 : BitVec 32 := BitVec.ofNat 32 (i 0).val
  let v135 : Index := Scalar.indexCast arg0
  let arg1 : BitVec 32 := BitVec.ofNat 32 (i 1).val
  let c128_i32 : BitVec 32 := 128#32
  let v0 : BitVec 32 := Scalar.muli arg1 c128_i32
  let c6_i32 : BitVec 32 := 6#32
  let v134 : BitVec 32 := Scalar.addi v0 c6_i32
  let v136 : Index := Scalar.indexCast v134
  ![v135.toNat, v136.toNat]
def k1_off14 (v137 : BitVec 32) : Fin 2 → Nat :=
  let c0_i32_80 : BitVec 32 := 0#32
  ![v137.toNat, 0]

def k1_chk7 (v137 : BitVec 32) : Prop :=
  (∀ a, (k1_off14 v137) a + S1x8192.size a ≤ S8192x8192.size a)
instance k1_chk7.dec : ∀ (v137 : BitVec 32), Decidable (k1_chk7 v137) := fun v137 => decidable_of_iff' _ (Iff.of_eq (k1_chk7.eq_1 v137))
theorem k1_off14_inb : ∀ (v137 : BitVec 32) (k1_hw7 : k1_chk7 v137), ∀ a, (k1_off14 v137) a + S1x8192.size a ≤ S8192x8192.size a := fun v137 k1_hw7 => k1_hw7

def k1_off15 (i : grid1.Coords) : Fin 2 → Nat :=
  let arg0 : BitVec 32 := BitVec.ofNat 32 (i 0).val
  let v158 : Index := Scalar.indexCast arg0
  let arg1 : BitVec 32 := BitVec.ofNat 32 (i 1).val
  let c128_i32 : BitVec 32 := 128#32
  let v0 : BitVec 32 := Scalar.muli arg1 c128_i32
  let c7_i32 : BitVec 32 := 7#32
  let v157 : BitVec 32 := Scalar.addi v0 c7_i32
  let v159 : Index := Scalar.indexCast v157
  ![v158.toNat, v159.toNat]
def k1_off16 (v160 : BitVec 32) : Fin 2 → Nat :=
  let c0_i32_93 : BitVec 32 := 0#32
  ![v160.toNat, 0]

def k1_chk8 (v160 : BitVec 32) : Prop :=
  (∀ a, (k1_off16 v160) a + S1x8192.size a ≤ S8192x8192.size a)
instance k1_chk8.dec : ∀ (v160 : BitVec 32), Decidable (k1_chk8 v160) := fun v160 => decidable_of_iff' _ (Iff.of_eq (k1_chk8.eq_1 v160))
theorem k1_off16_inb : ∀ (v160 : BitVec 32) (k1_hw8 : k1_chk8 v160), ∀ a, (k1_off16 v160) a + S1x8192.size a ≤ S8192x8192.size a := fun v160 k1_hw8 => k1_hw8

def k1_off17 (i : grid1.Coords) : Fin 2 → Nat :=
  let arg0 : BitVec 32 := BitVec.ofNat 32 (i 0).val
  let v181 : Index := Scalar.indexCast arg0
  let arg1 : BitVec 32 := BitVec.ofNat 32 (i 1).val
  let c128_i32 : BitVec 32 := 128#32
  let v0 : BitVec 32 := Scalar.muli arg1 c128_i32
  let c8_i32 : BitVec 32 := 8#32
  let v180 : BitVec 32 := Scalar.addi v0 c8_i32
  let v182 : Index := Scalar.indexCast v180
  ![v181.toNat, v182.toNat]
def k1_off18 (v183 : BitVec 32) : Fin 2 → Nat :=
  let c0_i32_106 : BitVec 32 := 0#32
  ![v183.toNat, 0]

def k1_chk9 (v183 : BitVec 32) : Prop :=
  (∀ a, (k1_off18 v183) a + S1x8192.size a ≤ S8192x8192.size a)
instance k1_chk9.dec : ∀ (v183 : BitVec 32), Decidable (k1_chk9 v183) := fun v183 => decidable_of_iff' _ (Iff.of_eq (k1_chk9.eq_1 v183))
theorem k1_off18_inb : ∀ (v183 : BitVec 32) (k1_hw9 : k1_chk9 v183), ∀ a, (k1_off18 v183) a + S1x8192.size a ≤ S8192x8192.size a := fun v183 k1_hw9 => k1_hw9

def k1_off19 (i : grid1.Coords) : Fin 2 → Nat :=
  let arg0 : BitVec 32 := BitVec.ofNat 32 (i 0).val
  let v204 : Index := Scalar.indexCast arg0
  let arg1 : BitVec 32 := BitVec.ofNat 32 (i 1).val
  let c128_i32 : BitVec 32 := 128#32
  let v0 : BitVec 32 := Scalar.muli arg1 c128_i32
  let c9_i32 : BitVec 32 := 9#32
  let v203 : BitVec 32 := Scalar.addi v0 c9_i32
  let v205 : Index := Scalar.indexCast v203
  ![v204.toNat, v205.toNat]
def k1_off20 (v206 : BitVec 32) : Fin 2 → Nat :=
  let c0_i32_119 : BitVec 32 := 0#32
  ![v206.toNat, 0]

def k1_chk10 (v206 : BitVec 32) : Prop :=
  (∀ a, (k1_off20 v206) a + S1x8192.size a ≤ S8192x8192.size a)
instance k1_chk10.dec : ∀ (v206 : BitVec 32), Decidable (k1_chk10 v206) := fun v206 => decidable_of_iff' _ (Iff.of_eq (k1_chk10.eq_1 v206))
theorem k1_off20_inb : ∀ (v206 : BitVec 32) (k1_hw10 : k1_chk10 v206), ∀ a, (k1_off20 v206) a + S1x8192.size a ≤ S8192x8192.size a := fun v206 k1_hw10 => k1_hw10

def k1_off21 (i : grid1.Coords) : Fin 2 → Nat :=
  let arg0 : BitVec 32 := BitVec.ofNat 32 (i 0).val
  let v227 : Index := Scalar.indexCast arg0
  let arg1 : BitVec 32 := BitVec.ofNat 32 (i 1).val
  let c128_i32 : BitVec 32 := 128#32
  let v0 : BitVec 32 := Scalar.muli arg1 c128_i32
  let c10_i32 : BitVec 32 := 10#32
  let v226 : BitVec 32 := Scalar.addi v0 c10_i32
  let v228 : Index := Scalar.indexCast v226
  ![v227.toNat, v228.toNat]
def k1_off22 (v229 : BitVec 32) : Fin 2 → Nat :=
  let c0_i32_132 : BitVec 32 := 0#32
  ![v229.toNat, 0]

def k1_chk11 (v229 : BitVec 32) : Prop :=
  (∀ a, (k1_off22 v229) a + S1x8192.size a ≤ S8192x8192.size a)
instance k1_chk11.dec : ∀ (v229 : BitVec 32), Decidable (k1_chk11 v229) := fun v229 => decidable_of_iff' _ (Iff.of_eq (k1_chk11.eq_1 v229))
theorem k1_off22_inb : ∀ (v229 : BitVec 32) (k1_hw11 : k1_chk11 v229), ∀ a, (k1_off22 v229) a + S1x8192.size a ≤ S8192x8192.size a := fun v229 k1_hw11 => k1_hw11

def k1_off23 (i : grid1.Coords) : Fin 2 → Nat :=
  let arg0 : BitVec 32 := BitVec.ofNat 32 (i 0).val
  let v250 : Index := Scalar.indexCast arg0
  let arg1 : BitVec 32 := BitVec.ofNat 32 (i 1).val
  let c128_i32 : BitVec 32 := 128#32
  let v0 : BitVec 32 := Scalar.muli arg1 c128_i32
  let c11_i32 : BitVec 32 := 11#32
  let v249 : BitVec 32 := Scalar.addi v0 c11_i32
  let v251 : Index := Scalar.indexCast v249
  ![v250.toNat, v251.toNat]
def k1_off24 (v252 : BitVec 32) : Fin 2 → Nat :=
  let c0_i32_145 : BitVec 32 := 0#32
  ![v252.toNat, 0]

def k1_chk12 (v252 : BitVec 32) : Prop :=
  (∀ a, (k1_off24 v252) a + S1x8192.size a ≤ S8192x8192.size a)
instance k1_chk12.dec : ∀ (v252 : BitVec 32), Decidable (k1_chk12 v252) := fun v252 => decidable_of_iff' _ (Iff.of_eq (k1_chk12.eq_1 v252))
theorem k1_off24_inb : ∀ (v252 : BitVec 32) (k1_hw12 : k1_chk12 v252), ∀ a, (k1_off24 v252) a + S1x8192.size a ≤ S8192x8192.size a := fun v252 k1_hw12 => k1_hw12

def k1_off25 (i : grid1.Coords) : Fin 2 → Nat :=
  let arg0 : BitVec 32 := BitVec.ofNat 32 (i 0).val
  let v273 : Index := Scalar.indexCast arg0
  let arg1 : BitVec 32 := BitVec.ofNat 32 (i 1).val
  let c128_i32 : BitVec 32 := 128#32
  let v0 : BitVec 32 := Scalar.muli arg1 c128_i32
  let c12_i32 : BitVec 32 := 12#32
  let v272 : BitVec 32 := Scalar.addi v0 c12_i32
  let v274 : Index := Scalar.indexCast v272
  ![v273.toNat, v274.toNat]
def k1_off26 (v275 : BitVec 32) : Fin 2 → Nat :=
  let c0_i32_158 : BitVec 32 := 0#32
  ![v275.toNat, 0]

def k1_chk13 (v275 : BitVec 32) : Prop :=
  (∀ a, (k1_off26 v275) a + S1x8192.size a ≤ S8192x8192.size a)
instance k1_chk13.dec : ∀ (v275 : BitVec 32), Decidable (k1_chk13 v275) := fun v275 => decidable_of_iff' _ (Iff.of_eq (k1_chk13.eq_1 v275))
theorem k1_off26_inb : ∀ (v275 : BitVec 32) (k1_hw13 : k1_chk13 v275), ∀ a, (k1_off26 v275) a + S1x8192.size a ≤ S8192x8192.size a := fun v275 k1_hw13 => k1_hw13

def k1_off27 (i : grid1.Coords) : Fin 2 → Nat :=
  let arg0 : BitVec 32 := BitVec.ofNat 32 (i 0).val
  let v296 : Index := Scalar.indexCast arg0
  let arg1 : BitVec 32 := BitVec.ofNat 32 (i 1).val
  let c128_i32 : BitVec 32 := 128#32
  let v0 : BitVec 32 := Scalar.muli arg1 c128_i32
  let c13_i32 : BitVec 32 := 13#32
  let v295 : BitVec 32 := Scalar.addi v0 c13_i32
  let v297 : Index := Scalar.indexCast v295
  ![v296.toNat, v297.toNat]
def k1_off28 (v298 : BitVec 32) : Fin 2 → Nat :=
  let c0_i32_171 : BitVec 32 := 0#32
  ![v298.toNat, 0]

def k1_chk14 (v298 : BitVec 32) : Prop :=
  (∀ a, (k1_off28 v298) a + S1x8192.size a ≤ S8192x8192.size a)
instance k1_chk14.dec : ∀ (v298 : BitVec 32), Decidable (k1_chk14 v298) := fun v298 => decidable_of_iff' _ (Iff.of_eq (k1_chk14.eq_1 v298))
theorem k1_off28_inb : ∀ (v298 : BitVec 32) (k1_hw14 : k1_chk14 v298), ∀ a, (k1_off28 v298) a + S1x8192.size a ≤ S8192x8192.size a := fun v298 k1_hw14 => k1_hw14

def k1_off29 (i : grid1.Coords) : Fin 2 → Nat :=
  let arg0 : BitVec 32 := BitVec.ofNat 32 (i 0).val
  let v319 : Index := Scalar.indexCast arg0
  let arg1 : BitVec 32 := BitVec.ofNat 32 (i 1).val
  let c128_i32 : BitVec 32 := 128#32
  let v0 : BitVec 32 := Scalar.muli arg1 c128_i32
  let c14_i32 : BitVec 32 := 14#32
  let v318 : BitVec 32 := Scalar.addi v0 c14_i32
  let v320 : Index := Scalar.indexCast v318
  ![v319.toNat, v320.toNat]
def k1_off30 (v321 : BitVec 32) : Fin 2 → Nat :=
  let c0_i32_184 : BitVec 32 := 0#32
  ![v321.toNat, 0]

def k1_chk15 (v321 : BitVec 32) : Prop :=
  (∀ a, (k1_off30 v321) a + S1x8192.size a ≤ S8192x8192.size a)
instance k1_chk15.dec : ∀ (v321 : BitVec 32), Decidable (k1_chk15 v321) := fun v321 => decidable_of_iff' _ (Iff.of_eq (k1_chk15.eq_1 v321))
theorem k1_off30_inb : ∀ (v321 : BitVec 32) (k1_hw15 : k1_chk15 v321), ∀ a, (k1_off30 v321) a + S1x8192.size a ≤ S8192x8192.size a := fun v321 k1_hw15 => k1_hw15

def k1_off31 (i : grid1.Coords) : Fin 2 → Nat :=
  let arg0 : BitVec 32 := BitVec.ofNat 32 (i 0).val
  let v342 : Index := Scalar.indexCast arg0
  let arg1 : BitVec 32 := BitVec.ofNat 32 (i 1).val
  let c128_i32 : BitVec 32 := 128#32
  let v0 : BitVec 32 := Scalar.muli arg1 c128_i32
  let c15_i32 : BitVec 32 := 15#32
  let v341 : BitVec 32 := Scalar.addi v0 c15_i32
  let v343 : Index := Scalar.indexCast v341
  ![v342.toNat, v343.toNat]
def k1_off32 (v344 : BitVec 32) : Fin 2 → Nat :=
  let c0_i32_197 : BitVec 32 := 0#32
  ![v344.toNat, 0]

def k1_chk16 (v344 : BitVec 32) : Prop :=
  (∀ a, (k1_off32 v344) a + S1x8192.size a ≤ S8192x8192.size a)
instance k1_chk16.dec : ∀ (v344 : BitVec 32), Decidable (k1_chk16 v344) := fun v344 => decidable_of_iff' _ (Iff.of_eq (k1_chk16.eq_1 v344))
theorem k1_off32_inb : ∀ (v344 : BitVec 32) (k1_hw16 : k1_chk16 v344), ∀ a, (k1_off32 v344) a + S1x8192.size a ≤ S8192x8192.size a := fun v344 k1_hw16 => k1_hw16

def k1_off33 (i : grid1.Coords) : Fin 2 → Nat :=
  let arg0 : BitVec 32 := BitVec.ofNat 32 (i 0).val
  let v365 : Index := Scalar.indexCast arg0
  let arg1 : BitVec 32 := BitVec.ofNat 32 (i 1).val
  let c128_i32 : BitVec 32 := 128#32
  let v0 : BitVec 32 := Scalar.muli arg1 c128_i32
  let c16_i32 : BitVec 32 := 16#32
  let v364 : BitVec 32 := Scalar.addi v0 c16_i32
  let v366 : Index := Scalar.indexCast v364
  ![v365.toNat, v366.toNat]
def k1_off34 (v367 : BitVec 32) : Fin 2 → Nat :=
  let c0_i32_210 : BitVec 32 := 0#32
  ![v367.toNat, 0]

def k1_chk17 (v367 : BitVec 32) : Prop :=
  (∀ a, (k1_off34 v367) a + S1x8192.size a ≤ S8192x8192.size a)
instance k1_chk17.dec : ∀ (v367 : BitVec 32), Decidable (k1_chk17 v367) := fun v367 => decidable_of_iff' _ (Iff.of_eq (k1_chk17.eq_1 v367))
theorem k1_off34_inb : ∀ (v367 : BitVec 32) (k1_hw17 : k1_chk17 v367), ∀ a, (k1_off34 v367) a + S1x8192.size a ≤ S8192x8192.size a := fun v367 k1_hw17 => k1_hw17

def k1_off35 (i : grid1.Coords) : Fin 2 → Nat :=
  let arg0 : BitVec 32 := BitVec.ofNat 32 (i 0).val
  let v388 : Index := Scalar.indexCast arg0
  let arg1 : BitVec 32 := BitVec.ofNat 32 (i 1).val
  let c128_i32 : BitVec 32 := 128#32
  let v0 : BitVec 32 := Scalar.muli arg1 c128_i32
  let c17_i32 : BitVec 32 := 17#32
  let v387 : BitVec 32 := Scalar.addi v0 c17_i32
  let v389 : Index := Scalar.indexCast v387
  ![v388.toNat, v389.toNat]
def k1_off36 (v390 : BitVec 32) : Fin 2 → Nat :=
  let c0_i32_223 : BitVec 32 := 0#32
  ![v390.toNat, 0]

def k1_chk18 (v390 : BitVec 32) : Prop :=
  (∀ a, (k1_off36 v390) a + S1x8192.size a ≤ S8192x8192.size a)
instance k1_chk18.dec : ∀ (v390 : BitVec 32), Decidable (k1_chk18 v390) := fun v390 => decidable_of_iff' _ (Iff.of_eq (k1_chk18.eq_1 v390))
theorem k1_off36_inb : ∀ (v390 : BitVec 32) (k1_hw18 : k1_chk18 v390), ∀ a, (k1_off36 v390) a + S1x8192.size a ≤ S8192x8192.size a := fun v390 k1_hw18 => k1_hw18

def k1_off37 (i : grid1.Coords) : Fin 2 → Nat :=
  let arg0 : BitVec 32 := BitVec.ofNat 32 (i 0).val
  let v411 : Index := Scalar.indexCast arg0
  let arg1 : BitVec 32 := BitVec.ofNat 32 (i 1).val
  let c128_i32 : BitVec 32 := 128#32
  let v0 : BitVec 32 := Scalar.muli arg1 c128_i32
  let c18_i32 : BitVec 32 := 18#32
  let v410 : BitVec 32 := Scalar.addi v0 c18_i32
  let v412 : Index := Scalar.indexCast v410
  ![v411.toNat, v412.toNat]
def k1_off38 (v413 : BitVec 32) : Fin 2 → Nat :=
  let c0_i32_236 : BitVec 32 := 0#32
  ![v413.toNat, 0]

def k1_chk19 (v413 : BitVec 32) : Prop :=
  (∀ a, (k1_off38 v413) a + S1x8192.size a ≤ S8192x8192.size a)
instance k1_chk19.dec : ∀ (v413 : BitVec 32), Decidable (k1_chk19 v413) := fun v413 => decidable_of_iff' _ (Iff.of_eq (k1_chk19.eq_1 v413))
theorem k1_off38_inb : ∀ (v413 : BitVec 32) (k1_hw19 : k1_chk19 v413), ∀ a, (k1_off38 v413) a + S1x8192.size a ≤ S8192x8192.size a := fun v413 k1_hw19 => k1_hw19

def k1_off39 (i : grid1.Coords) : Fin 2 → Nat :=
  let arg0 : BitVec 32 := BitVec.ofNat 32 (i 0).val
  let v434 : Index := Scalar.indexCast arg0
  let arg1 : BitVec 32 := BitVec.ofNat 32 (i 1).val
  let c128_i32 : BitVec 32 := 128#32
  let v0 : BitVec 32 := Scalar.muli arg1 c128_i32
  let c19_i32 : BitVec 32 := 19#32
  let v433 : BitVec 32 := Scalar.addi v0 c19_i32
  let v435 : Index := Scalar.indexCast v433
  ![v434.toNat, v435.toNat]
def k1_off40 (v436 : BitVec 32) : Fin 2 → Nat :=
  let c0_i32_249 : BitVec 32 := 0#32
  ![v436.toNat, 0]

def k1_chk20 (v436 : BitVec 32) : Prop :=
  (∀ a, (k1_off40 v436) a + S1x8192.size a ≤ S8192x8192.size a)
instance k1_chk20.dec : ∀ (v436 : BitVec 32), Decidable (k1_chk20 v436) := fun v436 => decidable_of_iff' _ (Iff.of_eq (k1_chk20.eq_1 v436))
theorem k1_off40_inb : ∀ (v436 : BitVec 32) (k1_hw20 : k1_chk20 v436), ∀ a, (k1_off40 v436) a + S1x8192.size a ≤ S8192x8192.size a := fun v436 k1_hw20 => k1_hw20

def k1_off41 (i : grid1.Coords) : Fin 2 → Nat :=
  let arg0 : BitVec 32 := BitVec.ofNat 32 (i 0).val
  let v457 : Index := Scalar.indexCast arg0
  let arg1 : BitVec 32 := BitVec.ofNat 32 (i 1).val
  let c128_i32 : BitVec 32 := 128#32
  let v0 : BitVec 32 := Scalar.muli arg1 c128_i32
  let c20_i32 : BitVec 32 := 20#32
  let v456 : BitVec 32 := Scalar.addi v0 c20_i32
  let v458 : Index := Scalar.indexCast v456
  ![v457.toNat, v458.toNat]
def k1_off42 (v459 : BitVec 32) : Fin 2 → Nat :=
  let c0_i32_262 : BitVec 32 := 0#32
  ![v459.toNat, 0]

def k1_chk21 (v459 : BitVec 32) : Prop :=
  (∀ a, (k1_off42 v459) a + S1x8192.size a ≤ S8192x8192.size a)
instance k1_chk21.dec : ∀ (v459 : BitVec 32), Decidable (k1_chk21 v459) := fun v459 => decidable_of_iff' _ (Iff.of_eq (k1_chk21.eq_1 v459))
theorem k1_off42_inb : ∀ (v459 : BitVec 32) (k1_hw21 : k1_chk21 v459), ∀ a, (k1_off42 v459) a + S1x8192.size a ≤ S8192x8192.size a := fun v459 k1_hw21 => k1_hw21

def k1_off43 (i : grid1.Coords) : Fin 2 → Nat :=
  let arg0 : BitVec 32 := BitVec.ofNat 32 (i 0).val
  let v480 : Index := Scalar.indexCast arg0
  let arg1 : BitVec 32 := BitVec.ofNat 32 (i 1).val
  let c128_i32 : BitVec 32 := 128#32
  let v0 : BitVec 32 := Scalar.muli arg1 c128_i32
  let c21_i32 : BitVec 32 := 21#32
  let v479 : BitVec 32 := Scalar.addi v0 c21_i32
  let v481 : Index := Scalar.indexCast v479
  ![v480.toNat, v481.toNat]
def k1_off44 (v482 : BitVec 32) : Fin 2 → Nat :=
  let c0_i32_275 : BitVec 32 := 0#32
  ![v482.toNat, 0]

def k1_chk22 (v482 : BitVec 32) : Prop :=
  (∀ a, (k1_off44 v482) a + S1x8192.size a ≤ S8192x8192.size a)
instance k1_chk22.dec : ∀ (v482 : BitVec 32), Decidable (k1_chk22 v482) := fun v482 => decidable_of_iff' _ (Iff.of_eq (k1_chk22.eq_1 v482))
theorem k1_off44_inb : ∀ (v482 : BitVec 32) (k1_hw22 : k1_chk22 v482), ∀ a, (k1_off44 v482) a + S1x8192.size a ≤ S8192x8192.size a := fun v482 k1_hw22 => k1_hw22

def k1_off45 (i : grid1.Coords) : Fin 2 → Nat :=
  let arg0 : BitVec 32 := BitVec.ofNat 32 (i 0).val
  let v503 : Index := Scalar.indexCast arg0
  let arg1 : BitVec 32 := BitVec.ofNat 32 (i 1).val
  let c128_i32 : BitVec 32 := 128#32
  let v0 : BitVec 32 := Scalar.muli arg1 c128_i32
  let c22_i32 : BitVec 32 := 22#32
  let v502 : BitVec 32 := Scalar.addi v0 c22_i32
  let v504 : Index := Scalar.indexCast v502
  ![v503.toNat, v504.toNat]
def k1_off46 (v505 : BitVec 32) : Fin 2 → Nat :=
  let c0_i32_288 : BitVec 32 := 0#32
  ![v505.toNat, 0]

def k1_chk23 (v505 : BitVec 32) : Prop :=
  (∀ a, (k1_off46 v505) a + S1x8192.size a ≤ S8192x8192.size a)
instance k1_chk23.dec : ∀ (v505 : BitVec 32), Decidable (k1_chk23 v505) := fun v505 => decidable_of_iff' _ (Iff.of_eq (k1_chk23.eq_1 v505))
theorem k1_off46_inb : ∀ (v505 : BitVec 32) (k1_hw23 : k1_chk23 v505), ∀ a, (k1_off46 v505) a + S1x8192.size a ≤ S8192x8192.size a := fun v505 k1_hw23 => k1_hw23

def k1_off47 (i : grid1.Coords) : Fin 2 → Nat :=
  let arg0 : BitVec 32 := BitVec.ofNat 32 (i 0).val
  let v526 : Index := Scalar.indexCast arg0
  let arg1 : BitVec 32 := BitVec.ofNat 32 (i 1).val
  let c128_i32 : BitVec 32 := 128#32
  let v0 : BitVec 32 := Scalar.muli arg1 c128_i32
  let c23_i32 : BitVec 32 := 23#32
  let v525 : BitVec 32 := Scalar.addi v0 c23_i32
  let v527 : Index := Scalar.indexCast v525
  ![v526.toNat, v527.toNat]
def k1_off48 (v528 : BitVec 32) : Fin 2 → Nat :=
  let c0_i32_301 : BitVec 32 := 0#32
  ![v528.toNat, 0]

def k1_chk24 (v528 : BitVec 32) : Prop :=
  (∀ a, (k1_off48 v528) a + S1x8192.size a ≤ S8192x8192.size a)
instance k1_chk24.dec : ∀ (v528 : BitVec 32), Decidable (k1_chk24 v528) := fun v528 => decidable_of_iff' _ (Iff.of_eq (k1_chk24.eq_1 v528))
theorem k1_off48_inb : ∀ (v528 : BitVec 32) (k1_hw24 : k1_chk24 v528), ∀ a, (k1_off48 v528) a + S1x8192.size a ≤ S8192x8192.size a := fun v528 k1_hw24 => k1_hw24

def k1_off49 (i : grid1.Coords) : Fin 2 → Nat :=
  let arg0 : BitVec 32 := BitVec.ofNat 32 (i 0).val
  let v549 : Index := Scalar.indexCast arg0
  let arg1 : BitVec 32 := BitVec.ofNat 32 (i 1).val
  let c128_i32 : BitVec 32 := 128#32
  let v0 : BitVec 32 := Scalar.muli arg1 c128_i32
  let c24_i32 : BitVec 32 := 24#32
  let v548 : BitVec 32 := Scalar.addi v0 c24_i32
  let v550 : Index := Scalar.indexCast v548
  ![v549.toNat, v550.toNat]
def k1_off50 (v551 : BitVec 32) : Fin 2 → Nat :=
  let c0_i32_314 : BitVec 32 := 0#32
  ![v551.toNat, 0]

def k1_chk25 (v551 : BitVec 32) : Prop :=
  (∀ a, (k1_off50 v551) a + S1x8192.size a ≤ S8192x8192.size a)
instance k1_chk25.dec : ∀ (v551 : BitVec 32), Decidable (k1_chk25 v551) := fun v551 => decidable_of_iff' _ (Iff.of_eq (k1_chk25.eq_1 v551))
theorem k1_off50_inb : ∀ (v551 : BitVec 32) (k1_hw25 : k1_chk25 v551), ∀ a, (k1_off50 v551) a + S1x8192.size a ≤ S8192x8192.size a := fun v551 k1_hw25 => k1_hw25

def k1_off51 (i : grid1.Coords) : Fin 2 → Nat :=
  let arg0 : BitVec 32 := BitVec.ofNat 32 (i 0).val
  let v572 : Index := Scalar.indexCast arg0
  let arg1 : BitVec 32 := BitVec.ofNat 32 (i 1).val
  let c128_i32 : BitVec 32 := 128#32
  let v0 : BitVec 32 := Scalar.muli arg1 c128_i32
  let c25_i32 : BitVec 32 := 25#32
  let v571 : BitVec 32 := Scalar.addi v0 c25_i32
  let v573 : Index := Scalar.indexCast v571
  ![v572.toNat, v573.toNat]
def k1_off52 (v574 : BitVec 32) : Fin 2 → Nat :=
  let c0_i32_327 : BitVec 32 := 0#32
  ![v574.toNat, 0]

def k1_chk26 (v574 : BitVec 32) : Prop :=
  (∀ a, (k1_off52 v574) a + S1x8192.size a ≤ S8192x8192.size a)
instance k1_chk26.dec : ∀ (v574 : BitVec 32), Decidable (k1_chk26 v574) := fun v574 => decidable_of_iff' _ (Iff.of_eq (k1_chk26.eq_1 v574))
theorem k1_off52_inb : ∀ (v574 : BitVec 32) (k1_hw26 : k1_chk26 v574), ∀ a, (k1_off52 v574) a + S1x8192.size a ≤ S8192x8192.size a := fun v574 k1_hw26 => k1_hw26

def k1_off53 (i : grid1.Coords) : Fin 2 → Nat :=
  let arg0 : BitVec 32 := BitVec.ofNat 32 (i 0).val
  let v595 : Index := Scalar.indexCast arg0
  let arg1 : BitVec 32 := BitVec.ofNat 32 (i 1).val
  let c128_i32 : BitVec 32 := 128#32
  let v0 : BitVec 32 := Scalar.muli arg1 c128_i32
  let c26_i32 : BitVec 32 := 26#32
  let v594 : BitVec 32 := Scalar.addi v0 c26_i32
  let v596 : Index := Scalar.indexCast v594
  ![v595.toNat, v596.toNat]
def k1_off54 (v597 : BitVec 32) : Fin 2 → Nat :=
  let c0_i32_340 : BitVec 32 := 0#32
  ![v597.toNat, 0]

def k1_chk27 (v597 : BitVec 32) : Prop :=
  (∀ a, (k1_off54 v597) a + S1x8192.size a ≤ S8192x8192.size a)
instance k1_chk27.dec : ∀ (v597 : BitVec 32), Decidable (k1_chk27 v597) := fun v597 => decidable_of_iff' _ (Iff.of_eq (k1_chk27.eq_1 v597))
theorem k1_off54_inb : ∀ (v597 : BitVec 32) (k1_hw27 : k1_chk27 v597), ∀ a, (k1_off54 v597) a + S1x8192.size a ≤ S8192x8192.size a := fun v597 k1_hw27 => k1_hw27

def k1_off55 (i : grid1.Coords) : Fin 2 → Nat :=
  let arg0 : BitVec 32 := BitVec.ofNat 32 (i 0).val
  let v618 : Index := Scalar.indexCast arg0
  let arg1 : BitVec 32 := BitVec.ofNat 32 (i 1).val
  let c128_i32 : BitVec 32 := 128#32
  let v0 : BitVec 32 := Scalar.muli arg1 c128_i32
  let c27_i32 : BitVec 32 := 27#32
  let v617 : BitVec 32 := Scalar.addi v0 c27_i32
  let v619 : Index := Scalar.indexCast v617
  ![v618.toNat, v619.toNat]
def k1_off56 (v620 : BitVec 32) : Fin 2 → Nat :=
  let c0_i32_353 : BitVec 32 := 0#32
  ![v620.toNat, 0]

def k1_chk28 (v620 : BitVec 32) : Prop :=
  (∀ a, (k1_off56 v620) a + S1x8192.size a ≤ S8192x8192.size a)
instance k1_chk28.dec : ∀ (v620 : BitVec 32), Decidable (k1_chk28 v620) := fun v620 => decidable_of_iff' _ (Iff.of_eq (k1_chk28.eq_1 v620))
theorem k1_off56_inb : ∀ (v620 : BitVec 32) (k1_hw28 : k1_chk28 v620), ∀ a, (k1_off56 v620) a + S1x8192.size a ≤ S8192x8192.size a := fun v620 k1_hw28 => k1_hw28

def k1_off57 (i : grid1.Coords) : Fin 2 → Nat :=
  let arg0 : BitVec 32 := BitVec.ofNat 32 (i 0).val
  let v641 : Index := Scalar.indexCast arg0
  let arg1 : BitVec 32 := BitVec.ofNat 32 (i 1).val
  let c128_i32 : BitVec 32 := 128#32
  let v0 : BitVec 32 := Scalar.muli arg1 c128_i32
  let c28_i32 : BitVec 32 := 28#32
  let v640 : BitVec 32 := Scalar.addi v0 c28_i32
  let v642 : Index := Scalar.indexCast v640
  ![v641.toNat, v642.toNat]
def k1_off58 (v643 : BitVec 32) : Fin 2 → Nat :=
  let c0_i32_366 : BitVec 32 := 0#32
  ![v643.toNat, 0]

def k1_chk29 (v643 : BitVec 32) : Prop :=
  (∀ a, (k1_off58 v643) a + S1x8192.size a ≤ S8192x8192.size a)
instance k1_chk29.dec : ∀ (v643 : BitVec 32), Decidable (k1_chk29 v643) := fun v643 => decidable_of_iff' _ (Iff.of_eq (k1_chk29.eq_1 v643))
theorem k1_off58_inb : ∀ (v643 : BitVec 32) (k1_hw29 : k1_chk29 v643), ∀ a, (k1_off58 v643) a + S1x8192.size a ≤ S8192x8192.size a := fun v643 k1_hw29 => k1_hw29

def k1_off59 (i : grid1.Coords) : Fin 2 → Nat :=
  let arg0 : BitVec 32 := BitVec.ofNat 32 (i 0).val
  let v664 : Index := Scalar.indexCast arg0
  let arg1 : BitVec 32 := BitVec.ofNat 32 (i 1).val
  let c128_i32 : BitVec 32 := 128#32
  let v0 : BitVec 32 := Scalar.muli arg1 c128_i32
  let c29_i32 : BitVec 32 := 29#32
  let v663 : BitVec 32 := Scalar.addi v0 c29_i32
  let v665 : Index := Scalar.indexCast v663
  ![v664.toNat, v665.toNat]
def k1_off60 (v666 : BitVec 32) : Fin 2 → Nat :=
  let c0_i32_379 : BitVec 32 := 0#32
  ![v666.toNat, 0]

def k1_chk30 (v666 : BitVec 32) : Prop :=
  (∀ a, (k1_off60 v666) a + S1x8192.size a ≤ S8192x8192.size a)
instance k1_chk30.dec : ∀ (v666 : BitVec 32), Decidable (k1_chk30 v666) := fun v666 => decidable_of_iff' _ (Iff.of_eq (k1_chk30.eq_1 v666))
theorem k1_off60_inb : ∀ (v666 : BitVec 32) (k1_hw30 : k1_chk30 v666), ∀ a, (k1_off60 v666) a + S1x8192.size a ≤ S8192x8192.size a := fun v666 k1_hw30 => k1_hw30

def k1_off61 (i : grid1.Coords) : Fin 2 → Nat :=
  let arg0 : BitVec 32 := BitVec.ofNat 32 (i 0).val
  let v687 : Index := Scalar.indexCast arg0
  let arg1 : BitVec 32 := BitVec.ofNat 32 (i 1).val
  let c128_i32 : BitVec 32 := 128#32
  let v0 : BitVec 32 := Scalar.muli arg1 c128_i32
  let c30_i32 : BitVec 32 := 30#32
  let v686 : BitVec 32 := Scalar.addi v0 c30_i32
  let v688 : Index := Scalar.indexCast v686
  ![v687.toNat, v688.toNat]
def k1_off62 (v689 : BitVec 32) : Fin 2 → Nat :=
  let c0_i32_392 : BitVec 32 := 0#32
  ![v689.toNat, 0]

def k1_chk31 (v689 : BitVec 32) : Prop :=
  (∀ a, (k1_off62 v689) a + S1x8192.size a ≤ S8192x8192.size a)
instance k1_chk31.dec : ∀ (v689 : BitVec 32), Decidable (k1_chk31 v689) := fun v689 => decidable_of_iff' _ (Iff.of_eq (k1_chk31.eq_1 v689))
theorem k1_off62_inb : ∀ (v689 : BitVec 32) (k1_hw31 : k1_chk31 v689), ∀ a, (k1_off62 v689) a + S1x8192.size a ≤ S8192x8192.size a := fun v689 k1_hw31 => k1_hw31

def k1_off63 (i : grid1.Coords) : Fin 2 → Nat :=
  let arg0 : BitVec 32 := BitVec.ofNat 32 (i 0).val
  let v710 : Index := Scalar.indexCast arg0
  let arg1 : BitVec 32 := BitVec.ofNat 32 (i 1).val
  let c128_i32 : BitVec 32 := 128#32
  let v0 : BitVec 32 := Scalar.muli arg1 c128_i32
  let c31_i32 : BitVec 32 := 31#32
  let v709 : BitVec 32 := Scalar.addi v0 c31_i32
  let v711 : Index := Scalar.indexCast v709
  ![v710.toNat, v711.toNat]
def k1_off64 (v712 : BitVec 32) : Fin 2 → Nat :=
  let c0_i32_405 : BitVec 32 := 0#32
  ![v712.toNat, 0]

def k1_chk32 (v712 : BitVec 32) : Prop :=
  (∀ a, (k1_off64 v712) a + S1x8192.size a ≤ S8192x8192.size a)
instance k1_chk32.dec : ∀ (v712 : BitVec 32), Decidable (k1_chk32 v712) := fun v712 => decidable_of_iff' _ (Iff.of_eq (k1_chk32.eq_1 v712))
theorem k1_off64_inb : ∀ (v712 : BitVec 32) (k1_hw32 : k1_chk32 v712), ∀ a, (k1_off64 v712) a + S1x8192.size a ≤ S8192x8192.size a := fun v712 k1_hw32 => k1_hw32

def k1_off65 (i : grid1.Coords) : Fin 2 → Nat :=
  let arg0 : BitVec 32 := BitVec.ofNat 32 (i 0).val
  let v733 : Index := Scalar.indexCast arg0
  let arg1 : BitVec 32 := BitVec.ofNat 32 (i 1).val
  let c128_i32 : BitVec 32 := 128#32
  let v0 : BitVec 32 := Scalar.muli arg1 c128_i32
  let c32_i32 : BitVec 32 := 32#32
  let v732 : BitVec 32 := Scalar.addi v0 c32_i32
  let v734 : Index := Scalar.indexCast v732
  ![v733.toNat, v734.toNat]
def k1_off66 (v735 : BitVec 32) : Fin 2 → Nat :=
  let c0_i32_418 : BitVec 32 := 0#32
  ![v735.toNat, 0]

def k1_chk33 (v735 : BitVec 32) : Prop :=
  (∀ a, (k1_off66 v735) a + S1x8192.size a ≤ S8192x8192.size a)
instance k1_chk33.dec : ∀ (v735 : BitVec 32), Decidable (k1_chk33 v735) := fun v735 => decidable_of_iff' _ (Iff.of_eq (k1_chk33.eq_1 v735))
theorem k1_off66_inb : ∀ (v735 : BitVec 32) (k1_hw33 : k1_chk33 v735), ∀ a, (k1_off66 v735) a + S1x8192.size a ≤ S8192x8192.size a := fun v735 k1_hw33 => k1_hw33

def k1_off67 (i : grid1.Coords) : Fin 2 → Nat :=
  let arg0 : BitVec 32 := BitVec.ofNat 32 (i 0).val
  let v756 : Index := Scalar.indexCast arg0
  let arg1 : BitVec 32 := BitVec.ofNat 32 (i 1).val
  let c128_i32 : BitVec 32 := 128#32
  let v0 : BitVec 32 := Scalar.muli arg1 c128_i32
  let c33_i32 : BitVec 32 := 33#32
  let v755 : BitVec 32 := Scalar.addi v0 c33_i32
  let v757 : Index := Scalar.indexCast v755
  ![v756.toNat, v757.toNat]
def k1_off68 (v758 : BitVec 32) : Fin 2 → Nat :=
  let c0_i32_431 : BitVec 32 := 0#32
  ![v758.toNat, 0]

def k1_chk34 (v758 : BitVec 32) : Prop :=
  (∀ a, (k1_off68 v758) a + S1x8192.size a ≤ S8192x8192.size a)
instance k1_chk34.dec : ∀ (v758 : BitVec 32), Decidable (k1_chk34 v758) := fun v758 => decidable_of_iff' _ (Iff.of_eq (k1_chk34.eq_1 v758))
theorem k1_off68_inb : ∀ (v758 : BitVec 32) (k1_hw34 : k1_chk34 v758), ∀ a, (k1_off68 v758) a + S1x8192.size a ≤ S8192x8192.size a := fun v758 k1_hw34 => k1_hw34

def k1_off69 (i : grid1.Coords) : Fin 2 → Nat :=
  let arg0 : BitVec 32 := BitVec.ofNat 32 (i 0).val
  let v779 : Index := Scalar.indexCast arg0
  let arg1 : BitVec 32 := BitVec.ofNat 32 (i 1).val
  let c128_i32 : BitVec 32 := 128#32
  let v0 : BitVec 32 := Scalar.muli arg1 c128_i32
  let c34_i32 : BitVec 32 := 34#32
  let v778 : BitVec 32 := Scalar.addi v0 c34_i32
  let v780 : Index := Scalar.indexCast v778
  ![v779.toNat, v780.toNat]
def k1_off70 (v781 : BitVec 32) : Fin 2 → Nat :=
  let c0_i32_444 : BitVec 32 := 0#32
  ![v781.toNat, 0]

def k1_chk35 (v781 : BitVec 32) : Prop :=
  (∀ a, (k1_off70 v781) a + S1x8192.size a ≤ S8192x8192.size a)
instance k1_chk35.dec : ∀ (v781 : BitVec 32), Decidable (k1_chk35 v781) := fun v781 => decidable_of_iff' _ (Iff.of_eq (k1_chk35.eq_1 v781))
theorem k1_off70_inb : ∀ (v781 : BitVec 32) (k1_hw35 : k1_chk35 v781), ∀ a, (k1_off70 v781) a + S1x8192.size a ≤ S8192x8192.size a := fun v781 k1_hw35 => k1_hw35

def k1_off71 (i : grid1.Coords) : Fin 2 → Nat :=
  let arg0 : BitVec 32 := BitVec.ofNat 32 (i 0).val
  let v802 : Index := Scalar.indexCast arg0
  let arg1 : BitVec 32 := BitVec.ofNat 32 (i 1).val
  let c128_i32 : BitVec 32 := 128#32
  let v0 : BitVec 32 := Scalar.muli arg1 c128_i32
  let c35_i32 : BitVec 32 := 35#32
  let v801 : BitVec 32 := Scalar.addi v0 c35_i32
  let v803 : Index := Scalar.indexCast v801
  ![v802.toNat, v803.toNat]
def k1_off72 (v804 : BitVec 32) : Fin 2 → Nat :=
  let c0_i32_457 : BitVec 32 := 0#32
  ![v804.toNat, 0]

def k1_chk36 (v804 : BitVec 32) : Prop :=
  (∀ a, (k1_off72 v804) a + S1x8192.size a ≤ S8192x8192.size a)
instance k1_chk36.dec : ∀ (v804 : BitVec 32), Decidable (k1_chk36 v804) := fun v804 => decidable_of_iff' _ (Iff.of_eq (k1_chk36.eq_1 v804))
theorem k1_off72_inb : ∀ (v804 : BitVec 32) (k1_hw36 : k1_chk36 v804), ∀ a, (k1_off72 v804) a + S1x8192.size a ≤ S8192x8192.size a := fun v804 k1_hw36 => k1_hw36

def k1_off73 (i : grid1.Coords) : Fin 2 → Nat :=
  let arg0 : BitVec 32 := BitVec.ofNat 32 (i 0).val
  let v825 : Index := Scalar.indexCast arg0
  let arg1 : BitVec 32 := BitVec.ofNat 32 (i 1).val
  let c128_i32 : BitVec 32 := 128#32
  let v0 : BitVec 32 := Scalar.muli arg1 c128_i32
  let c36_i32 : BitVec 32 := 36#32
  let v824 : BitVec 32 := Scalar.addi v0 c36_i32
  let v826 : Index := Scalar.indexCast v824
  ![v825.toNat, v826.toNat]
def k1_off74 (v827 : BitVec 32) : Fin 2 → Nat :=
  let c0_i32_470 : BitVec 32 := 0#32
  ![v827.toNat, 0]

def k1_chk37 (v827 : BitVec 32) : Prop :=
  (∀ a, (k1_off74 v827) a + S1x8192.size a ≤ S8192x8192.size a)
instance k1_chk37.dec : ∀ (v827 : BitVec 32), Decidable (k1_chk37 v827) := fun v827 => decidable_of_iff' _ (Iff.of_eq (k1_chk37.eq_1 v827))
theorem k1_off74_inb : ∀ (v827 : BitVec 32) (k1_hw37 : k1_chk37 v827), ∀ a, (k1_off74 v827) a + S1x8192.size a ≤ S8192x8192.size a := fun v827 k1_hw37 => k1_hw37

def k1_off75 (i : grid1.Coords) : Fin 2 → Nat :=
  let arg0 : BitVec 32 := BitVec.ofNat 32 (i 0).val
  let v848 : Index := Scalar.indexCast arg0
  let arg1 : BitVec 32 := BitVec.ofNat 32 (i 1).val
  let c128_i32 : BitVec 32 := 128#32
  let v0 : BitVec 32 := Scalar.muli arg1 c128_i32
  let c37_i32 : BitVec 32 := 37#32
  let v847 : BitVec 32 := Scalar.addi v0 c37_i32
  let v849 : Index := Scalar.indexCast v847
  ![v848.toNat, v849.toNat]
def k1_off76 (v850 : BitVec 32) : Fin 2 → Nat :=
  let c0_i32_483 : BitVec 32 := 0#32
  ![v850.toNat, 0]

def k1_chk38 (v850 : BitVec 32) : Prop :=
  (∀ a, (k1_off76 v850) a + S1x8192.size a ≤ S8192x8192.size a)
instance k1_chk38.dec : ∀ (v850 : BitVec 32), Decidable (k1_chk38 v850) := fun v850 => decidable_of_iff' _ (Iff.of_eq (k1_chk38.eq_1 v850))
theorem k1_off76_inb : ∀ (v850 : BitVec 32) (k1_hw38 : k1_chk38 v850), ∀ a, (k1_off76 v850) a + S1x8192.size a ≤ S8192x8192.size a := fun v850 k1_hw38 => k1_hw38

def k1_off77 (i : grid1.Coords) : Fin 2 → Nat :=
  let arg0 : BitVec 32 := BitVec.ofNat 32 (i 0).val
  let v871 : Index := Scalar.indexCast arg0
  let arg1 : BitVec 32 := BitVec.ofNat 32 (i 1).val
  let c128_i32 : BitVec 32 := 128#32
  let v0 : BitVec 32 := Scalar.muli arg1 c128_i32
  let c38_i32 : BitVec 32 := 38#32
  let v870 : BitVec 32 := Scalar.addi v0 c38_i32
  let v872 : Index := Scalar.indexCast v870
  ![v871.toNat, v872.toNat]
def k1_off78 (v873 : BitVec 32) : Fin 2 → Nat :=
  let c0_i32_496 : BitVec 32 := 0#32
  ![v873.toNat, 0]

def k1_chk39 (v873 : BitVec 32) : Prop :=
  (∀ a, (k1_off78 v873) a + S1x8192.size a ≤ S8192x8192.size a)
instance k1_chk39.dec : ∀ (v873 : BitVec 32), Decidable (k1_chk39 v873) := fun v873 => decidable_of_iff' _ (Iff.of_eq (k1_chk39.eq_1 v873))
theorem k1_off78_inb : ∀ (v873 : BitVec 32) (k1_hw39 : k1_chk39 v873), ∀ a, (k1_off78 v873) a + S1x8192.size a ≤ S8192x8192.size a := fun v873 k1_hw39 => k1_hw39

def k1_off79 (i : grid1.Coords) : Fin 2 → Nat :=
  let arg0 : BitVec 32 := BitVec.ofNat 32 (i 0).val
  let v894 : Index := Scalar.indexCast arg0
  let arg1 : BitVec 32 := BitVec.ofNat 32 (i 1).val
  let c128_i32 : BitVec 32 := 128#32
  let v0 : BitVec 32 := Scalar.muli arg1 c128_i32
  let c39_i32 : BitVec 32 := 39#32
  let v893 : BitVec 32 := Scalar.addi v0 c39_i32
  let v895 : Index := Scalar.indexCast v893
  ![v894.toNat, v895.toNat]
def k1_off80 (v896 : BitVec 32) : Fin 2 → Nat :=
  let c0_i32_509 : BitVec 32 := 0#32
  ![v896.toNat, 0]

def k1_chk40 (v896 : BitVec 32) : Prop :=
  (∀ a, (k1_off80 v896) a + S1x8192.size a ≤ S8192x8192.size a)
instance k1_chk40.dec : ∀ (v896 : BitVec 32), Decidable (k1_chk40 v896) := fun v896 => decidable_of_iff' _ (Iff.of_eq (k1_chk40.eq_1 v896))
theorem k1_off80_inb : ∀ (v896 : BitVec 32) (k1_hw40 : k1_chk40 v896), ∀ a, (k1_off80 v896) a + S1x8192.size a ≤ S8192x8192.size a := fun v896 k1_hw40 => k1_hw40

def k1_off81 (i : grid1.Coords) : Fin 2 → Nat :=
  let arg0 : BitVec 32 := BitVec.ofNat 32 (i 0).val
  let v917 : Index := Scalar.indexCast arg0
  let arg1 : BitVec 32 := BitVec.ofNat 32 (i 1).val
  let c128_i32 : BitVec 32 := 128#32
  let v0 : BitVec 32 := Scalar.muli arg1 c128_i32
  let c40_i32 : BitVec 32 := 40#32
  let v916 : BitVec 32 := Scalar.addi v0 c40_i32
  let v918 : Index := Scalar.indexCast v916
  ![v917.toNat, v918.toNat]
def k1_off82 (v919 : BitVec 32) : Fin 2 → Nat :=
  let c0_i32_522 : BitVec 32 := 0#32
  ![v919.toNat, 0]

def k1_chk41 (v919 : BitVec 32) : Prop :=
  (∀ a, (k1_off82 v919) a + S1x8192.size a ≤ S8192x8192.size a)
instance k1_chk41.dec : ∀ (v919 : BitVec 32), Decidable (k1_chk41 v919) := fun v919 => decidable_of_iff' _ (Iff.of_eq (k1_chk41.eq_1 v919))
theorem k1_off82_inb : ∀ (v919 : BitVec 32) (k1_hw41 : k1_chk41 v919), ∀ a, (k1_off82 v919) a + S1x8192.size a ≤ S8192x8192.size a := fun v919 k1_hw41 => k1_hw41

def k1_off83 (i : grid1.Coords) : Fin 2 → Nat :=
  let arg0 : BitVec 32 := BitVec.ofNat 32 (i 0).val
  let v940 : Index := Scalar.indexCast arg0
  let arg1 : BitVec 32 := BitVec.ofNat 32 (i 1).val
  let c128_i32 : BitVec 32 := 128#32
  let v0 : BitVec 32 := Scalar.muli arg1 c128_i32
  let c41_i32 : BitVec 32 := 41#32
  let v939 : BitVec 32 := Scalar.addi v0 c41_i32
  let v941 : Index := Scalar.indexCast v939
  ![v940.toNat, v941.toNat]
def k1_off84 (v942 : BitVec 32) : Fin 2 → Nat :=
  let c0_i32_535 : BitVec 32 := 0#32
  ![v942.toNat, 0]

def k1_chk42 (v942 : BitVec 32) : Prop :=
  (∀ a, (k1_off84 v942) a + S1x8192.size a ≤ S8192x8192.size a)
instance k1_chk42.dec : ∀ (v942 : BitVec 32), Decidable (k1_chk42 v942) := fun v942 => decidable_of_iff' _ (Iff.of_eq (k1_chk42.eq_1 v942))
theorem k1_off84_inb : ∀ (v942 : BitVec 32) (k1_hw42 : k1_chk42 v942), ∀ a, (k1_off84 v942) a + S1x8192.size a ≤ S8192x8192.size a := fun v942 k1_hw42 => k1_hw42

def k1_off85 (i : grid1.Coords) : Fin 2 → Nat :=
  let arg0 : BitVec 32 := BitVec.ofNat 32 (i 0).val
  let v963 : Index := Scalar.indexCast arg0
  let arg1 : BitVec 32 := BitVec.ofNat 32 (i 1).val
  let c128_i32 : BitVec 32 := 128#32
  let v0 : BitVec 32 := Scalar.muli arg1 c128_i32
  let c42_i32 : BitVec 32 := 42#32
  let v962 : BitVec 32 := Scalar.addi v0 c42_i32
  let v964 : Index := Scalar.indexCast v962
  ![v963.toNat, v964.toNat]
def k1_off86 (v965 : BitVec 32) : Fin 2 → Nat :=
  let c0_i32_548 : BitVec 32 := 0#32
  ![v965.toNat, 0]

def k1_chk43 (v965 : BitVec 32) : Prop :=
  (∀ a, (k1_off86 v965) a + S1x8192.size a ≤ S8192x8192.size a)
instance k1_chk43.dec : ∀ (v965 : BitVec 32), Decidable (k1_chk43 v965) := fun v965 => decidable_of_iff' _ (Iff.of_eq (k1_chk43.eq_1 v965))
theorem k1_off86_inb : ∀ (v965 : BitVec 32) (k1_hw43 : k1_chk43 v965), ∀ a, (k1_off86 v965) a + S1x8192.size a ≤ S8192x8192.size a := fun v965 k1_hw43 => k1_hw43

def k1_off87 (i : grid1.Coords) : Fin 2 → Nat :=
  let arg0 : BitVec 32 := BitVec.ofNat 32 (i 0).val
  let v986 : Index := Scalar.indexCast arg0
  let arg1 : BitVec 32 := BitVec.ofNat 32 (i 1).val
  let c128_i32 : BitVec 32 := 128#32
  let v0 : BitVec 32 := Scalar.muli arg1 c128_i32
  let c43_i32 : BitVec 32 := 43#32
  let v985 : BitVec 32 := Scalar.addi v0 c43_i32
  let v987 : Index := Scalar.indexCast v985
  ![v986.toNat, v987.toNat]
def k1_off88 (v988 : BitVec 32) : Fin 2 → Nat :=
  let c0_i32_561 : BitVec 32 := 0#32
  ![v988.toNat, 0]

def k1_chk44 (v988 : BitVec 32) : Prop :=
  (∀ a, (k1_off88 v988) a + S1x8192.size a ≤ S8192x8192.size a)
instance k1_chk44.dec : ∀ (v988 : BitVec 32), Decidable (k1_chk44 v988) := fun v988 => decidable_of_iff' _ (Iff.of_eq (k1_chk44.eq_1 v988))
theorem k1_off88_inb : ∀ (v988 : BitVec 32) (k1_hw44 : k1_chk44 v988), ∀ a, (k1_off88 v988) a + S1x8192.size a ≤ S8192x8192.size a := fun v988 k1_hw44 => k1_hw44

def k1_off89 (i : grid1.Coords) : Fin 2 → Nat :=
  let arg0 : BitVec 32 := BitVec.ofNat 32 (i 0).val
  let v1009 : Index := Scalar.indexCast arg0
  let arg1 : BitVec 32 := BitVec.ofNat 32 (i 1).val
  let c128_i32 : BitVec 32 := 128#32
  let v0 : BitVec 32 := Scalar.muli arg1 c128_i32
  let c44_i32 : BitVec 32 := 44#32
  let v1008 : BitVec 32 := Scalar.addi v0 c44_i32
  let v1010 : Index := Scalar.indexCast v1008
  ![v1009.toNat, v1010.toNat]
def k1_off90 (v1011 : BitVec 32) : Fin 2 → Nat :=
  let c0_i32_574 : BitVec 32 := 0#32
  ![v1011.toNat, 0]

def k1_chk45 (v1011 : BitVec 32) : Prop :=
  (∀ a, (k1_off90 v1011) a + S1x8192.size a ≤ S8192x8192.size a)
instance k1_chk45.dec : ∀ (v1011 : BitVec 32), Decidable (k1_chk45 v1011) := fun v1011 => decidable_of_iff' _ (Iff.of_eq (k1_chk45.eq_1 v1011))
theorem k1_off90_inb : ∀ (v1011 : BitVec 32) (k1_hw45 : k1_chk45 v1011), ∀ a, (k1_off90 v1011) a + S1x8192.size a ≤ S8192x8192.size a := fun v1011 k1_hw45 => k1_hw45

def k1_off91 (i : grid1.Coords) : Fin 2 → Nat :=
  let arg0 : BitVec 32 := BitVec.ofNat 32 (i 0).val
  let v1032 : Index := Scalar.indexCast arg0
  let arg1 : BitVec 32 := BitVec.ofNat 32 (i 1).val
  let c128_i32 : BitVec 32 := 128#32
  let v0 : BitVec 32 := Scalar.muli arg1 c128_i32
  let c45_i32 : BitVec 32 := 45#32
  let v1031 : BitVec 32 := Scalar.addi v0 c45_i32
  let v1033 : Index := Scalar.indexCast v1031
  ![v1032.toNat, v1033.toNat]
def k1_off92 (v1034 : BitVec 32) : Fin 2 → Nat :=
  let c0_i32_587 : BitVec 32 := 0#32
  ![v1034.toNat, 0]

def k1_chk46 (v1034 : BitVec 32) : Prop :=
  (∀ a, (k1_off92 v1034) a + S1x8192.size a ≤ S8192x8192.size a)
instance k1_chk46.dec : ∀ (v1034 : BitVec 32), Decidable (k1_chk46 v1034) := fun v1034 => decidable_of_iff' _ (Iff.of_eq (k1_chk46.eq_1 v1034))
theorem k1_off92_inb : ∀ (v1034 : BitVec 32) (k1_hw46 : k1_chk46 v1034), ∀ a, (k1_off92 v1034) a + S1x8192.size a ≤ S8192x8192.size a := fun v1034 k1_hw46 => k1_hw46

def k1_off93 (i : grid1.Coords) : Fin 2 → Nat :=
  let arg0 : BitVec 32 := BitVec.ofNat 32 (i 0).val
  let v1055 : Index := Scalar.indexCast arg0
  let arg1 : BitVec 32 := BitVec.ofNat 32 (i 1).val
  let c128_i32 : BitVec 32 := 128#32
  let v0 : BitVec 32 := Scalar.muli arg1 c128_i32
  let c46_i32 : BitVec 32 := 46#32
  let v1054 : BitVec 32 := Scalar.addi v0 c46_i32
  let v1056 : Index := Scalar.indexCast v1054
  ![v1055.toNat, v1056.toNat]
def k1_off94 (v1057 : BitVec 32) : Fin 2 → Nat :=
  let c0_i32_600 : BitVec 32 := 0#32
  ![v1057.toNat, 0]

def k1_chk47 (v1057 : BitVec 32) : Prop :=
  (∀ a, (k1_off94 v1057) a + S1x8192.size a ≤ S8192x8192.size a)
instance k1_chk47.dec : ∀ (v1057 : BitVec 32), Decidable (k1_chk47 v1057) := fun v1057 => decidable_of_iff' _ (Iff.of_eq (k1_chk47.eq_1 v1057))
theorem k1_off94_inb : ∀ (v1057 : BitVec 32) (k1_hw47 : k1_chk47 v1057), ∀ a, (k1_off94 v1057) a + S1x8192.size a ≤ S8192x8192.size a := fun v1057 k1_hw47 => k1_hw47

def k1_off95 (i : grid1.Coords) : Fin 2 → Nat :=
  let arg0 : BitVec 32 := BitVec.ofNat 32 (i 0).val
  let v1078 : Index := Scalar.indexCast arg0
  let arg1 : BitVec 32 := BitVec.ofNat 32 (i 1).val
  let c128_i32 : BitVec 32 := 128#32
  let v0 : BitVec 32 := Scalar.muli arg1 c128_i32
  let c47_i32 : BitVec 32 := 47#32
  let v1077 : BitVec 32 := Scalar.addi v0 c47_i32
  let v1079 : Index := Scalar.indexCast v1077
  ![v1078.toNat, v1079.toNat]
def k1_off96 (v1080 : BitVec 32) : Fin 2 → Nat :=
  let c0_i32_613 : BitVec 32 := 0#32
  ![v1080.toNat, 0]

def k1_chk48 (v1080 : BitVec 32) : Prop :=
  (∀ a, (k1_off96 v1080) a + S1x8192.size a ≤ S8192x8192.size a)
instance k1_chk48.dec : ∀ (v1080 : BitVec 32), Decidable (k1_chk48 v1080) := fun v1080 => decidable_of_iff' _ (Iff.of_eq (k1_chk48.eq_1 v1080))
theorem k1_off96_inb : ∀ (v1080 : BitVec 32) (k1_hw48 : k1_chk48 v1080), ∀ a, (k1_off96 v1080) a + S1x8192.size a ≤ S8192x8192.size a := fun v1080 k1_hw48 => k1_hw48

def k1_off97 (i : grid1.Coords) : Fin 2 → Nat :=
  let arg0 : BitVec 32 := BitVec.ofNat 32 (i 0).val
  let v1101 : Index := Scalar.indexCast arg0
  let arg1 : BitVec 32 := BitVec.ofNat 32 (i 1).val
  let c128_i32 : BitVec 32 := 128#32
  let v0 : BitVec 32 := Scalar.muli arg1 c128_i32
  let c48_i32 : BitVec 32 := 48#32
  let v1100 : BitVec 32 := Scalar.addi v0 c48_i32
  let v1102 : Index := Scalar.indexCast v1100
  ![v1101.toNat, v1102.toNat]
def k1_off98 (v1103 : BitVec 32) : Fin 2 → Nat :=
  let c0_i32_626 : BitVec 32 := 0#32
  ![v1103.toNat, 0]

def k1_chk49 (v1103 : BitVec 32) : Prop :=
  (∀ a, (k1_off98 v1103) a + S1x8192.size a ≤ S8192x8192.size a)
instance k1_chk49.dec : ∀ (v1103 : BitVec 32), Decidable (k1_chk49 v1103) := fun v1103 => decidable_of_iff' _ (Iff.of_eq (k1_chk49.eq_1 v1103))
theorem k1_off98_inb : ∀ (v1103 : BitVec 32) (k1_hw49 : k1_chk49 v1103), ∀ a, (k1_off98 v1103) a + S1x8192.size a ≤ S8192x8192.size a := fun v1103 k1_hw49 => k1_hw49

def k1_off99 (i : grid1.Coords) : Fin 2 → Nat :=
  let arg0 : BitVec 32 := BitVec.ofNat 32 (i 0).val
  let v1124 : Index := Scalar.indexCast arg0
  let arg1 : BitVec 32 := BitVec.ofNat 32 (i 1).val
  let c128_i32 : BitVec 32 := 128#32
  let v0 : BitVec 32 := Scalar.muli arg1 c128_i32
  let c49_i32 : BitVec 32 := 49#32
  let v1123 : BitVec 32 := Scalar.addi v0 c49_i32
  let v1125 : Index := Scalar.indexCast v1123
  ![v1124.toNat, v1125.toNat]
def k1_off100 (v1126 : BitVec 32) : Fin 2 → Nat :=
  let c0_i32_639 : BitVec 32 := 0#32
  ![v1126.toNat, 0]

def k1_chk50 (v1126 : BitVec 32) : Prop :=
  (∀ a, (k1_off100 v1126) a + S1x8192.size a ≤ S8192x8192.size a)
instance k1_chk50.dec : ∀ (v1126 : BitVec 32), Decidable (k1_chk50 v1126) := fun v1126 => decidable_of_iff' _ (Iff.of_eq (k1_chk50.eq_1 v1126))
theorem k1_off100_inb : ∀ (v1126 : BitVec 32) (k1_hw50 : k1_chk50 v1126), ∀ a, (k1_off100 v1126) a + S1x8192.size a ≤ S8192x8192.size a := fun v1126 k1_hw50 => k1_hw50

def k1_off101 (i : grid1.Coords) : Fin 2 → Nat :=
  let arg0 : BitVec 32 := BitVec.ofNat 32 (i 0).val
  let v1147 : Index := Scalar.indexCast arg0
  let arg1 : BitVec 32 := BitVec.ofNat 32 (i 1).val
  let c128_i32 : BitVec 32 := 128#32
  let v0 : BitVec 32 := Scalar.muli arg1 c128_i32
  let c50_i32 : BitVec 32 := 50#32
  let v1146 : BitVec 32 := Scalar.addi v0 c50_i32
  let v1148 : Index := Scalar.indexCast v1146
  ![v1147.toNat, v1148.toNat]
def k1_off102 (v1149 : BitVec 32) : Fin 2 → Nat :=
  let c0_i32_652 : BitVec 32 := 0#32
  ![v1149.toNat, 0]

def k1_chk51 (v1149 : BitVec 32) : Prop :=
  (∀ a, (k1_off102 v1149) a + S1x8192.size a ≤ S8192x8192.size a)
instance k1_chk51.dec : ∀ (v1149 : BitVec 32), Decidable (k1_chk51 v1149) := fun v1149 => decidable_of_iff' _ (Iff.of_eq (k1_chk51.eq_1 v1149))
theorem k1_off102_inb : ∀ (v1149 : BitVec 32) (k1_hw51 : k1_chk51 v1149), ∀ a, (k1_off102 v1149) a + S1x8192.size a ≤ S8192x8192.size a := fun v1149 k1_hw51 => k1_hw51

def k1_off103 (i : grid1.Coords) : Fin 2 → Nat :=
  let arg0 : BitVec 32 := BitVec.ofNat 32 (i 0).val
  let v1170 : Index := Scalar.indexCast arg0
  let arg1 : BitVec 32 := BitVec.ofNat 32 (i 1).val
  let c128_i32 : BitVec 32 := 128#32
  let v0 : BitVec 32 := Scalar.muli arg1 c128_i32
  let c51_i32 : BitVec 32 := 51#32
  let v1169 : BitVec 32 := Scalar.addi v0 c51_i32
  let v1171 : Index := Scalar.indexCast v1169
  ![v1170.toNat, v1171.toNat]
def k1_off104 (v1172 : BitVec 32) : Fin 2 → Nat :=
  let c0_i32_665 : BitVec 32 := 0#32
  ![v1172.toNat, 0]

def k1_chk52 (v1172 : BitVec 32) : Prop :=
  (∀ a, (k1_off104 v1172) a + S1x8192.size a ≤ S8192x8192.size a)
instance k1_chk52.dec : ∀ (v1172 : BitVec 32), Decidable (k1_chk52 v1172) := fun v1172 => decidable_of_iff' _ (Iff.of_eq (k1_chk52.eq_1 v1172))
theorem k1_off104_inb : ∀ (v1172 : BitVec 32) (k1_hw52 : k1_chk52 v1172), ∀ a, (k1_off104 v1172) a + S1x8192.size a ≤ S8192x8192.size a := fun v1172 k1_hw52 => k1_hw52

def k1_off105 (i : grid1.Coords) : Fin 2 → Nat :=
  let arg0 : BitVec 32 := BitVec.ofNat 32 (i 0).val
  let v1193 : Index := Scalar.indexCast arg0
  let arg1 : BitVec 32 := BitVec.ofNat 32 (i 1).val
  let c128_i32 : BitVec 32 := 128#32
  let v0 : BitVec 32 := Scalar.muli arg1 c128_i32
  let c52_i32 : BitVec 32 := 52#32
  let v1192 : BitVec 32 := Scalar.addi v0 c52_i32
  let v1194 : Index := Scalar.indexCast v1192
  ![v1193.toNat, v1194.toNat]
def k1_off106 (v1195 : BitVec 32) : Fin 2 → Nat :=
  let c0_i32_678 : BitVec 32 := 0#32
  ![v1195.toNat, 0]

def k1_chk53 (v1195 : BitVec 32) : Prop :=
  (∀ a, (k1_off106 v1195) a + S1x8192.size a ≤ S8192x8192.size a)
instance k1_chk53.dec : ∀ (v1195 : BitVec 32), Decidable (k1_chk53 v1195) := fun v1195 => decidable_of_iff' _ (Iff.of_eq (k1_chk53.eq_1 v1195))
theorem k1_off106_inb : ∀ (v1195 : BitVec 32) (k1_hw53 : k1_chk53 v1195), ∀ a, (k1_off106 v1195) a + S1x8192.size a ≤ S8192x8192.size a := fun v1195 k1_hw53 => k1_hw53

def k1_off107 (i : grid1.Coords) : Fin 2 → Nat :=
  let arg0 : BitVec 32 := BitVec.ofNat 32 (i 0).val
  let v1216 : Index := Scalar.indexCast arg0
  let arg1 : BitVec 32 := BitVec.ofNat 32 (i 1).val
  let c128_i32 : BitVec 32 := 128#32
  let v0 : BitVec 32 := Scalar.muli arg1 c128_i32
  let c53_i32 : BitVec 32 := 53#32
  let v1215 : BitVec 32 := Scalar.addi v0 c53_i32
  let v1217 : Index := Scalar.indexCast v1215
  ![v1216.toNat, v1217.toNat]
def k1_off108 (v1218 : BitVec 32) : Fin 2 → Nat :=
  let c0_i32_691 : BitVec 32 := 0#32
  ![v1218.toNat, 0]

def k1_chk54 (v1218 : BitVec 32) : Prop :=
  (∀ a, (k1_off108 v1218) a + S1x8192.size a ≤ S8192x8192.size a)
instance k1_chk54.dec : ∀ (v1218 : BitVec 32), Decidable (k1_chk54 v1218) := fun v1218 => decidable_of_iff' _ (Iff.of_eq (k1_chk54.eq_1 v1218))
theorem k1_off108_inb : ∀ (v1218 : BitVec 32) (k1_hw54 : k1_chk54 v1218), ∀ a, (k1_off108 v1218) a + S1x8192.size a ≤ S8192x8192.size a := fun v1218 k1_hw54 => k1_hw54

def k1_off109 (i : grid1.Coords) : Fin 2 → Nat :=
  let arg0 : BitVec 32 := BitVec.ofNat 32 (i 0).val
  let v1239 : Index := Scalar.indexCast arg0
  let arg1 : BitVec 32 := BitVec.ofNat 32 (i 1).val
  let c128_i32 : BitVec 32 := 128#32
  let v0 : BitVec 32 := Scalar.muli arg1 c128_i32
  let c54_i32 : BitVec 32 := 54#32
  let v1238 : BitVec 32 := Scalar.addi v0 c54_i32
  let v1240 : Index := Scalar.indexCast v1238
  ![v1239.toNat, v1240.toNat]
def k1_off110 (v1241 : BitVec 32) : Fin 2 → Nat :=
  let c0_i32_704 : BitVec 32 := 0#32
  ![v1241.toNat, 0]

def k1_chk55 (v1241 : BitVec 32) : Prop :=
  (∀ a, (k1_off110 v1241) a + S1x8192.size a ≤ S8192x8192.size a)
instance k1_chk55.dec : ∀ (v1241 : BitVec 32), Decidable (k1_chk55 v1241) := fun v1241 => decidable_of_iff' _ (Iff.of_eq (k1_chk55.eq_1 v1241))
theorem k1_off110_inb : ∀ (v1241 : BitVec 32) (k1_hw55 : k1_chk55 v1241), ∀ a, (k1_off110 v1241) a + S1x8192.size a ≤ S8192x8192.size a := fun v1241 k1_hw55 => k1_hw55

def k1_off111 (i : grid1.Coords) : Fin 2 → Nat :=
  let arg0 : BitVec 32 := BitVec.ofNat 32 (i 0).val
  let v1262 : Index := Scalar.indexCast arg0
  let arg1 : BitVec 32 := BitVec.ofNat 32 (i 1).val
  let c128_i32 : BitVec 32 := 128#32
  let v0 : BitVec 32 := Scalar.muli arg1 c128_i32
  let c55_i32 : BitVec 32 := 55#32
  let v1261 : BitVec 32 := Scalar.addi v0 c55_i32
  let v1263 : Index := Scalar.indexCast v1261
  ![v1262.toNat, v1263.toNat]
def k1_off112 (v1264 : BitVec 32) : Fin 2 → Nat :=
  let c0_i32_717 : BitVec 32 := 0#32
  ![v1264.toNat, 0]

def k1_chk56 (v1264 : BitVec 32) : Prop :=
  (∀ a, (k1_off112 v1264) a + S1x8192.size a ≤ S8192x8192.size a)
instance k1_chk56.dec : ∀ (v1264 : BitVec 32), Decidable (k1_chk56 v1264) := fun v1264 => decidable_of_iff' _ (Iff.of_eq (k1_chk56.eq_1 v1264))
theorem k1_off112_inb : ∀ (v1264 : BitVec 32) (k1_hw56 : k1_chk56 v1264), ∀ a, (k1_off112 v1264) a + S1x8192.size a ≤ S8192x8192.size a := fun v1264 k1_hw56 => k1_hw56

def k1_off113 (i : grid1.Coords) : Fin 2 → Nat :=
  let arg0 : BitVec 32 := BitVec.ofNat 32 (i 0).val
  let v1285 : Index := Scalar.indexCast arg0
  let arg1 : BitVec 32 := BitVec.ofNat 32 (i 1).val
  let c128_i32 : BitVec 32 := 128#32
  let v0 : BitVec 32 := Scalar.muli arg1 c128_i32
  let c56_i32 : BitVec 32 := 56#32
  let v1284 : BitVec 32 := Scalar.addi v0 c56_i32
  let v1286 : Index := Scalar.indexCast v1284
  ![v1285.toNat, v1286.toNat]
def k1_off114 (v1287 : BitVec 32) : Fin 2 → Nat :=
  let c0_i32_730 : BitVec 32 := 0#32
  ![v1287.toNat, 0]

def k1_chk57 (v1287 : BitVec 32) : Prop :=
  (∀ a, (k1_off114 v1287) a + S1x8192.size a ≤ S8192x8192.size a)
instance k1_chk57.dec : ∀ (v1287 : BitVec 32), Decidable (k1_chk57 v1287) := fun v1287 => decidable_of_iff' _ (Iff.of_eq (k1_chk57.eq_1 v1287))
theorem k1_off114_inb : ∀ (v1287 : BitVec 32) (k1_hw57 : k1_chk57 v1287), ∀ a, (k1_off114 v1287) a + S1x8192.size a ≤ S8192x8192.size a := fun v1287 k1_hw57 => k1_hw57

def k1_off115 (i : grid1.Coords) : Fin 2 → Nat :=
  let arg0 : BitVec 32 := BitVec.ofNat 32 (i 0).val
  let v1308 : Index := Scalar.indexCast arg0
  let arg1 : BitVec 32 := BitVec.ofNat 32 (i 1).val
  let c128_i32 : BitVec 32 := 128#32
  let v0 : BitVec 32 := Scalar.muli arg1 c128_i32
  let c57_i32 : BitVec 32 := 57#32
  let v1307 : BitVec 32 := Scalar.addi v0 c57_i32
  let v1309 : Index := Scalar.indexCast v1307
  ![v1308.toNat, v1309.toNat]
def k1_off116 (v1310 : BitVec 32) : Fin 2 → Nat :=
  let c0_i32_743 : BitVec 32 := 0#32
  ![v1310.toNat, 0]

def k1_chk58 (v1310 : BitVec 32) : Prop :=
  (∀ a, (k1_off116 v1310) a + S1x8192.size a ≤ S8192x8192.size a)
instance k1_chk58.dec : ∀ (v1310 : BitVec 32), Decidable (k1_chk58 v1310) := fun v1310 => decidable_of_iff' _ (Iff.of_eq (k1_chk58.eq_1 v1310))
theorem k1_off116_inb : ∀ (v1310 : BitVec 32) (k1_hw58 : k1_chk58 v1310), ∀ a, (k1_off116 v1310) a + S1x8192.size a ≤ S8192x8192.size a := fun v1310 k1_hw58 => k1_hw58

def k1_off117 (i : grid1.Coords) : Fin 2 → Nat :=
  let arg0 : BitVec 32 := BitVec.ofNat 32 (i 0).val
  let v1331 : Index := Scalar.indexCast arg0
  let arg1 : BitVec 32 := BitVec.ofNat 32 (i 1).val
  let c128_i32 : BitVec 32 := 128#32
  let v0 : BitVec 32 := Scalar.muli arg1 c128_i32
  let c58_i32 : BitVec 32 := 58#32
  let v1330 : BitVec 32 := Scalar.addi v0 c58_i32
  let v1332 : Index := Scalar.indexCast v1330
  ![v1331.toNat, v1332.toNat]
def k1_off118 (v1333 : BitVec 32) : Fin 2 → Nat :=
  let c0_i32_756 : BitVec 32 := 0#32
  ![v1333.toNat, 0]

def k1_chk59 (v1333 : BitVec 32) : Prop :=
  (∀ a, (k1_off118 v1333) a + S1x8192.size a ≤ S8192x8192.size a)
instance k1_chk59.dec : ∀ (v1333 : BitVec 32), Decidable (k1_chk59 v1333) := fun v1333 => decidable_of_iff' _ (Iff.of_eq (k1_chk59.eq_1 v1333))
theorem k1_off118_inb : ∀ (v1333 : BitVec 32) (k1_hw59 : k1_chk59 v1333), ∀ a, (k1_off118 v1333) a + S1x8192.size a ≤ S8192x8192.size a := fun v1333 k1_hw59 => k1_hw59

def k1_off119 (i : grid1.Coords) : Fin 2 → Nat :=
  let arg0 : BitVec 32 := BitVec.ofNat 32 (i 0).val
  let v1354 : Index := Scalar.indexCast arg0
  let arg1 : BitVec 32 := BitVec.ofNat 32 (i 1).val
  let c128_i32 : BitVec 32 := 128#32
  let v0 : BitVec 32 := Scalar.muli arg1 c128_i32
  let c59_i32 : BitVec 32 := 59#32
  let v1353 : BitVec 32 := Scalar.addi v0 c59_i32
  let v1355 : Index := Scalar.indexCast v1353
  ![v1354.toNat, v1355.toNat]
def k1_off120 (v1356 : BitVec 32) : Fin 2 → Nat :=
  let c0_i32_769 : BitVec 32 := 0#32
  ![v1356.toNat, 0]

def k1_chk60 (v1356 : BitVec 32) : Prop :=
  (∀ a, (k1_off120 v1356) a + S1x8192.size a ≤ S8192x8192.size a)
instance k1_chk60.dec : ∀ (v1356 : BitVec 32), Decidable (k1_chk60 v1356) := fun v1356 => decidable_of_iff' _ (Iff.of_eq (k1_chk60.eq_1 v1356))
theorem k1_off120_inb : ∀ (v1356 : BitVec 32) (k1_hw60 : k1_chk60 v1356), ∀ a, (k1_off120 v1356) a + S1x8192.size a ≤ S8192x8192.size a := fun v1356 k1_hw60 => k1_hw60

def k1_off121 (i : grid1.Coords) : Fin 2 → Nat :=
  let arg0 : BitVec 32 := BitVec.ofNat 32 (i 0).val
  let v1377 : Index := Scalar.indexCast arg0
  let arg1 : BitVec 32 := BitVec.ofNat 32 (i 1).val
  let c128_i32 : BitVec 32 := 128#32
  let v0 : BitVec 32 := Scalar.muli arg1 c128_i32
  let c60_i32 : BitVec 32 := 60#32
  let v1376 : BitVec 32 := Scalar.addi v0 c60_i32
  let v1378 : Index := Scalar.indexCast v1376
  ![v1377.toNat, v1378.toNat]
def k1_off122 (v1379 : BitVec 32) : Fin 2 → Nat :=
  let c0_i32_782 : BitVec 32 := 0#32
  ![v1379.toNat, 0]

def k1_chk61 (v1379 : BitVec 32) : Prop :=
  (∀ a, (k1_off122 v1379) a + S1x8192.size a ≤ S8192x8192.size a)
instance k1_chk61.dec : ∀ (v1379 : BitVec 32), Decidable (k1_chk61 v1379) := fun v1379 => decidable_of_iff' _ (Iff.of_eq (k1_chk61.eq_1 v1379))
theorem k1_off122_inb : ∀ (v1379 : BitVec 32) (k1_hw61 : k1_chk61 v1379), ∀ a, (k1_off122 v1379) a + S1x8192.size a ≤ S8192x8192.size a := fun v1379 k1_hw61 => k1_hw61

def k1_off123 (i : grid1.Coords) : Fin 2 → Nat :=
  let arg0 : BitVec 32 := BitVec.ofNat 32 (i 0).val
  let v1400 : Index := Scalar.indexCast arg0
  let arg1 : BitVec 32 := BitVec.ofNat 32 (i 1).val
  let c128_i32 : BitVec 32 := 128#32
  let v0 : BitVec 32 := Scalar.muli arg1 c128_i32
  let c61_i32 : BitVec 32 := 61#32
  let v1399 : BitVec 32 := Scalar.addi v0 c61_i32
  let v1401 : Index := Scalar.indexCast v1399
  ![v1400.toNat, v1401.toNat]
def k1_off124 (v1402 : BitVec 32) : Fin 2 → Nat :=
  let c0_i32_795 : BitVec 32 := 0#32
  ![v1402.toNat, 0]

def k1_chk62 (v1402 : BitVec 32) : Prop :=
  (∀ a, (k1_off124 v1402) a + S1x8192.size a ≤ S8192x8192.size a)
instance k1_chk62.dec : ∀ (v1402 : BitVec 32), Decidable (k1_chk62 v1402) := fun v1402 => decidable_of_iff' _ (Iff.of_eq (k1_chk62.eq_1 v1402))
theorem k1_off124_inb : ∀ (v1402 : BitVec 32) (k1_hw62 : k1_chk62 v1402), ∀ a, (k1_off124 v1402) a + S1x8192.size a ≤ S8192x8192.size a := fun v1402 k1_hw62 => k1_hw62

def k1_off125 (i : grid1.Coords) : Fin 2 → Nat :=
  let arg0 : BitVec 32 := BitVec.ofNat 32 (i 0).val
  let v1423 : Index := Scalar.indexCast arg0
  let arg1 : BitVec 32 := BitVec.ofNat 32 (i 1).val
  let c128_i32 : BitVec 32 := 128#32
  let v0 : BitVec 32 := Scalar.muli arg1 c128_i32
  let c62_i32 : BitVec 32 := 62#32
  let v1422 : BitVec 32 := Scalar.addi v0 c62_i32
  let v1424 : Index := Scalar.indexCast v1422
  ![v1423.toNat, v1424.toNat]
def k1_off126 (v1425 : BitVec 32) : Fin 2 → Nat :=
  let c0_i32_808 : BitVec 32 := 0#32
  ![v1425.toNat, 0]

def k1_chk63 (v1425 : BitVec 32) : Prop :=
  (∀ a, (k1_off126 v1425) a + S1x8192.size a ≤ S8192x8192.size a)
instance k1_chk63.dec : ∀ (v1425 : BitVec 32), Decidable (k1_chk63 v1425) := fun v1425 => decidable_of_iff' _ (Iff.of_eq (k1_chk63.eq_1 v1425))
theorem k1_off126_inb : ∀ (v1425 : BitVec 32) (k1_hw63 : k1_chk63 v1425), ∀ a, (k1_off126 v1425) a + S1x8192.size a ≤ S8192x8192.size a := fun v1425 k1_hw63 => k1_hw63

def k1_off127 (i : grid1.Coords) : Fin 2 → Nat :=
  let arg0 : BitVec 32 := BitVec.ofNat 32 (i 0).val
  let v1446 : Index := Scalar.indexCast arg0
  let arg1 : BitVec 32 := BitVec.ofNat 32 (i 1).val
  let c128_i32 : BitVec 32 := 128#32
  let v0 : BitVec 32 := Scalar.muli arg1 c128_i32
  let c63_i32 : BitVec 32 := 63#32
  let v1445 : BitVec 32 := Scalar.addi v0 c63_i32
  let v1447 : Index := Scalar.indexCast v1445
  ![v1446.toNat, v1447.toNat]
def k1_off128 (v1448 : BitVec 32) : Fin 2 → Nat :=
  let c0_i32_821 : BitVec 32 := 0#32
  ![v1448.toNat, 0]

def k1_chk64 (v1448 : BitVec 32) : Prop :=
  (∀ a, (k1_off128 v1448) a + S1x8192.size a ≤ S8192x8192.size a)
instance k1_chk64.dec : ∀ (v1448 : BitVec 32), Decidable (k1_chk64 v1448) := fun v1448 => decidable_of_iff' _ (Iff.of_eq (k1_chk64.eq_1 v1448))
theorem k1_off128_inb : ∀ (v1448 : BitVec 32) (k1_hw64 : k1_chk64 v1448), ∀ a, (k1_off128 v1448) a + S1x8192.size a ≤ S8192x8192.size a := fun v1448 k1_hw64 => k1_hw64

def k1_off129 (i : grid1.Coords) : Fin 2 → Nat :=
  let arg0 : BitVec 32 := BitVec.ofNat 32 (i 0).val
  let v1469 : Index := Scalar.indexCast arg0
  let arg1 : BitVec 32 := BitVec.ofNat 32 (i 1).val
  let c128_i32 : BitVec 32 := 128#32
  let v0 : BitVec 32 := Scalar.muli arg1 c128_i32
  let c64_i32 : BitVec 32 := 64#32
  let v1468 : BitVec 32 := Scalar.addi v0 c64_i32
  let v1470 : Index := Scalar.indexCast v1468
  ![v1469.toNat, v1470.toNat]
def k1_off130 (v1471 : BitVec 32) : Fin 2 → Nat :=
  let c0_i32_834 : BitVec 32 := 0#32
  ![v1471.toNat, 0]

def k1_chk65 (v1471 : BitVec 32) : Prop :=
  (∀ a, (k1_off130 v1471) a + S1x8192.size a ≤ S8192x8192.size a)
instance k1_chk65.dec : ∀ (v1471 : BitVec 32), Decidable (k1_chk65 v1471) := fun v1471 => decidable_of_iff' _ (Iff.of_eq (k1_chk65.eq_1 v1471))
theorem k1_off130_inb : ∀ (v1471 : BitVec 32) (k1_hw65 : k1_chk65 v1471), ∀ a, (k1_off130 v1471) a + S1x8192.size a ≤ S8192x8192.size a := fun v1471 k1_hw65 => k1_hw65

def k1_off131 (i : grid1.Coords) : Fin 2 → Nat :=
  let arg0 : BitVec 32 := BitVec.ofNat 32 (i 0).val
  let v1492 : Index := Scalar.indexCast arg0
  let arg1 : BitVec 32 := BitVec.ofNat 32 (i 1).val
  let c128_i32 : BitVec 32 := 128#32
  let v0 : BitVec 32 := Scalar.muli arg1 c128_i32
  let c65_i32 : BitVec 32 := 65#32
  let v1491 : BitVec 32 := Scalar.addi v0 c65_i32
  let v1493 : Index := Scalar.indexCast v1491
  ![v1492.toNat, v1493.toNat]
def k1_off132 (v1494 : BitVec 32) : Fin 2 → Nat :=
  let c0_i32_847 : BitVec 32 := 0#32
  ![v1494.toNat, 0]

def k1_chk66 (v1494 : BitVec 32) : Prop :=
  (∀ a, (k1_off132 v1494) a + S1x8192.size a ≤ S8192x8192.size a)
instance k1_chk66.dec : ∀ (v1494 : BitVec 32), Decidable (k1_chk66 v1494) := fun v1494 => decidable_of_iff' _ (Iff.of_eq (k1_chk66.eq_1 v1494))
theorem k1_off132_inb : ∀ (v1494 : BitVec 32) (k1_hw66 : k1_chk66 v1494), ∀ a, (k1_off132 v1494) a + S1x8192.size a ≤ S8192x8192.size a := fun v1494 k1_hw66 => k1_hw66

def k1_off133 (i : grid1.Coords) : Fin 2 → Nat :=
  let arg0 : BitVec 32 := BitVec.ofNat 32 (i 0).val
  let v1515 : Index := Scalar.indexCast arg0
  let arg1 : BitVec 32 := BitVec.ofNat 32 (i 1).val
  let c128_i32 : BitVec 32 := 128#32
  let v0 : BitVec 32 := Scalar.muli arg1 c128_i32
  let c66_i32 : BitVec 32 := 66#32
  let v1514 : BitVec 32 := Scalar.addi v0 c66_i32
  let v1516 : Index := Scalar.indexCast v1514
  ![v1515.toNat, v1516.toNat]
def k1_off134 (v1517 : BitVec 32) : Fin 2 → Nat :=
  let c0_i32_860 : BitVec 32 := 0#32
  ![v1517.toNat, 0]

def k1_chk67 (v1517 : BitVec 32) : Prop :=
  (∀ a, (k1_off134 v1517) a + S1x8192.size a ≤ S8192x8192.size a)
instance k1_chk67.dec : ∀ (v1517 : BitVec 32), Decidable (k1_chk67 v1517) := fun v1517 => decidable_of_iff' _ (Iff.of_eq (k1_chk67.eq_1 v1517))
theorem k1_off134_inb : ∀ (v1517 : BitVec 32) (k1_hw67 : k1_chk67 v1517), ∀ a, (k1_off134 v1517) a + S1x8192.size a ≤ S8192x8192.size a := fun v1517 k1_hw67 => k1_hw67

def k1_off135 (i : grid1.Coords) : Fin 2 → Nat :=
  let arg0 : BitVec 32 := BitVec.ofNat 32 (i 0).val
  let v1538 : Index := Scalar.indexCast arg0
  let arg1 : BitVec 32 := BitVec.ofNat 32 (i 1).val
  let c128_i32 : BitVec 32 := 128#32
  let v0 : BitVec 32 := Scalar.muli arg1 c128_i32
  let c67_i32 : BitVec 32 := 67#32
  let v1537 : BitVec 32 := Scalar.addi v0 c67_i32
  let v1539 : Index := Scalar.indexCast v1537
  ![v1538.toNat, v1539.toNat]
def k1_off136 (v1540 : BitVec 32) : Fin 2 → Nat :=
  let c0_i32_873 : BitVec 32 := 0#32
  ![v1540.toNat, 0]

def k1_chk68 (v1540 : BitVec 32) : Prop :=
  (∀ a, (k1_off136 v1540) a + S1x8192.size a ≤ S8192x8192.size a)
instance k1_chk68.dec : ∀ (v1540 : BitVec 32), Decidable (k1_chk68 v1540) := fun v1540 => decidable_of_iff' _ (Iff.of_eq (k1_chk68.eq_1 v1540))
theorem k1_off136_inb : ∀ (v1540 : BitVec 32) (k1_hw68 : k1_chk68 v1540), ∀ a, (k1_off136 v1540) a + S1x8192.size a ≤ S8192x8192.size a := fun v1540 k1_hw68 => k1_hw68

def k1_off137 (i : grid1.Coords) : Fin 2 → Nat :=
  let arg0 : BitVec 32 := BitVec.ofNat 32 (i 0).val
  let v1561 : Index := Scalar.indexCast arg0
  let arg1 : BitVec 32 := BitVec.ofNat 32 (i 1).val
  let c128_i32 : BitVec 32 := 128#32
  let v0 : BitVec 32 := Scalar.muli arg1 c128_i32
  let c68_i32 : BitVec 32 := 68#32
  let v1560 : BitVec 32 := Scalar.addi v0 c68_i32
  let v1562 : Index := Scalar.indexCast v1560
  ![v1561.toNat, v1562.toNat]
def k1_off138 (v1563 : BitVec 32) : Fin 2 → Nat :=
  let c0_i32_886 : BitVec 32 := 0#32
  ![v1563.toNat, 0]

def k1_chk69 (v1563 : BitVec 32) : Prop :=
  (∀ a, (k1_off138 v1563) a + S1x8192.size a ≤ S8192x8192.size a)
instance k1_chk69.dec : ∀ (v1563 : BitVec 32), Decidable (k1_chk69 v1563) := fun v1563 => decidable_of_iff' _ (Iff.of_eq (k1_chk69.eq_1 v1563))
theorem k1_off138_inb : ∀ (v1563 : BitVec 32) (k1_hw69 : k1_chk69 v1563), ∀ a, (k1_off138 v1563) a + S1x8192.size a ≤ S8192x8192.size a := fun v1563 k1_hw69 => k1_hw69

def k1_off139 (i : grid1.Coords) : Fin 2 → Nat :=
  let arg0 : BitVec 32 := BitVec.ofNat 32 (i 0).val
  let v1584 : Index := Scalar.indexCast arg0
  let arg1 : BitVec 32 := BitVec.ofNat 32 (i 1).val
  let c128_i32 : BitVec 32 := 128#32
  let v0 : BitVec 32 := Scalar.muli arg1 c128_i32
  let c69_i32 : BitVec 32 := 69#32
  let v1583 : BitVec 32 := Scalar.addi v0 c69_i32
  let v1585 : Index := Scalar.indexCast v1583
  ![v1584.toNat, v1585.toNat]
def k1_off140 (v1586 : BitVec 32) : Fin 2 → Nat :=
  let c0_i32_899 : BitVec 32 := 0#32
  ![v1586.toNat, 0]

def k1_chk70 (v1586 : BitVec 32) : Prop :=
  (∀ a, (k1_off140 v1586) a + S1x8192.size a ≤ S8192x8192.size a)
instance k1_chk70.dec : ∀ (v1586 : BitVec 32), Decidable (k1_chk70 v1586) := fun v1586 => decidable_of_iff' _ (Iff.of_eq (k1_chk70.eq_1 v1586))
theorem k1_off140_inb : ∀ (v1586 : BitVec 32) (k1_hw70 : k1_chk70 v1586), ∀ a, (k1_off140 v1586) a + S1x8192.size a ≤ S8192x8192.size a := fun v1586 k1_hw70 => k1_hw70

def k1_off141 (i : grid1.Coords) : Fin 2 → Nat :=
  let arg0 : BitVec 32 := BitVec.ofNat 32 (i 0).val
  let v1607 : Index := Scalar.indexCast arg0
  let arg1 : BitVec 32 := BitVec.ofNat 32 (i 1).val
  let c128_i32 : BitVec 32 := 128#32
  let v0 : BitVec 32 := Scalar.muli arg1 c128_i32
  let c70_i32 : BitVec 32 := 70#32
  let v1606 : BitVec 32 := Scalar.addi v0 c70_i32
  let v1608 : Index := Scalar.indexCast v1606
  ![v1607.toNat, v1608.toNat]
def k1_off142 (v1609 : BitVec 32) : Fin 2 → Nat :=
  let c0_i32_912 : BitVec 32 := 0#32
  ![v1609.toNat, 0]

def k1_chk71 (v1609 : BitVec 32) : Prop :=
  (∀ a, (k1_off142 v1609) a + S1x8192.size a ≤ S8192x8192.size a)
instance k1_chk71.dec : ∀ (v1609 : BitVec 32), Decidable (k1_chk71 v1609) := fun v1609 => decidable_of_iff' _ (Iff.of_eq (k1_chk71.eq_1 v1609))
theorem k1_off142_inb : ∀ (v1609 : BitVec 32) (k1_hw71 : k1_chk71 v1609), ∀ a, (k1_off142 v1609) a + S1x8192.size a ≤ S8192x8192.size a := fun v1609 k1_hw71 => k1_hw71

def k1_off143 (i : grid1.Coords) : Fin 2 → Nat :=
  let arg0 : BitVec 32 := BitVec.ofNat 32 (i 0).val
  let v1630 : Index := Scalar.indexCast arg0
  let arg1 : BitVec 32 := BitVec.ofNat 32 (i 1).val
  let c128_i32 : BitVec 32 := 128#32
  let v0 : BitVec 32 := Scalar.muli arg1 c128_i32
  let c71_i32 : BitVec 32 := 71#32
  let v1629 : BitVec 32 := Scalar.addi v0 c71_i32
  let v1631 : Index := Scalar.indexCast v1629
  ![v1630.toNat, v1631.toNat]
def k1_off144 (v1632 : BitVec 32) : Fin 2 → Nat :=
  let c0_i32_925 : BitVec 32 := 0#32
  ![v1632.toNat, 0]

def k1_chk72 (v1632 : BitVec 32) : Prop :=
  (∀ a, (k1_off144 v1632) a + S1x8192.size a ≤ S8192x8192.size a)
instance k1_chk72.dec : ∀ (v1632 : BitVec 32), Decidable (k1_chk72 v1632) := fun v1632 => decidable_of_iff' _ (Iff.of_eq (k1_chk72.eq_1 v1632))
theorem k1_off144_inb : ∀ (v1632 : BitVec 32) (k1_hw72 : k1_chk72 v1632), ∀ a, (k1_off144 v1632) a + S1x8192.size a ≤ S8192x8192.size a := fun v1632 k1_hw72 => k1_hw72

def k1_off145 (i : grid1.Coords) : Fin 2 → Nat :=
  let arg0 : BitVec 32 := BitVec.ofNat 32 (i 0).val
  let v1653 : Index := Scalar.indexCast arg0
  let arg1 : BitVec 32 := BitVec.ofNat 32 (i 1).val
  let c128_i32 : BitVec 32 := 128#32
  let v0 : BitVec 32 := Scalar.muli arg1 c128_i32
  let c72_i32 : BitVec 32 := 72#32
  let v1652 : BitVec 32 := Scalar.addi v0 c72_i32
  let v1654 : Index := Scalar.indexCast v1652
  ![v1653.toNat, v1654.toNat]
def k1_off146 (v1655 : BitVec 32) : Fin 2 → Nat :=
  let c0_i32_938 : BitVec 32 := 0#32
  ![v1655.toNat, 0]

def k1_chk73 (v1655 : BitVec 32) : Prop :=
  (∀ a, (k1_off146 v1655) a + S1x8192.size a ≤ S8192x8192.size a)
instance k1_chk73.dec : ∀ (v1655 : BitVec 32), Decidable (k1_chk73 v1655) := fun v1655 => decidable_of_iff' _ (Iff.of_eq (k1_chk73.eq_1 v1655))
theorem k1_off146_inb : ∀ (v1655 : BitVec 32) (k1_hw73 : k1_chk73 v1655), ∀ a, (k1_off146 v1655) a + S1x8192.size a ≤ S8192x8192.size a := fun v1655 k1_hw73 => k1_hw73

def k1_off147 (i : grid1.Coords) : Fin 2 → Nat :=
  let arg0 : BitVec 32 := BitVec.ofNat 32 (i 0).val
  let v1676 : Index := Scalar.indexCast arg0
  let arg1 : BitVec 32 := BitVec.ofNat 32 (i 1).val
  let c128_i32 : BitVec 32 := 128#32
  let v0 : BitVec 32 := Scalar.muli arg1 c128_i32
  let c73_i32 : BitVec 32 := 73#32
  let v1675 : BitVec 32 := Scalar.addi v0 c73_i32
  let v1677 : Index := Scalar.indexCast v1675
  ![v1676.toNat, v1677.toNat]
def k1_off148 (v1678 : BitVec 32) : Fin 2 → Nat :=
  let c0_i32_951 : BitVec 32 := 0#32
  ![v1678.toNat, 0]

def k1_chk74 (v1678 : BitVec 32) : Prop :=
  (∀ a, (k1_off148 v1678) a + S1x8192.size a ≤ S8192x8192.size a)
instance k1_chk74.dec : ∀ (v1678 : BitVec 32), Decidable (k1_chk74 v1678) := fun v1678 => decidable_of_iff' _ (Iff.of_eq (k1_chk74.eq_1 v1678))
theorem k1_off148_inb : ∀ (v1678 : BitVec 32) (k1_hw74 : k1_chk74 v1678), ∀ a, (k1_off148 v1678) a + S1x8192.size a ≤ S8192x8192.size a := fun v1678 k1_hw74 => k1_hw74

def k1_off149 (i : grid1.Coords) : Fin 2 → Nat :=
  let arg0 : BitVec 32 := BitVec.ofNat 32 (i 0).val
  let v1699 : Index := Scalar.indexCast arg0
  let arg1 : BitVec 32 := BitVec.ofNat 32 (i 1).val
  let c128_i32 : BitVec 32 := 128#32
  let v0 : BitVec 32 := Scalar.muli arg1 c128_i32
  let c74_i32 : BitVec 32 := 74#32
  let v1698 : BitVec 32 := Scalar.addi v0 c74_i32
  let v1700 : Index := Scalar.indexCast v1698
  ![v1699.toNat, v1700.toNat]
def k1_off150 (v1701 : BitVec 32) : Fin 2 → Nat :=
  let c0_i32_964 : BitVec 32 := 0#32
  ![v1701.toNat, 0]

def k1_chk75 (v1701 : BitVec 32) : Prop :=
  (∀ a, (k1_off150 v1701) a + S1x8192.size a ≤ S8192x8192.size a)
instance k1_chk75.dec : ∀ (v1701 : BitVec 32), Decidable (k1_chk75 v1701) := fun v1701 => decidable_of_iff' _ (Iff.of_eq (k1_chk75.eq_1 v1701))
theorem k1_off150_inb : ∀ (v1701 : BitVec 32) (k1_hw75 : k1_chk75 v1701), ∀ a, (k1_off150 v1701) a + S1x8192.size a ≤ S8192x8192.size a := fun v1701 k1_hw75 => k1_hw75

def k1_off151 (i : grid1.Coords) : Fin 2 → Nat :=
  let arg0 : BitVec 32 := BitVec.ofNat 32 (i 0).val
  let v1722 : Index := Scalar.indexCast arg0
  let arg1 : BitVec 32 := BitVec.ofNat 32 (i 1).val
  let c128_i32 : BitVec 32 := 128#32
  let v0 : BitVec 32 := Scalar.muli arg1 c128_i32
  let c75_i32 : BitVec 32 := 75#32
  let v1721 : BitVec 32 := Scalar.addi v0 c75_i32
  let v1723 : Index := Scalar.indexCast v1721
  ![v1722.toNat, v1723.toNat]
def k1_off152 (v1724 : BitVec 32) : Fin 2 → Nat :=
  let c0_i32_977 : BitVec 32 := 0#32
  ![v1724.toNat, 0]

def k1_chk76 (v1724 : BitVec 32) : Prop :=
  (∀ a, (k1_off152 v1724) a + S1x8192.size a ≤ S8192x8192.size a)
instance k1_chk76.dec : ∀ (v1724 : BitVec 32), Decidable (k1_chk76 v1724) := fun v1724 => decidable_of_iff' _ (Iff.of_eq (k1_chk76.eq_1 v1724))
theorem k1_off152_inb : ∀ (v1724 : BitVec 32) (k1_hw76 : k1_chk76 v1724), ∀ a, (k1_off152 v1724) a + S1x8192.size a ≤ S8192x8192.size a := fun v1724 k1_hw76 => k1_hw76

def k1_off153 (i : grid1.Coords) : Fin 2 → Nat :=
  let arg0 : BitVec 32 := BitVec.ofNat 32 (i 0).val
  let v1745 : Index := Scalar.indexCast arg0
  let arg1 : BitVec 32 := BitVec.ofNat 32 (i 1).val
  let c128_i32 : BitVec 32 := 128#32
  let v0 : BitVec 32 := Scalar.muli arg1 c128_i32
  let c76_i32 : BitVec 32 := 76#32
  let v1744 : BitVec 32 := Scalar.addi v0 c76_i32
  let v1746 : Index := Scalar.indexCast v1744
  ![v1745.toNat, v1746.toNat]
def k1_off154 (v1747 : BitVec 32) : Fin 2 → Nat :=
  let c0_i32_990 : BitVec 32 := 0#32
  ![v1747.toNat, 0]

def k1_chk77 (v1747 : BitVec 32) : Prop :=
  (∀ a, (k1_off154 v1747) a + S1x8192.size a ≤ S8192x8192.size a)
instance k1_chk77.dec : ∀ (v1747 : BitVec 32), Decidable (k1_chk77 v1747) := fun v1747 => decidable_of_iff' _ (Iff.of_eq (k1_chk77.eq_1 v1747))
theorem k1_off154_inb : ∀ (v1747 : BitVec 32) (k1_hw77 : k1_chk77 v1747), ∀ a, (k1_off154 v1747) a + S1x8192.size a ≤ S8192x8192.size a := fun v1747 k1_hw77 => k1_hw77

def k1_off155 (i : grid1.Coords) : Fin 2 → Nat :=
  let arg0 : BitVec 32 := BitVec.ofNat 32 (i 0).val
  let v1768 : Index := Scalar.indexCast arg0
  let arg1 : BitVec 32 := BitVec.ofNat 32 (i 1).val
  let c128_i32 : BitVec 32 := 128#32
  let v0 : BitVec 32 := Scalar.muli arg1 c128_i32
  let c77_i32 : BitVec 32 := 77#32
  let v1767 : BitVec 32 := Scalar.addi v0 c77_i32
  let v1769 : Index := Scalar.indexCast v1767
  ![v1768.toNat, v1769.toNat]
def k1_off156 (v1770 : BitVec 32) : Fin 2 → Nat :=
  let c0_i32_1003 : BitVec 32 := 0#32
  ![v1770.toNat, 0]

def k1_chk78 (v1770 : BitVec 32) : Prop :=
  (∀ a, (k1_off156 v1770) a + S1x8192.size a ≤ S8192x8192.size a)
instance k1_chk78.dec : ∀ (v1770 : BitVec 32), Decidable (k1_chk78 v1770) := fun v1770 => decidable_of_iff' _ (Iff.of_eq (k1_chk78.eq_1 v1770))
theorem k1_off156_inb : ∀ (v1770 : BitVec 32) (k1_hw78 : k1_chk78 v1770), ∀ a, (k1_off156 v1770) a + S1x8192.size a ≤ S8192x8192.size a := fun v1770 k1_hw78 => k1_hw78

def k1_off157 (i : grid1.Coords) : Fin 2 → Nat :=
  let arg0 : BitVec 32 := BitVec.ofNat 32 (i 0).val
  let v1791 : Index := Scalar.indexCast arg0
  let arg1 : BitVec 32 := BitVec.ofNat 32 (i 1).val
  let c128_i32 : BitVec 32 := 128#32
  let v0 : BitVec 32 := Scalar.muli arg1 c128_i32
  let c78_i32 : BitVec 32 := 78#32
  let v1790 : BitVec 32 := Scalar.addi v0 c78_i32
  let v1792 : Index := Scalar.indexCast v1790
  ![v1791.toNat, v1792.toNat]
def k1_off158 (v1793 : BitVec 32) : Fin 2 → Nat :=
  let c0_i32_1016 : BitVec 32 := 0#32
  ![v1793.toNat, 0]

def k1_chk79 (v1793 : BitVec 32) : Prop :=
  (∀ a, (k1_off158 v1793) a + S1x8192.size a ≤ S8192x8192.size a)
instance k1_chk79.dec : ∀ (v1793 : BitVec 32), Decidable (k1_chk79 v1793) := fun v1793 => decidable_of_iff' _ (Iff.of_eq (k1_chk79.eq_1 v1793))
theorem k1_off158_inb : ∀ (v1793 : BitVec 32) (k1_hw79 : k1_chk79 v1793), ∀ a, (k1_off158 v1793) a + S1x8192.size a ≤ S8192x8192.size a := fun v1793 k1_hw79 => k1_hw79

def k1_off159 (i : grid1.Coords) : Fin 2 → Nat :=
  let arg0 : BitVec 32 := BitVec.ofNat 32 (i 0).val
  let v1814 : Index := Scalar.indexCast arg0
  let arg1 : BitVec 32 := BitVec.ofNat 32 (i 1).val
  let c128_i32 : BitVec 32 := 128#32
  let v0 : BitVec 32 := Scalar.muli arg1 c128_i32
  let c79_i32 : BitVec 32 := 79#32
  let v1813 : BitVec 32 := Scalar.addi v0 c79_i32
  let v1815 : Index := Scalar.indexCast v1813
  ![v1814.toNat, v1815.toNat]
def k1_off160 (v1816 : BitVec 32) : Fin 2 → Nat :=
  let c0_i32_1029 : BitVec 32 := 0#32
  ![v1816.toNat, 0]

def k1_chk80 (v1816 : BitVec 32) : Prop :=
  (∀ a, (k1_off160 v1816) a + S1x8192.size a ≤ S8192x8192.size a)
instance k1_chk80.dec : ∀ (v1816 : BitVec 32), Decidable (k1_chk80 v1816) := fun v1816 => decidable_of_iff' _ (Iff.of_eq (k1_chk80.eq_1 v1816))
theorem k1_off160_inb : ∀ (v1816 : BitVec 32) (k1_hw80 : k1_chk80 v1816), ∀ a, (k1_off160 v1816) a + S1x8192.size a ≤ S8192x8192.size a := fun v1816 k1_hw80 => k1_hw80

def k1_off161 (i : grid1.Coords) : Fin 2 → Nat :=
  let arg0 : BitVec 32 := BitVec.ofNat 32 (i 0).val
  let v1837 : Index := Scalar.indexCast arg0
  let arg1 : BitVec 32 := BitVec.ofNat 32 (i 1).val
  let c128_i32 : BitVec 32 := 128#32
  let v0 : BitVec 32 := Scalar.muli arg1 c128_i32
  let c80_i32 : BitVec 32 := 80#32
  let v1836 : BitVec 32 := Scalar.addi v0 c80_i32
  let v1838 : Index := Scalar.indexCast v1836
  ![v1837.toNat, v1838.toNat]
def k1_off162 (v1839 : BitVec 32) : Fin 2 → Nat :=
  let c0_i32_1042 : BitVec 32 := 0#32
  ![v1839.toNat, 0]

def k1_chk81 (v1839 : BitVec 32) : Prop :=
  (∀ a, (k1_off162 v1839) a + S1x8192.size a ≤ S8192x8192.size a)
instance k1_chk81.dec : ∀ (v1839 : BitVec 32), Decidable (k1_chk81 v1839) := fun v1839 => decidable_of_iff' _ (Iff.of_eq (k1_chk81.eq_1 v1839))
theorem k1_off162_inb : ∀ (v1839 : BitVec 32) (k1_hw81 : k1_chk81 v1839), ∀ a, (k1_off162 v1839) a + S1x8192.size a ≤ S8192x8192.size a := fun v1839 k1_hw81 => k1_hw81

def k1_off163 (i : grid1.Coords) : Fin 2 → Nat :=
  let arg0 : BitVec 32 := BitVec.ofNat 32 (i 0).val
  let v1860 : Index := Scalar.indexCast arg0
  let arg1 : BitVec 32 := BitVec.ofNat 32 (i 1).val
  let c128_i32 : BitVec 32 := 128#32
  let v0 : BitVec 32 := Scalar.muli arg1 c128_i32
  let c81_i32 : BitVec 32 := 81#32
  let v1859 : BitVec 32 := Scalar.addi v0 c81_i32
  let v1861 : Index := Scalar.indexCast v1859
  ![v1860.toNat, v1861.toNat]
def k1_off164 (v1862 : BitVec 32) : Fin 2 → Nat :=
  let c0_i32_1055 : BitVec 32 := 0#32
  ![v1862.toNat, 0]

def k1_chk82 (v1862 : BitVec 32) : Prop :=
  (∀ a, (k1_off164 v1862) a + S1x8192.size a ≤ S8192x8192.size a)
instance k1_chk82.dec : ∀ (v1862 : BitVec 32), Decidable (k1_chk82 v1862) := fun v1862 => decidable_of_iff' _ (Iff.of_eq (k1_chk82.eq_1 v1862))
theorem k1_off164_inb : ∀ (v1862 : BitVec 32) (k1_hw82 : k1_chk82 v1862), ∀ a, (k1_off164 v1862) a + S1x8192.size a ≤ S8192x8192.size a := fun v1862 k1_hw82 => k1_hw82

def k1_off165 (i : grid1.Coords) : Fin 2 → Nat :=
  let arg0 : BitVec 32 := BitVec.ofNat 32 (i 0).val
  let v1883 : Index := Scalar.indexCast arg0
  let arg1 : BitVec 32 := BitVec.ofNat 32 (i 1).val
  let c128_i32 : BitVec 32 := 128#32
  let v0 : BitVec 32 := Scalar.muli arg1 c128_i32
  let c82_i32 : BitVec 32 := 82#32
  let v1882 : BitVec 32 := Scalar.addi v0 c82_i32
  let v1884 : Index := Scalar.indexCast v1882
  ![v1883.toNat, v1884.toNat]
def k1_off166 (v1885 : BitVec 32) : Fin 2 → Nat :=
  let c0_i32_1068 : BitVec 32 := 0#32
  ![v1885.toNat, 0]

def k1_chk83 (v1885 : BitVec 32) : Prop :=
  (∀ a, (k1_off166 v1885) a + S1x8192.size a ≤ S8192x8192.size a)
instance k1_chk83.dec : ∀ (v1885 : BitVec 32), Decidable (k1_chk83 v1885) := fun v1885 => decidable_of_iff' _ (Iff.of_eq (k1_chk83.eq_1 v1885))
theorem k1_off166_inb : ∀ (v1885 : BitVec 32) (k1_hw83 : k1_chk83 v1885), ∀ a, (k1_off166 v1885) a + S1x8192.size a ≤ S8192x8192.size a := fun v1885 k1_hw83 => k1_hw83

def k1_off167 (i : grid1.Coords) : Fin 2 → Nat :=
  let arg0 : BitVec 32 := BitVec.ofNat 32 (i 0).val
  let v1906 : Index := Scalar.indexCast arg0
  let arg1 : BitVec 32 := BitVec.ofNat 32 (i 1).val
  let c128_i32 : BitVec 32 := 128#32
  let v0 : BitVec 32 := Scalar.muli arg1 c128_i32
  let c83_i32 : BitVec 32 := 83#32
  let v1905 : BitVec 32 := Scalar.addi v0 c83_i32
  let v1907 : Index := Scalar.indexCast v1905
  ![v1906.toNat, v1907.toNat]
def k1_off168 (v1908 : BitVec 32) : Fin 2 → Nat :=
  let c0_i32_1081 : BitVec 32 := 0#32
  ![v1908.toNat, 0]

def k1_chk84 (v1908 : BitVec 32) : Prop :=
  (∀ a, (k1_off168 v1908) a + S1x8192.size a ≤ S8192x8192.size a)
instance k1_chk84.dec : ∀ (v1908 : BitVec 32), Decidable (k1_chk84 v1908) := fun v1908 => decidable_of_iff' _ (Iff.of_eq (k1_chk84.eq_1 v1908))
theorem k1_off168_inb : ∀ (v1908 : BitVec 32) (k1_hw84 : k1_chk84 v1908), ∀ a, (k1_off168 v1908) a + S1x8192.size a ≤ S8192x8192.size a := fun v1908 k1_hw84 => k1_hw84

def k1_off169 (i : grid1.Coords) : Fin 2 → Nat :=
  let arg0 : BitVec 32 := BitVec.ofNat 32 (i 0).val
  let v1929 : Index := Scalar.indexCast arg0
  let arg1 : BitVec 32 := BitVec.ofNat 32 (i 1).val
  let c128_i32 : BitVec 32 := 128#32
  let v0 : BitVec 32 := Scalar.muli arg1 c128_i32
  let c84_i32 : BitVec 32 := 84#32
  let v1928 : BitVec 32 := Scalar.addi v0 c84_i32
  let v1930 : Index := Scalar.indexCast v1928
  ![v1929.toNat, v1930.toNat]
def k1_off170 (v1931 : BitVec 32) : Fin 2 → Nat :=
  let c0_i32_1094 : BitVec 32 := 0#32
  ![v1931.toNat, 0]

def k1_chk85 (v1931 : BitVec 32) : Prop :=
  (∀ a, (k1_off170 v1931) a + S1x8192.size a ≤ S8192x8192.size a)
instance k1_chk85.dec : ∀ (v1931 : BitVec 32), Decidable (k1_chk85 v1931) := fun v1931 => decidable_of_iff' _ (Iff.of_eq (k1_chk85.eq_1 v1931))
theorem k1_off170_inb : ∀ (v1931 : BitVec 32) (k1_hw85 : k1_chk85 v1931), ∀ a, (k1_off170 v1931) a + S1x8192.size a ≤ S8192x8192.size a := fun v1931 k1_hw85 => k1_hw85

def k1_off171 (i : grid1.Coords) : Fin 2 → Nat :=
  let arg0 : BitVec 32 := BitVec.ofNat 32 (i 0).val
  let v1952 : Index := Scalar.indexCast arg0
  let arg1 : BitVec 32 := BitVec.ofNat 32 (i 1).val
  let c128_i32 : BitVec 32 := 128#32
  let v0 : BitVec 32 := Scalar.muli arg1 c128_i32
  let c85_i32 : BitVec 32 := 85#32
  let v1951 : BitVec 32 := Scalar.addi v0 c85_i32
  let v1953 : Index := Scalar.indexCast v1951
  ![v1952.toNat, v1953.toNat]
def k1_off172 (v1954 : BitVec 32) : Fin 2 → Nat :=
  let c0_i32_1107 : BitVec 32 := 0#32
  ![v1954.toNat, 0]

def k1_chk86 (v1954 : BitVec 32) : Prop :=
  (∀ a, (k1_off172 v1954) a + S1x8192.size a ≤ S8192x8192.size a)
instance k1_chk86.dec : ∀ (v1954 : BitVec 32), Decidable (k1_chk86 v1954) := fun v1954 => decidable_of_iff' _ (Iff.of_eq (k1_chk86.eq_1 v1954))
theorem k1_off172_inb : ∀ (v1954 : BitVec 32) (k1_hw86 : k1_chk86 v1954), ∀ a, (k1_off172 v1954) a + S1x8192.size a ≤ S8192x8192.size a := fun v1954 k1_hw86 => k1_hw86

def k1_off173 (i : grid1.Coords) : Fin 2 → Nat :=
  let arg0 : BitVec 32 := BitVec.ofNat 32 (i 0).val
  let v1975 : Index := Scalar.indexCast arg0
  let arg1 : BitVec 32 := BitVec.ofNat 32 (i 1).val
  let c128_i32 : BitVec 32 := 128#32
  let v0 : BitVec 32 := Scalar.muli arg1 c128_i32
  let c86_i32 : BitVec 32 := 86#32
  let v1974 : BitVec 32 := Scalar.addi v0 c86_i32
  let v1976 : Index := Scalar.indexCast v1974
  ![v1975.toNat, v1976.toNat]
def k1_off174 (v1977 : BitVec 32) : Fin 2 → Nat :=
  let c0_i32_1120 : BitVec 32 := 0#32
  ![v1977.toNat, 0]

def k1_chk87 (v1977 : BitVec 32) : Prop :=
  (∀ a, (k1_off174 v1977) a + S1x8192.size a ≤ S8192x8192.size a)
instance k1_chk87.dec : ∀ (v1977 : BitVec 32), Decidable (k1_chk87 v1977) := fun v1977 => decidable_of_iff' _ (Iff.of_eq (k1_chk87.eq_1 v1977))
theorem k1_off174_inb : ∀ (v1977 : BitVec 32) (k1_hw87 : k1_chk87 v1977), ∀ a, (k1_off174 v1977) a + S1x8192.size a ≤ S8192x8192.size a := fun v1977 k1_hw87 => k1_hw87

def k1_off175 (i : grid1.Coords) : Fin 2 → Nat :=
  let arg0 : BitVec 32 := BitVec.ofNat 32 (i 0).val
  let v1998 : Index := Scalar.indexCast arg0
  let arg1 : BitVec 32 := BitVec.ofNat 32 (i 1).val
  let c128_i32 : BitVec 32 := 128#32
  let v0 : BitVec 32 := Scalar.muli arg1 c128_i32
  let c87_i32 : BitVec 32 := 87#32
  let v1997 : BitVec 32 := Scalar.addi v0 c87_i32
  let v1999 : Index := Scalar.indexCast v1997
  ![v1998.toNat, v1999.toNat]
def k1_off176 (v2000 : BitVec 32) : Fin 2 → Nat :=
  let c0_i32_1133 : BitVec 32 := 0#32
  ![v2000.toNat, 0]

def k1_chk88 (v2000 : BitVec 32) : Prop :=
  (∀ a, (k1_off176 v2000) a + S1x8192.size a ≤ S8192x8192.size a)
instance k1_chk88.dec : ∀ (v2000 : BitVec 32), Decidable (k1_chk88 v2000) := fun v2000 => decidable_of_iff' _ (Iff.of_eq (k1_chk88.eq_1 v2000))
theorem k1_off176_inb : ∀ (v2000 : BitVec 32) (k1_hw88 : k1_chk88 v2000), ∀ a, (k1_off176 v2000) a + S1x8192.size a ≤ S8192x8192.size a := fun v2000 k1_hw88 => k1_hw88

def k1_off177 (i : grid1.Coords) : Fin 2 → Nat :=
  let arg0 : BitVec 32 := BitVec.ofNat 32 (i 0).val
  let v2021 : Index := Scalar.indexCast arg0
  let arg1 : BitVec 32 := BitVec.ofNat 32 (i 1).val
  let c128_i32 : BitVec 32 := 128#32
  let v0 : BitVec 32 := Scalar.muli arg1 c128_i32
  let c88_i32 : BitVec 32 := 88#32
  let v2020 : BitVec 32 := Scalar.addi v0 c88_i32
  let v2022 : Index := Scalar.indexCast v2020
  ![v2021.toNat, v2022.toNat]
def k1_off178 (v2023 : BitVec 32) : Fin 2 → Nat :=
  let c0_i32_1146 : BitVec 32 := 0#32
  ![v2023.toNat, 0]

def k1_chk89 (v2023 : BitVec 32) : Prop :=
  (∀ a, (k1_off178 v2023) a + S1x8192.size a ≤ S8192x8192.size a)
instance k1_chk89.dec : ∀ (v2023 : BitVec 32), Decidable (k1_chk89 v2023) := fun v2023 => decidable_of_iff' _ (Iff.of_eq (k1_chk89.eq_1 v2023))
theorem k1_off178_inb : ∀ (v2023 : BitVec 32) (k1_hw89 : k1_chk89 v2023), ∀ a, (k1_off178 v2023) a + S1x8192.size a ≤ S8192x8192.size a := fun v2023 k1_hw89 => k1_hw89

def k1_off179 (i : grid1.Coords) : Fin 2 → Nat :=
  let arg0 : BitVec 32 := BitVec.ofNat 32 (i 0).val
  let v2044 : Index := Scalar.indexCast arg0
  let arg1 : BitVec 32 := BitVec.ofNat 32 (i 1).val
  let c128_i32 : BitVec 32 := 128#32
  let v0 : BitVec 32 := Scalar.muli arg1 c128_i32
  let c89_i32 : BitVec 32 := 89#32
  let v2043 : BitVec 32 := Scalar.addi v0 c89_i32
  let v2045 : Index := Scalar.indexCast v2043
  ![v2044.toNat, v2045.toNat]
def k1_off180 (v2046 : BitVec 32) : Fin 2 → Nat :=
  let c0_i32_1159 : BitVec 32 := 0#32
  ![v2046.toNat, 0]

def k1_chk90 (v2046 : BitVec 32) : Prop :=
  (∀ a, (k1_off180 v2046) a + S1x8192.size a ≤ S8192x8192.size a)
instance k1_chk90.dec : ∀ (v2046 : BitVec 32), Decidable (k1_chk90 v2046) := fun v2046 => decidable_of_iff' _ (Iff.of_eq (k1_chk90.eq_1 v2046))
theorem k1_off180_inb : ∀ (v2046 : BitVec 32) (k1_hw90 : k1_chk90 v2046), ∀ a, (k1_off180 v2046) a + S1x8192.size a ≤ S8192x8192.size a := fun v2046 k1_hw90 => k1_hw90

def k1_off181 (i : grid1.Coords) : Fin 2 → Nat :=
  let arg0 : BitVec 32 := BitVec.ofNat 32 (i 0).val
  let v2067 : Index := Scalar.indexCast arg0
  let arg1 : BitVec 32 := BitVec.ofNat 32 (i 1).val
  let c128_i32 : BitVec 32 := 128#32
  let v0 : BitVec 32 := Scalar.muli arg1 c128_i32
  let c90_i32 : BitVec 32 := 90#32
  let v2066 : BitVec 32 := Scalar.addi v0 c90_i32
  let v2068 : Index := Scalar.indexCast v2066
  ![v2067.toNat, v2068.toNat]
def k1_off182 (v2069 : BitVec 32) : Fin 2 → Nat :=
  let c0_i32_1172 : BitVec 32 := 0#32
  ![v2069.toNat, 0]

def k1_chk91 (v2069 : BitVec 32) : Prop :=
  (∀ a, (k1_off182 v2069) a + S1x8192.size a ≤ S8192x8192.size a)
instance k1_chk91.dec : ∀ (v2069 : BitVec 32), Decidable (k1_chk91 v2069) := fun v2069 => decidable_of_iff' _ (Iff.of_eq (k1_chk91.eq_1 v2069))
theorem k1_off182_inb : ∀ (v2069 : BitVec 32) (k1_hw91 : k1_chk91 v2069), ∀ a, (k1_off182 v2069) a + S1x8192.size a ≤ S8192x8192.size a := fun v2069 k1_hw91 => k1_hw91

def k1_off183 (i : grid1.Coords) : Fin 2 → Nat :=
  let arg0 : BitVec 32 := BitVec.ofNat 32 (i 0).val
  let v2090 : Index := Scalar.indexCast arg0
  let arg1 : BitVec 32 := BitVec.ofNat 32 (i 1).val
  let c128_i32 : BitVec 32 := 128#32
  let v0 : BitVec 32 := Scalar.muli arg1 c128_i32
  let c91_i32 : BitVec 32 := 91#32
  let v2089 : BitVec 32 := Scalar.addi v0 c91_i32
  let v2091 : Index := Scalar.indexCast v2089
  ![v2090.toNat, v2091.toNat]
def k1_off184 (v2092 : BitVec 32) : Fin 2 → Nat :=
  let c0_i32_1185 : BitVec 32 := 0#32
  ![v2092.toNat, 0]

def k1_chk92 (v2092 : BitVec 32) : Prop :=
  (∀ a, (k1_off184 v2092) a + S1x8192.size a ≤ S8192x8192.size a)
instance k1_chk92.dec : ∀ (v2092 : BitVec 32), Decidable (k1_chk92 v2092) := fun v2092 => decidable_of_iff' _ (Iff.of_eq (k1_chk92.eq_1 v2092))
theorem k1_off184_inb : ∀ (v2092 : BitVec 32) (k1_hw92 : k1_chk92 v2092), ∀ a, (k1_off184 v2092) a + S1x8192.size a ≤ S8192x8192.size a := fun v2092 k1_hw92 => k1_hw92

def k1_off185 (i : grid1.Coords) : Fin 2 → Nat :=
  let arg0 : BitVec 32 := BitVec.ofNat 32 (i 0).val
  let v2113 : Index := Scalar.indexCast arg0
  let arg1 : BitVec 32 := BitVec.ofNat 32 (i 1).val
  let c128_i32 : BitVec 32 := 128#32
  let v0 : BitVec 32 := Scalar.muli arg1 c128_i32
  let c92_i32 : BitVec 32 := 92#32
  let v2112 : BitVec 32 := Scalar.addi v0 c92_i32
  let v2114 : Index := Scalar.indexCast v2112
  ![v2113.toNat, v2114.toNat]
def k1_off186 (v2115 : BitVec 32) : Fin 2 → Nat :=
  let c0_i32_1198 : BitVec 32 := 0#32
  ![v2115.toNat, 0]

def k1_chk93 (v2115 : BitVec 32) : Prop :=
  (∀ a, (k1_off186 v2115) a + S1x8192.size a ≤ S8192x8192.size a)
instance k1_chk93.dec : ∀ (v2115 : BitVec 32), Decidable (k1_chk93 v2115) := fun v2115 => decidable_of_iff' _ (Iff.of_eq (k1_chk93.eq_1 v2115))
theorem k1_off186_inb : ∀ (v2115 : BitVec 32) (k1_hw93 : k1_chk93 v2115), ∀ a, (k1_off186 v2115) a + S1x8192.size a ≤ S8192x8192.size a := fun v2115 k1_hw93 => k1_hw93

def k1_off187 (i : grid1.Coords) : Fin 2 → Nat :=
  let arg0 : BitVec 32 := BitVec.ofNat 32 (i 0).val
  let v2136 : Index := Scalar.indexCast arg0
  let arg1 : BitVec 32 := BitVec.ofNat 32 (i 1).val
  let c128_i32 : BitVec 32 := 128#32
  let v0 : BitVec 32 := Scalar.muli arg1 c128_i32
  let c93_i32 : BitVec 32 := 93#32
  let v2135 : BitVec 32 := Scalar.addi v0 c93_i32
  let v2137 : Index := Scalar.indexCast v2135
  ![v2136.toNat, v2137.toNat]
def k1_off188 (v2138 : BitVec 32) : Fin 2 → Nat :=
  let c0_i32_1211 : BitVec 32 := 0#32
  ![v2138.toNat, 0]

def k1_chk94 (v2138 : BitVec 32) : Prop :=
  (∀ a, (k1_off188 v2138) a + S1x8192.size a ≤ S8192x8192.size a)
instance k1_chk94.dec : ∀ (v2138 : BitVec 32), Decidable (k1_chk94 v2138) := fun v2138 => decidable_of_iff' _ (Iff.of_eq (k1_chk94.eq_1 v2138))
theorem k1_off188_inb : ∀ (v2138 : BitVec 32) (k1_hw94 : k1_chk94 v2138), ∀ a, (k1_off188 v2138) a + S1x8192.size a ≤ S8192x8192.size a := fun v2138 k1_hw94 => k1_hw94

def k1_off189 (i : grid1.Coords) : Fin 2 → Nat :=
  let arg0 : BitVec 32 := BitVec.ofNat 32 (i 0).val
  let v2159 : Index := Scalar.indexCast arg0
  let arg1 : BitVec 32 := BitVec.ofNat 32 (i 1).val
  let c128_i32 : BitVec 32 := 128#32
  let v0 : BitVec 32 := Scalar.muli arg1 c128_i32
  let c94_i32 : BitVec 32 := 94#32
  let v2158 : BitVec 32 := Scalar.addi v0 c94_i32
  let v2160 : Index := Scalar.indexCast v2158
  ![v2159.toNat, v2160.toNat]
def k1_off190 (v2161 : BitVec 32) : Fin 2 → Nat :=
  let c0_i32_1224 : BitVec 32 := 0#32
  ![v2161.toNat, 0]

def k1_chk95 (v2161 : BitVec 32) : Prop :=
  (∀ a, (k1_off190 v2161) a + S1x8192.size a ≤ S8192x8192.size a)
instance k1_chk95.dec : ∀ (v2161 : BitVec 32), Decidable (k1_chk95 v2161) := fun v2161 => decidable_of_iff' _ (Iff.of_eq (k1_chk95.eq_1 v2161))
theorem k1_off190_inb : ∀ (v2161 : BitVec 32) (k1_hw95 : k1_chk95 v2161), ∀ a, (k1_off190 v2161) a + S1x8192.size a ≤ S8192x8192.size a := fun v2161 k1_hw95 => k1_hw95

def k1_off191 (i : grid1.Coords) : Fin 2 → Nat :=
  let arg0 : BitVec 32 := BitVec.ofNat 32 (i 0).val
  let v2182 : Index := Scalar.indexCast arg0
  let arg1 : BitVec 32 := BitVec.ofNat 32 (i 1).val
  let c128_i32 : BitVec 32 := 128#32
  let v0 : BitVec 32 := Scalar.muli arg1 c128_i32
  let c95_i32 : BitVec 32 := 95#32
  let v2181 : BitVec 32 := Scalar.addi v0 c95_i32
  let v2183 : Index := Scalar.indexCast v2181
  ![v2182.toNat, v2183.toNat]
def k1_off192 (v2184 : BitVec 32) : Fin 2 → Nat :=
  let c0_i32_1237 : BitVec 32 := 0#32
  ![v2184.toNat, 0]

def k1_chk96 (v2184 : BitVec 32) : Prop :=
  (∀ a, (k1_off192 v2184) a + S1x8192.size a ≤ S8192x8192.size a)
instance k1_chk96.dec : ∀ (v2184 : BitVec 32), Decidable (k1_chk96 v2184) := fun v2184 => decidable_of_iff' _ (Iff.of_eq (k1_chk96.eq_1 v2184))
theorem k1_off192_inb : ∀ (v2184 : BitVec 32) (k1_hw96 : k1_chk96 v2184), ∀ a, (k1_off192 v2184) a + S1x8192.size a ≤ S8192x8192.size a := fun v2184 k1_hw96 => k1_hw96

def k1_off193 (i : grid1.Coords) : Fin 2 → Nat :=
  let arg0 : BitVec 32 := BitVec.ofNat 32 (i 0).val
  let v2205 : Index := Scalar.indexCast arg0
  let arg1 : BitVec 32 := BitVec.ofNat 32 (i 1).val
  let c128_i32 : BitVec 32 := 128#32
  let v0 : BitVec 32 := Scalar.muli arg1 c128_i32
  let c96_i32 : BitVec 32 := 96#32
  let v2204 : BitVec 32 := Scalar.addi v0 c96_i32
  let v2206 : Index := Scalar.indexCast v2204
  ![v2205.toNat, v2206.toNat]
def k1_off194 (v2207 : BitVec 32) : Fin 2 → Nat :=
  let c0_i32_1250 : BitVec 32 := 0#32
  ![v2207.toNat, 0]

def k1_chk97 (v2207 : BitVec 32) : Prop :=
  (∀ a, (k1_off194 v2207) a + S1x8192.size a ≤ S8192x8192.size a)
instance k1_chk97.dec : ∀ (v2207 : BitVec 32), Decidable (k1_chk97 v2207) := fun v2207 => decidable_of_iff' _ (Iff.of_eq (k1_chk97.eq_1 v2207))
theorem k1_off194_inb : ∀ (v2207 : BitVec 32) (k1_hw97 : k1_chk97 v2207), ∀ a, (k1_off194 v2207) a + S1x8192.size a ≤ S8192x8192.size a := fun v2207 k1_hw97 => k1_hw97

def k1_off195 (i : grid1.Coords) : Fin 2 → Nat :=
  let arg0 : BitVec 32 := BitVec.ofNat 32 (i 0).val
  let v2228 : Index := Scalar.indexCast arg0
  let arg1 : BitVec 32 := BitVec.ofNat 32 (i 1).val
  let c128_i32 : BitVec 32 := 128#32
  let v0 : BitVec 32 := Scalar.muli arg1 c128_i32
  let c97_i32 : BitVec 32 := 97#32
  let v2227 : BitVec 32 := Scalar.addi v0 c97_i32
  let v2229 : Index := Scalar.indexCast v2227
  ![v2228.toNat, v2229.toNat]
def k1_off196 (v2230 : BitVec 32) : Fin 2 → Nat :=
  let c0_i32_1263 : BitVec 32 := 0#32
  ![v2230.toNat, 0]

def k1_chk98 (v2230 : BitVec 32) : Prop :=
  (∀ a, (k1_off196 v2230) a + S1x8192.size a ≤ S8192x8192.size a)
instance k1_chk98.dec : ∀ (v2230 : BitVec 32), Decidable (k1_chk98 v2230) := fun v2230 => decidable_of_iff' _ (Iff.of_eq (k1_chk98.eq_1 v2230))
theorem k1_off196_inb : ∀ (v2230 : BitVec 32) (k1_hw98 : k1_chk98 v2230), ∀ a, (k1_off196 v2230) a + S1x8192.size a ≤ S8192x8192.size a := fun v2230 k1_hw98 => k1_hw98

def k1_off197 (i : grid1.Coords) : Fin 2 → Nat :=
  let arg0 : BitVec 32 := BitVec.ofNat 32 (i 0).val
  let v2251 : Index := Scalar.indexCast arg0
  let arg1 : BitVec 32 := BitVec.ofNat 32 (i 1).val
  let c128_i32 : BitVec 32 := 128#32
  let v0 : BitVec 32 := Scalar.muli arg1 c128_i32
  let c98_i32 : BitVec 32 := 98#32
  let v2250 : BitVec 32 := Scalar.addi v0 c98_i32
  let v2252 : Index := Scalar.indexCast v2250
  ![v2251.toNat, v2252.toNat]
def k1_off198 (v2253 : BitVec 32) : Fin 2 → Nat :=
  let c0_i32_1276 : BitVec 32 := 0#32
  ![v2253.toNat, 0]

def k1_chk99 (v2253 : BitVec 32) : Prop :=
  (∀ a, (k1_off198 v2253) a + S1x8192.size a ≤ S8192x8192.size a)
instance k1_chk99.dec : ∀ (v2253 : BitVec 32), Decidable (k1_chk99 v2253) := fun v2253 => decidable_of_iff' _ (Iff.of_eq (k1_chk99.eq_1 v2253))
theorem k1_off198_inb : ∀ (v2253 : BitVec 32) (k1_hw99 : k1_chk99 v2253), ∀ a, (k1_off198 v2253) a + S1x8192.size a ≤ S8192x8192.size a := fun v2253 k1_hw99 => k1_hw99

def k1_off199 (i : grid1.Coords) : Fin 2 → Nat :=
  let arg0 : BitVec 32 := BitVec.ofNat 32 (i 0).val
  let v2274 : Index := Scalar.indexCast arg0
  let arg1 : BitVec 32 := BitVec.ofNat 32 (i 1).val
  let c128_i32 : BitVec 32 := 128#32
  let v0 : BitVec 32 := Scalar.muli arg1 c128_i32
  let c99_i32 : BitVec 32 := 99#32
  let v2273 : BitVec 32 := Scalar.addi v0 c99_i32
  let v2275 : Index := Scalar.indexCast v2273
  ![v2274.toNat, v2275.toNat]
def k1_off200 (v2276 : BitVec 32) : Fin 2 → Nat :=
  let c0_i32_1289 : BitVec 32 := 0#32
  ![v2276.toNat, 0]

def k1_chk100 (v2276 : BitVec 32) : Prop :=
  (∀ a, (k1_off200 v2276) a + S1x8192.size a ≤ S8192x8192.size a)
instance k1_chk100.dec : ∀ (v2276 : BitVec 32), Decidable (k1_chk100 v2276) := fun v2276 => decidable_of_iff' _ (Iff.of_eq (k1_chk100.eq_1 v2276))
theorem k1_off200_inb : ∀ (v2276 : BitVec 32) (k1_hw100 : k1_chk100 v2276), ∀ a, (k1_off200 v2276) a + S1x8192.size a ≤ S8192x8192.size a := fun v2276 k1_hw100 => k1_hw100

def k1_off201 (i : grid1.Coords) : Fin 2 → Nat :=
  let arg0 : BitVec 32 := BitVec.ofNat 32 (i 0).val
  let v2297 : Index := Scalar.indexCast arg0
  let arg1 : BitVec 32 := BitVec.ofNat 32 (i 1).val
  let c128_i32 : BitVec 32 := 128#32
  let v0 : BitVec 32 := Scalar.muli arg1 c128_i32
  let c100_i32 : BitVec 32 := 100#32
  let v2296 : BitVec 32 := Scalar.addi v0 c100_i32
  let v2298 : Index := Scalar.indexCast v2296
  ![v2297.toNat, v2298.toNat]
def k1_off202 (v2299 : BitVec 32) : Fin 2 → Nat :=
  let c0_i32_1302 : BitVec 32 := 0#32
  ![v2299.toNat, 0]

def k1_chk101 (v2299 : BitVec 32) : Prop :=
  (∀ a, (k1_off202 v2299) a + S1x8192.size a ≤ S8192x8192.size a)
instance k1_chk101.dec : ∀ (v2299 : BitVec 32), Decidable (k1_chk101 v2299) := fun v2299 => decidable_of_iff' _ (Iff.of_eq (k1_chk101.eq_1 v2299))
theorem k1_off202_inb : ∀ (v2299 : BitVec 32) (k1_hw101 : k1_chk101 v2299), ∀ a, (k1_off202 v2299) a + S1x8192.size a ≤ S8192x8192.size a := fun v2299 k1_hw101 => k1_hw101

def k1_off203 (i : grid1.Coords) : Fin 2 → Nat :=
  let arg0 : BitVec 32 := BitVec.ofNat 32 (i 0).val
  let v2320 : Index := Scalar.indexCast arg0
  let arg1 : BitVec 32 := BitVec.ofNat 32 (i 1).val
  let c128_i32 : BitVec 32 := 128#32
  let v0 : BitVec 32 := Scalar.muli arg1 c128_i32
  let c101_i32 : BitVec 32 := 101#32
  let v2319 : BitVec 32 := Scalar.addi v0 c101_i32
  let v2321 : Index := Scalar.indexCast v2319
  ![v2320.toNat, v2321.toNat]
def k1_off204 (v2322 : BitVec 32) : Fin 2 → Nat :=
  let c0_i32_1315 : BitVec 32 := 0#32
  ![v2322.toNat, 0]

def k1_chk102 (v2322 : BitVec 32) : Prop :=
  (∀ a, (k1_off204 v2322) a + S1x8192.size a ≤ S8192x8192.size a)
instance k1_chk102.dec : ∀ (v2322 : BitVec 32), Decidable (k1_chk102 v2322) := fun v2322 => decidable_of_iff' _ (Iff.of_eq (k1_chk102.eq_1 v2322))
theorem k1_off204_inb : ∀ (v2322 : BitVec 32) (k1_hw102 : k1_chk102 v2322), ∀ a, (k1_off204 v2322) a + S1x8192.size a ≤ S8192x8192.size a := fun v2322 k1_hw102 => k1_hw102

def k1_off205 (i : grid1.Coords) : Fin 2 → Nat :=
  let arg0 : BitVec 32 := BitVec.ofNat 32 (i 0).val
  let v2343 : Index := Scalar.indexCast arg0
  let arg1 : BitVec 32 := BitVec.ofNat 32 (i 1).val
  let c128_i32 : BitVec 32 := 128#32
  let v0 : BitVec 32 := Scalar.muli arg1 c128_i32
  let c102_i32 : BitVec 32 := 102#32
  let v2342 : BitVec 32 := Scalar.addi v0 c102_i32
  let v2344 : Index := Scalar.indexCast v2342
  ![v2343.toNat, v2344.toNat]
def k1_off206 (v2345 : BitVec 32) : Fin 2 → Nat :=
  let c0_i32_1328 : BitVec 32 := 0#32
  ![v2345.toNat, 0]

def k1_chk103 (v2345 : BitVec 32) : Prop :=
  (∀ a, (k1_off206 v2345) a + S1x8192.size a ≤ S8192x8192.size a)
instance k1_chk103.dec : ∀ (v2345 : BitVec 32), Decidable (k1_chk103 v2345) := fun v2345 => decidable_of_iff' _ (Iff.of_eq (k1_chk103.eq_1 v2345))
theorem k1_off206_inb : ∀ (v2345 : BitVec 32) (k1_hw103 : k1_chk103 v2345), ∀ a, (k1_off206 v2345) a + S1x8192.size a ≤ S8192x8192.size a := fun v2345 k1_hw103 => k1_hw103

def k1_off207 (i : grid1.Coords) : Fin 2 → Nat :=
  let arg0 : BitVec 32 := BitVec.ofNat 32 (i 0).val
  let v2366 : Index := Scalar.indexCast arg0
  let arg1 : BitVec 32 := BitVec.ofNat 32 (i 1).val
  let c128_i32 : BitVec 32 := 128#32
  let v0 : BitVec 32 := Scalar.muli arg1 c128_i32
  let c103_i32 : BitVec 32 := 103#32
  let v2365 : BitVec 32 := Scalar.addi v0 c103_i32
  let v2367 : Index := Scalar.indexCast v2365
  ![v2366.toNat, v2367.toNat]
def k1_off208 (v2368 : BitVec 32) : Fin 2 → Nat :=
  let c0_i32_1341 : BitVec 32 := 0#32
  ![v2368.toNat, 0]

def k1_chk104 (v2368 : BitVec 32) : Prop :=
  (∀ a, (k1_off208 v2368) a + S1x8192.size a ≤ S8192x8192.size a)
instance k1_chk104.dec : ∀ (v2368 : BitVec 32), Decidable (k1_chk104 v2368) := fun v2368 => decidable_of_iff' _ (Iff.of_eq (k1_chk104.eq_1 v2368))
theorem k1_off208_inb : ∀ (v2368 : BitVec 32) (k1_hw104 : k1_chk104 v2368), ∀ a, (k1_off208 v2368) a + S1x8192.size a ≤ S8192x8192.size a := fun v2368 k1_hw104 => k1_hw104

def k1_off209 (i : grid1.Coords) : Fin 2 → Nat :=
  let arg0 : BitVec 32 := BitVec.ofNat 32 (i 0).val
  let v2389 : Index := Scalar.indexCast arg0
  let arg1 : BitVec 32 := BitVec.ofNat 32 (i 1).val
  let c128_i32 : BitVec 32 := 128#32
  let v0 : BitVec 32 := Scalar.muli arg1 c128_i32
  let c104_i32 : BitVec 32 := 104#32
  let v2388 : BitVec 32 := Scalar.addi v0 c104_i32
  let v2390 : Index := Scalar.indexCast v2388
  ![v2389.toNat, v2390.toNat]
def k1_off210 (v2391 : BitVec 32) : Fin 2 → Nat :=
  let c0_i32_1354 : BitVec 32 := 0#32
  ![v2391.toNat, 0]

def k1_chk105 (v2391 : BitVec 32) : Prop :=
  (∀ a, (k1_off210 v2391) a + S1x8192.size a ≤ S8192x8192.size a)
instance k1_chk105.dec : ∀ (v2391 : BitVec 32), Decidable (k1_chk105 v2391) := fun v2391 => decidable_of_iff' _ (Iff.of_eq (k1_chk105.eq_1 v2391))
theorem k1_off210_inb : ∀ (v2391 : BitVec 32) (k1_hw105 : k1_chk105 v2391), ∀ a, (k1_off210 v2391) a + S1x8192.size a ≤ S8192x8192.size a := fun v2391 k1_hw105 => k1_hw105

def k1_off211 (i : grid1.Coords) : Fin 2 → Nat :=
  let arg0 : BitVec 32 := BitVec.ofNat 32 (i 0).val
  let v2412 : Index := Scalar.indexCast arg0
  let arg1 : BitVec 32 := BitVec.ofNat 32 (i 1).val
  let c128_i32 : BitVec 32 := 128#32
  let v0 : BitVec 32 := Scalar.muli arg1 c128_i32
  let c105_i32 : BitVec 32 := 105#32
  let v2411 : BitVec 32 := Scalar.addi v0 c105_i32
  let v2413 : Index := Scalar.indexCast v2411
  ![v2412.toNat, v2413.toNat]
def k1_off212 (v2414 : BitVec 32) : Fin 2 → Nat :=
  let c0_i32_1367 : BitVec 32 := 0#32
  ![v2414.toNat, 0]

def k1_chk106 (v2414 : BitVec 32) : Prop :=
  (∀ a, (k1_off212 v2414) a + S1x8192.size a ≤ S8192x8192.size a)
instance k1_chk106.dec : ∀ (v2414 : BitVec 32), Decidable (k1_chk106 v2414) := fun v2414 => decidable_of_iff' _ (Iff.of_eq (k1_chk106.eq_1 v2414))
theorem k1_off212_inb : ∀ (v2414 : BitVec 32) (k1_hw106 : k1_chk106 v2414), ∀ a, (k1_off212 v2414) a + S1x8192.size a ≤ S8192x8192.size a := fun v2414 k1_hw106 => k1_hw106

def k1_off213 (i : grid1.Coords) : Fin 2 → Nat :=
  let arg0 : BitVec 32 := BitVec.ofNat 32 (i 0).val
  let v2435 : Index := Scalar.indexCast arg0
  let arg1 : BitVec 32 := BitVec.ofNat 32 (i 1).val
  let c128_i32 : BitVec 32 := 128#32
  let v0 : BitVec 32 := Scalar.muli arg1 c128_i32
  let c106_i32 : BitVec 32 := 106#32
  let v2434 : BitVec 32 := Scalar.addi v0 c106_i32
  let v2436 : Index := Scalar.indexCast v2434
  ![v2435.toNat, v2436.toNat]
def k1_off214 (v2437 : BitVec 32) : Fin 2 → Nat :=
  let c0_i32_1380 : BitVec 32 := 0#32
  ![v2437.toNat, 0]

def k1_chk107 (v2437 : BitVec 32) : Prop :=
  (∀ a, (k1_off214 v2437) a + S1x8192.size a ≤ S8192x8192.size a)
instance k1_chk107.dec : ∀ (v2437 : BitVec 32), Decidable (k1_chk107 v2437) := fun v2437 => decidable_of_iff' _ (Iff.of_eq (k1_chk107.eq_1 v2437))
theorem k1_off214_inb : ∀ (v2437 : BitVec 32) (k1_hw107 : k1_chk107 v2437), ∀ a, (k1_off214 v2437) a + S1x8192.size a ≤ S8192x8192.size a := fun v2437 k1_hw107 => k1_hw107

def k1_off215 (i : grid1.Coords) : Fin 2 → Nat :=
  let arg0 : BitVec 32 := BitVec.ofNat 32 (i 0).val
  let v2458 : Index := Scalar.indexCast arg0
  let arg1 : BitVec 32 := BitVec.ofNat 32 (i 1).val
  let c128_i32 : BitVec 32 := 128#32
  let v0 : BitVec 32 := Scalar.muli arg1 c128_i32
  let c107_i32 : BitVec 32 := 107#32
  let v2457 : BitVec 32 := Scalar.addi v0 c107_i32
  let v2459 : Index := Scalar.indexCast v2457
  ![v2458.toNat, v2459.toNat]
def k1_off216 (v2460 : BitVec 32) : Fin 2 → Nat :=
  let c0_i32_1393 : BitVec 32 := 0#32
  ![v2460.toNat, 0]

def k1_chk108 (v2460 : BitVec 32) : Prop :=
  (∀ a, (k1_off216 v2460) a + S1x8192.size a ≤ S8192x8192.size a)
instance k1_chk108.dec : ∀ (v2460 : BitVec 32), Decidable (k1_chk108 v2460) := fun v2460 => decidable_of_iff' _ (Iff.of_eq (k1_chk108.eq_1 v2460))
theorem k1_off216_inb : ∀ (v2460 : BitVec 32) (k1_hw108 : k1_chk108 v2460), ∀ a, (k1_off216 v2460) a + S1x8192.size a ≤ S8192x8192.size a := fun v2460 k1_hw108 => k1_hw108

def k1_off217 (i : grid1.Coords) : Fin 2 → Nat :=
  let arg0 : BitVec 32 := BitVec.ofNat 32 (i 0).val
  let v2481 : Index := Scalar.indexCast arg0
  let arg1 : BitVec 32 := BitVec.ofNat 32 (i 1).val
  let c128_i32 : BitVec 32 := 128#32
  let v0 : BitVec 32 := Scalar.muli arg1 c128_i32
  let c108_i32 : BitVec 32 := 108#32
  let v2480 : BitVec 32 := Scalar.addi v0 c108_i32
  let v2482 : Index := Scalar.indexCast v2480
  ![v2481.toNat, v2482.toNat]
def k1_off218 (v2483 : BitVec 32) : Fin 2 → Nat :=
  let c0_i32_1406 : BitVec 32 := 0#32
  ![v2483.toNat, 0]

def k1_chk109 (v2483 : BitVec 32) : Prop :=
  (∀ a, (k1_off218 v2483) a + S1x8192.size a ≤ S8192x8192.size a)
instance k1_chk109.dec : ∀ (v2483 : BitVec 32), Decidable (k1_chk109 v2483) := fun v2483 => decidable_of_iff' _ (Iff.of_eq (k1_chk109.eq_1 v2483))
theorem k1_off218_inb : ∀ (v2483 : BitVec 32) (k1_hw109 : k1_chk109 v2483), ∀ a, (k1_off218 v2483) a + S1x8192.size a ≤ S8192x8192.size a := fun v2483 k1_hw109 => k1_hw109

def k1_off219 (i : grid1.Coords) : Fin 2 → Nat :=
  let arg0 : BitVec 32 := BitVec.ofNat 32 (i 0).val
  let v2504 : Index := Scalar.indexCast arg0
  let arg1 : BitVec 32 := BitVec.ofNat 32 (i 1).val
  let c128_i32 : BitVec 32 := 128#32
  let v0 : BitVec 32 := Scalar.muli arg1 c128_i32
  let c109_i32 : BitVec 32 := 109#32
  let v2503 : BitVec 32 := Scalar.addi v0 c109_i32
  let v2505 : Index := Scalar.indexCast v2503
  ![v2504.toNat, v2505.toNat]
def k1_off220 (v2506 : BitVec 32) : Fin 2 → Nat :=
  let c0_i32_1419 : BitVec 32 := 0#32
  ![v2506.toNat, 0]

def k1_chk110 (v2506 : BitVec 32) : Prop :=
  (∀ a, (k1_off220 v2506) a + S1x8192.size a ≤ S8192x8192.size a)
instance k1_chk110.dec : ∀ (v2506 : BitVec 32), Decidable (k1_chk110 v2506) := fun v2506 => decidable_of_iff' _ (Iff.of_eq (k1_chk110.eq_1 v2506))
theorem k1_off220_inb : ∀ (v2506 : BitVec 32) (k1_hw110 : k1_chk110 v2506), ∀ a, (k1_off220 v2506) a + S1x8192.size a ≤ S8192x8192.size a := fun v2506 k1_hw110 => k1_hw110

def k1_off221 (i : grid1.Coords) : Fin 2 → Nat :=
  let arg0 : BitVec 32 := BitVec.ofNat 32 (i 0).val
  let v2527 : Index := Scalar.indexCast arg0
  let arg1 : BitVec 32 := BitVec.ofNat 32 (i 1).val
  let c128_i32 : BitVec 32 := 128#32
  let v0 : BitVec 32 := Scalar.muli arg1 c128_i32
  let c110_i32 : BitVec 32 := 110#32
  let v2526 : BitVec 32 := Scalar.addi v0 c110_i32
  let v2528 : Index := Scalar.indexCast v2526
  ![v2527.toNat, v2528.toNat]
def k1_off222 (v2529 : BitVec 32) : Fin 2 → Nat :=
  let c0_i32_1432 : BitVec 32 := 0#32
  ![v2529.toNat, 0]

def k1_chk111 (v2529 : BitVec 32) : Prop :=
  (∀ a, (k1_off222 v2529) a + S1x8192.size a ≤ S8192x8192.size a)
instance k1_chk111.dec : ∀ (v2529 : BitVec 32), Decidable (k1_chk111 v2529) := fun v2529 => decidable_of_iff' _ (Iff.of_eq (k1_chk111.eq_1 v2529))
theorem k1_off222_inb : ∀ (v2529 : BitVec 32) (k1_hw111 : k1_chk111 v2529), ∀ a, (k1_off222 v2529) a + S1x8192.size a ≤ S8192x8192.size a := fun v2529 k1_hw111 => k1_hw111

def k1_off223 (i : grid1.Coords) : Fin 2 → Nat :=
  let arg0 : BitVec 32 := BitVec.ofNat 32 (i 0).val
  let v2550 : Index := Scalar.indexCast arg0
  let arg1 : BitVec 32 := BitVec.ofNat 32 (i 1).val
  let c128_i32 : BitVec 32 := 128#32
  let v0 : BitVec 32 := Scalar.muli arg1 c128_i32
  let c111_i32 : BitVec 32 := 111#32
  let v2549 : BitVec 32 := Scalar.addi v0 c111_i32
  let v2551 : Index := Scalar.indexCast v2549
  ![v2550.toNat, v2551.toNat]
def k1_off224 (v2552 : BitVec 32) : Fin 2 → Nat :=
  let c0_i32_1445 : BitVec 32 := 0#32
  ![v2552.toNat, 0]

def k1_chk112 (v2552 : BitVec 32) : Prop :=
  (∀ a, (k1_off224 v2552) a + S1x8192.size a ≤ S8192x8192.size a)
instance k1_chk112.dec : ∀ (v2552 : BitVec 32), Decidable (k1_chk112 v2552) := fun v2552 => decidable_of_iff' _ (Iff.of_eq (k1_chk112.eq_1 v2552))
theorem k1_off224_inb : ∀ (v2552 : BitVec 32) (k1_hw112 : k1_chk112 v2552), ∀ a, (k1_off224 v2552) a + S1x8192.size a ≤ S8192x8192.size a := fun v2552 k1_hw112 => k1_hw112

def k1_off225 (i : grid1.Coords) : Fin 2 → Nat :=
  let arg0 : BitVec 32 := BitVec.ofNat 32 (i 0).val
  let v2573 : Index := Scalar.indexCast arg0
  let arg1 : BitVec 32 := BitVec.ofNat 32 (i 1).val
  let c128_i32 : BitVec 32 := 128#32
  let v0 : BitVec 32 := Scalar.muli arg1 c128_i32
  let c112_i32 : BitVec 32 := 112#32
  let v2572 : BitVec 32 := Scalar.addi v0 c112_i32
  let v2574 : Index := Scalar.indexCast v2572
  ![v2573.toNat, v2574.toNat]
def k1_off226 (v2575 : BitVec 32) : Fin 2 → Nat :=
  let c0_i32_1458 : BitVec 32 := 0#32
  ![v2575.toNat, 0]

def k1_chk113 (v2575 : BitVec 32) : Prop :=
  (∀ a, (k1_off226 v2575) a + S1x8192.size a ≤ S8192x8192.size a)
instance k1_chk113.dec : ∀ (v2575 : BitVec 32), Decidable (k1_chk113 v2575) := fun v2575 => decidable_of_iff' _ (Iff.of_eq (k1_chk113.eq_1 v2575))
theorem k1_off226_inb : ∀ (v2575 : BitVec 32) (k1_hw113 : k1_chk113 v2575), ∀ a, (k1_off226 v2575) a + S1x8192.size a ≤ S8192x8192.size a := fun v2575 k1_hw113 => k1_hw113

def k1_off227 (i : grid1.Coords) : Fin 2 → Nat :=
  let arg0 : BitVec 32 := BitVec.ofNat 32 (i 0).val
  let v2596 : Index := Scalar.indexCast arg0
  let arg1 : BitVec 32 := BitVec.ofNat 32 (i 1).val
  let c128_i32 : BitVec 32 := 128#32
  let v0 : BitVec 32 := Scalar.muli arg1 c128_i32
  let c113_i32 : BitVec 32 := 113#32
  let v2595 : BitVec 32 := Scalar.addi v0 c113_i32
  let v2597 : Index := Scalar.indexCast v2595
  ![v2596.toNat, v2597.toNat]
def k1_off228 (v2598 : BitVec 32) : Fin 2 → Nat :=
  let c0_i32_1471 : BitVec 32 := 0#32
  ![v2598.toNat, 0]

def k1_chk114 (v2598 : BitVec 32) : Prop :=
  (∀ a, (k1_off228 v2598) a + S1x8192.size a ≤ S8192x8192.size a)
instance k1_chk114.dec : ∀ (v2598 : BitVec 32), Decidable (k1_chk114 v2598) := fun v2598 => decidable_of_iff' _ (Iff.of_eq (k1_chk114.eq_1 v2598))
theorem k1_off228_inb : ∀ (v2598 : BitVec 32) (k1_hw114 : k1_chk114 v2598), ∀ a, (k1_off228 v2598) a + S1x8192.size a ≤ S8192x8192.size a := fun v2598 k1_hw114 => k1_hw114

def k1_off229 (i : grid1.Coords) : Fin 2 → Nat :=
  let arg0 : BitVec 32 := BitVec.ofNat 32 (i 0).val
  let v2619 : Index := Scalar.indexCast arg0
  let arg1 : BitVec 32 := BitVec.ofNat 32 (i 1).val
  let c128_i32 : BitVec 32 := 128#32
  let v0 : BitVec 32 := Scalar.muli arg1 c128_i32
  let c114_i32 : BitVec 32 := 114#32
  let v2618 : BitVec 32 := Scalar.addi v0 c114_i32
  let v2620 : Index := Scalar.indexCast v2618
  ![v2619.toNat, v2620.toNat]
def k1_off230 (v2621 : BitVec 32) : Fin 2 → Nat :=
  let c0_i32_1484 : BitVec 32 := 0#32
  ![v2621.toNat, 0]

def k1_chk115 (v2621 : BitVec 32) : Prop :=
  (∀ a, (k1_off230 v2621) a + S1x8192.size a ≤ S8192x8192.size a)
instance k1_chk115.dec : ∀ (v2621 : BitVec 32), Decidable (k1_chk115 v2621) := fun v2621 => decidable_of_iff' _ (Iff.of_eq (k1_chk115.eq_1 v2621))
theorem k1_off230_inb : ∀ (v2621 : BitVec 32) (k1_hw115 : k1_chk115 v2621), ∀ a, (k1_off230 v2621) a + S1x8192.size a ≤ S8192x8192.size a := fun v2621 k1_hw115 => k1_hw115

def k1_off231 (i : grid1.Coords) : Fin 2 → Nat :=
  let arg0 : BitVec 32 := BitVec.ofNat 32 (i 0).val
  let v2642 : Index := Scalar.indexCast arg0
  let arg1 : BitVec 32 := BitVec.ofNat 32 (i 1).val
  let c128_i32 : BitVec 32 := 128#32
  let v0 : BitVec 32 := Scalar.muli arg1 c128_i32
  let c115_i32 : BitVec 32 := 115#32
  let v2641 : BitVec 32 := Scalar.addi v0 c115_i32
  let v2643 : Index := Scalar.indexCast v2641
  ![v2642.toNat, v2643.toNat]
def k1_off232 (v2644 : BitVec 32) : Fin 2 → Nat :=
  let c0_i32_1497 : BitVec 32 := 0#32
  ![v2644.toNat, 0]

def k1_chk116 (v2644 : BitVec 32) : Prop :=
  (∀ a, (k1_off232 v2644) a + S1x8192.size a ≤ S8192x8192.size a)
instance k1_chk116.dec : ∀ (v2644 : BitVec 32), Decidable (k1_chk116 v2644) := fun v2644 => decidable_of_iff' _ (Iff.of_eq (k1_chk116.eq_1 v2644))
theorem k1_off232_inb : ∀ (v2644 : BitVec 32) (k1_hw116 : k1_chk116 v2644), ∀ a, (k1_off232 v2644) a + S1x8192.size a ≤ S8192x8192.size a := fun v2644 k1_hw116 => k1_hw116

def k1_off233 (i : grid1.Coords) : Fin 2 → Nat :=
  let arg0 : BitVec 32 := BitVec.ofNat 32 (i 0).val
  let v2665 : Index := Scalar.indexCast arg0
  let arg1 : BitVec 32 := BitVec.ofNat 32 (i 1).val
  let c128_i32 : BitVec 32 := 128#32
  let v0 : BitVec 32 := Scalar.muli arg1 c128_i32
  let c116_i32 : BitVec 32 := 116#32
  let v2664 : BitVec 32 := Scalar.addi v0 c116_i32
  let v2666 : Index := Scalar.indexCast v2664
  ![v2665.toNat, v2666.toNat]
def k1_off234 (v2667 : BitVec 32) : Fin 2 → Nat :=
  let c0_i32_1510 : BitVec 32 := 0#32
  ![v2667.toNat, 0]

def k1_chk117 (v2667 : BitVec 32) : Prop :=
  (∀ a, (k1_off234 v2667) a + S1x8192.size a ≤ S8192x8192.size a)
instance k1_chk117.dec : ∀ (v2667 : BitVec 32), Decidable (k1_chk117 v2667) := fun v2667 => decidable_of_iff' _ (Iff.of_eq (k1_chk117.eq_1 v2667))
theorem k1_off234_inb : ∀ (v2667 : BitVec 32) (k1_hw117 : k1_chk117 v2667), ∀ a, (k1_off234 v2667) a + S1x8192.size a ≤ S8192x8192.size a := fun v2667 k1_hw117 => k1_hw117

def k1_off235 (i : grid1.Coords) : Fin 2 → Nat :=
  let arg0 : BitVec 32 := BitVec.ofNat 32 (i 0).val
  let v2688 : Index := Scalar.indexCast arg0
  let arg1 : BitVec 32 := BitVec.ofNat 32 (i 1).val
  let c128_i32 : BitVec 32 := 128#32
  let v0 : BitVec 32 := Scalar.muli arg1 c128_i32
  let c117_i32 : BitVec 32 := 117#32
  let v2687 : BitVec 32 := Scalar.addi v0 c117_i32
  let v2689 : Index := Scalar.indexCast v2687
  ![v2688.toNat, v2689.toNat]
def k1_off236 (v2690 : BitVec 32) : Fin 2 → Nat :=
  let c0_i32_1523 : BitVec 32 := 0#32
  ![v2690.toNat, 0]

def k1_chk118 (v2690 : BitVec 32) : Prop :=
  (∀ a, (k1_off236 v2690) a + S1x8192.size a ≤ S8192x8192.size a)
instance k1_chk118.dec : ∀ (v2690 : BitVec 32), Decidable (k1_chk118 v2690) := fun v2690 => decidable_of_iff' _ (Iff.of_eq (k1_chk118.eq_1 v2690))
theorem k1_off236_inb : ∀ (v2690 : BitVec 32) (k1_hw118 : k1_chk118 v2690), ∀ a, (k1_off236 v2690) a + S1x8192.size a ≤ S8192x8192.size a := fun v2690 k1_hw118 => k1_hw118

def k1_off237 (i : grid1.Coords) : Fin 2 → Nat :=
  let arg0 : BitVec 32 := BitVec.ofNat 32 (i 0).val
  let v2711 : Index := Scalar.indexCast arg0
  let arg1 : BitVec 32 := BitVec.ofNat 32 (i 1).val
  let c128_i32 : BitVec 32 := 128#32
  let v0 : BitVec 32 := Scalar.muli arg1 c128_i32
  let c118_i32 : BitVec 32 := 118#32
  let v2710 : BitVec 32 := Scalar.addi v0 c118_i32
  let v2712 : Index := Scalar.indexCast v2710
  ![v2711.toNat, v2712.toNat]
def k1_off238 (v2713 : BitVec 32) : Fin 2 → Nat :=
  let c0_i32_1536 : BitVec 32 := 0#32
  ![v2713.toNat, 0]

def k1_chk119 (v2713 : BitVec 32) : Prop :=
  (∀ a, (k1_off238 v2713) a + S1x8192.size a ≤ S8192x8192.size a)
instance k1_chk119.dec : ∀ (v2713 : BitVec 32), Decidable (k1_chk119 v2713) := fun v2713 => decidable_of_iff' _ (Iff.of_eq (k1_chk119.eq_1 v2713))
theorem k1_off238_inb : ∀ (v2713 : BitVec 32) (k1_hw119 : k1_chk119 v2713), ∀ a, (k1_off238 v2713) a + S1x8192.size a ≤ S8192x8192.size a := fun v2713 k1_hw119 => k1_hw119

def k1_off239 (i : grid1.Coords) : Fin 2 → Nat :=
  let arg0 : BitVec 32 := BitVec.ofNat 32 (i 0).val
  let v2734 : Index := Scalar.indexCast arg0
  let arg1 : BitVec 32 := BitVec.ofNat 32 (i 1).val
  let c128_i32 : BitVec 32 := 128#32
  let v0 : BitVec 32 := Scalar.muli arg1 c128_i32
  let c119_i32 : BitVec 32 := 119#32
  let v2733 : BitVec 32 := Scalar.addi v0 c119_i32
  let v2735 : Index := Scalar.indexCast v2733
  ![v2734.toNat, v2735.toNat]
def k1_off240 (v2736 : BitVec 32) : Fin 2 → Nat :=
  let c0_i32_1549 : BitVec 32 := 0#32
  ![v2736.toNat, 0]

def k1_chk120 (v2736 : BitVec 32) : Prop :=
  (∀ a, (k1_off240 v2736) a + S1x8192.size a ≤ S8192x8192.size a)
instance k1_chk120.dec : ∀ (v2736 : BitVec 32), Decidable (k1_chk120 v2736) := fun v2736 => decidable_of_iff' _ (Iff.of_eq (k1_chk120.eq_1 v2736))
theorem k1_off240_inb : ∀ (v2736 : BitVec 32) (k1_hw120 : k1_chk120 v2736), ∀ a, (k1_off240 v2736) a + S1x8192.size a ≤ S8192x8192.size a := fun v2736 k1_hw120 => k1_hw120

def k1_off241 (i : grid1.Coords) : Fin 2 → Nat :=
  let arg0 : BitVec 32 := BitVec.ofNat 32 (i 0).val
  let v2757 : Index := Scalar.indexCast arg0
  let arg1 : BitVec 32 := BitVec.ofNat 32 (i 1).val
  let c128_i32 : BitVec 32 := 128#32
  let v0 : BitVec 32 := Scalar.muli arg1 c128_i32
  let c120_i32 : BitVec 32 := 120#32
  let v2756 : BitVec 32 := Scalar.addi v0 c120_i32
  let v2758 : Index := Scalar.indexCast v2756
  ![v2757.toNat, v2758.toNat]
def k1_off242 (v2759 : BitVec 32) : Fin 2 → Nat :=
  let c0_i32_1562 : BitVec 32 := 0#32
  ![v2759.toNat, 0]

def k1_chk121 (v2759 : BitVec 32) : Prop :=
  (∀ a, (k1_off242 v2759) a + S1x8192.size a ≤ S8192x8192.size a)
instance k1_chk121.dec : ∀ (v2759 : BitVec 32), Decidable (k1_chk121 v2759) := fun v2759 => decidable_of_iff' _ (Iff.of_eq (k1_chk121.eq_1 v2759))
theorem k1_off242_inb : ∀ (v2759 : BitVec 32) (k1_hw121 : k1_chk121 v2759), ∀ a, (k1_off242 v2759) a + S1x8192.size a ≤ S8192x8192.size a := fun v2759 k1_hw121 => k1_hw121

def k1_off243 (i : grid1.Coords) : Fin 2 → Nat :=
  let arg0 : BitVec 32 := BitVec.ofNat 32 (i 0).val
  let v2780 : Index := Scalar.indexCast arg0
  let arg1 : BitVec 32 := BitVec.ofNat 32 (i 1).val
  let c128_i32 : BitVec 32 := 128#32
  let v0 : BitVec 32 := Scalar.muli arg1 c128_i32
  let c121_i32 : BitVec 32 := 121#32
  let v2779 : BitVec 32 := Scalar.addi v0 c121_i32
  let v2781 : Index := Scalar.indexCast v2779
  ![v2780.toNat, v2781.toNat]
def k1_off244 (v2782 : BitVec 32) : Fin 2 → Nat :=
  let c0_i32_1575 : BitVec 32 := 0#32
  ![v2782.toNat, 0]

def k1_chk122 (v2782 : BitVec 32) : Prop :=
  (∀ a, (k1_off244 v2782) a + S1x8192.size a ≤ S8192x8192.size a)
instance k1_chk122.dec : ∀ (v2782 : BitVec 32), Decidable (k1_chk122 v2782) := fun v2782 => decidable_of_iff' _ (Iff.of_eq (k1_chk122.eq_1 v2782))
theorem k1_off244_inb : ∀ (v2782 : BitVec 32) (k1_hw122 : k1_chk122 v2782), ∀ a, (k1_off244 v2782) a + S1x8192.size a ≤ S8192x8192.size a := fun v2782 k1_hw122 => k1_hw122

def k1_off245 (i : grid1.Coords) : Fin 2 → Nat :=
  let arg0 : BitVec 32 := BitVec.ofNat 32 (i 0).val
  let v2803 : Index := Scalar.indexCast arg0
  let arg1 : BitVec 32 := BitVec.ofNat 32 (i 1).val
  let c128_i32 : BitVec 32 := 128#32
  let v0 : BitVec 32 := Scalar.muli arg1 c128_i32
  let c122_i32 : BitVec 32 := 122#32
  let v2802 : BitVec 32 := Scalar.addi v0 c122_i32
  let v2804 : Index := Scalar.indexCast v2802
  ![v2803.toNat, v2804.toNat]
def k1_off246 (v2805 : BitVec 32) : Fin 2 → Nat :=
  let c0_i32_1588 : BitVec 32 := 0#32
  ![v2805.toNat, 0]

def k1_chk123 (v2805 : BitVec 32) : Prop :=
  (∀ a, (k1_off246 v2805) a + S1x8192.size a ≤ S8192x8192.size a)
instance k1_chk123.dec : ∀ (v2805 : BitVec 32), Decidable (k1_chk123 v2805) := fun v2805 => decidable_of_iff' _ (Iff.of_eq (k1_chk123.eq_1 v2805))
theorem k1_off246_inb : ∀ (v2805 : BitVec 32) (k1_hw123 : k1_chk123 v2805), ∀ a, (k1_off246 v2805) a + S1x8192.size a ≤ S8192x8192.size a := fun v2805 k1_hw123 => k1_hw123

def k1_off247 (i : grid1.Coords) : Fin 2 → Nat :=
  let arg0 : BitVec 32 := BitVec.ofNat 32 (i 0).val
  let v2826 : Index := Scalar.indexCast arg0
  let arg1 : BitVec 32 := BitVec.ofNat 32 (i 1).val
  let c128_i32 : BitVec 32 := 128#32
  let v0 : BitVec 32 := Scalar.muli arg1 c128_i32
  let c123_i32 : BitVec 32 := 123#32
  let v2825 : BitVec 32 := Scalar.addi v0 c123_i32
  let v2827 : Index := Scalar.indexCast v2825
  ![v2826.toNat, v2827.toNat]
def k1_off248 (v2828 : BitVec 32) : Fin 2 → Nat :=
  let c0_i32_1601 : BitVec 32 := 0#32
  ![v2828.toNat, 0]

def k1_chk124 (v2828 : BitVec 32) : Prop :=
  (∀ a, (k1_off248 v2828) a + S1x8192.size a ≤ S8192x8192.size a)
instance k1_chk124.dec : ∀ (v2828 : BitVec 32), Decidable (k1_chk124 v2828) := fun v2828 => decidable_of_iff' _ (Iff.of_eq (k1_chk124.eq_1 v2828))
theorem k1_off248_inb : ∀ (v2828 : BitVec 32) (k1_hw124 : k1_chk124 v2828), ∀ a, (k1_off248 v2828) a + S1x8192.size a ≤ S8192x8192.size a := fun v2828 k1_hw124 => k1_hw124

def k1_off249 (i : grid1.Coords) : Fin 2 → Nat :=
  let arg0 : BitVec 32 := BitVec.ofNat 32 (i 0).val
  let v2849 : Index := Scalar.indexCast arg0
  let arg1 : BitVec 32 := BitVec.ofNat 32 (i 1).val
  let c128_i32 : BitVec 32 := 128#32
  let v0 : BitVec 32 := Scalar.muli arg1 c128_i32
  let c124_i32 : BitVec 32 := 124#32
  let v2848 : BitVec 32 := Scalar.addi v0 c124_i32
  let v2850 : Index := Scalar.indexCast v2848
  ![v2849.toNat, v2850.toNat]
def k1_off250 (v2851 : BitVec 32) : Fin 2 → Nat :=
  let c0_i32_1614 : BitVec 32 := 0#32
  ![v2851.toNat, 0]

def k1_chk125 (v2851 : BitVec 32) : Prop :=
  (∀ a, (k1_off250 v2851) a + S1x8192.size a ≤ S8192x8192.size a)
instance k1_chk125.dec : ∀ (v2851 : BitVec 32), Decidable (k1_chk125 v2851) := fun v2851 => decidable_of_iff' _ (Iff.of_eq (k1_chk125.eq_1 v2851))
theorem k1_off250_inb : ∀ (v2851 : BitVec 32) (k1_hw125 : k1_chk125 v2851), ∀ a, (k1_off250 v2851) a + S1x8192.size a ≤ S8192x8192.size a := fun v2851 k1_hw125 => k1_hw125

def k1_off251 (i : grid1.Coords) : Fin 2 → Nat :=
  let arg0 : BitVec 32 := BitVec.ofNat 32 (i 0).val
  let v2872 : Index := Scalar.indexCast arg0
  let arg1 : BitVec 32 := BitVec.ofNat 32 (i 1).val
  let c128_i32 : BitVec 32 := 128#32
  let v0 : BitVec 32 := Scalar.muli arg1 c128_i32
  let c125_i32 : BitVec 32 := 125#32
  let v2871 : BitVec 32 := Scalar.addi v0 c125_i32
  let v2873 : Index := Scalar.indexCast v2871
  ![v2872.toNat, v2873.toNat]
def k1_off252 (v2874 : BitVec 32) : Fin 2 → Nat :=
  let c0_i32_1627 : BitVec 32 := 0#32
  ![v2874.toNat, 0]

def k1_chk126 (v2874 : BitVec 32) : Prop :=
  (∀ a, (k1_off252 v2874) a + S1x8192.size a ≤ S8192x8192.size a)
instance k1_chk126.dec : ∀ (v2874 : BitVec 32), Decidable (k1_chk126 v2874) := fun v2874 => decidable_of_iff' _ (Iff.of_eq (k1_chk126.eq_1 v2874))
theorem k1_off252_inb : ∀ (v2874 : BitVec 32) (k1_hw126 : k1_chk126 v2874), ∀ a, (k1_off252 v2874) a + S1x8192.size a ≤ S8192x8192.size a := fun v2874 k1_hw126 => k1_hw126

def k1_off253 (i : grid1.Coords) : Fin 2 → Nat :=
  let arg0 : BitVec 32 := BitVec.ofNat 32 (i 0).val
  let v2895 : Index := Scalar.indexCast arg0
  let arg1 : BitVec 32 := BitVec.ofNat 32 (i 1).val
  let c128_i32 : BitVec 32 := 128#32
  let v0 : BitVec 32 := Scalar.muli arg1 c128_i32
  let c126_i32 : BitVec 32 := 126#32
  let v2894 : BitVec 32 := Scalar.addi v0 c126_i32
  let v2896 : Index := Scalar.indexCast v2894
  ![v2895.toNat, v2896.toNat]
def k1_off254 (v2897 : BitVec 32) : Fin 2 → Nat :=
  let c0_i32_1640 : BitVec 32 := 0#32
  ![v2897.toNat, 0]

def k1_chk127 (v2897 : BitVec 32) : Prop :=
  (∀ a, (k1_off254 v2897) a + S1x8192.size a ≤ S8192x8192.size a)
instance k1_chk127.dec : ∀ (v2897 : BitVec 32), Decidable (k1_chk127 v2897) := fun v2897 => decidable_of_iff' _ (Iff.of_eq (k1_chk127.eq_1 v2897))
theorem k1_off254_inb : ∀ (v2897 : BitVec 32) (k1_hw127 : k1_chk127 v2897), ∀ a, (k1_off254 v2897) a + S1x8192.size a ≤ S8192x8192.size a := fun v2897 k1_hw127 => k1_hw127

def k1_off255 (i : grid1.Coords) : Fin 2 → Nat :=
  let arg0 : BitVec 32 := BitVec.ofNat 32 (i 0).val
  let v2918 : Index := Scalar.indexCast arg0
  let arg1 : BitVec 32 := BitVec.ofNat 32 (i 1).val
  let c128_i32 : BitVec 32 := 128#32
  let v0 : BitVec 32 := Scalar.muli arg1 c128_i32
  let c127_i32 : BitVec 32 := 127#32
  let v2917 : BitVec 32 := Scalar.addi v0 c127_i32
  let v2919 : Index := Scalar.indexCast v2917
  ![v2918.toNat, v2919.toNat]
def k1_off256 (v2920 : BitVec 32) : Fin 2 → Nat :=
  let c0_i32_1653 : BitVec 32 := 0#32
  ![v2920.toNat, 0]

def k1_chk128 (v2920 : BitVec 32) : Prop :=
  (∀ a, (k1_off256 v2920) a + S1x8192.size a ≤ S8192x8192.size a)
instance k1_chk128.dec : ∀ (v2920 : BitVec 32), Decidable (k1_chk128 v2920) := fun v2920 => decidable_of_iff' _ (Iff.of_eq (k1_chk128.eq_1 v2920))
theorem k1_off256_inb : ∀ (v2920 : BitVec 32) (k1_hw128 : k1_chk128 v2920), ∀ a, (k1_off256 v2920) a + S1x8192.size a ≤ S8192x8192.size a := fun v2920 k1_hw128 => k1_hw128

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  bcast_S_S4x4096 : S_.BroadcastsInDim S4x4096 (![] : Fin 0 → Fin S4x4096.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  reduces_S512x512_S512 : S512x512.Reduces [1] S512
  shapeCasts_S512_S512x1 : S512.ShapeCasts S512x1
  shapeCasts_S512x1_S512 : S512x1.ShapeCasts S512
  inb_S512_S512_0 : ∀ a, (![0] : Fin 1 → Nat) a + S512.size a ≤ S512.size a
  h_S512 : 0 < S512.numel
  bcast_S_S4 : S_.BroadcastsInDim S4 (![] : Fin 0 → Fin S4.rank)
  bcast_S4_S4x1_0 : S4.BroadcastsInDim S4x1 (![0] : Fin 1 → Fin S4x1.rank)
  bcast_S8192_S1x8192_1 : S8192.BroadcastsInDim S1x8192 (![1] : Fin 1 → Fin S1x8192.rank)
  bcast_S4x1_S4x8192_0_1 : S4x1.BroadcastsInDim S4x8192 (![0, 1] : Fin 2 → Fin S4x8192.rank)
  bcast_S1x8192_S4x8192_0_1 : S1x8192.BroadcastsInDim S4x8192 (![0, 1] : Fin 2 → Fin S4x8192.rank)
  bcast_S4x8192_S4x1x8192_0_2 : S4x8192.BroadcastsInDim S4x1x8192 (![0, 2] : Fin 2 → Fin S4x1x8192.rank)
  numel1_S1x1 : S1x1.numel = 1
  inb_S2_S1_0 : ∀ a, (![0] : Fin 1 → Nat) a + S1.size a ≤ S2.size a
  squeezes_S1_S_ : S1.Squeezes S_
  inb_S2x8192_S1x8192_0_0 : ∀ a, (![0, 0] : Fin 2 → Nat) a + S1x8192.size a ≤ S2x8192.size a
  squeezes_S1x8192_S8192 : S1x8192.Squeezes S8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  inb_S8192x8192_S1x8192_0_0 : ∀ a, (![0, 0] : Fin 2 → Nat) a + S1x8192.size a ≤ S8192x8192.size a
  inb_S2_S1_1 : ∀ a, (![1] : Fin 1 → Nat) a + S1.size a ≤ S2.size a
  inb_S2x8192_S1x8192_1_0 : ∀ a, (![1, 0] : Fin 2 → Nat) a + S1x8192.size a ≤ S2x8192.size a
  h_S1x8192 : 0 < S1x8192.numel
  shapeCasts_S1x8192_S8192 : S1x8192.ShapeCasts S8192
  shapeCasts_S8192_S1x8192 : S8192.ShapeCasts S1x8192
  inb_S1x128x8192_S1x1x8192_0_0_0 : ∀ a, (![0, 0, 0] : Fin 3 → Nat) a + S1x1x8192.size a ≤ S1x128x8192.size a
  shapeCasts_S1x1x8192_S1x8192 : S1x1x8192.ShapeCasts S1x8192
  shapeCasts_S1x8192_S1x1x8192 : S1x8192.ShapeCasts S1x1x8192
  inb_S1x128x8192_S1x1x8192_0_1_0 : ∀ a, (![0, 1, 0] : Fin 3 → Nat) a + S1x1x8192.size a ≤ S1x128x8192.size a
  inb_S1x128x8192_S1x1x8192_0_2_0 : ∀ a, (![0, 2, 0] : Fin 3 → Nat) a + S1x1x8192.size a ≤ S1x128x8192.size a
  inb_S1x128x8192_S1x1x8192_0_3_0 : ∀ a, (![0, 3, 0] : Fin 3 → Nat) a + S1x1x8192.size a ≤ S1x128x8192.size a
  inb_S1x128x8192_S1x1x8192_0_4_0 : ∀ a, (![0, 4, 0] : Fin 3 → Nat) a + S1x1x8192.size a ≤ S1x128x8192.size a
  inb_S1x128x8192_S1x1x8192_0_5_0 : ∀ a, (![0, 5, 0] : Fin 3 → Nat) a + S1x1x8192.size a ≤ S1x128x8192.size a
  inb_S1x128x8192_S1x1x8192_0_6_0 : ∀ a, (![0, 6, 0] : Fin 3 → Nat) a + S1x1x8192.size a ≤ S1x128x8192.size a
  inb_S1x128x8192_S1x1x8192_0_7_0 : ∀ a, (![0, 7, 0] : Fin 3 → Nat) a + S1x1x8192.size a ≤ S1x128x8192.size a
  inb_S1x128x8192_S1x1x8192_0_8_0 : ∀ a, (![0, 8, 0] : Fin 3 → Nat) a + S1x1x8192.size a ≤ S1x128x8192.size a
  inb_S1x128x8192_S1x1x8192_0_9_0 : ∀ a, (![0, 9, 0] : Fin 3 → Nat) a + S1x1x8192.size a ≤ S1x128x8192.size a
  inb_S1x128x8192_S1x1x8192_0_10_0 : ∀ a, (![0, 10, 0] : Fin 3 → Nat) a + S1x1x8192.size a ≤ S1x128x8192.size a
  inb_S1x128x8192_S1x1x8192_0_11_0 : ∀ a, (![0, 11, 0] : Fin 3 → Nat) a + S1x1x8192.size a ≤ S1x128x8192.size a
  inb_S1x128x8192_S1x1x8192_0_12_0 : ∀ a, (![0, 12, 0] : Fin 3 → Nat) a + S1x1x8192.size a ≤ S1x128x8192.size a
  inb_S1x128x8192_S1x1x8192_0_13_0 : ∀ a, (![0, 13, 0] : Fin 3 → Nat) a + S1x1x8192.size a ≤ S1x128x8192.size a
  inb_S1x128x8192_S1x1x8192_0_14_0 : ∀ a, (![0, 14, 0] : Fin 3 → Nat) a + S1x1x8192.size a ≤ S1x128x8192.size a
  inb_S1x128x8192_S1x1x8192_0_15_0 : ∀ a, (![0, 15, 0] : Fin 3 → Nat) a + S1x1x8192.size a ≤ S1x128x8192.size a
  inb_S1x128x8192_S1x1x8192_0_16_0 : ∀ a, (![0, 16, 0] : Fin 3 → Nat) a + S1x1x8192.size a ≤ S1x128x8192.size a
  inb_S1x128x8192_S1x1x8192_0_17_0 : ∀ a, (![0, 17, 0] : Fin 3 → Nat) a + S1x1x8192.size a ≤ S1x128x8192.size a
  inb_S1x128x8192_S1x1x8192_0_18_0 : ∀ a, (![0, 18, 0] : Fin 3 → Nat) a + S1x1x8192.size a ≤ S1x128x8192.size a
  inb_S1x128x8192_S1x1x8192_0_19_0 : ∀ a, (![0, 19, 0] : Fin 3 → Nat) a + S1x1x8192.size a ≤ S1x128x8192.size a
  inb_S1x128x8192_S1x1x8192_0_20_0 : ∀ a, (![0, 20, 0] : Fin 3 → Nat) a + S1x1x8192.size a ≤ S1x128x8192.size a
  inb_S1x128x8192_S1x1x8192_0_21_0 : ∀ a, (![0, 21, 0] : Fin 3 → Nat) a + S1x1x8192.size a ≤ S1x128x8192.size a
  inb_S1x128x8192_S1x1x8192_0_22_0 : ∀ a, (![0, 22, 0] : Fin 3 → Nat) a + S1x1x8192.size a ≤ S1x128x8192.size a
  inb_S1x128x8192_S1x1x8192_0_23_0 : ∀ a, (![0, 23, 0] : Fin 3 → Nat) a + S1x1x8192.size a ≤ S1x128x8192.size a
  inb_S1x128x8192_S1x1x8192_0_24_0 : ∀ a, (![0, 24, 0] : Fin 3 → Nat) a + S1x1x8192.size a ≤ S1x128x8192.size a
  inb_S1x128x8192_S1x1x8192_0_25_0 : ∀ a, (![0, 25, 0] : Fin 3 → Nat) a + S1x1x8192.size a ≤ S1x128x8192.size a
  inb_S1x128x8192_S1x1x8192_0_26_0 : ∀ a, (![0, 26, 0] : Fin 3 → Nat) a + S1x1x8192.size a ≤ S1x128x8192.size a
  inb_S1x128x8192_S1x1x8192_0_27_0 : ∀ a, (![0, 27, 0] : Fin 3 → Nat) a + S1x1x8192.size a ≤ S1x128x8192.size a
  inb_S1x128x8192_S1x1x8192_0_28_0 : ∀ a, (![0, 28, 0] : Fin 3 → Nat) a + S1x1x8192.size a ≤ S1x128x8192.size a
  inb_S1x128x8192_S1x1x8192_0_29_0 : ∀ a, (![0, 29, 0] : Fin 3 → Nat) a + S1x1x8192.size a ≤ S1x128x8192.size a
  inb_S1x128x8192_S1x1x8192_0_30_0 : ∀ a, (![0, 30, 0] : Fin 3 → Nat) a + S1x1x8192.size a ≤ S1x128x8192.size a
  inb_S1x128x8192_S1x1x8192_0_31_0 : ∀ a, (![0, 31, 0] : Fin 3 → Nat) a + S1x1x8192.size a ≤ S1x128x8192.size a
  inb_S1x128x8192_S1x1x8192_0_32_0 : ∀ a, (![0, 32, 0] : Fin 3 → Nat) a + S1x1x8192.size a ≤ S1x128x8192.size a
  inb_S1x128x8192_S1x1x8192_0_33_0 : ∀ a, (![0, 33, 0] : Fin 3 → Nat) a + S1x1x8192.size a ≤ S1x128x8192.size a
  inb_S1x128x8192_S1x1x8192_0_34_0 : ∀ a, (![0, 34, 0] : Fin 3 → Nat) a + S1x1x8192.size a ≤ S1x128x8192.size a
  inb_S1x128x8192_S1x1x8192_0_35_0 : ∀ a, (![0, 35, 0] : Fin 3 → Nat) a + S1x1x8192.size a ≤ S1x128x8192.size a
  inb_S1x128x8192_S1x1x8192_0_36_0 : ∀ a, (![0, 36, 0] : Fin 3 → Nat) a + S1x1x8192.size a ≤ S1x128x8192.size a
  inb_S1x128x8192_S1x1x8192_0_37_0 : ∀ a, (![0, 37, 0] : Fin 3 → Nat) a + S1x1x8192.size a ≤ S1x128x8192.size a
  inb_S1x128x8192_S1x1x8192_0_38_0 : ∀ a, (![0, 38, 0] : Fin 3 → Nat) a + S1x1x8192.size a ≤ S1x128x8192.size a
  inb_S1x128x8192_S1x1x8192_0_39_0 : ∀ a, (![0, 39, 0] : Fin 3 → Nat) a + S1x1x8192.size a ≤ S1x128x8192.size a
  inb_S1x128x8192_S1x1x8192_0_40_0 : ∀ a, (![0, 40, 0] : Fin 3 → Nat) a + S1x1x8192.size a ≤ S1x128x8192.size a
  inb_S1x128x8192_S1x1x8192_0_41_0 : ∀ a, (![0, 41, 0] : Fin 3 → Nat) a + S1x1x8192.size a ≤ S1x128x8192.size a
  inb_S1x128x8192_S1x1x8192_0_42_0 : ∀ a, (![0, 42, 0] : Fin 3 → Nat) a + S1x1x8192.size a ≤ S1x128x8192.size a
  inb_S1x128x8192_S1x1x8192_0_43_0 : ∀ a, (![0, 43, 0] : Fin 3 → Nat) a + S1x1x8192.size a ≤ S1x128x8192.size a
  inb_S1x128x8192_S1x1x8192_0_44_0 : ∀ a, (![0, 44, 0] : Fin 3 → Nat) a + S1x1x8192.size a ≤ S1x128x8192.size a
  inb_S1x128x8192_S1x1x8192_0_45_0 : ∀ a, (![0, 45, 0] : Fin 3 → Nat) a + S1x1x8192.size a ≤ S1x128x8192.size a
  inb_S1x128x8192_S1x1x8192_0_46_0 : ∀ a, (![0, 46, 0] : Fin 3 → Nat) a + S1x1x8192.size a ≤ S1x128x8192.size a
  inb_S1x128x8192_S1x1x8192_0_47_0 : ∀ a, (![0, 47, 0] : Fin 3 → Nat) a + S1x1x8192.size a ≤ S1x128x8192.size a
  inb_S1x128x8192_S1x1x8192_0_48_0 : ∀ a, (![0, 48, 0] : Fin 3 → Nat) a + S1x1x8192.size a ≤ S1x128x8192.size a
  inb_S1x128x8192_S1x1x8192_0_49_0 : ∀ a, (![0, 49, 0] : Fin 3 → Nat) a + S1x1x8192.size a ≤ S1x128x8192.size a
  inb_S1x128x8192_S1x1x8192_0_50_0 : ∀ a, (![0, 50, 0] : Fin 3 → Nat) a + S1x1x8192.size a ≤ S1x128x8192.size a
  inb_S1x128x8192_S1x1x8192_0_51_0 : ∀ a, (![0, 51, 0] : Fin 3 → Nat) a + S1x1x8192.size a ≤ S1x128x8192.size a
  inb_S1x128x8192_S1x1x8192_0_52_0 : ∀ a, (![0, 52, 0] : Fin 3 → Nat) a + S1x1x8192.size a ≤ S1x128x8192.size a
  inb_S1x128x8192_S1x1x8192_0_53_0 : ∀ a, (![0, 53, 0] : Fin 3 → Nat) a + S1x1x8192.size a ≤ S1x128x8192.size a
  inb_S1x128x8192_S1x1x8192_0_54_0 : ∀ a, (![0, 54, 0] : Fin 3 → Nat) a + S1x1x8192.size a ≤ S1x128x8192.size a
  inb_S1x128x8192_S1x1x8192_0_55_0 : ∀ a, (![0, 55, 0] : Fin 3 → Nat) a + S1x1x8192.size a ≤ S1x128x8192.size a
  inb_S1x128x8192_S1x1x8192_0_56_0 : ∀ a, (![0, 56, 0] : Fin 3 → Nat) a + S1x1x8192.size a ≤ S1x128x8192.size a
  inb_S1x128x8192_S1x1x8192_0_57_0 : ∀ a, (![0, 57, 0] : Fin 3 → Nat) a + S1x1x8192.size a ≤ S1x128x8192.size a
  inb_S1x128x8192_S1x1x8192_0_58_0 : ∀ a, (![0, 58, 0] : Fin 3 → Nat) a + S1x1x8192.size a ≤ S1x128x8192.size a
  inb_S1x128x8192_S1x1x8192_0_59_0 : ∀ a, (![0, 59, 0] : Fin 3 → Nat) a + S1x1x8192.size a ≤ S1x128x8192.size a
  inb_S1x128x8192_S1x1x8192_0_60_0 : ∀ a, (![0, 60, 0] : Fin 3 → Nat) a + S1x1x8192.size a ≤ S1x128x8192.size a
  inb_S1x128x8192_S1x1x8192_0_61_0 : ∀ a, (![0, 61, 0] : Fin 3 → Nat) a + S1x1x8192.size a ≤ S1x128x8192.size a
  inb_S1x128x8192_S1x1x8192_0_62_0 : ∀ a, (![0, 62, 0] : Fin 3 → Nat) a + S1x1x8192.size a ≤ S1x128x8192.size a
  inb_S1x128x8192_S1x1x8192_0_63_0 : ∀ a, (![0, 63, 0] : Fin 3 → Nat) a + S1x1x8192.size a ≤ S1x128x8192.size a
  inb_S1x128x8192_S1x1x8192_0_64_0 : ∀ a, (![0, 64, 0] : Fin 3 → Nat) a + S1x1x8192.size a ≤ S1x128x8192.size a
  inb_S1x128x8192_S1x1x8192_0_65_0 : ∀ a, (![0, 65, 0] : Fin 3 → Nat) a + S1x1x8192.size a ≤ S1x128x8192.size a
  inb_S1x128x8192_S1x1x8192_0_66_0 : ∀ a, (![0, 66, 0] : Fin 3 → Nat) a + S1x1x8192.size a ≤ S1x128x8192.size a
  inb_S1x128x8192_S1x1x8192_0_67_0 : ∀ a, (![0, 67, 0] : Fin 3 → Nat) a + S1x1x8192.size a ≤ S1x128x8192.size a
  inb_S1x128x8192_S1x1x8192_0_68_0 : ∀ a, (![0, 68, 0] : Fin 3 → Nat) a + S1x1x8192.size a ≤ S1x128x8192.size a
  inb_S1x128x8192_S1x1x8192_0_69_0 : ∀ a, (![0, 69, 0] : Fin 3 → Nat) a + S1x1x8192.size a ≤ S1x128x8192.size a
  inb_S1x128x8192_S1x1x8192_0_70_0 : ∀ a, (![0, 70, 0] : Fin 3 → Nat) a + S1x1x8192.size a ≤ S1x128x8192.size a
  inb_S1x128x8192_S1x1x8192_0_71_0 : ∀ a, (![0, 71, 0] : Fin 3 → Nat) a + S1x1x8192.size a ≤ S1x128x8192.size a
  inb_S1x128x8192_S1x1x8192_0_72_0 : ∀ a, (![0, 72, 0] : Fin 3 → Nat) a + S1x1x8192.size a ≤ S1x128x8192.size a
  inb_S1x128x8192_S1x1x8192_0_73_0 : ∀ a, (![0, 73, 0] : Fin 3 → Nat) a + S1x1x8192.size a ≤ S1x128x8192.size a
  inb_S1x128x8192_S1x1x8192_0_74_0 : ∀ a, (![0, 74, 0] : Fin 3 → Nat) a + S1x1x8192.size a ≤ S1x128x8192.size a
  inb_S1x128x8192_S1x1x8192_0_75_0 : ∀ a, (![0, 75, 0] : Fin 3 → Nat) a + S1x1x8192.size a ≤ S1x128x8192.size a
  inb_S1x128x8192_S1x1x8192_0_76_0 : ∀ a, (![0, 76, 0] : Fin 3 → Nat) a + S1x1x8192.size a ≤ S1x128x8192.size a
  inb_S1x128x8192_S1x1x8192_0_77_0 : ∀ a, (![0, 77, 0] : Fin 3 → Nat) a + S1x1x8192.size a ≤ S1x128x8192.size a
  inb_S1x128x8192_S1x1x8192_0_78_0 : ∀ a, (![0, 78, 0] : Fin 3 → Nat) a + S1x1x8192.size a ≤ S1x128x8192.size a
  inb_S1x128x8192_S1x1x8192_0_79_0 : ∀ a, (![0, 79, 0] : Fin 3 → Nat) a + S1x1x8192.size a ≤ S1x128x8192.size a
  inb_S1x128x8192_S1x1x8192_0_80_0 : ∀ a, (![0, 80, 0] : Fin 3 → Nat) a + S1x1x8192.size a ≤ S1x128x8192.size a
  inb_S1x128x8192_S1x1x8192_0_81_0 : ∀ a, (![0, 81, 0] : Fin 3 → Nat) a + S1x1x8192.size a ≤ S1x128x8192.size a
  inb_S1x128x8192_S1x1x8192_0_82_0 : ∀ a, (![0, 82, 0] : Fin 3 → Nat) a + S1x1x8192.size a ≤ S1x128x8192.size a
  inb_S1x128x8192_S1x1x8192_0_83_0 : ∀ a, (![0, 83, 0] : Fin 3 → Nat) a + S1x1x8192.size a ≤ S1x128x8192.size a
  inb_S1x128x8192_S1x1x8192_0_84_0 : ∀ a, (![0, 84, 0] : Fin 3 → Nat) a + S1x1x8192.size a ≤ S1x128x8192.size a
  inb_S1x128x8192_S1x1x8192_0_85_0 : ∀ a, (![0, 85, 0] : Fin 3 → Nat) a + S1x1x8192.size a ≤ S1x128x8192.size a
  inb_S1x128x8192_S1x1x8192_0_86_0 : ∀ a, (![0, 86, 0] : Fin 3 → Nat) a + S1x1x8192.size a ≤ S1x128x8192.size a
  inb_S1x128x8192_S1x1x8192_0_87_0 : ∀ a, (![0, 87, 0] : Fin 3 → Nat) a + S1x1x8192.size a ≤ S1x128x8192.size a
  inb_S1x128x8192_S1x1x8192_0_88_0 : ∀ a, (![0, 88, 0] : Fin 3 → Nat) a + S1x1x8192.size a ≤ S1x128x8192.size a
  inb_S1x128x8192_S1x1x8192_0_89_0 : ∀ a, (![0, 89, 0] : Fin 3 → Nat) a + S1x1x8192.size a ≤ S1x128x8192.size a
  inb_S1x128x8192_S1x1x8192_0_90_0 : ∀ a, (![0, 90, 0] : Fin 3 → Nat) a + S1x1x8192.size a ≤ S1x128x8192.size a
  inb_S1x128x8192_S1x1x8192_0_91_0 : ∀ a, (![0, 91, 0] : Fin 3 → Nat) a + S1x1x8192.size a ≤ S1x128x8192.size a
  inb_S1x128x8192_S1x1x8192_0_92_0 : ∀ a, (![0, 92, 0] : Fin 3 → Nat) a + S1x1x8192.size a ≤ S1x128x8192.size a
  inb_S1x128x8192_S1x1x8192_0_93_0 : ∀ a, (![0, 93, 0] : Fin 3 → Nat) a + S1x1x8192.size a ≤ S1x128x8192.size a
  inb_S1x128x8192_S1x1x8192_0_94_0 : ∀ a, (![0, 94, 0] : Fin 3 → Nat) a + S1x1x8192.size a ≤ S1x128x8192.size a
  inb_S1x128x8192_S1x1x8192_0_95_0 : ∀ a, (![0, 95, 0] : Fin 3 → Nat) a + S1x1x8192.size a ≤ S1x128x8192.size a
  inb_S1x128x8192_S1x1x8192_0_96_0 : ∀ a, (![0, 96, 0] : Fin 3 → Nat) a + S1x1x8192.size a ≤ S1x128x8192.size a
  inb_S1x128x8192_S1x1x8192_0_97_0 : ∀ a, (![0, 97, 0] : Fin 3 → Nat) a + S1x1x8192.size a ≤ S1x128x8192.size a
  inb_S1x128x8192_S1x1x8192_0_98_0 : ∀ a, (![0, 98, 0] : Fin 3 → Nat) a + S1x1x8192.size a ≤ S1x128x8192.size a
  inb_S1x128x8192_S1x1x8192_0_99_0 : ∀ a, (![0, 99, 0] : Fin 3 → Nat) a + S1x1x8192.size a ≤ S1x128x8192.size a
  inb_S1x128x8192_S1x1x8192_0_100_0 : ∀ a, (![0, 100, 0] : Fin 3 → Nat) a + S1x1x8192.size a ≤ S1x128x8192.size a
  inb_S1x128x8192_S1x1x8192_0_101_0 : ∀ a, (![0, 101, 0] : Fin 3 → Nat) a + S1x1x8192.size a ≤ S1x128x8192.size a
  inb_S1x128x8192_S1x1x8192_0_102_0 : ∀ a, (![0, 102, 0] : Fin 3 → Nat) a + S1x1x8192.size a ≤ S1x128x8192.size a
  inb_S1x128x8192_S1x1x8192_0_103_0 : ∀ a, (![0, 103, 0] : Fin 3 → Nat) a + S1x1x8192.size a ≤ S1x128x8192.size a
  inb_S1x128x8192_S1x1x8192_0_104_0 : ∀ a, (![0, 104, 0] : Fin 3 → Nat) a + S1x1x8192.size a ≤ S1x128x8192.size a
  inb_S1x128x8192_S1x1x8192_0_105_0 : ∀ a, (![0, 105, 0] : Fin 3 → Nat) a + S1x1x8192.size a ≤ S1x128x8192.size a
  inb_S1x128x8192_S1x1x8192_0_106_0 : ∀ a, (![0, 106, 0] : Fin 3 → Nat) a + S1x1x8192.size a ≤ S1x128x8192.size a
  inb_S1x128x8192_S1x1x8192_0_107_0 : ∀ a, (![0, 107, 0] : Fin 3 → Nat) a + S1x1x8192.size a ≤ S1x128x8192.size a
  inb_S1x128x8192_S1x1x8192_0_108_0 : ∀ a, (![0, 108, 0] : Fin 3 → Nat) a + S1x1x8192.size a ≤ S1x128x8192.size a
  inb_S1x128x8192_S1x1x8192_0_109_0 : ∀ a, (![0, 109, 0] : Fin 3 → Nat) a + S1x1x8192.size a ≤ S1x128x8192.size a
  inb_S1x128x8192_S1x1x8192_0_110_0 : ∀ a, (![0, 110, 0] : Fin 3 → Nat) a + S1x1x8192.size a ≤ S1x128x8192.size a
  inb_S1x128x8192_S1x1x8192_0_111_0 : ∀ a, (![0, 111, 0] : Fin 3 → Nat) a + S1x1x8192.size a ≤ S1x128x8192.size a
  inb_S1x128x8192_S1x1x8192_0_112_0 : ∀ a, (![0, 112, 0] : Fin 3 → Nat) a + S1x1x8192.size a ≤ S1x128x8192.size a
  inb_S1x128x8192_S1x1x8192_0_113_0 : ∀ a, (![0, 113, 0] : Fin 3 → Nat) a + S1x1x8192.size a ≤ S1x128x8192.size a
  inb_S1x128x8192_S1x1x8192_0_114_0 : ∀ a, (![0, 114, 0] : Fin 3 → Nat) a + S1x1x8192.size a ≤ S1x128x8192.size a
  inb_S1x128x8192_S1x1x8192_0_115_0 : ∀ a, (![0, 115, 0] : Fin 3 → Nat) a + S1x1x8192.size a ≤ S1x128x8192.size a
  inb_S1x128x8192_S1x1x8192_0_116_0 : ∀ a, (![0, 116, 0] : Fin 3 → Nat) a + S1x1x8192.size a ≤ S1x128x8192.size a
  inb_S1x128x8192_S1x1x8192_0_117_0 : ∀ a, (![0, 117, 0] : Fin 3 → Nat) a + S1x1x8192.size a ≤ S1x128x8192.size a
  inb_S1x128x8192_S1x1x8192_0_118_0 : ∀ a, (![0, 118, 0] : Fin 3 → Nat) a + S1x1x8192.size a ≤ S1x128x8192.size a
  inb_S1x128x8192_S1x1x8192_0_119_0 : ∀ a, (![0, 119, 0] : Fin 3 → Nat) a + S1x1x8192.size a ≤ S1x128x8192.size a
  inb_S1x128x8192_S1x1x8192_0_120_0 : ∀ a, (![0, 120, 0] : Fin 3 → Nat) a + S1x1x8192.size a ≤ S1x128x8192.size a
  inb_S1x128x8192_S1x1x8192_0_121_0 : ∀ a, (![0, 121, 0] : Fin 3 → Nat) a + S1x1x8192.size a ≤ S1x128x8192.size a
  inb_S1x128x8192_S1x1x8192_0_122_0 : ∀ a, (![0, 122, 0] : Fin 3 → Nat) a + S1x1x8192.size a ≤ S1x128x8192.size a
  inb_S1x128x8192_S1x1x8192_0_123_0 : ∀ a, (![0, 123, 0] : Fin 3 → Nat) a + S1x1x8192.size a ≤ S1x128x8192.size a
  inb_S1x128x8192_S1x1x8192_0_124_0 : ∀ a, (![0, 124, 0] : Fin 3 → Nat) a + S1x1x8192.size a ≤ S1x128x8192.size a
  inb_S1x128x8192_S1x1x8192_0_125_0 : ∀ a, (![0, 125, 0] : Fin 3 → Nat) a + S1x1x8192.size a ≤ S1x128x8192.size a
  inb_S1x128x8192_S1x1x8192_0_126_0 : ∀ a, (![0, 126, 0] : Fin 3 → Nat) a + S1x1x8192.size a ≤ S1x128x8192.size a
  inb_S1x128x8192_S1x1x8192_0_127_0 : ∀ a, (![0, 127, 0] : Fin 3 → Nat) a + S1x1x8192.size a ≤ S1x128x8192.size a
  hcc1_scratch1 : 10 + S2.numel ≤ 12
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x8192.size a
  hwx0_0 : ∀ i : grid0.Coords, EltTy.bits .f32 = 32 ∨ (Rect.block (s := S8192x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x8192.size a
  hwx0_1 : ∀ i : grid0.Coords, EltTy.bits .f32 = 32 ∨ (Rect.block (s := S8192x8192) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)
  hrank1 : 0 < grid1.rank
  k1_off1_inb : ∀ i : grid1.Coords, ∀ a, (k1_off1 i) a + S1x1.size a ≤ S4x4096.size a
  k1_off3_inb : ∀ i : grid1.Coords, ∀ a, (k1_off3 i) a + S1x1.size a ≤ S4x4096.size a
  k1_off5_inb : ∀ i : grid1.Coords, ∀ a, (k1_off5 i) a + S1x1.size a ≤ S4x4096.size a
  k1_off7_inb : ∀ i : grid1.Coords, ∀ a, (k1_off7 i) a + S1x1.size a ≤ S4x4096.size a
  k1_off9_inb : ∀ i : grid1.Coords, ∀ a, (k1_off9 i) a + S1x1.size a ≤ S4x4096.size a
  k1_off11_inb : ∀ i : grid1.Coords, ∀ a, (k1_off11 i) a + S1x1.size a ≤ S4x4096.size a
  k1_off13_inb : ∀ i : grid1.Coords, ∀ a, (k1_off13 i) a + S1x1.size a ≤ S4x4096.size a
  k1_off15_inb : ∀ i : grid1.Coords, ∀ a, (k1_off15 i) a + S1x1.size a ≤ S4x4096.size a
  k1_off17_inb : ∀ i : grid1.Coords, ∀ a, (k1_off17 i) a + S1x1.size a ≤ S4x4096.size a
  k1_off19_inb : ∀ i : grid1.Coords, ∀ a, (k1_off19 i) a + S1x1.size a ≤ S4x4096.size a
  k1_off21_inb : ∀ i : grid1.Coords, ∀ a, (k1_off21 i) a + S1x1.size a ≤ S4x4096.size a
  k1_off23_inb : ∀ i : grid1.Coords, ∀ a, (k1_off23 i) a + S1x1.size a ≤ S4x4096.size a
  k1_off25_inb : ∀ i : grid1.Coords, ∀ a, (k1_off25 i) a + S1x1.size a ≤ S4x4096.size a
  k1_off27_inb : ∀ i : grid1.Coords, ∀ a, (k1_off27 i) a + S1x1.size a ≤ S4x4096.size a
  k1_off29_inb : ∀ i : grid1.Coords, ∀ a, (k1_off29 i) a + S1x1.size a ≤ S4x4096.size a
  k1_off31_inb : ∀ i : grid1.Coords, ∀ a, (k1_off31 i) a + S1x1.size a ≤ S4x4096.size a
  k1_off33_inb : ∀ i : grid1.Coords, ∀ a, (k1_off33 i) a + S1x1.size a ≤ S4x4096.size a
  k1_off35_inb : ∀ i : grid1.Coords, ∀ a, (k1_off35 i) a + S1x1.size a ≤ S4x4096.size a
  k1_off37_inb : ∀ i : grid1.Coords, ∀ a, (k1_off37 i) a + S1x1.size a ≤ S4x4096.size a
  k1_off39_inb : ∀ i : grid1.Coords, ∀ a, (k1_off39 i) a + S1x1.size a ≤ S4x4096.size a
  k1_off41_inb : ∀ i : grid1.Coords, ∀ a, (k1_off41 i) a + S1x1.size a ≤ S4x4096.size a
  k1_off43_inb : ∀ i : grid1.Coords, ∀ a, (k1_off43 i) a + S1x1.size a ≤ S4x4096.size a
  k1_off45_inb : ∀ i : grid1.Coords, ∀ a, (k1_off45 i) a + S1x1.size a ≤ S4x4096.size a
  k1_off47_inb : ∀ i : grid1.Coords, ∀ a, (k1_off47 i) a + S1x1.size a ≤ S4x4096.size a
  k1_off49_inb : ∀ i : grid1.Coords, ∀ a, (k1_off49 i) a + S1x1.size a ≤ S4x4096.size a
  k1_off51_inb : ∀ i : grid1.Coords, ∀ a, (k1_off51 i) a + S1x1.size a ≤ S4x4096.size a
  k1_off53_inb : ∀ i : grid1.Coords, ∀ a, (k1_off53 i) a + S1x1.size a ≤ S4x4096.size a
  k1_off55_inb : ∀ i : grid1.Coords, ∀ a, (k1_off55 i) a + S1x1.size a ≤ S4x4096.size a
  k1_off57_inb : ∀ i : grid1.Coords, ∀ a, (k1_off57 i) a + S1x1.size a ≤ S4x4096.size a
  k1_off59_inb : ∀ i : grid1.Coords, ∀ a, (k1_off59 i) a + S1x1.size a ≤ S4x4096.size a
  k1_off61_inb : ∀ i : grid1.Coords, ∀ a, (k1_off61 i) a + S1x1.size a ≤ S4x4096.size a
  k1_off63_inb : ∀ i : grid1.Coords, ∀ a, (k1_off63 i) a + S1x1.size a ≤ S4x4096.size a
  k1_off65_inb : ∀ i : grid1.Coords, ∀ a, (k1_off65 i) a + S1x1.size a ≤ S4x4096.size a
  k1_off67_inb : ∀ i : grid1.Coords, ∀ a, (k1_off67 i) a + S1x1.size a ≤ S4x4096.size a
  k1_off69_inb : ∀ i : grid1.Coords, ∀ a, (k1_off69 i) a + S1x1.size a ≤ S4x4096.size a
  k1_off71_inb : ∀ i : grid1.Coords, ∀ a, (k1_off71 i) a + S1x1.size a ≤ S4x4096.size a
  k1_off73_inb : ∀ i : grid1.Coords, ∀ a, (k1_off73 i) a + S1x1.size a ≤ S4x4096.size a
  k1_off75_inb : ∀ i : grid1.Coords, ∀ a, (k1_off75 i) a + S1x1.size a ≤ S4x4096.size a
  k1_off77_inb : ∀ i : grid1.Coords, ∀ a, (k1_off77 i) a + S1x1.size a ≤ S4x4096.size a
  k1_off79_inb : ∀ i : grid1.Coords, ∀ a, (k1_off79 i) a + S1x1.size a ≤ S4x4096.size a
  k1_off81_inb : ∀ i : grid1.Coords, ∀ a, (k1_off81 i) a + S1x1.size a ≤ S4x4096.size a
  k1_off83_inb : ∀ i : grid1.Coords, ∀ a, (k1_off83 i) a + S1x1.size a ≤ S4x4096.size a
  k1_off85_inb : ∀ i : grid1.Coords, ∀ a, (k1_off85 i) a + S1x1.size a ≤ S4x4096.size a
  k1_off87_inb : ∀ i : grid1.Coords, ∀ a, (k1_off87 i) a + S1x1.size a ≤ S4x4096.size a
  k1_off89_inb : ∀ i : grid1.Coords, ∀ a, (k1_off89 i) a + S1x1.size a ≤ S4x4096.size a
  k1_off91_inb : ∀ i : grid1.Coords, ∀ a, (k1_off91 i) a + S1x1.size a ≤ S4x4096.size a
  k1_off93_inb : ∀ i : grid1.Coords, ∀ a, (k1_off93 i) a + S1x1.size a ≤ S4x4096.size a
  k1_off95_inb : ∀ i : grid1.Coords, ∀ a, (k1_off95 i) a + S1x1.size a ≤ S4x4096.size a
  k1_off97_inb : ∀ i : grid1.Coords, ∀ a, (k1_off97 i) a + S1x1.size a ≤ S4x4096.size a
  k1_off99_inb : ∀ i : grid1.Coords, ∀ a, (k1_off99 i) a + S1x1.size a ≤ S4x4096.size a
  k1_off101_inb : ∀ i : grid1.Coords, ∀ a, (k1_off101 i) a + S1x1.size a ≤ S4x4096.size a
  k1_off103_inb : ∀ i : grid1.Coords, ∀ a, (k1_off103 i) a + S1x1.size a ≤ S4x4096.size a
  k1_off105_inb : ∀ i : grid1.Coords, ∀ a, (k1_off105 i) a + S1x1.size a ≤ S4x4096.size a
  k1_off107_inb : ∀ i : grid1.Coords, ∀ a, (k1_off107 i) a + S1x1.size a ≤ S4x4096.size a
  k1_off109_inb : ∀ i : grid1.Coords, ∀ a, (k1_off109 i) a + S1x1.size a ≤ S4x4096.size a
  k1_off111_inb : ∀ i : grid1.Coords, ∀ a, (k1_off111 i) a + S1x1.size a ≤ S4x4096.size a
  k1_off113_inb : ∀ i : grid1.Coords, ∀ a, (k1_off113 i) a + S1x1.size a ≤ S4x4096.size a
  k1_off115_inb : ∀ i : grid1.Coords, ∀ a, (k1_off115 i) a + S1x1.size a ≤ S4x4096.size a
  k1_off117_inb : ∀ i : grid1.Coords, ∀ a, (k1_off117 i) a + S1x1.size a ≤ S4x4096.size a
  k1_off119_inb : ∀ i : grid1.Coords, ∀ a, (k1_off119 i) a + S1x1.size a ≤ S4x4096.size a
  k1_off121_inb : ∀ i : grid1.Coords, ∀ a, (k1_off121 i) a + S1x1.size a ≤ S4x4096.size a
  k1_off123_inb : ∀ i : grid1.Coords, ∀ a, (k1_off123 i) a + S1x1.size a ≤ S4x4096.size a
  k1_off125_inb : ∀ i : grid1.Coords, ∀ a, (k1_off125 i) a + S1x1.size a ≤ S4x4096.size a
  k1_off127_inb : ∀ i : grid1.Coords, ∀ a, (k1_off127 i) a + S1x1.size a ≤ S4x4096.size a
  k1_off129_inb : ∀ i : grid1.Coords, ∀ a, (k1_off129 i) a + S1x1.size a ≤ S4x4096.size a
  k1_off131_inb : ∀ i : grid1.Coords, ∀ a, (k1_off131 i) a + S1x1.size a ≤ S4x4096.size a
  k1_off133_inb : ∀ i : grid1.Coords, ∀ a, (k1_off133 i) a + S1x1.size a ≤ S4x4096.size a
  k1_off135_inb : ∀ i : grid1.Coords, ∀ a, (k1_off135 i) a + S1x1.size a ≤ S4x4096.size a
  k1_off137_inb : ∀ i : grid1.Coords, ∀ a, (k1_off137 i) a + S1x1.size a ≤ S4x4096.size a
  k1_off139_inb : ∀ i : grid1.Coords, ∀ a, (k1_off139 i) a + S1x1.size a ≤ S4x4096.size a
  k1_off141_inb : ∀ i : grid1.Coords, ∀ a, (k1_off141 i) a + S1x1.size a ≤ S4x4096.size a
  k1_off143_inb : ∀ i : grid1.Coords, ∀ a, (k1_off143 i) a + S1x1.size a ≤ S4x4096.size a
  k1_off145_inb : ∀ i : grid1.Coords, ∀ a, (k1_off145 i) a + S1x1.size a ≤ S4x4096.size a
  k1_off147_inb : ∀ i : grid1.Coords, ∀ a, (k1_off147 i) a + S1x1.size a ≤ S4x4096.size a
  k1_off149_inb : ∀ i : grid1.Coords, ∀ a, (k1_off149 i) a + S1x1.size a ≤ S4x4096.size a
  k1_off151_inb : ∀ i : grid1.Coords, ∀ a, (k1_off151 i) a + S1x1.size a ≤ S4x4096.size a
  k1_off153_inb : ∀ i : grid1.Coords, ∀ a, (k1_off153 i) a + S1x1.size a ≤ S4x4096.size a
  k1_off155_inb : ∀ i : grid1.Coords, ∀ a, (k1_off155 i) a + S1x1.size a ≤ S4x4096.size a
  k1_off157_inb : ∀ i : grid1.Coords, ∀ a, (k1_off157 i) a + S1x1.size a ≤ S4x4096.size a
  k1_off159_inb : ∀ i : grid1.Coords, ∀ a, (k1_off159 i) a + S1x1.size a ≤ S4x4096.size a
  k1_off161_inb : ∀ i : grid1.Coords, ∀ a, (k1_off161 i) a + S1x1.size a ≤ S4x4096.size a
  k1_off163_inb : ∀ i : grid1.Coords, ∀ a, (k1_off163 i) a + S1x1.size a ≤ S4x4096.size a
  k1_off165_inb : ∀ i : grid1.Coords, ∀ a, (k1_off165 i) a + S1x1.size a ≤ S4x4096.size a
  k1_off167_inb : ∀ i : grid1.Coords, ∀ a, (k1_off167 i) a + S1x1.size a ≤ S4x4096.size a
  k1_off169_inb : ∀ i : grid1.Coords, ∀ a, (k1_off169 i) a + S1x1.size a ≤ S4x4096.size a
  k1_off171_inb : ∀ i : grid1.Coords, ∀ a, (k1_off171 i) a + S1x1.size a ≤ S4x4096.size a
  k1_off173_inb : ∀ i : grid1.Coords, ∀ a, (k1_off173 i) a + S1x1.size a ≤ S4x4096.size a
  k1_off175_inb : ∀ i : grid1.Coords, ∀ a, (k1_off175 i) a + S1x1.size a ≤ S4x4096.size a
  k1_off177_inb : ∀ i : grid1.Coords, ∀ a, (k1_off177 i) a + S1x1.size a ≤ S4x4096.size a
  k1_off179_inb : ∀ i : grid1.Coords, ∀ a, (k1_off179 i) a + S1x1.size a ≤ S4x4096.size a
  k1_off181_inb : ∀ i : grid1.Coords, ∀ a, (k1_off181 i) a + S1x1.size a ≤ S4x4096.size a
  k1_off183_inb : ∀ i : grid1.Coords, ∀ a, (k1_off183 i) a + S1x1.size a ≤ S4x4096.size a
  k1_off185_inb : ∀ i : grid1.Coords, ∀ a, (k1_off185 i) a + S1x1.size a ≤ S4x4096.size a
  k1_off187_inb : ∀ i : grid1.Coords, ∀ a, (k1_off187 i) a + S1x1.size a ≤ S4x4096.size a
  k1_off189_inb : ∀ i : grid1.Coords, ∀ a, (k1_off189 i) a + S1x1.size a ≤ S4x4096.size a
  k1_off191_inb : ∀ i : grid1.Coords, ∀ a, (k1_off191 i) a + S1x1.size a ≤ S4x4096.size a
  k1_off193_inb : ∀ i : grid1.Coords, ∀ a, (k1_off193 i) a + S1x1.size a ≤ S4x4096.size a
  k1_off195_inb : ∀ i : grid1.Coords, ∀ a, (k1_off195 i) a + S1x1.size a ≤ S4x4096.size a
  k1_off197_inb : ∀ i : grid1.Coords, ∀ a, (k1_off197 i) a + S1x1.size a ≤ S4x4096.size a
  k1_off199_inb : ∀ i : grid1.Coords, ∀ a, (k1_off199 i) a + S1x1.size a ≤ S4x4096.size a
  k1_off201_inb : ∀ i : grid1.Coords, ∀ a, (k1_off201 i) a + S1x1.size a ≤ S4x4096.size a
  k1_off203_inb : ∀ i : grid1.Coords, ∀ a, (k1_off203 i) a + S1x1.size a ≤ S4x4096.size a
  k1_off205_inb : ∀ i : grid1.Coords, ∀ a, (k1_off205 i) a + S1x1.size a ≤ S4x4096.size a
  k1_off207_inb : ∀ i : grid1.Coords, ∀ a, (k1_off207 i) a + S1x1.size a ≤ S4x4096.size a
  k1_off209_inb : ∀ i : grid1.Coords, ∀ a, (k1_off209 i) a + S1x1.size a ≤ S4x4096.size a
  k1_off211_inb : ∀ i : grid1.Coords, ∀ a, (k1_off211 i) a + S1x1.size a ≤ S4x4096.size a
  k1_off213_inb : ∀ i : grid1.Coords, ∀ a, (k1_off213 i) a + S1x1.size a ≤ S4x4096.size a
  k1_off215_inb : ∀ i : grid1.Coords, ∀ a, (k1_off215 i) a + S1x1.size a ≤ S4x4096.size a
  k1_off217_inb : ∀ i : grid1.Coords, ∀ a, (k1_off217 i) a + S1x1.size a ≤ S4x4096.size a
  k1_off219_inb : ∀ i : grid1.Coords, ∀ a, (k1_off219 i) a + S1x1.size a ≤ S4x4096.size a
  k1_off221_inb : ∀ i : grid1.Coords, ∀ a, (k1_off221 i) a + S1x1.size a ≤ S4x4096.size a
  k1_off223_inb : ∀ i : grid1.Coords, ∀ a, (k1_off223 i) a + S1x1.size a ≤ S4x4096.size a
  k1_off225_inb : ∀ i : grid1.Coords, ∀ a, (k1_off225 i) a + S1x1.size a ≤ S4x4096.size a
  k1_off227_inb : ∀ i : grid1.Coords, ∀ a, (k1_off227 i) a + S1x1.size a ≤ S4x4096.size a
  k1_off229_inb : ∀ i : grid1.Coords, ∀ a, (k1_off229 i) a + S1x1.size a ≤ S4x4096.size a
  k1_off231_inb : ∀ i : grid1.Coords, ∀ a, (k1_off231 i) a + S1x1.size a ≤ S4x4096.size a
  k1_off233_inb : ∀ i : grid1.Coords, ∀ a, (k1_off233 i) a + S1x1.size a ≤ S4x4096.size a
  k1_off235_inb : ∀ i : grid1.Coords, ∀ a, (k1_off235 i) a + S1x1.size a ≤ S4x4096.size a
  k1_off237_inb : ∀ i : grid1.Coords, ∀ a, (k1_off237 i) a + S1x1.size a ≤ S4x4096.size a
  k1_off239_inb : ∀ i : grid1.Coords, ∀ a, (k1_off239 i) a + S1x1.size a ≤ S4x4096.size a
  k1_off241_inb : ∀ i : grid1.Coords, ∀ a, (k1_off241 i) a + S1x1.size a ≤ S4x4096.size a
  k1_off243_inb : ∀ i : grid1.Coords, ∀ a, (k1_off243 i) a + S1x1.size a ≤ S4x4096.size a
  k1_off245_inb : ∀ i : grid1.Coords, ∀ a, (k1_off245 i) a + S1x1.size a ≤ S4x4096.size a
  k1_off247_inb : ∀ i : grid1.Coords, ∀ a, (k1_off247 i) a + S1x1.size a ≤ S4x4096.size a
  k1_off249_inb : ∀ i : grid1.Coords, ∀ a, (k1_off249 i) a + S1x1.size a ≤ S4x4096.size a
  k1_off251_inb : ∀ i : grid1.Coords, ∀ a, (k1_off251 i) a + S1x1.size a ≤ S4x4096.size a
  k1_off253_inb : ∀ i : grid1.Coords, ∀ a, (k1_off253 i) a + S1x1.size a ≤ S4x4096.size a
  k1_off255_inb : ∀ i : grid1.Coords, ∀ a, (k1_off255 i) a + S1x1.size a ≤ S4x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x8192.size a ≤ S4x1x8192.size a
  hwx1_0 : ∀ i : grid1.Coords, EltTy.bits .f32 = 32 ∨ (Rect.block (s := S4x1x8192) S1x1x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S1x128x8192.size a ≤ S4x4096x8192.size a
  hwx1_1 : ∀ i : grid1.Coords, EltTy.bits .f32 = 32 ∨ (Rect.block (s := S4x4096x8192) S1x128x8192.size (cc1_transform_2 i) (hinb1_1 i)).WholeWords (EltTy.packing .f32)

variable [Facts₀]

abbrev cc1_scratch1 : DmaSems sig S2 := SemArray.consecutive 10 S2 hcc1_scratch1

abbrev win0_0 : Pipeline.Window sig grid0 :=
  Pipeline.Window.ofSpec (Memref.whole main_arg2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S512x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev spec1_0 : Pipeline.WinSpec sig grid1.rank :=
  Pipeline.WinSpec.ofSpec (Memref.whole main_v12) S1x1x8192.size reads1_0 false false 2 stage1_0 sem1_0 nbuf1_0 hstage1_0

abbrev spec1_1 : Pipeline.WinSpec sig grid1.rank :=
  Pipeline.WinSpec.ofSpec (Memref.whole main_v13) S1x128x8192.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))

class Facts : Prop extends Facts₀ where
  harr1 : ∀ w, (spec1 w).arr.IsWhole

variable [Facts]
-- ==== ReferenceIdeal.lean ====
abbrev S4x4096 : Shape := ⟨2, ![4, 4096]⟩
abbrev S4 : Shape := ⟨1, ![4]⟩
abbrev S8192x8192 : Shape := ⟨2, ![8192, 8192]⟩
abbrev S8192 : Shape := ⟨1, ![8192]⟩
abbrev S_ : Shape := ⟨0, ![]⟩
abbrev S4x4096x1 : Shape := ⟨3, ![4, 4096, 1]⟩
abbrev S4x4096x8192 : Shape := ⟨3, ![4, 4096, 8192]⟩
abbrev S4x1x1 : Shape := ⟨3, ![4, 1, 1]⟩
abbrev S1x1x8192 : Shape := ⟨3, ![1, 1, 8192]⟩
abbrev S4x1x8192 : Shape := ⟨3, ![4, 1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S4, .f32⟩
  | .hbm, ⟨2, _⟩ => ⟨S8192x8192, .f32⟩
  | .hbm, ⟨3, _⟩ => ⟨S8192, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4x4096, .i32⟩
  | .hbm, ⟨8, _⟩ => ⟨S4x4096, .i32⟩
  | .hbm, ⟨9, _⟩ => ⟨S_, .i32⟩
  | .hbm, ⟨10, _⟩ => ⟨S4x4096, .i32⟩
  | .hbm, ⟨11, _⟩ => ⟨S4x4096, .i32⟩
  | .hbm, ⟨12, _⟩ => ⟨S8192x8192, .f32⟩
  | .hbm, ⟨13, _⟩ => ⟨S_, .i32⟩
  | .hbm, ⟨14, _⟩ => ⟨S4x4096, .i32⟩
  | .hbm, ⟨15, _⟩ => ⟨S4x4096, .i1⟩
  | .hbm, ⟨16, _⟩ => ⟨S_, .i32⟩
  | .hbm, ⟨17, _⟩ => ⟨S4x4096, .i32⟩
  | .hbm, ⟨18, _⟩ => ⟨S4x4096, .i32⟩
  | .hbm, ⟨19, _⟩ => ⟨S4x4096, .i32⟩
  | .hbm, ⟨20, _⟩ => ⟨S4x4096x1, .i32⟩
  | .hbm, ⟨21, _⟩ => ⟨S4x4096x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S4x1x1, .f32⟩
  | .hbm, ⟨28, _⟩ => ⟨S1x1x8192, .f32⟩
  | .hbm, ⟨29, _⟩ => ⟨S4x1x8192, .f32⟩
  | .hbm, ⟨30, _⟩ => ⟨S4x1x8192, .f32⟩
  | .hbm, ⟨31, _⟩ => ⟨S4x1x8192, .f32⟩
  | .hbm, ⟨32, _⟩ => ⟨S4x4096x8192, .f32⟩
  | .hbm, ⟨33, _⟩ => ⟨S4x4096x8192, .f32⟩
  | .hbm, ⟨34, _⟩ => ⟨S1x1x8192, .f32⟩
  | .hbm, ⟨35, _⟩ => ⟨S4x4096x8192, .f32⟩
  | .hbm, ⟨36, _⟩ => ⟨S4x4096x8192, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  transposes_S8192x8192_S8192x8192_1_0 : S8192x8192.Transposes [1, 0] S8192x8192
  bcast_S4x4096_S4x4096x1_0_1 : S4x4096.BroadcastsInDim S4x4096x1 (![0, 1] : Fin 2 → Fin S4x4096x1.rank)
  reducesTo_S8192x8192_S8192_d1 : S8192x8192.ReducesTo [1] S8192
  h_S_ : 0 < S_.numel
  bcast_S_S4 : S_.BroadcastsInDim S4 (![] : Fin 0 → Fin S4.rank)
  bcast_S4_S4x1x1_0 : S4.BroadcastsInDim S4x1x1 (![0] : Fin 1 → Fin S4x1x1.rank)
  bcast_S8192_S1x1x8192_2 : S8192.BroadcastsInDim S1x1x8192 (![2] : Fin 1 → Fin S1x1x8192.rank)
  bcast_S4x1x1_S4x1x8192_0_1_2 : S4x1x1.BroadcastsInDim S4x1x8192 (![0, 1, 2] : Fin 3 → Fin S4x1x8192.rank)
  bcast_S1x1x8192_S4x1x8192_0_1_2 : S1x1x8192.BroadcastsInDim S4x1x8192 (![0, 1, 2] : Fin 3 → Fin S4x1x8192.rank)
  bcast_S4x1x8192_S4x4096x8192_0_1_2 : S4x1x8192.BroadcastsInDim S4x4096x8192 (![0, 1, 2] : Fin 3 → Fin S4x4096x8192.rank)
  bcast_S1x1x8192_S4x4096x8192_0_1_2 : S1x1x8192.BroadcastsInDim S4x4096x8192 (![0, 1, 2] : Fin 3 → Fin S4x4096x8192.rank)
  gather_S8192x8192_S4x4096x1_S4x4096x8192_2_0_n_n_0_2_18192_wf : GatherDims.WF S8192x8192 S4x4096x1 S4x4096x8192 [2] [0] [] [0] [] 2 ![1, 8192]

variable [Facts₀]

def gather_S8192x8192_S4x4096x1_S4x4096x8192_2_0_n_n_0_2_18192 : GatherDims S8192x8192 S4x4096x1 S4x4096x8192 where
  offsetDims := [2]
  collapsedSliceDims := [0]
  operandBatchingDims := []
  startIndicesBatchingDims := []
  startIndexMap := [0]
  indexVectorDim := 2
  sliceSizes := ![1, 8192]
  wf := gather_S8192x8192_S4x4096x1_S4x4096x8192_2_0_n_n_0_2_18192_wf

class Facts : Prop extends Facts₀ where

variable [Facts]
-- ==== Proof.K.Alg.lean ====
/-
  The resource algebra and the buffer notation shared by the hand modules of this program: the pipeline
  library's rounds algebra for the staging cells beside the counters that the gather kernel's own row
  copies take their tokens from; a memref's buffer held whole at given contents.
-/
import proofs.«421918_j29918742184132_1_alg».proof.Proof.Gen.Kernel
import Idealize.ShloMosaic.Lib.Tactic
import Idealize.ShloMosaic.Lib.Pipeline.Kit

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds algebra (staging cells) beside the transfer counters (the kernel's own copies). -/
abbrev UU (nD : Nat) (τ : Topo) : Type := UR sig nD τ × Counters

/-- The separation-logic model every statement of these modules lives in. -/
abbrev MM (F : FTy → Type) [FloatOps F] : Type := MT nD τ sig Unit (Elt F) ℕ (UU nD τ) ℕ

/-- The contents type of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c` held whole at contents `f`. -/
abbrev pt (c : Dev nD) {sp : Space} {S : Shape} {e : EltTy} (M : Memref sig .tc sp S e) (f : Bf (F := F) c M) :
    sProp (MM F) :=
  M.view.loc (c : Thread nD τ) ↦{fullShare} f

/-- The pipeline library's algebra is the left component. -/
abbrev EP : Emb (UR sig nD τ) (MM F) := embL

end Cert.Kernel.Hand

end
-- ==== Proof.K.Body0.lean ====
/-
  The transpose / row-sum kernel's body, run once at symbolic operands in each of its three control cases
  (first column block: the accumulator is reset; a middle one; the last: the accumulator is written out).
  What it leaves in the transposed block's buffer, the accumulator and (last case) the row-sum block's
  buffer are the witnesses the run finds, terms over the input block `x` and the accumulator `s`.
-/
import proofs.«421918_j29918742184132_1_alg».proof.Proof.K.Alg

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The first conditional's condition, as the body computes it: the column-block coordinate is zero. -/
abbrev cond1 (i : grid0.Coords) : BitVec 1 := Scalar.cmpi .ne (Scalar.extui (Scalar.cmpi .eq (BitVec.ofNat 32 (i 1).val) (0#32 : BitVec 32))) (0#32 : BitVec 32)

set_option maxHeartbeats 1600000 in
/-- First column block (reset, no write-out). -/
noncomputable def run0_first (c : Dev nD) (i : grid0.Coords) (hc1 : cond1 i = 1#1) (hc2 : ¬ k0_cond2 i = 1#1)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (x : Bf (F := F) c M2) :
    { W : Bf (F := F) c M3 × Bf (F := F) c M5 //
      ∀ (y : Bf (F := F) c M3) (z : Bf (F := F) c M4) (s : Bf (F := F) c M5) (E : Set ℕ) (Q : PUnit → sProp (MM F)),
        iprop(pt c M2 x ∗ pt c M3 y ∗ pt c M4 z ∗ pt c M5 s
          ∗ (iprop(pt c M2 x ∗ pt c M3 W.1 ∗ pt c M4 z ∗ pt c M5 W.2) -∗ Q ⟨⟩))
        ⊢ wp frame (wpE (defs₀ (F := F)) Variants.none c none) E
            (cc0_transpose_colsum_kernel i M2 h2 M3 h3 M4 h4 M5 h5) Q } := by
  refine ⟨⟨?_, ?_⟩, fun y z s E Q => ?run⟩
  case run =>
    iintro ⟨H2, H3, H4, H5, Hk⟩
    sl_exec! (disch := first | exact hc1 | exact hc2)
    sl_step
    iapply Hk
    isplitl [H2]; · iexact H2
    isplitl [H3]; · iexact H3
    isplitl [H4]; · iexact H4
    iexact H5

set_option maxHeartbeats 1600000 in
/-- A middle column block (no reset, no write-out): the accumulator `s` is added to. -/
noncomputable def run0_mid (c : Dev nD) (i : grid0.Coords) (hc1 : ¬ cond1 i = 1#1) (hc2 : ¬ k0_cond2 i = 1#1)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (x : Bf (F := F) c M2) (s : Bf (F := F) c M5) :
    { W : Bf (F := F) c M3 × Bf (F := F) c M5 //
      ∀ (y : Bf (F := F) c M3) (z : Bf (F := F) c M4) (E : Set ℕ) (Q : PUnit → sProp (MM F)),
        iprop(pt c M2 x ∗ pt c M3 y ∗ pt c M4 z ∗ pt c M5 s
          ∗ (iprop(pt c M2 x ∗ pt c M3 W.1 ∗ pt c M4 z ∗ pt c M5 W.2) -∗ Q ⟨⟩))
        ⊢ wp frame (wpE (defs₀ (F := F)) Variants.none c none) E
            (cc0_transpose_colsum_kernel i M2 h2 M3 h3 M4 h4 M5 h5) Q } := by
  refine ⟨⟨?_, ?_⟩, fun y z E Q => ?run⟩
  case run =>
    iintro ⟨H2, H3, H4, H5, Hk⟩
    sl_exec! (disch := first | exact hc1 | exact hc2)
    sl_step
    iapply Hk
    isplitl [H2]; · iexact H2
    isplitl [H3]; · iexact H3
    isplitl [H4]; · iexact H4
    iexact H5

set_option maxHeartbeats 1600000 in
/-- The last column block (no reset; the accumulator, added to, is copied into the row-sum block's buffer). -/
noncomputable def run0_last (c : Dev nD) (i : grid0.Coords) (hc1 : ¬ cond1 i = 1#1) (hc2 : k0_cond2 i = 1#1)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (x : Bf (F := F) c M2) (s : Bf (F := F) c M5) :
    { W : Bf (F := F) c M3 × Bf (F := F) c M4 × Bf (F := F) c M5 //
      ∀ (y : Bf (F := F) c M3) (z : Bf (F := F) c M4) (E : Set ℕ) (Q : PUnit → sProp (MM F)),
        iprop(pt c M2 x ∗ pt c M3 y ∗ pt c M4 z ∗ pt c M5 s
          ∗ (iprop(pt c M2 x ∗ pt c M3 W.1 ∗ pt c M4 W.2.1 ∗ pt c M5 W.2.2) -∗ Q ⟨⟩))
        ⊢ wp frame (wpE (defs₀ (F := F)) Variants.none c none) E
            (cc0_transpose_colsum_kernel i M2 h2 M3 h3 M4 h4 M5 h5) Q } := by
  refine ⟨⟨?_, ?_, ?_⟩, fun y z E Q => ?run⟩
  case run =>
    iintro ⟨H2, H3, H4, H5, Hk⟩
    sl_exec! (disch := first | exact hc1 | exact hc2)
    sl_step
    iapply Hk
    isplitl [H2]; · iexact H2
    isplitl [H3]; · iexact H3
    isplitl [H4]; · iexact H4
    iexact H5

/-- The reset condition holds exactly at the points of the first column block, -/
theorem cond1_iff : ∀ t : Fin cfg0.N, cond1 (grid0.coords t) = 1#1 ↔ t.val % 16 = 0 :=
  (by decide +kernel : ∀ t : Fin grid0.N, cond1 (grid0.coords t) = 1#1 ↔ t.val % 16 = 0)

/-- and the write-out condition exactly at those of the last. -/
theorem cond2_iff : ∀ t : Fin cfg0.N, k0_cond2 (grid0.coords t) = 1#1 ↔ t.val % 16 = 15 :=
  (by decide +kernel : ∀ t : Fin grid0.N, k0_cond2 (grid0.coords t) = 1#1 ↔ t.val % 16 = 15)

end Cert.Kernel.Hand

end
-- ==== Proof.K.Dat0.lean ====
/-
  The transpose / row-sum call as a pipeline: its proof data and its body obligation.

  The grid is 16 x 16; point `t` has coordinates `(t / 16, t % 16)`. At every point the body transposes the input
  block into the first output's buffer and adds the block's lane sums to an accumulator carried in scratch; at
  the points of the first column block it first resets the accumulator, at those of the last it copies the
  accumulator into the second output's buffer, which at all other points it leaves as it found it.
  What the buffers hold after each point is read off the three runs of the body, point by point.
-/
import proofs.«421918_j29918742184132_1_alg».proof.Proof.K.Body0
import proofs.«421918_j29918742184132_1_alg».proof.Proof.Gen.Kernel.Launch
import proofs.«421918_j29918742184132_1_alg».proof.Proof.Gen.Kernel.Points
import Idealize.ShloMosaic.Lib.Pipeline.Regions
import Idealize.ShloMosaic.Lib.Pipeline.Frame

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## A whole memref owned at contents it reads is its buffer held at the contents' preimage -/

theorem owns_eq_pt (c : Dev nD) {sp : Space} {S : Shape} {e : EltTy} (M : Memref sig .tc sp S e) (h : M.IsWhole)
    (X : S.Idx → Elt F e) :
    (owns (c : Thread nD τ) M fullShare X : sProp (MM F)) = pt c M (h.unread X) := by
  unfold owns
  rw [h.set_eq_univ]
  have h₁ : iprop(∃ f, ⌜M.view.read (Elt F) f = X⌝ ∗ (M.view.loc (c : Thread nD τ) ↦[Finset.univ]{fullShare} f))
      ⊢ (pt c M (h.unread X) : sProp (MM F)) := by
    iintro ⟨%f, %hf, H⟩
    obtain rfl := h.eq_unread hf
    iexact H
  have h₂ : (pt c M (h.unread X) : sProp (MM F))
      ⊢ iprop(∃ f, ⌜M.view.read (Elt F) f = X⌝ ∗ (M.view.loc (c : Thread nD τ) ↦[Finset.univ]{fullShare} f)) := by
    iintro H
    iexists _; isplitr
    · ipureintro; exact h.read_unread X
    · iexact H
  exact BI.equiv_iff.mp ⟨h₁, h₂⟩

/-! ## The memrefs at a point -/

/-- Each window's current staging memref at point `t`, as the pipeline passes it to the body, and the accumulator. -/
abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)
abbrev msS : Memref sig .tc .vmem S512x1 .f32 := Memref.whole cc0_scratch0
abbrev hsS : (msS).IsWhole := Memref.isWhole_whole _

variable (V : (c : Dev nD) → Valuation τ sig (Elt F))

/-! ## The input block -/

/-- The input's block at point `t`, read off its array as the region finds it. -/
def xblk (c : Dev nD) (t : Fin cfg0.N) : Vec F S512x512 .f32 :=
  ((cfg0.win 0).blk t).view.read (Elt F) (V c (Pipeline.arrRef spec0 0))

/-- The input's staging buffer holding that block. -/
abbrev xraw (c : Dev nD) (t : Fin cfg0.N) : Bf (F := F) c (ms0 t) := (hs0 t).unread (xblk V c t)

/-- Contents for the second output's buffer where nothing reads them (the points that do not write it out). -/
abbrev zero2 (c : Dev nD) (t : Fin cfg0.N) : Bf (F := F) c (ms2 t) :=
  (hs2 t).unread (fun _ => (Scalar.ofBits .f32 0x00000000#32 : F .f32))

/-! ## The conditions at a point -/

theorem nc1_of (t : Fin cfg0.N) (h : ¬t.val % 16 = 0) : ¬cond1 (grid0.coords t) = 1#1 := fun h' => h ((cond1_iff t).mp h')
theorem nc2_of (t : Fin cfg0.N) (h : ¬t.val % 16 = 15) : ¬k0_cond2 (grid0.coords t) = 1#1 := fun h' => h ((cond2_iff t).mp h')

/-! ## What the buffers hold after each point -/

/-- After the body at position `n`: the first output's buffer, the second output's buffer (read only at the points that
    write it out), the accumulator. The case is the position's column block; the accumulator a middle or last
    point adds to is the one the position before left. -/
def outsAt (c : Dev nD) : (n : ℕ) → (hn : n < cfg0.N) →
    Bf (F := F) c (ms1 ⟨n, hn⟩) × Bf (F := F) c (ms2 ⟨n, hn⟩) × Bf (F := F) c msS
  | 0, hn =>
    ((run0_first c (grid0.coords ⟨0, hn⟩) ((cond1_iff ⟨0, hn⟩).mpr (Nat.zero_mod _)) (nc2_of ⟨0, hn⟩ (fun h => absurd h (by decide : ¬0 % 16 = 15)))
        (ms0 ⟨0, hn⟩) (hs0 ⟨0, hn⟩) (ms1 ⟨0, hn⟩) (hs1 ⟨0, hn⟩) (ms2 ⟨0, hn⟩) (hs2 ⟨0, hn⟩) msS hsS (xraw V c ⟨0, hn⟩)).1.1,
      zero2 c ⟨0, hn⟩,
      (run0_first c (grid0.coords ⟨0, hn⟩) ((cond1_iff ⟨0, hn⟩).mpr (Nat.zero_mod _)) (nc2_of ⟨0, hn⟩ (fun h => absurd h (by decide : ¬0 % 16 = 15)))
        (ms0 ⟨0, hn⟩) (hs0 ⟨0, hn⟩) (ms1 ⟨0, hn⟩) (hs1 ⟨0, hn⟩) (ms2 ⟨0, hn⟩) (hs2 ⟨0, hn⟩) msS hsS (xraw V c ⟨0, hn⟩)).1.2)
  | n + 1, hn =>
    if h0 : (n + 1) % 16 = 0 then
      ((run0_first c (grid0.coords ⟨n + 1, hn⟩) ((cond1_iff ⟨n + 1, hn⟩).mpr h0) (nc2_of ⟨n + 1, hn⟩ (fun h => by dsimp only at h; omega))
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)).1.1,
        zero2 c ⟨n + 1, hn⟩,
        (run0_first c (grid0.coords ⟨n + 1, hn⟩) ((cond1_iff ⟨n + 1, hn⟩).mpr h0) (nc2_of ⟨n + 1, hn⟩ (fun h => by dsimp only at h; omega))
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)).1.2)
    else if h15 : (n + 1) % 16 = 15 then
      ((run0_last c (grid0.coords ⟨n + 1, hn⟩) (nc1_of ⟨n + 1, hn⟩ h0) ((cond2_iff ⟨n + 1, hn⟩).mpr h15)
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)
          (outsAt c n (Nat.lt_of_succ_lt hn)).2.2).1.1,
        (run0_last c (grid0.coords ⟨n + 1, hn⟩) (nc1_of ⟨n + 1, hn⟩ h0) ((cond2_iff ⟨n + 1, hn⟩).mpr h15)
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)
          (outsAt c n (Nat.lt_of_succ_lt hn)).2.2).1.2.1,
        (run0_last c (grid0.coords ⟨n + 1, hn⟩) (nc1_of ⟨n + 1, hn⟩ h0) ((cond2_iff ⟨n + 1, hn⟩).mpr h15)
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)
          (outsAt c n (Nat.lt_of_succ_lt hn)).2.2).1.2.2)
    else
      ((run0_mid c (grid0.coords ⟨n + 1, hn⟩) (nc1_of ⟨n + 1, hn⟩ h0) (nc2_of ⟨n + 1, hn⟩ h15)
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)
          (outsAt c n (Nat.lt_of_succ_lt hn)).2.2).1.1,
        zero2 c ⟨n + 1, hn⟩,
        (run0_mid c (grid0.coords ⟨n + 1, hn⟩) (nc1_of ⟨n + 1, hn⟩ h0) (nc2_of ⟨n + 1, hn⟩ h15)
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)
          (outsAt c n (Nat.lt_of_succ_lt hn)).2.2).1.2)

/-! ### The case equations -/

/-- At a point of the first column block: the reset run's contents. -/
theorem outsAt_first (c : Dev nD) (t : Fin cfg0.N) (h0 : t.val % 16 = 0) :
    outsAt V c t.val t.isLt =
      ((run0_first c (grid0.coords t) ((cond1_iff t).mpr h0) (nc2_of t (fun h => by omega))
          (ms0 t) (hs0 t) (ms1 t) (hs1 t) (ms2 t) (hs2 t) msS hsS (xraw V c t)).1.1,
        zero2 c t,
        (run0_first c (grid0.coords t) ((cond1_iff t).mpr h0) (nc2_of t (fun h => by omega))
          (ms0 t) (hs0 t) (ms1 t) (hs1 t) (ms2 t) (hs2 t) msS hsS (xraw V c t)).1.2) := by
  obtain ⟨n, hn⟩ := t
  cases n with
  | zero => exact rfl
  | succ n => exact (dif_pos h0).trans rfl

/-- At a point of a middle column block: the middle run's contents, over the accumulator the point before left. -/
theorem outsAt_mid (c : Dev nD) (t : Fin cfg0.N) (h0 : ¬t.val % 16 = 0) (h15 : ¬t.val % 16 = 15) :
    outsAt V c t.val t.isLt =
      ((run0_mid c (grid0.coords t) (nc1_of t h0) (nc2_of t h15)
          (ms0 t) (hs0 t) (ms1 t) (hs1 t) (ms2 t) (hs2 t) msS hsS (xraw V c t) (outsAt V c (t.val - 1) (Nat.lt_of_le_of_lt (Nat.sub_le _ _) t.isLt)).2.2).1.1,
        zero2 c t,
        (run0_mid c (grid0.coords t) (nc1_of t h0) (nc2_of t h15)
          (ms0 t) (hs0 t) (ms1 t) (hs1 t) (ms2 t) (hs2 t) msS hsS (xraw V c t) (outsAt V c (t.val - 1) (Nat.lt_of_le_of_lt (Nat.sub_le _ _) t.isLt)).2.2).1.2) := by
  obtain ⟨n, hn⟩ := t
  cases n with
  | zero => exact absurd (Nat.zero_mod _) h0
  | succ n => exact (dif_neg h0).trans ((dif_neg h15).trans rfl)

/-- At a point of the last column block: the last run's contents, over the accumulator the point before left. -/
theorem outsAt_last (c : Dev nD) (t : Fin cfg0.N) (h0 : ¬t.val % 16 = 0) (h15 : t.val % 16 = 15) :
    outsAt V c t.val t.isLt =
      ((run0_last c (grid0.coords t) (nc1_of t h0) ((cond2_iff t).mpr h15)
          (ms0 t) (hs0 t) (ms1 t) (hs1 t) (ms2 t) (hs2 t) msS hsS (xraw V c t) (outsAt V c (t.val - 1) (Nat.lt_of_le_of_lt (Nat.sub_le _ _) t.isLt)).2.2).1.1,
        (run0_last c (grid0.coords t) (nc1_of t h0) ((cond2_iff t).mpr h15)
          (ms0 t) (hs0 t) (ms1 t) (hs1 t) (ms2 t) (hs2 t) msS hsS (xraw V c t) (outsAt V c (t.val - 1) (Nat.lt_of_le_of_lt (Nat.sub_le _ _) t.isLt)).2.2).1.2.1,
        (run0_last c (grid0.coords t) (nc1_of t h0) ((cond2_iff t).mpr h15)
          (ms0 t) (hs0 t) (ms1 t) (hs1 t) (ms2 t) (hs2 t) msS hsS (xraw V c t) (outsAt V c (t.val - 1) (Nat.lt_of_le_of_lt (Nat.sub_le _ _) t.isLt)).2.2).1.2.2) := by
  obtain ⟨n, hn⟩ := t
  cases n with
  | zero => exact absurd (Nat.zero_mod _) h0
  | succ n => exact (dif_neg h0).trans ((dif_pos h15).trans rfl)

/-! ## The pipeline's proof data -/

/-- The five scoped buffers that are neither a staging buffer of this call nor its accumulator, each held at something. -/
def rest0 (c : Dev nD) : sProp (MM F) :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_scratch0), ((c : Thread nD τ).loc cc1_scratch0) ↦{fullShare} f))

/-- The invariant before position `n`: the accumulator at something before the first point, after it at what the
    point before left; the rest of the scoped buffers at something. -/
def Φ0 (c : Dev nD) : (n : ℕ) → n < cfg0.N + 1 → sProp (MM F)
  | 0, _ => iprop((∃ s, pt c (Memref.whole cc0_scratch0) s) ∗ rest0 (F := F) c)
  | n + 1, hn => iprop(pt c (Memref.whole cc0_scratch0) (outsAt V c n (Nat.lt_of_succ_lt_succ hn)).2.2 ∗ rest0 (F := F) c)

/-- The proof data on core `c`: the arrays as the region finds them; after the body at point `t` the input's buffer
    at its block, the first output's at the transposed block the point's run leaves, the second output's at what
    the run leaves there (read only where the point writes it out); the accumulator in the invariant; nothing owed;
    full shares. -/
def dat0 (c : Dev nD) : Pipeline.Dat τ (Elt F) Unit ℕ (UU nD τ) ℕ cfg0 c where
  A w := V c (Pipeline.arrRef spec0 w)
  after w t := match w with
    | ⟨0, _⟩ => xblk V c t
    | ⟨1, _⟩ => (ms1 t).view.read (Elt F) (outsAt V c t.val t.isLt).1
    | ⟨2, _⟩ => (ms2 t).view.read (Elt F) (outsAt V c t.val t.isLt).2.1
  Φ n := Φ0 V c n.val n.isLt
  q _ := fullShare
  owed _ := 0

theorem dat0_A (c : Dev nD) (w : Fin cfg0.W) : (dat0 V c).A w = V c (Pipeline.arrRef spec0 w) := rfl
theorem dat0_owed (c : Dev nD) (t : Fin (cfg0.N + 1)) : (dat0 V c).owed t = 0 := rfl
theorem dat0_q (c : Dev nD) (w : Fin cfg0.W) : (dat0 V c).q w = fullShare := rfl

/-- What the body leaves, window by window (the proof data's `match` reduced). -/
theorem after0_0 (c : Dev nD) (t : Fin cfg0.N) : (dat0 V c).after 0 t = xblk V c t := by dsimp only [dat0]
theorem after0_1 (c : Dev nD) (t : Fin cfg0.N) :
    (dat0 V c).after 1 t = (ms1 t).view.read (Elt F) (outsAt V c t.val t.isLt).1 := by dsimp only [dat0]
theorem after0_2 (c : Dev nD) (t : Fin cfg0.N) :
    (dat0 V c).after 2 t = (ms2 t).view.read (Elt F) (outsAt V c t.val t.isLt).2.1 := by dsimp only [dat0]

/-- The invariant before the first point: what the region's entry supplies. -/
theorem dat0_Φ_first (c : Dev nD) :
    (dat0 V c).Φ 0 = iprop((∃ s, pt c (Memref.whole cc0_scratch0) s) ∗ rest0 (F := F) c) := rfl

/-- The invariant after point `t`. -/
theorem dat0_Φ_succ (c : Dev nD) (t : Fin cfg0.N) :
    (dat0 V c).Φ t.succ = iprop(pt c (Memref.whole cc0_scratch0) (outsAt V c t.val t.isLt).2.2 ∗ rest0 (F := F) c) := by
  obtain ⟨n, hn⟩ := t; rfl

/-- The invariant before a point that is not the first. -/
theorem dat0_Φ_castSucc_pos (c : Dev nD) (t : Fin cfg0.N) (h : t.val ≠ 0) :
    (dat0 V c).Φ t.castSucc = iprop(pt c (Memref.whole cc0_scratch0) (outsAt V c (t.val - 1) (Nat.lt_of_le_of_lt (Nat.sub_le _ _) t.isLt)).2.2 ∗ rest0 (F := F) c) := by
  obtain ⟨n, hn⟩ := t
  cases n with
  | zero => exact absurd rfl h
  | succ n => rfl

/-- Before any point the accumulator is held at something. -/
theorem dat0_Φ_castSucc (c : Dev nD) (t : Fin cfg0.N) :
    (dat0 V c).Φ t.castSucc ⊢ iprop((∃ s, pt c (Memref.whole cc0_scratch0) s) ∗ rest0 (F := F) c) := by
  by_cases h : t.val = 0
  · obtain ⟨n, hn⟩ := t
    obtain rfl : n = 0 := h
    exact .rfl
  · rw [dat0_Φ_castSucc_pos V c t h]
    iintro ⟨Hs, Hr⟩
    isplitl [Hs]
    · iexists _; iexact Hs
    · iexact Hr

/-- After the last point the accumulator is held at something: what the region's exit hands on. -/
theorem dat0_Φ_last (c : Dev nD) :
    (dat0 V c).Φ (Fin.last cfg0.N) ⊢ iprop((∃ s, pt c (Memref.whole cc0_scratch0) s) ∗ rest0 (F := F) c) := by
  have hN : 255 < cfg0.N := lt_of_lt_of_eq (by decide : 255 < 256) N_0.symm
  have h : Fin.last cfg0.N = (⟨255, hN⟩ : Fin cfg0.N).succ := Fin.ext (N_0.trans rfl)
  rw [h, dat0_Φ_succ]
  iintro ⟨Hs, Hr⟩
  isplitl [Hs]
  · iexists _; iexact Hs
  · iexact Hr

/-! ## What the body finds and where the second output is idle -/

/-- The input's current staging buffer holds its block at every point: it is fetched at every point, uncut. -/
theorem before0_0 (c : Dev nD) (t : Fin cfg0.N) (d) : (dat0 V c).before 0 t d = xblk V c t :=
  ((dat0 V c).before_fetched 0 t (fetch0_0 t) d).trans (by unfold Dat.fetched Dat.blockOf xblk; rw [dat0_A]; rfl)

/-- The second output is idle at the points that do not write it out, -/
theorem idle2_true (t : Fin cfg0.N) (h : ¬t.val % 16 = 15) : cfg0.idle 2 (cfg0.grid.coords t) = true := by
  show (!(k0_cond2 (grid0.coords t) == 1#1)) = true
  rw [Bool.not_eq_true', beq_eq_false_iff_ne]
  exact nc2_of t h

/-- live at those that do, -/
theorem idle2_false (t : Fin cfg0.N) (h : t.val % 16 = 15) : cfg0.idle 2 (cfg0.grid.coords t) = false := by
  show (!(k0_cond2 (grid0.coords t) == 1#1)) = false
  rw [(cond2_iff t).mpr h]; rfl

/-- and is not written back where it is idle. -/
theorem flush2_false (t : Fin cfg0.N) (h : ¬t.val % 16 = 15) : (cfg0.win 2).flush t = false :=
  Bool.eq_false_iff.mpr fun h' => h ((flush0_2 t).mp h')

/-- What the obligation asks of the second output's buffer at a point that writes it out. -/
theorem leavesExact2_live (c : Dev nD) (t : Fin cfg0.N) (h : t.val % 16 = 15) :
    (dat0 V c).leavesExact 2 t = owns (c : Thread nD τ) (ms2 t) fullShare ((dat0 V c).after 2 t) := by
  unfold Dat.leavesExact; rw [idle2_false t h]

/-! ## The body obligation, at a generic point -/

/-- What the body is called with at point `t`, the windows one by one, -/
def bodyPre (c : Dev nD) (t : Fin cfg0.N) : sProp (MM F) :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns: the second output's buffer as found where the point is idle for it. -/
def bodyPost (c : Dev nD) (t : Fin cfg0.N) : sProp (MM F) :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ (dat0 V c).leavesExact 2 t)

set_option maxHeartbeats 1600000 in
/-- The body at any point: the input's buffer holds its block; the point's column block says which run applies; a
    middle or last point finds the accumulator the point before left; the rest of the invariant passes through
    unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  rw [show (dat0 V c).owesAt () t.succ = (dat0 V c).owesAt () t.castSucc from rfl, dat0_Φ_succ, after0_0, after0_1]
  by_cases h0 : t.val % 16 = 0
  · have h15 : ¬t.val % 16 = 15 := by omega
    rw [(dat0 V c).leavesExact_idle 2 t (idle2_true t h15) (flush2_false t h15), outsAt_first V c t h0]
    dsimp only
    simp only [before0_0, owns_eq_pt c (ms0 t) (hs0 t), owns_eq_pt c (ms1 t) (hs1 t), owns_eq_pt c (ms2 t) (hs2 t),
      Memref.IsWhole.unread_read]
    iintro ⟨HΦ, Ho, ⟨%d0, H0⟩, ⟨%d1, H1⟩, ⟨%d2, H2⟩⟩
    ihave HΦ' := (dat0_Φ_castSucc V c t) $$ HΦ
    icases HΦ' with ⟨⟨%s, Hs⟩, Hr⟩
    iapply ((run0_first c (grid0.coords t) ((cond1_iff t).mpr h0) (nc2_of t (fun h => by omega))
          (ms0 t) (hs0 t) (ms1 t) (hs1 t) (ms2 t) (hs2 t) msS hsS (xraw V c t)).2 _ _ s Set.univ _)
    isplitl [H0]; · iexact H0
    isplitl [H1]; · iexact H1
    isplitl [H2]; · iexact H2
    isplitl [Hs]; · iexact Hs
    iintro ⟨H0, H1, H2, Hs⟩
    isplitl [Hs Hr]
    · isplitl [Hs]; · iexact Hs
      iexact Hr
    isplitl [Ho]; · iexact Ho
    isplitl [H0]; · iexact H0
    isplitl [H1]; · iexact H1
    iexists d2; iexact H2
  · have ht0 : t.val ≠ 0 := fun h => h0 (by rw [h])
    rw [dat0_Φ_castSucc_pos V c t ht0]
    by_cases h15 : t.val % 16 = 15
    · rw [leavesExact2_live V c t h15, after0_2, outsAt_last V c t h0 h15]
      dsimp only
      simp only [before0_0, owns_eq_pt c (ms0 t) (hs0 t), owns_eq_pt c (ms1 t) (hs1 t), owns_eq_pt c (ms2 t) (hs2 t),
        Memref.IsWhole.unread_read]
      iintro ⟨⟨Hs, Hr⟩, Ho, ⟨%d0, H0⟩, ⟨%d1, H1⟩, ⟨%d2, H2⟩⟩
      iapply ((run0_last c (grid0.coords t) (nc1_of t h0) ((cond2_iff t).mpr h15)
          (ms0 t) (hs0 t) (ms1 t) (hs1 t) (ms2 t) (hs2 t) msS hsS (xraw V c t) (outsAt V c (t.val - 1) (Nat.lt_of_le_of_lt (Nat.sub_le _ _) t.isLt)).2.2).2 _ _ Set.univ _)
      isplitl [H0]; · iexact H0
      isplitl [H1]; · iexact H1
      isplitl [H2]; · iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · rw [(dat0 V c).leavesExact_idle 2 t (idle2_true t h15) (flush2_false t h15), outsAt_mid V c t h0 h15]
      dsimp only
      simp only [before0_0, owns_eq_pt c (ms0 t) (hs0 t), owns_eq_pt c (ms1 t) (hs1 t), owns_eq_pt c (ms2 t) (hs2 t),
        Memref.IsWhole.unread_read]
      iintro ⟨⟨Hs, Hr⟩, Ho, ⟨%d0, H0⟩, ⟨%d1, H1⟩, ⟨%d2, H2⟩⟩
      iapply ((run0_mid c (grid0.coords t) (nc1_of t h0) (nc2_of t h15)
          (ms0 t) (hs0 t) (ms1 t) (hs1 t) (ms2 t) (hs2 t) msS hsS (xraw V c t) (outsAt V c (t.val - 1) (Nat.lt_of_le_of_lt (Nat.sub_le _ _) t.isLt)).2.2).2 _ _ Set.univ _)
      isplitl [H0]; · iexact H0
      isplitl [H1]; · iexact H1
      isplitl [H2]; · iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexists d2; iexact H2

/-- The library's body obligation, at every point. -/
theorem body_obligation0 (c : Dev nD) :
    Pipeline.BodyObligation (dat0 V c) (defs₀ (F := F)) Variants.none () Set.univ := fun t => by
  rw [bigSep_W0, bigSep_W0]
  exact sound_body V c t

end Cert.Kernel.Hand

end
-- ==== Proof.K.Table.lean ====
/-
  The index table's range fact, in the form the gather kernel's body consumes it: every single word read off
  the table is below 8192, so the one-row block of the [8192, 8192] array that the word names lies inside it.
-/
import proofs.«421918_j29918742184132_1_alg».proof.Proof.K.Alg

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A word below 8192 names a row of the [8192, 8192] array: the one-row block at it lies inside. -/
theorem chk_row (v : BitVec 32) (h : v.toNat < 8192) :
    ∀ a, (![v.toNat, 0] : Fin 2 → Nat) a + S1x8192.size a ≤ S8192x8192.size a := by
  intro a
  fin_cases a
  · show v.toNat + 1 ≤ 8192; omega
  · show 0 + 8192 ≤ 8192; omega

/-- Every single word read off the table `tbl` is below 8192. -/
def TableInRange (c : Dev nD) (tbl : Bf (F := F) c (Memref.whole main_v0)) : Prop :=
  ∀ (off : Fin 2 → Nat) (inb : ∀ a, off a + S1x1.size a ≤ S4x4096.size a) (h1 : 0 < S1x1.numel),
    BitVec.toNat (View.readAt (Elt F) (Memref.whole main_v0).view (Rect.unit (s := S4x4096) off S1x1.size inb).toLoadRect tbl
      (Shape.Idx.first h1)) < 8192

end Cert.Kernel.Hand

end
-- ==== Proof.K.OutSpec.lean ====
/-
  What the gather kernel leaves in one output block, as a function of the index table, the bias block and the
  transposed array: row r of block (b, lt) is the array's row named by the table's word (b, 128·lt + r), plus
  the bias block's one row.
-/
import proofs.«421918_j29918742184132_1_alg».proof.Proof.K.Alg
import Idealize.ShloMosaic.Lib.ValueIdx

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The row of the [8192, 8192] array a table word names (the word itself when it is below 8192). -/
def rowIx (w : BitVec 32) : Fin 8192 := ⟨w.toNat % 8192, Nat.mod_lt _ (by decide)⟩

theorem rowIx_val (w : BitVec 32) (h : w.toNat < 8192) : (rowIx w).val = w.toNat := Nat.mod_eq_of_lt h

/-- The table position block (b, lt)'s row r reads. -/
def tblPos (i : grid1.Coords) (r : Fin 128) : S4x4096.Idx :=
  ValueIdx.ix2 (⟨(i 0).val % 4, Nat.mod_lt _ (by decide)⟩ : Fin 4) (⟨(128 * (i 1).val + r.val) % 4096, Nat.mod_lt _ (by decide)⟩ : Fin 4096)

/-- One output block. -/
def outSpec (i : grid1.Coords) (tbl : S4x4096.Idx → BitVec 32) (β : Vec F S1x1x8192 .f32) (wt : Vec F S8192x8192 .f32) :
    Vec F S1x128x8192 .f32 :=
  fun y => FloatOps.addf (wt (ValueIdx.ix2 (rowIx (tbl (tblPos i (⟨(y 1).val % 128, Nat.mod_lt _ (by decide)⟩ : Fin 128))))
      (⟨(y 2).val % 8192, Nat.mod_lt _ (by decide)⟩ : Fin 8192)))
    (β (ValueIdx.ix3 (0 : Fin 1) (0 : Fin 1) (⟨(y 2).val % 8192, Nat.mod_lt _ (by decide)⟩ : Fin 8192)))

end Cert.Kernel.Hand

end
-- ==== Proof.K.Body1.lean ====
/-
  The gather kernel's body, run once at symbolic operands: 128 rows of the transposed array, each named by a
  word of the index table, copied one after the other into the two halves of a scratch buffer (the copy of
  row r+1 started before row r is read), each added to the bias block and stored as row r of the output block.
  Every word read off the table names a row of the array (`hT`): that is what each copy's source needs.
  What the body leaves in the output block's buffer is the witness the run finds, a term over the table, the
  bias block and the array.
-/
import proofs.«421918_j29918742184132_1_alg».proof.Proof.K.Table
import proofs.«421918_j29918742184132_1_alg».proof.Proof.K.OutSpec
import Idealize.ShloMosaic.Lib.Pipeline.Value
import Idealize.ShloMosaic.Lib.Pipeline.FrameBody

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own semaphores: its two scratch DMA semaphores. -/
abbrev osem : Fin 2 → SemLoc sig := fun | 0 => .dma 10 | 1 => .dma 11

/-- Both counters at zero, as the run finds them and hands them back. -/
abbrev sems0 (c : Dev nD) : sProp (MM F) :=
  iprop(semVal ((c : Thread nD τ), osem 0) 0 ∗ semVal ((c : Thread nD τ), osem 1) 0)

set_option sl_exec.dmaWindow true in
set_option maxHeartbeats 8000000 in
/-- The body's run: from the table, the bias block's buffer, the transposed array, the output block's buffer and
    the scratch held whole, both counters at zero and the core's dues, to the same with the output block's
    buffer at the witness and the scratch at something. -/
noncomputable def run1 (c : Dev nD) (i : grid1.Coords)
    (M3 : Memref sig .tc .vmem S1x1x8192 .f32) (h3 : M3.IsWhole) (M5 : Memref sig .tc .vmem S1x128x8192 .f32) (h5 : M5.IsWhole)
    (tbl : Bf (F := F) c (Memref.whole main_v0)) (hT : TableInRange c tbl)
    (β : Bf (F := F) c M3) (wt : Bf (F := F) c (Memref.whole main_v1_0)) (k : Bf (F := F) c (Memref.whole cc1_scratch0)) :
    { Wo : Bf (F := F) c M5 //
      ∀ (o : Bf (F := F) c M5) (W : Waits sig Unit) (Q : PUnit → sProp (MM F)),
        iprop(pt c (Memref.whole main_v0) tbl ∗ pt c M3 β ∗ pt c (Memref.whole main_v1_0) wt ∗ pt c M5 o
          ∗ pt c (Memref.whole cc1_scratch0) k ∗ sems0 c ∗ owes (c : Thread nD τ) 0 W
          ∗ (iprop(pt c (Memref.whole main_v0) tbl ∗ pt c M3 β ∗ pt c (Memref.whole main_v1_0) wt ∗ pt c M5 Wo
                ∗ (∃ f, pt c (Memref.whole cc1_scratch0) f) ∗ sems0 c ∗ ∃ W, owes (c : Thread nD τ) 0 W) -∗ Q ⟨⟩))
        ⊢ wp frame (wpE (defs₀ (F := F)) Variants.none c none) Set.univ
            (cc1_gather_kernel i (Memref.whole main_v0) (Memref.isWhole_whole _) M3 h3 (Memref.whole main_v1_0) (Memref.isWhole_whole _)
              M5 h5 (Memref.whole cc1_scratch0) (Memref.isWhole_whole _) cc1_scratch1) Q } := by
  refine ⟨?_, fun o W Q => ?run⟩
  case run =>
    iintro ⟨H2, H3, H4, H5, H6, ⟨Hd0, Hd1⟩, HO, Hk⟩
    sl_exec_parts! (disch := (sl_unfold_words; exact chk_row _ (hT _ _ _)))
    sl_step
    iapply Hk
    isplitl [H2]; · iexact H2
    isplitl [H3]; · iexact H3
    isplitl [H4]; · iexact H4
    isplitl [H5]; · iexact H5
    isplitl [H6]; · iexists _; iexact H6
    isplitl [Hd0 Hd1]
    · isplitl [Hd0]; · iexact Hd0
      iexact Hd1
    iexists _; iexact HO

end Cert.Kernel.Hand

end
-- ==== Proof.K.PayIdx.lean ====
/-
  The kernels' pure operations read at an index, over variables.

  Region 0 (transpose and row sums of a 512 x 512 block): the transposed block at (p, q) is the block at (q, p); the
  reset value of the column accumulator is zero; an accumulation step adds to the accumulator at (p, 0) the sum of
  row p of the block, that sum begun from zero; the accumulator leaves as a vector, entry p its entry (p, 0).
  Region 1 (one row of the gathered block): a row [1, 8192] and the bias block [1, 1, 8192] are both flattened to
  [8192], added, and the sum laid back as [1, 1, 8192]; at (0, 0, v) that is the row at (0, v) plus the bias at (0, 0, v).
-/
import proofs.«421918_j29918742184132_1_alg».proof.Proof.Gen.Kernel.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Kernel.PayIdx

open Cert.Kernel Cert.Kernel.Gen Idealize.ShloMosaic

/-! ## Shape casts between a vector and a column, and between a flat vector and a [1, 1, n] block -/

section Casts
variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column cast to an [a] vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ValueIdx.ix1 i) = x (ValueIdx.ix2 i (0 : Fin 1)) :=
  shapeCast_apply x h _ _ (by
    rw [Shape.rowMajor_val_two, Shape.rowMajor_val_one]
    show i.val * 1 + 0 = i.val
    rw [Nat.mul_one, Nat.add_zero])

/-- A [1, 1, a] block cast to an [a] vector reads, at i, the block at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ValueIdx.ix1 i) = x (ValueIdx.ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

end Casts

/-! ## Region 0: the transpose and row-sum kernel -/

section Region0
variable {F : FTy → Type} [FloatOps F]

/-- The stored transpose at (p, q) is the loaded block at (q, p). -/
theorem pay2_apply (x : Vec F S512x512 .f32) (p q : Fin 512) :
    k0_pay2 x (ValueIdx.ix2 p q) = x (ValueIdx.ix2 q p) :=
  ValueIdx.transpose_ix2_apply (a := 512) (b := 512) x transposes_S512x512_p1_0_S512x512 p q

/-- The accumulator leaves as a vector: entry p is the column's entry (p, 0). -/
theorem pay4_apply (s : Vec F S512x1 .f32) (p : Fin 512) :
    k0_pay4 s (ValueIdx.ix1 p) = s (ValueIdx.ix2 p (0 : Fin 1)) :=
  shapeCast_a1_a_apply (a := 512) s shapeCasts_S512x1_S512 p

/-- An accumulation step for any float values: the accumulator plus the row reduction laid as a column. -/
theorem pay3_apply_gen (x : Vec F S512x512 .f32) (s : Vec F S512x1 .f32) (p : Fin 512) (z : Fin 1) :
    k0_pay3 x s (ValueIdx.ix2 p z)
      = FloatOps.addf (s (ValueIdx.ix2 p z))
          (multiReduction .add [1] S512 x 0x00000000#32 reduces_S512x512_S512 (.inl rfl) rfl (ValueIdx.ix1 p)) := by
  unfold k0_pay3
  rw [shapeCast_self]
  show FloatOps.addf (s (ValueIdx.ix2 p z)) (shapeCast S512x1 _ shapeCasts_S512_S512x1 (ValueIdx.ix2 p z)) = _
  rw [shapeCast_a_a1_apply (a := 512) _ shapeCasts_S512_S512x1 p z]

end Region0

/-- The reset value of the accumulator is zero everywhere. -/
theorem pay1_apply (p : Fin 512) (z : Fin 1) : k0_pay1 (F := Ideal) (ValueIdx.ix2 p z) = 0 := by
  unfold k0_pay1
  rw [shapeCast_self]
  show FloatOps.ofBits (F := Ideal) .f32 0x00000000#32 = 0
  rw [Ideal.ofBits_def, Ideal.ofBits_zero_f32]

/-- A row reduction with zero initial value, on the extended reals: the sum of the row. -/
theorem rowReduce_apply (x : FVec Ideal S512x512 .f32) (h : S512x512.Reduces [1] S512) (hφ : FKind.Formats .f32)
    (hacc : (0x00000000#32 : BitVec 32) = 0x00000000#32) (p : Fin 512) :
    multiReduction (F := Ideal) .add [1] S512 x 0x00000000#32 h hφ hacc (ValueIdx.ix1 p)
      = ∑ k : Fin 512, x (ValueIdx.ix2 p k) := by
  refine (Ideal.multiReduction_add_single x 0x00000000#32 h hφ hacc (ValueIdx.ix1 p)).trans ?_
  refine Finset.sum_congr rfl fun k _ => congrArg x (funext fun c => Fin.ext ?_)
  match c with
  | ⟨0, _⟩ => rfl
  | ⟨1, _⟩ => rfl

/-- An accumulation step on the extended reals: the accumulator at (p, 0) plus the sum of row p begun from zero. -/
theorem pay3_apply (x : Vec Ideal S512x512 .f32) (s : Vec Ideal S512x1 .f32) (p : Fin 512) (z : Fin 1) :
    k0_pay3 x s (ValueIdx.ix2 p z) = s (ValueIdx.ix2 p z) + (0 + ∑ k : Fin 512, x (ValueIdx.ix2 p k)) := by
  rw [pay3_apply_gen, zero_add]
  exact congrArg (s (ValueIdx.ix2 p z) + ·) (rowReduce_apply x reduces_S512x512_S512 (.inl rfl) rfl p)

/-! ## Region 1: one row of the gathered block -/

section Region1
variable {F : FTy → Type} [FloatOps F]

/-- The chain flatten, add, lay back as [1, 1, 8192], for any float values: at (0, 0, v) the row at (0, v) plus the
    flattened bias at v. -/
theorem k1_pay1_apply_gen (v12 : FVec F S8192 .f32) (row : Vec F S1x8192 .f32) (v : Fin 8192) :
    k1_pay1 v12 row (ValueIdx.ix3 (0 : Fin 1) (0 : Fin 1) v)
      = FloatOps.addf (row (ValueIdx.ix2 (0 : Fin 1) v)) (v12 (ValueIdx.ix1 v)) := by
  unfold k1_pay1
  rw [ValueIdx.shapeCast_ab_1ab_apply (a := 1) (b := 8192) _ shapeCasts_S1x8192_S1x1x8192 (0 : Fin 1) (0 : Fin 1) v,
    ValueIdx.shapeCast_a_1a_apply (a := 8192) _ shapeCasts_S8192_S1x8192 (0 : Fin 1) v]
  show FloatOps.addf (shapeCast S8192 row shapeCasts_S1x8192_S8192 (ValueIdx.ix1 v)) (v12 (ValueIdx.ix1 v)) = _
  rw [ValueIdx.shapeCast_1a_a_apply (a := 8192) row shapeCasts_S1x8192_S8192 v]

/-- The same chain with the bias block's flattening written out. -/
theorem rowChain_apply_gen (row : Vec F S1x8192 .f32) (beta : Vec F S1x1x8192 .f32) (v : Fin 8192) :
    shapeCast S1x1x8192 (shapeCast S1x8192 (addf (shapeCast S8192 row shapeCasts_S1x8192_S8192)
        (shapeCast S8192 beta shapeCasts_S1x1x8192_S8192)) shapeCasts_S8192_S1x8192) shapeCasts_S1x8192_S1x1x8192
      (ValueIdx.ix3 (0 : Fin 1) (0 : Fin 1) v)
      = FloatOps.addf (row (ValueIdx.ix2 (0 : Fin 1) v)) (beta (ValueIdx.ix3 (0 : Fin 1) (0 : Fin 1) v)) := by
  refine (k1_pay1_apply_gen (shapeCast S8192 beta shapeCasts_S1x1x8192_S8192) row v).trans ?_
  rw [shapeCast_11a_a_apply (a := 8192) beta shapeCasts_S1x1x8192_S8192 v]

/-- The flattened bias block at v is the block at (0, 0, v). -/
theorem k1_pay2_apply (beta : Vec F S1x1x8192 .f32) (v : Fin 8192) :
    k1_pay2 beta (ValueIdx.ix1 v) = beta (ValueIdx.ix3 (0 : Fin 1) (0 : Fin 1) v) :=
  shapeCast_11a_a_apply (a := 8192) beta shapeCasts_S1x1x8192_S8192 v

end Region1

/-- On the extended reals: the two-step form at (0, 0, v) is the row at (0, v) plus the flattened bias at v. -/
theorem k1_pay1_apply (v12 : FVec Ideal S8192 .f32) (row : Vec Ideal S1x8192 .f32) (v : Fin 8192) :
    k1_pay1 v12 row (ValueIdx.ix3 (0 : Fin 1) (0 : Fin 1) v) = row (ValueIdx.ix2 (0 : Fin 1) v) + v12 (ValueIdx.ix1 v) :=
  k1_pay1_apply_gen v12 row v

/-- On the extended reals: the whole chain at (0, 0, v) is the row at (0, v) plus the bias at (0, 0, v). -/
theorem rowChain_apply (row : Vec Ideal S1x8192 .f32) (beta : Vec Ideal S1x1x8192 .f32) (v : Fin 8192) :
    shapeCast S1x1x8192 (shapeCast S1x8192 (addf (F := Ideal) (φ := .f32) (shapeCast S8192 row shapeCasts_S1x8192_S8192)
        (shapeCast S8192 beta shapeCasts_S1x1x8192_S8192)) shapeCasts_S8192_S1x8192) shapeCasts_S1x8192_S1x1x8192
      (ValueIdx.ix3 (0 : Fin 1) (0 : Fin 1) v)
      = row (ValueIdx.ix2 (0 : Fin 1) v) + beta (ValueIdx.ix3 (0 : Fin 1) (0 : Fin 1) v) :=
  rowChain_apply_gen row beta v

end Cert.Kernel.PayIdx

end
-- ==== Proof.K.RowRead.lean ====
/-
  One stored row of the gather kernel's output block, read at an index.

  Row r of the block is stored as the flat sum of two flat vectors laid back as a [1, 1, 8192] block: the scratch
  half r mod 2 and the bias block. When the row is stored, that scratch half was last written by the row's own copy,
  a row of the transposed array named by the table's word at (first coordinate, 128 · second coordinate + r), and at
  most the other half has been written since; the two halves share no element. So the stored row at lane v is the
  array's entry (word, v) plus the bias entry (0, 0, v): the block's specification at (0, r, v). The lemmas are stated
  over variables; the last part is the proof text that applies them to each of the 128 stored rows alike.
-/
import proofs.«421918_j29918742184132_1_alg».proof.Proof.K.Table
import proofs.«421918_j29918742184132_1_alg».proof.Proof.K.OutSpec
import proofs.«421918_j29918742184132_1_alg».proof.Proof.K.PayIdx
import Idealize.ShloMosaic.Lib.Pipeline.Value
import Idealize.ShloMosaic.Lib.Pipeline.FrameBody
import Idealize.ShloMosaic.Lib.Writes
import Idealize.ShloMosaic.Lib.Ring

noncomputable section

namespace Cert.Kernel.Hand

open Cert.Kernel Cert.Kernel.Gen

open Idealize.ShloMosaic
open Idealize.ShloMosaic.TcCoe Idealize.ShloMosaic.Tactic
open Idealize.SL.Sem

variable {F : FTy → Type} [FloatOps F]

section RowLemmas

/-! ## The stored chain at an index -/

/-- The sum of two flat vectors laid back as a [1, 1, 8192] block reads, at (0, 0, v), the two entries' sum. -/
theorem chain_apply (A B : FVec F S8192 .f32) (v : Fin 8192) :
    shapeCast S1x1x8192 (shapeCast S1x8192 (addf A B) shapeCasts_S8192_S1x8192) shapeCasts_S1x8192_S1x1x8192
      (ValueIdx.ix3 (0 : Fin 1) (0 : Fin 1) v) = FloatOps.addf (A (ValueIdx.ix1 v)) (B (ValueIdx.ix1 v)) := by
  rw [ValueIdx.shapeCast_ab_1ab_apply (a := 1) (b := 8192) _ shapeCasts_S1x8192_S1x1x8192 (0 : Fin 1) (0 : Fin 1) v,
    ValueIdx.shapeCast_a_1a_apply (a := 8192) _ shapeCasts_S8192_S1x8192 (0 : Fin 1) v]
  rfl

/-! ## The scratch buffer's two halves -/

variable {c : Dev nD}

/-- A half of the scratch read flat, after a write of that same half: the write's payload. -/
theorem scr_hit (off : Fin 2 → Nat) (inb : ∀ a, off a + S1x8192.size a ≤ S2x8192.size a)
    (hs : ∀ a, (Rect.unit (s := S2x8192) off S1x8192.size inb).stride a = 1)
    (g : (cc1_scratch0 : Ref sig .tc).ty.Contents (Elt F)) (P : FVec F S8192 .f32) :
    shapeCast S8192 (View.readAt (Elt F) (Memref.whole cc1_scratch0).view (Rect.unit (s := S2x8192) off S1x8192.size inb).toLoadRect
        (View.write (Elt F) (((Memref.whole cc1_scratch0).slice (Rect.unit (s := S2x8192) off S1x8192.size inb) hs).squeeze S8192
          squeezes_S1x8192_S8192).view g P Finset.univ)) shapeCasts_S1x8192_S8192 = P :=
  View.read_write_univ (v := (((Memref.whole cc1_scratch0).slice (Rect.unit (s := S2x8192) off S1x8192.size inb) hs).squeeze S8192
    squeezes_S1x8192_S8192).view) g P

/-- The two halves share no element. -/
theorem scr_disjoint (inb0 : ∀ a, (![0, 0] : Fin 2 → Nat) a + S1x8192.size a ≤ S2x8192.size a)
    (inb1 : ∀ a, (![1, 0] : Fin 2 → Nat) a + S1x8192.size a ≤ S2x8192.size a) (hs0 hs1) :
    Disjoint (((Memref.whole cc1_scratch0).slice (Rect.unit (s := S2x8192) ![0, 0] S1x8192.size inb0) hs0).squeeze S8192 squeezes_S1x8192_S8192).view.set
      (((Memref.whole cc1_scratch0).slice (Rect.unit (s := S2x8192) ![1, 0] S1x8192.size inb1) hs1).squeeze S8192 squeezes_S1x8192_S8192).view.set := by
  simp only [Memref.view_squeeze, Memref.view_slice, Memref.view_whole, View.set_reshape, View.set_slice_whole]
  exact Rect.unit_disjoint 0 (Or.inl (by decide))

/-- The first half read flat is not changed by a write of the second, -/
theorem scr_skip0 (inb0 : ∀ a, (![0, 0] : Fin 2 → Nat) a + S1x8192.size a ≤ S2x8192.size a)
    (inb1 : ∀ a, (![1, 0] : Fin 2 → Nat) a + S1x8192.size a ≤ S2x8192.size a) (hs1)
    (g : (cc1_scratch0 : Ref sig .tc).ty.Contents (Elt F)) (P : FVec F S8192 .f32) :
    shapeCast S8192 (View.readAt (Elt F) (Memref.whole cc1_scratch0).view (Rect.unit (s := S2x8192) ![0, 0] S1x8192.size inb0).toLoadRect
        (View.write (Elt F) (((Memref.whole cc1_scratch0).slice (Rect.unit (s := S2x8192) ![1, 0] S1x8192.size inb1) hs1).squeeze S8192
          squeezes_S1x8192_S8192).view g P Finset.univ)) shapeCasts_S1x8192_S8192
      = shapeCast S8192 (View.readAt (Elt F) (Memref.whole cc1_scratch0).view (Rect.unit (s := S2x8192) ![0, 0] S1x8192.size inb0).toLoadRect g)
          shapeCasts_S1x8192_S8192 := by
  have hs0 : ∀ a, (Rect.unit (s := S2x8192) ![0, 0] S1x8192.size inb0).stride a = 1 := fun _ => rfl
  show (((Memref.whole cc1_scratch0).slice (Rect.unit (s := S2x8192) ![0, 0] S1x8192.size inb0) hs0).squeeze S8192 squeezes_S1x8192_S8192).view.read (Elt F)
      (View.write (Elt F) (((Memref.whole cc1_scratch0).slice (Rect.unit (s := S2x8192) ![1, 0] S1x8192.size inb1) hs1).squeeze S8192
          squeezes_S1x8192_S8192).view g P Finset.univ)
    = (((Memref.whole cc1_scratch0).slice (Rect.unit (s := S2x8192) ![0, 0] S1x8192.size inb0) hs0).squeeze S8192 squeezes_S1x8192_S8192).view.read (Elt F) g
  exact View.read_congr fun j hj => View.write_of_not_mem g P Finset.univ fun hm =>
    Finset.disjoint_left.mp (scr_disjoint inb0 inb1 hs0 hs1) hj (by rwa [View.setOn_univ] at hm)

/-- nor the second by a write of the first. -/
theorem scr_skip1 (inb0 : ∀ a, (![0, 0] : Fin 2 → Nat) a + S1x8192.size a ≤ S2x8192.size a)
    (inb1 : ∀ a, (![1, 0] : Fin 2 → Nat) a + S1x8192.size a ≤ S2x8192.size a) (hs0)
    (g : (cc1_scratch0 : Ref sig .tc).ty.Contents (Elt F)) (P : FVec F S8192 .f32) :
    shapeCast S8192 (View.readAt (Elt F) (Memref.whole cc1_scratch0).view (Rect.unit (s := S2x8192) ![1, 0] S1x8192.size inb1).toLoadRect
        (View.write (Elt F) (((Memref.whole cc1_scratch0).slice (Rect.unit (s := S2x8192) ![0, 0] S1x8192.size inb0) hs0).squeeze S8192
          squeezes_S1x8192_S8192).view g P Finset.univ)) shapeCasts_S1x8192_S8192
      = shapeCast S8192 (View.readAt (Elt F) (Memref.whole cc1_scratch0).view (Rect.unit (s := S2x8192) ![1, 0] S1x8192.size inb1).toLoadRect g)
          shapeCasts_S1x8192_S8192 := by
  have hs1 : ∀ a, (Rect.unit (s := S2x8192) ![1, 0] S1x8192.size inb1).stride a = 1 := fun _ => rfl
  show (((Memref.whole cc1_scratch0).slice (Rect.unit (s := S2x8192) ![1, 0] S1x8192.size inb1) hs1).squeeze S8192 squeezes_S1x8192_S8192).view.read (Elt F)
      (View.write (Elt F) (((Memref.whole cc1_scratch0).slice (Rect.unit (s := S2x8192) ![0, 0] S1x8192.size inb0) hs0).squeeze S8192
          squeezes_S1x8192_S8192).view g P Finset.univ)
    = (((Memref.whole cc1_scratch0).slice (Rect.unit (s := S2x8192) ![1, 0] S1x8192.size inb1) hs1).squeeze S8192 squeezes_S1x8192_S8192).view.read (Elt F) g
  exact View.read_congr fun j hj => View.write_of_not_mem g P Finset.univ fun hm =>
    Finset.disjoint_right.mp (scr_disjoint inb0 inb1 hs0 hs1) hj (by rwa [View.setOn_univ] at hm)

/-! ## The pieces of a stored row, read at an index -/

/-- An index of a [1, 1, 8192] block is (0, 0, its last coordinate). -/
theorem ix3_00 (x : S1x1x8192.Idx) : x = ValueIdx.ix3 (0 : Fin 1) (0 : Fin 1) (x 2) := by
  funext a
  fin_cases a
  · exact Fin.ext (by have h : (x 0).val < 1 := (x 0).isLt; show (x 0).val = 0; omega)
  · exact Fin.ext (by have h : (x 1).val < 1 := (x 1).isLt; show (x 1).val = 0; omega)
  · rfl

/-- In other words it is (0, 0, v) for a lane v. -/
theorem ix3_ex (x : S1x1x8192.Idx) : ∃ v : Fin 8192, x = ValueIdx.ix3 (0 : Fin 1) (0 : Fin 1) v := ⟨x 2, ix3_00 x⟩

/-- The word read off the table at a unit rectangle whose offsets are (a, b) is the table's word (a, b). -/
theorem tbl_word (tbl : Bf (F := F) c (Memref.whole main_v0)) (off : Fin 2 → Nat)
    (inb : ∀ a, off a + S1x1.size a ≤ S4x4096.size a) (h1 : 0 < S1x1.numel) (a b : Nat) (hoff : off = ![a, b])
    (ha : a < 4) (hb : b < 4096) :
    View.readAt (Elt F) (Memref.whole main_v0).view (Rect.unit (s := S4x4096) off S1x1.size inb).toLoadRect tbl (Shape.Idx.first h1)
      = (tbl : S4x4096.Idx → BitVec 32) (ValueIdx.ix2 (⟨a, ha⟩ : Fin 4) (⟨b, hb⟩ : Fin 4096)) := by
  subst hoff
  rw [View.readAt_apply, View.read_apply]
  show (tbl : S4x4096.Idx → BitVec 32) _ = _
  congr 1
  funext d
  apply Fin.ext
  fin_cases d
  · show a + 1 * (Shape.Idx.first h1 (0 : Fin 2)).val = a
    have : (Shape.Idx.first h1 (0 : Fin 2)).val = 0 := rfl
    rw [this]; omega
  · show b + 1 * (Shape.Idx.first h1 (1 : Fin 2)).val = b
    have : (Shape.Idx.first h1 (1 : Fin 2)).val = 0 := rfl
    rw [this]; omega

/-- A row of the transposed array read flat through the one-row slice at offsets (w, 0): entry v is the array's (w, v). -/
theorem wt_row (wt : Bf (F := F) c (Memref.whole main_v1_0)) (off : Fin 2 → Nat)
    (inb : ∀ a, off a + S1x8192.size a ≤ S8192x8192.size a)
    (hs : ∀ a, (Rect.unit (s := S8192x8192) off S1x8192.size inb).stride a = 1) (w : Nat) (hoff : off = ![w, 0]) (hw : w < 8192)
    (v : Fin 8192) :
    (((Memref.whole main_v1_0).slice (Rect.unit (s := S8192x8192) off S1x8192.size inb) hs).squeeze S8192 squeezes_S1x8192_S8192).view.read
        (Elt F) wt (ValueIdx.ix1 v)
      = (wt : S8192x8192.Idx → F .f32) (ValueIdx.ix2 (⟨w, hw⟩ : Fin 8192) v) := by
  subst hoff
  show shapeCast S8192 (View.readAt (Elt F) (Memref.whole main_v1_0).view
    (Rect.unit (s := S8192x8192) ![w, 0] S1x8192.size inb).toLoadRect wt) shapeCasts_S1x8192_S8192 (ValueIdx.ix1 v) = _
  rw [ValueIdx.shapeCast_1a_a_apply (a := 8192) _ shapeCasts_S1x8192_S8192 v, View.readAt_apply, View.read_apply]
  show (wt : S8192x8192.Idx → F .f32) _ = _
  congr 1
  funext d
  apply Fin.ext
  fin_cases d
  · show w + 1 * 0 = w; omega
  · show 0 + 1 * v.val = v.val; omega

/-- The bias block read flat: entry v is the block's (0, 0, v). -/
theorem beta_row (M3 : Memref sig .tc .vmem S1x1x8192 .f32) (β : Bf (F := F) c M3)
    (inb : ∀ a, (![0, 0, 0] : Fin 3 → Nat) a + S1x1x8192.size a ≤ S1x1x8192.size a) (v : Fin 8192) :
    shapeCast S8192 (View.readAt (Elt F) M3.view (Rect.unit (s := S1x1x8192) ![0, 0, 0] S1x1x8192.size inb).toLoadRect β)
        shapeCasts_S1x1x8192_S8192 (ValueIdx.ix1 v)
      = M3.view.read (Elt F) β (ValueIdx.ix3 (0 : Fin 1) (0 : Fin 1) v) := by
  rw [PayIdx.shapeCast_11a_a_apply (a := 8192) _ shapeCasts_S1x1x8192_S8192 v, View.readAt_eq_ld,
    View.ld_unit_zero (by funext d; fin_cases d <;> rfl)]

/-- The block's specification at row r, lane v. -/
theorem outSpec_row (i : grid1.Coords) (tbl : S4x4096.Idx → BitVec 32) (β' : Vec F S1x1x8192 .f32) (wt : Vec F S8192x8192 .f32)
    (rn : Nat) (hr : rn < 128) (inb : ∀ a, (![0, rn, 0] : Fin 3 → Nat) a + S1x1x8192.size a ≤ S1x128x8192.size a) (v : Fin 8192) :
    outSpec i tbl β' wt ((Rect.unit (s := S1x128x8192) ![0, rn, 0] S1x1x8192.size inb).emb
        (ValueIdx.ix3 (0 : Fin 1) (0 : Fin 1) v))
      = FloatOps.addf (wt (ValueIdx.ix2 (rowIx (tbl (tblPos i (⟨rn, hr⟩ : Fin 128)))) v))
          (β' (ValueIdx.ix3 (0 : Fin 1) (0 : Fin 1) v)) := by
  unfold outSpec
  have e1 : ((Rect.unit (s := S1x128x8192) ![0, rn, 0] S1x1x8192.size inb).emb (ValueIdx.ix3 (0 : Fin 1) (0 : Fin 1) v) 1).val = rn := by
    show rn + 1 * 0 = rn; omega
  have e2 : ((Rect.unit (s := S1x128x8192) ![0, rn, 0] S1x1x8192.size inb).emb (ValueIdx.ix3 (0 : Fin 1) (0 : Fin 1) v) 2).val = v.val := by
    show 0 + 1 * v.val = v.val; omega
  have f1 : (⟨((Rect.unit (s := S1x128x8192) ![0, rn, 0] S1x1x8192.size inb).emb (ValueIdx.ix3 (0 : Fin 1) (0 : Fin 1) v) 1).val % 128,
      Nat.mod_lt _ (by decide)⟩ : Fin 128) = ⟨rn, hr⟩ := Fin.ext (by show _ % 128 = rn; rw [e1]; exact Nat.mod_eq_of_lt hr)
  have f2 : (⟨((Rect.unit (s := S1x128x8192) ![0, rn, 0] S1x1x8192.size inb).emb (ValueIdx.ix3 (0 : Fin 1) (0 : Fin 1) v) 2).val % 8192,
      Nat.mod_lt _ (by decide)⟩ : Fin 8192) = v := Fin.ext (by show _ % 8192 = v.val; rw [e2]; exact Nat.mod_eq_of_lt v.isLt)
  rw [f1, f2]

/-! ## A stored row is the specification's row -/

/-- The stored sum of a gathered row and the bias row, at lane v, is the specification at (0, r, v): the row is named
    by the table's word at (first coordinate, 128 · second coordinate + r), which is below 8192. The row's offsets in
    the transposed array are given as a function `fW` of the word, with value (word, 0). -/
theorem row_final (i : grid1.Coords) (tbl : Bf (F := F) c (Memref.whole main_v0)) (hT : TableInRange c tbl)
    (wt : Bf (F := F) c (Memref.whole main_v1_0)) (M3 : Memref sig .tc .vmem S1x1x8192 .f32) (β : Bf (F := F) c M3)
    (rn : Nat) (hr : rn < 128)
    (inbP : ∀ a, (![0, rn, 0] : Fin 3 → Nat) a + S1x1x8192.size a ≤ S1x128x8192.size a)
    (offT : Fin 2 → Nat) (inbT : ∀ a, offT a + S1x1.size a ≤ S4x4096.size a) (h1 : 0 < S1x1.numel)
    (hoffT : offT = ![(i 0).val, 128 * (i 1).val + rn])
    (fW : BitVec 32 → Fin 2 → Nat) (hfW : ∀ w, fW w = ![w.toNat, 0])
    (inbW : ∀ a, fW (View.readAt (Elt F) (Memref.whole main_v0).view (Rect.unit (s := S4x4096) offT S1x1.size inbT).toLoadRect tbl
        (Shape.Idx.first h1)) a + S1x8192.size a ≤ S8192x8192.size a)
    (hsW : ∀ a, (Rect.unit (s := S8192x8192) (fW (View.readAt (Elt F) (Memref.whole main_v0).view
        (Rect.unit (s := S4x4096) offT S1x1.size inbT).toLoadRect tbl (Shape.Idx.first h1))) S1x8192.size inbW).stride a = 1)
    (inbB : ∀ a, (![0, 0, 0] : Fin 3 → Nat) a + S1x1x8192.size a ≤ S1x1x8192.size a) (v : Fin 8192) :
    FloatOps.addf
        ((((Memref.whole main_v1_0).slice (Rect.unit (s := S8192x8192) (fW (View.readAt (Elt F) (Memref.whole main_v0).view
            (Rect.unit (s := S4x4096) offT S1x1.size inbT).toLoadRect tbl (Shape.Idx.first h1))) S1x8192.size inbW) hsW).squeeze S8192
          squeezes_S1x8192_S8192).view.read (Elt F) wt (ValueIdx.ix1 v))
        (shapeCast S8192 (View.readAt (Elt F) M3.view (Rect.unit (s := S1x1x8192) ![0, 0, 0] S1x1x8192.size inbB).toLoadRect β)
          shapeCasts_S1x1x8192_S8192 (ValueIdx.ix1 v))
      = outSpec i tbl (M3.view.read (Elt F) β) wt
          ((Rect.unit (s := S1x128x8192) ![0, rn, 0] S1x1x8192.size inbP).emb (ValueIdx.ix3 (0 : Fin 1) (0 : Fin 1) v)) := by
  have hi0 : (i 0).val < 4 := (i 0).isLt
  have hi1 : (i 1).val < 32 := (i 1).isLt
  have hword := tbl_word tbl offT inbT h1 (i 0).val (128 * (i 1).val + rn) hoffT hi0 (by omega)
  have hlt : (View.readAt (Elt F) (Memref.whole main_v0).view (Rect.unit (s := S4x4096) offT S1x1.size inbT).toLoadRect tbl
      (Shape.Idx.first h1)).toNat < 8192 := hT offT inbT h1
  rw [wt_row wt _ inbW hsW _ (hfW _) hlt v, beta_row M3 β inbB v, outSpec_row i tbl _ wt rn hr inbP v]
  congr 2
  refine congrArg (fun r => ValueIdx.ix2 r v) (Fin.ext ?_)
  have hlt' := hlt
  rw [hword] at hlt'
  have hpos : tblPos i (⟨rn, hr⟩ : Fin 128) = ValueIdx.ix2 (⟨(i 0).val, hi0⟩ : Fin 4) (⟨128 * (i 1).val + rn, by omega⟩ : Fin 4096) := by
    unfold tblPos
    congr 1 <;> exact Fin.ext (Nat.mod_eq_of_lt (by first | exact hi0 | (show 128 * (i 1).val + rn < 4096; omega)))
  rw [hpos, rowIx_val _ hlt']
  exact congrArg BitVec.toNat hword

end RowLemmas

/-! ## The proof text for one row, and for the list of rows

The block's 128 stored rows are given as definitions that name each intermediate value by a definition of its own (a
row's payload is a shape cast of a named value, that one a shape cast of a named sum, and so on down to the loads), and
the list of pieces as a chain of named lists. The three steps below unfold such names in a controlled way: the lists down
to the literal list with the payloads folded; a payload one layer of names at a time, until the lemma that applies next
matches. No name is spelt. -/

open Lean Elab Tactic Meta in
/-- One round of unfolding: every application of a constant named by a body's run (a name with the component `sl`
    before its last) is replaced by its definition applied to the same arguments; what the definitions mention is
    left folded. Fails when the goal mentions no such name. -/
elab "run_step" : tactic => do
  let g ← getMainGoal
  let t ← instantiateMVars (← g.getType)
  let env ← getEnv
  let isRunName (n : Name) : Bool := n.components.dropLast.any (· == `sl)
  let t' := t.replace fun e =>
    match e.getAppFn with
    | .const n us =>
      if isRunName n then
        match env.find? n with
        | some ci => if ci.hasValue then some ((ci.instantiateValueLevelParams! us).beta e.getAppArgs) else none
        | none => none
      else none
    | _ => none
  if t' == t then throwError "run_step: no run name in the goal"
  replaceMainGoal [← g.replaceTargetDefEq t']

/-- Unfold round by round until the given tactic applies. -/
syntax "steps_until " "(" tacticSeq ")" : tactic
macro_rules
  | `(tactic| steps_until ($t:tacticSeq)) => `(tactic| first | ($t) | (run_step; steps_until ($t)))

open Lean Elab Tactic Meta in
/-- Open, in the goal, the names the body's run gave to LISTS of stored pieces, down to the literal list; the pieces'
    payloads stay folded. -/
elab "run_open_lists" : tactic => do
  let g ← getMainGoal
  let env ← getEnv
  let isRunList (n : Name) : Bool :=
    n.components.dropLast.any (· == `sl) &&
      (match env.find? n with
        | some ci => ci.type.getForallBody.isAppOf ``List
        | none => false)
  let mut t ← instantiateMVars (← g.getType)
  for _ in [0:400] do
    let t' ← Meta.deltaExpand t isRunList
    if t' == t then break
    t := t'
  replaceMainGoal [← g.replaceTargetDefEq t]

/-- One stored row against the specification: open the payload's names round by round down to the stored chain, read the
    chain at the lane, read the scratch half past the other half's write, and close with the row's closed forms. -/
syntax "row_tac " term:max : tactic
macro_rules
  | `(tactic| row_tac $hT:term) => `(tactic| (
      intro x
      obtain ⟨v, hv⟩ := ix3_ex x
      subst hv
      dsimp only
      steps_until (rw [chain_apply])
      steps_until (first | rw [scr_hit] | rw [scr_skip0, scr_hit] | rw [scr_skip1, scr_hit])
      steps_until (exact row_final _ _ $hT _ _ _ _ (by decide) _ _ _ _ ClosedOff.eq _ (fun _ => rfl) _ _ _ _)))

end Cert.Kernel.Hand

end
-- ==== Proof.K.Body1Read.lean ====
/-
  The gather kernel's output block after the body's run, read at an index: whatever the scratch buffer held when
  the body started, row r of the block ends holding the transposed array's row that the table's word for that row
  names, plus the bias block's row. Every index of the block lies in exactly one of the 128 stored rows (they tile
  the block), and every stored row agrees with the block's specification.
-/
import proofs.«421918_j29918742184132_1_alg».proof.Proof.K.Body1
import proofs.«421918_j29918742184132_1_alg».proof.Proof.K.RowRead

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000 in
set_option maxRecDepth 8192 in
/-- Whatever the scratch held, the output block's buffer ends reading as the block's specification: each row was
    stored from the scratch half that the row's own copy had just filled, plus the bias row. -/
theorem run1_read (c : Dev nD) (i : grid1.Coords)
    (M3 : Memref sig .tc .vmem S1x1x8192 .f32) (h3 : M3.IsWhole) (M5 : Memref sig .tc .vmem S1x128x8192 .f32) (h5 : M5.IsWhole)
    (tbl : Bf (F := F) c (Memref.whole main_v0)) (hT : TableInRange c tbl)
    (β : Bf (F := F) c M3) (wt : Bf (F := F) c (Memref.whole main_v1_0)) (k : Bf (F := F) c (Memref.whole cc1_scratch0)) :
    M5.view.read (Elt F) (run1 c i M3 h3 M5 h5 tbl hT β wt k).1 = outSpec i tbl (M3.view.read (Elt F) β) wt := by
  unfold run1
  dsimp only
  funext y
  -- every index lies in one of the 128 stored rows (the rows tile the block), and every stored row agrees with the
  -- specification: so the buffer reads as the specification at every index
  refine View.read_writes_apply_of_pieces _ _ (outSpec i tbl (M3.view.read (Elt F) β) wt) _ ?hG y
    (View.cover_of_tiledL (s := S1x128x8192) _ S1x1x8192.size (by sl_kernel_rfl) y)
  run_open_lists
  repeat' (first | (refine List.forall_mem_cons.mpr ⟨?_, ?_⟩) | exact fun _ h => absurd h List.not_mem_nil)
  all_goals row_tac hT

end Cert.Kernel.Hand

end
-- ==== Proof.K.Dat1.lean ====
/-
  The gather pipeline's proof data and body obligation. Between two points the kernel holds the index table,
  the transposed array, its scratch (at something) and its two counters at zero; at each point the bias
  window's buffer holds the bias array's block (whether or not the point fetched it: the block index does
  not move between fetches), and the body leaves in the output window's buffer what its run finds.
-/
import proofs.«421918_j29918742184132_1_alg».proof.Proof.K.Body1Read
import proofs.«421918_j29918742184132_1_alg».proof.Proof.Gen.Kernel.Launch
import Idealize.ShloMosaic.Lib.Pipeline.Regions
import Idealize.ShloMosaic.Lib.Pipeline.FrameBody

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation)

/-- A whole memref's buffer held by the memref's own elements is the buffer held whole. -/
theorem ptSet_eq_pt1 (c : Dev nD) {sp : Space} {S : Shape} {e : EltTy} (M : Memref sig .tc sp S e) (h : M.IsWhole)
    (f : Bf (F := F) c M) :
    ((M.view.loc (c : Thread nD τ) ↦[M.view.set]{fullShare} f : sProp (MM F))) = pt c M f := by
  obtain ⟨b, rfl, rfl, rfl, hm⟩ := h
  cases hm
  simp only [Memref.view_whole, View.set_whole]

/-- Owning a whole memref at contents `X` is holding its buffer whole at the raw contents that read `X`. -/
theorem owns_eq_pt1 (c : Dev nD) {sp : Space} {S : Shape} {e : EltTy} (M : Memref sig .tc sp S e) (h : M.IsWhole)
    (X : S.Idx → Elt F e) :
    (owns (c : Thread nD τ) M fullShare X : sProp (MM F)) ⊣⊢ pt c M (h.unread X) := by
  rw [← ptSet_eq_pt1 c M h (h.unread X)]
  unfold owns
  constructor
  · iintro ⟨%f, %hf, H⟩
    obtain rfl := h.eq_unread hf
    iexact H
  · iintro H
    iexists h.unread X
    isplitr; · ipureintro; exact h.read_unread X
    iexact H

variable (V : (c : Dev nD) → Valuation τ sig (Elt F)) (a1 : (pcfg1 (F := F)).Adm)

/-- The index table as the pipeline is pinned at it. -/
abbrev tblOf (c : Dev nD) : Bf (F := F) c (Memref.whole main_v0) := a1.1 0

/-- The scoped buffers that are neither a staging buffer of this call nor its scratch, each held at something. -/
def rest1 (c : Dev nD) : sProp (MM F) :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The invariant between two points: the table, the transposed array as the region found it, the scratch at
    something, both counters at zero, the other scoped buffers. -/
def Φ1 (c : Dev nD) : sProp (MM F) :=
  iprop(pt c (Memref.whole main_v0) (tblOf a1 c) ∗ pt c (Memref.whole main_v1_0) (V c main_v1_0)
    ∗ (∃ f, pt c (Memref.whole cc1_scratch0) f) ∗ sems0 c ∗ rest1 c)

/-- The staging memrefs the pipeline calls the body with at point `t`. -/
abbrev stB (t : Fin (cfg1 a1).N) : Memref sig .tc .vmem S1x1x8192 .f32 := spec1_0.stage ((cfg1 a1).slots t 0)
abbrev stO (t : Fin (cfg1 a1).N) : Memref sig .tc .vmem S1x128x8192 .f32 := spec1_1.stage ((cfg1 a1).slots t 1)
theorem hstB (t : Fin (cfg1 a1).N) : (stB a1 t).IsWhole := hstage1_0 (((cfg1 a1).slots t 0).cast nbuf1_0)
theorem hstO (t : Fin (cfg1 a1).N) : (stO a1 t).IsWhole := hstage1_1 (((cfg1 a1).slots t 1).cast nbuf1_1)

/-- The bias array's block at point `t`. -/
abbrev biasBlk (c : Dev nD) (t : Fin (cfg1 a1).N) : Vec F S1x1x8192 .f32 :=
  (((cfg1 a1).win 0).blk t).view.read (Elt F) (V c (Pipeline.arrRef spec1 0))

/-- What the body leaves in the output window's buffer at point `t`: the block's specification. -/
def outBlk (c : Dev nD) (t : Fin (cfg1 a1).N) : Vec F S1x128x8192 .f32 :=
  outSpec (grid1.coords t) (tblOf a1 c) (biasBlk V a1 c t) (V c main_v1_0)

/-- The proof data on core `c`. -/
def dat1 (c : Dev nD) : Dat τ (Elt F) Unit ℕ (UU nD τ) ℕ (cfg1 a1) c where
  A w := V c (Pipeline.arrRef spec1 w)
  after w t := match w with
    | ⟨0, _⟩ => biasBlk V a1 c t
    | ⟨1, _⟩ => outBlk V a1 c t
  Φ _ := Φ1 V a1 c
  q _ := fullShare
  owed _ := 0

theorem dat1_A (c : Dev nD) (w : Fin 2) : (dat1 V a1 c).A w = V c (Pipeline.arrRef spec1 w) := rfl
theorem dat1_owed (c : Dev nD) (t : Fin ((cfg1 a1).N + 1)) : (dat1 V a1 c).owed t = 0 := rfl
theorem dat1_q (c : Dev nD) (w : Fin 2) : (dat1 V a1 c).q w = fullShare := rfl
theorem dat1_Φ (c : Dev nD) (t : Fin ((cfg1 a1).N + 1)) : (dat1 V a1 c).Φ t = Φ1 V a1 c := rfl

/-- The bias window's buffer holds the bias array's block when the body runs, fetched there or not. -/
theorem before_bias (c : Dev nD) (t : Fin (cfg1 a1).N) (d : ((cfg1 a1).win 0).block.Idx → Elt F ((cfg1 a1).win 0).elt) :
    (dat1 V a1 c).before (0 : Fin 2) t d = biasBlk V a1 c t :=
  (dat1 V a1 c).before_in_eq_fetched (0 : Fin 2) rfl (fun _ => rfl) (fun _ _ _ => rfl) (fun _ => rfl) t d

/-- The body obligation: the windows and the invariant taken apart, the body's run applied, its post reassembled. -/
theorem body_obligation1 (hT : ∀ c, TableInRange c (tblOf a1 c)) (c : Dev nD) : BodyObligation (dat1 V a1 c) (defs₀ (F := F)) Variants.none () Set.univ := fun t => by
  have hidle : ∀ w i, (cfg1 a1).idle w i = false := fun _ _ => rfl
  simp only [hidle]
  rw [bigSep_W1, bigSep_W1]
  rw [dat1_Φ, dat1_Φ]
  unfold Φ1 Dat.owesAt Pipeline.owesWithin
  rw [dat1_owed, dat1_owed]
  iintro ⟨⟨H2, H4, ⟨%k, H6⟩, Hsems, Hrest⟩, ⟨%W, %hW, HO⟩, ⟨%d0, H3⟩, ⟨%d1, H5⟩⟩
  have e0 := before_bias V a1 c t d0
  ihave H3a := (owns_eq_pt1 c (stB a1 t) (hstB a1 t) ((dat1 V a1 c).before (0 : Fin 2) t d0)).1 $$ H3
  ihave H3' := (Entails.of_eq (congrArg (fun X => pt c (stB a1 t) ((hstB a1 t).unread X)) e0)) $$ H3a
  ihave H5' := (owns_eq_pt1 c (stO a1 t) (hstO a1 t) ((dat1 V a1 c).before (1 : Fin 2) t d1)).1 $$ H5
  iapply ((run1 c (grid1.coords t) (stB a1 t) (hstB a1 t) (stO a1 t) (hstO a1 t) (tblOf a1 c) (hT c)
      ((hstB a1 t).unread (biasBlk V a1 c t)) (V c main_v1_0) k).2 _ W _)
  isplitl [H2]; · iexact H2
  isplitl [H3']; · iexact H3'
  isplitl [H4]; · iexact H4
  isplitl [H5']; · iexact H5'
  isplitl [H6]; · iexact H6
  isplitl [Hsems]; · iexact Hsems
  isplitl [HO]; · iexact HO
  iintro ⟨H2, H3, H4, H5, H6, Hsems, ⟨%W', HO⟩⟩
  isplitl [H2 H4 H6 Hsems Hrest]
  · isplitl [H2]; · iexact H2
    isplitl [H4]; · iexact H4
    isplitl [H6]; · iexact H6
    isplitl [Hsems]; · iexact Hsems
    iexact Hrest
  isplitl [HO]
  · iexists W'; isplitr; · ipureintro; exact fun _ _ => Or.inl trivial
    iexact HO
  isplitl [H3]
  · iapply (owns_eq_pt1 c (stB a1 t) (hstB a1 t) _).2; iexact H3
  · iapply (owns_eq_pt1 c (stO a1 t) (hstO a1 t) ((dat1 V a1 c).after (1 : Fin 2) t)).2
    have e5 : (hstO a1 t).unread ((dat1 V a1 c).after (1 : Fin 2) t)
        = (run1 c (grid1.coords t) (stB a1 t) (hstB a1 t) (stO a1 t) (hstO a1 t) (tblOf a1 c) (hT c)
            ((hstB a1 t).unread (biasBlk V a1 c t)) (V c main_v1_0) k).1 := by
      have hr := run1_read c (grid1.coords t) (stB a1 t) (hstB a1 t) (stO a1 t) (hstO a1 t) (tblOf a1 c) (hT c)
        ((hstB a1 t).unread (biasBlk V a1 c t)) (V c main_v1_0) k
      rw [(hstB a1 t).read_unread] at hr
      exact ((hstO a1 t).eq_unread hr).symm
    iapply (Entails.of_eq (congrArg (fun X => pt c (stO a1 t) X) e5.symm))
    iexact H5

end Cert.Kernel.Hand

end
-- ==== Proof.Spec.lean ====
/-
  The specification of this certificate's result, stated over the argument arrays alone.

  Inputs: idx : i32[4, 4096], sigma : f32[4], W : f32[8192, 8192], bvec : f32[8192]. Both programs compute, for
  b < 4, l < 4096, v < 8192,

      out[b, l, v] = W[v, r(b, l)] + ((c * sigma[b]) * (∑ j, W[v, j]) + bvec[v]),

  where r(b, l) is idx[b, l] clamped (signed) into [0, 8191] and c is the f32 literal 0.01, kept as the extended
  real its word denotes. This module imports no program: it fixes the clamp on words (clampW), the fact that a clamped
  word is a row number below 8192 (and non-negative read signed), and the result function G, index by index.
-/
import Idealize.ShloMosaic.PureOps.Ideal
import Idealize.ShloMosaic.Lib.ValueIdx

noncomputable section

open scoped BigOperators

namespace Cert.Spec

open Idealize.ShloMosaic Idealize.ShloMosaic.ValueIdx

/-! ## The clamp on 32-bit words -/

/-- The signed clamp of a word into [0, 8191]: the minimum of 8191 and the maximum of 0 and the word, with the word
    operations the programs apply elementwise, in their operand order. -/
def clampW (w : BitVec 32) : BitVec 32 := IntOp.minsi 8191#32 (IntOp.maxsi 0#32 w)

/-- Read signed, a clamped word lies in [0, 8191]. -/
theorem clampW_toInt_mem (w : BitVec 32) : 0 ≤ (clampW w).toInt ∧ (clampW w).toInt ≤ 8191 := by
  have h0 : (0#32 : BitVec 32).toInt = 0 := by decide
  have h1 : (8191#32 : BitVec 32).toInt = 8191 := by decide
  unfold clampW IntOp.minsi IntOp.maxsi
  by_cases hw : w.slt 0#32 = true
  · rw [if_pos hw]
    by_cases hm : (8191#32 : BitVec 32).slt 0#32 = true
    · exact absurd hm (by decide)
    · rw [if_neg hm, h0]; omega
  · rw [if_neg hw]
    have hw' : ¬ w.toInt < 0 := by
      intro h; apply hw; simp only [BitVec.slt, h0, decide_eq_true_eq]; exact h
    by_cases hm : (8191#32 : BitVec 32).slt w = true
    · rw [if_pos hm, h1]; omega
    · rw [if_neg hm]
      have hm' : ¬ (8191 : Int) < w.toInt := by
        intro h; apply hm; simp only [BitVec.slt, h1, decide_eq_true_eq]; exact h
      omega

/-- A clamped word reads the same signed and unsigned. -/
theorem clampW_toInt (w : BitVec 32) : (clampW w).toInt = ((clampW w).toNat : Int) := by
  have h := (clampW_toInt_mem w).1
  have hlt := (clampW w).isLt
  rw [BitVec.toInt_eq_toNat_cond] at h ⊢
  split
  · rfl
  · rename_i hc; rw [if_neg hc] at h; omega

/-- A clamped word is a row number: its value is below 8192. -/
theorem clampW_lt (w : BitVec 32) : (clampW w).toNat < 8192 := by
  have h := (clampW_toInt_mem w).2
  rw [clampW_toInt] at h
  omega

/-- A clamped word is not negative read signed: the signed comparison with zero fails. -/
theorem clampW_not_neg (w : BitVec 32) : (clampW w).slt 0#32 = false := by
  have h0 : (0#32 : BitVec 32).toInt = 0 := by decide
  have h := (clampW_toInt_mem w).1
  simp only [BitVec.slt, h0, decide_eq_false_iff_not]
  omega

/-- The comparison word of "clamped word < 0, signed" is the cleared bit. -/
theorem cmpi_slt_clampW (w : BitVec 32) : IntOp.cmpi .slt (clampW w) 0#32 = 0#1 := by
  unfold IntOp.cmpi
  rw [clampW_not_neg]
  rfl

/-- The wrap-around select "if i < 0 then i + 8192 else i" of a clamped word is the word. -/
theorem wrap_clampW (w : BitVec 32) :
    Scalar.select (IntOp.cmpi .slt (clampW w) 0#32) (IntOp.addi (clampW w) 8192#32) (clampW w) = clampW w := by
  rw [cmpi_slt_clampW]; exact select_zero _ _

/-- A gather's clamp of the start index into [0, 8191] leaves a clamped word's value as it is. -/
theorem clampW_start (w : BitVec 32) : min (clampW w).toInt.toNat (8192 - 1) = (clampW w).toNat := by
  have h := clampW_lt w
  rw [clampW_toInt, Int.toNat_natCast]
  omega

/-- The row a word selects: its clamp, as a number below 8192. -/
def row (w : BitVec 32) : Fin 8192 := ⟨(clampW w).toNat, clampW_lt w⟩

theorem row_val (w : BitVec 32) : (row w).val = (clampW w).toNat := rfl

/-! ## The result -/

/-- The result array, index by index: the gathered entry of W plus (the scaled row sum plus the bias). The literal 0.01
    stays the extended real its f32 word denotes. -/
def G (idx : (⟨2, ![4, 4096]⟩ : Shape).Idx → BitVec 32) (sigma : FVec Ideal ⟨1, ![4]⟩ .f32)
    (W : FVec Ideal ⟨2, ![8192, 8192]⟩ .f32) (bvec : FVec Ideal ⟨1, ![8192]⟩ .f32) :
    FVec Ideal ⟨3, ![4, 4096, 8192]⟩ .f32 :=
  fun i => W (ix2 (i 2) (row (idx (ix2 (i 0) (i 1)))))
    + ((Ideal.ofBits .f32 0x3C23D70A#32 * sigma (ix1 (i 0))) * (∑ j : Fin 8192, W (ix2 (i 2) j)) + bvec (ix1 (i 2)))

/-- G at an index given by its three coordinates. -/
theorem G_ix3 (idx : (⟨2, ![4, 4096]⟩ : Shape).Idx → BitVec 32) (sigma : FVec Ideal ⟨1, ![4]⟩ .f32)
    (W : FVec Ideal ⟨2, ![8192, 8192]⟩ .f32) (bvec : FVec Ideal ⟨1, ![8192]⟩ .f32) (b : Fin 4) (l : Fin 4096) (v : Fin 8192) :
    G idx sigma W bvec (ix3 b l v) = W (ix2 v (row (idx (ix2 b l))))
      + ((Ideal.ofBits .f32 0x3C23D70A#32 * sigma (ix1 b)) * (∑ j : Fin 8192, W (ix2 v j)) + bvec (ix1 v)) := rfl

end Cert.Spec

end
-- ==== Proof.K.Host.lean ====
/-
  What the host operations of the program leave in the buffers its two kernel regions read: the index table is the
  argument clamped word by word into [0, 8191]; the bias array is the composed broadcast-multiply-add of the scale
  vector, the row sums the first region wrote, and the bias vector; the arrays no host operation writes keep their
  contents.
-/
import proofs.«421918_j29918742184132_1_alg».proof.Proof.K.Table
import proofs.«421918_j29918742184132_1_alg».proof.Proof.Spec
import proofs.«421918_j29918742184132_1_alg».proof.Proof.Gen.Kernel.Regions
import Idealize.ShloMosaic.Lib.StableHlo.Run
import Idealize.ShloMosaic.Lib.Pipeline.Value
import Idealize.ShloMosaic.Lib.ValueIdx

noncomputable section

namespace Cert.Kernel.Hand

open Cert.Kernel Cert.Kernel.Gen

open Idealize.ShloMosaic
open Idealize.ShloMosaic.TcCoe Idealize.ShloMosaic.Tactic
open Idealize.ShloMosaic.StableHlo
open Idealize.SL.Sem

variable {F : FTy → Type} [FloatOps F]

variable (m : (ℓ : Loc nD τ sig) → Buf (Elt F) ℓ) (outs : Gen.Outs (F := F))

/-! ## The index table -/

/-- The index table after the clamp's six operations, as the composed term over the argument: the minimum of the
    constant 8191 and the maximum of the constant 0 and the argument, elementwise. -/
theorem V2_table (c : Dev nD) :
    (Gen.V2 m c main_v0 : IVec S4x4096 32)
      = minsi (broadcastInDim S4x4096 ![] bcast_S_S4x4096 (constantI S_ 32 8191#32))
          (maxsi (broadcastInDim S4x4096 ![] bcast_S_S4x4096 (constantI S_ 32 0#32))
            (m ((c : Thread nD τ).loc main_arg0) : IVec S4x4096 32)) := by
  show StableHlo.after hostOps0_1 (StableHlo.after hostOps0 (Gen.V0 m c)) (Proc.devRef .tc main_v0) = _
  after_results
  rfl

/-- The table's word at index j is the clamp of the argument's word at j. -/
theorem V2_table_apply (c : Dev nD) (j : S4x4096.Idx) :
    (Gen.V2 m c main_v0 : IVec S4x4096 32) j
      = Cert.Spec.clampW ((m ((c : Thread nD τ).loc main_arg0) : IVec S4x4096 32) j) :=
  (congrFun (V2_table m c) j).trans rfl

/-- Every single word read off the table is below 8192: a unit rectangle of the whole array reads the array's word at
    its offset, and that word is a clamp. -/
theorem table_in_range (c : Dev nD) : TableInRange c (Gen.V2 m c main_v0) := by
  intro off inb h1
  rw [View.readAt_apply, View.read_apply]
  show BitVec.toNat ((Gen.V2 m c main_v0 : IVec S4x4096 32) _) < 8192
  rw [V2_table_apply]
  exact Cert.Spec.clampW_lt _

/-- Neither the first region nor the second host stretch writes the table. -/
theorem V4_table (c : Dev nD) : Gen.V4 m outs c main_v0 = Gen.V2 m c main_v0 :=
  (Gen.V4_of m outs c main_v0 (by decide)).trans (Gen.V3_of m outs c main_v0 (by decide))

/-! ## The arrays the regions exchange -/

/-- The transposed array the second region reads is what the first region left: the second host stretch does not
    write it. -/
theorem V4_wt (c : Dev nD) : Gen.V4 m outs c main_v1_0 = outs 3 main_v1_0 c := by
  refine (Gen.V4_of m outs c main_v1_0 (by decide)).trans ?_
  show Function.update (Function.update (Gen.V2 m c) (Proc.devRef .tc main_v1_0) (outs 3 main_v1_0 c))
    (Proc.devRef .tc main_v1_1) (outs 3 main_v1_1 c) (Proc.devRef .tc main_v1_0) = _
  rw [Function.update_of_ne (StableHlo.devRef_ne_of_ne (by decide) :
    (Proc.devRef .tc main_v1_0 : DevRef τ sig) ≠ Proc.devRef .tc main_v1_1), Function.update_self]

/-- The row sums the second host stretch reads are what the first region left. -/
theorem V3_rs (c : Dev nD) : Gen.V3 m outs c main_v1_1 = outs 3 main_v1_1 c := by
  show Function.update (Function.update (Gen.V2 m c) (Proc.devRef .tc main_v1_0) (outs 3 main_v1_0 c))
    (Proc.devRef .tc main_v1_1) (outs 3 main_v1_1 c) (Proc.devRef .tc main_v1_1) = _
  rw [Function.update_self]

/-- The matrix argument is as launched when the first region starts: no host operation before it writes it. -/
theorem V2_W (c : Dev nD) : Gen.V2 m c main_arg2 = m ((c : Thread nD τ).loc main_arg2) :=
  (Gen.V2_of m c main_arg2 (by decide)).trans ((Gen.V1_of m c main_arg2 (by decide)).trans rfl)

/-- The scale argument is as launched when the second host stretch starts. -/
theorem V3_sigma (c : Dev nD) : Gen.V3 m outs c main_arg1 = m ((c : Thread nD τ).loc main_arg1) :=
  (Gen.V3_of m outs c main_arg1 (by decide)).trans <|
    (Gen.V2_of m c main_arg1 (by decide)).trans ((Gen.V1_of m c main_arg1 (by decide)).trans rfl)

/-- The bias argument is as launched when the second host stretch starts. -/
theorem V3_bvec (c : Dev nD) : Gen.V3 m outs c main_arg3 = m ((c : Thread nD τ).loc main_arg3) :=
  (Gen.V3_of m outs c main_arg3 (by decide)).trans <|
    (Gen.V2_of m c main_arg3 (by decide)).trans ((Gen.V1_of m c main_arg3 (by decide)).trans rfl)

/-! ## The bias array -/

/-- The bias array as a function of the scale vector, the row sums and the bias vector: the second host stretch's
    twelve operations composed. Entry [b, 0, v] is (0.01 * sigma[b]) * rs[v] + bv[v]. -/
def biasOf (sigma : FVec F S4 .f32) (rs : FVec F S8192 .f32) (bv : FVec F S8192 .f32) : FVec F S4x1x8192 .f32 :=
  broadcastInDim S4x1x8192 ![0, 2] bcast_S4x8192_S4x1x8192_0_2
    (addf
      (mulf
        (broadcastInDim S4x8192 ![0, 1] bcast_S4x1_S4x8192_0_1
          (broadcastInDim S4x1 ![0] bcast_S4_S4x1_0
            (mulf (broadcastInDim S4 ![] bcast_S_S4 (constant (F := F) S_ .f32 0x3C23D70A#32)) sigma)))
        (broadcastInDim S4x8192 ![0, 1] bcast_S1x8192_S4x8192_0_1
          (broadcastInDim S1x8192 ![1] bcast_S8192_S1x8192_1 rs)))
      (broadcastInDim S4x8192 ![0, 1] bcast_S1x8192_S4x8192_0_1
        (broadcastInDim S1x8192 ![1] bcast_S8192_S1x8192_1 bv)))

/-- The second host stretch run from any contents leaves in its last result the bias array of the contents it reads. -/
theorem after_hostOps1_bias (V : Valuation τ sig (Elt F)) :
    (StableHlo.after hostOps1 V (Proc.devRef .tc main_v12) : FVec F S4x1x8192 .f32)
      = biasOf (V (Proc.devRef .tc main_arg1)) (V (Proc.devRef .tc main_v1_1)) (V (Proc.devRef .tc main_arg3)) := by
  after_results
  rfl

/-- The bias array the second region stages: of the scale argument, the row sums the first region left, and the bias
    argument. -/
theorem V4_bias (c : Dev nD) :
    (Gen.V4 m outs c main_v12 : FVec F S4x1x8192 .f32)
      = biasOf (m ((c : Thread nD τ).loc main_arg1)) (outs 3 main_v1_1 c) (m ((c : Thread nD τ).loc main_arg3)) := by
  refine (after_hostOps1_bias (Gen.V3 m outs c)).trans ?_
  have h1 : Gen.V3 m outs c (Proc.devRef .tc main_arg1) = m ((c : Thread nD τ).loc main_arg1) := V3_sigma m outs c
  have h2 : Gen.V3 m outs c (Proc.devRef .tc main_v1_1) = outs 3 main_v1_1 c := V3_rs m outs c
  have h3 : Gen.V3 m outs c (Proc.devRef .tc main_arg3) = m ((c : Thread nD τ).loc main_arg3) := V3_bvec m outs c
  rw [h1, h2, h3]

/-! ## The bias array read at an index -/

/-- The bias array's entry [b, z, v] (z the one index of the unit axis): the scaled row sum plus the bias, in the
    operations' own order. -/
theorem biasOf_ix3 (sigma : FVec F S4 .f32) (rs bv : FVec F S8192 .f32) (b : Fin 4) (z : Fin 1) (v : Fin 8192) :
    biasOf sigma rs bv (ValueIdx.ix3 b z v)
      = FloatOps.addf
          (FloatOps.mulf (FloatOps.mulf (FloatOps.ofBits .f32 0x3C23D70A#32) (sigma (ValueIdx.ix1 b))) (rs (ValueIdx.ix1 v)))
          (bv (ValueIdx.ix1 v)) := by
  unfold biasOf
  rw [broadcastInDim_apply _ _ _ (ValueIdx.ix3 b z v) (ValueIdx.ix2 b v) (by intro a; fin_cases a <;> rfl)]
  show FloatOps.addf (FloatOps.mulf (broadcastInDim S4x8192 _ bcast_S4x1_S4x8192_0_1 _ (ValueIdx.ix2 b v))
      (broadcastInDim S4x8192 _ bcast_S1x8192_S4x8192_0_1 _ (ValueIdx.ix2 b v)))
      (broadcastInDim S4x8192 _ bcast_S1x8192_S4x8192_0_1 _ (ValueIdx.ix2 b v)) = _
  rw [broadcastInDim_apply _ bcast_S4x1_S4x8192_0_1 _ (ValueIdx.ix2 b v) (ValueIdx.ix2 b (0 : Fin 1)) (by intro a; fin_cases a <;> rfl),
    broadcastInDim_apply _ bcast_S4_S4x1_0 _ (ValueIdx.ix2 b (0 : Fin 1)) (ValueIdx.ix1 b) (by intro a; fin_cases a; rfl),
    broadcastInDim_apply _ bcast_S1x8192_S4x8192_0_1 _ (ValueIdx.ix2 b v) (ValueIdx.ix2 (0 : Fin 1) v) (by intro a; fin_cases a <;> rfl),
    broadcastInDim_apply _ bcast_S8192_S1x8192_1 rs (ValueIdx.ix2 (0 : Fin 1) v) (ValueIdx.ix1 v) (by intro a; fin_cases a; rfl),
    broadcastInDim_apply _ bcast_S1x8192_S4x8192_0_1 _ (ValueIdx.ix2 b v) (ValueIdx.ix2 (0 : Fin 1) v) (by intro a; fin_cases a <;> rfl),
    broadcastInDim_apply _ bcast_S8192_S1x8192_1 bv (ValueIdx.ix2 (0 : Fin 1) v) (ValueIdx.ix1 v) (by intro a; fin_cases a; rfl)]
  rfl

/-- The bias array at any index i: its entry depends on i's first and last coordinates only. -/
theorem biasOf_apply (sigma : FVec F S4 .f32) (rs bv : FVec F S8192 .f32) (i : S4x1x8192.Idx) :
    biasOf sigma rs bv i
      = FloatOps.addf
          (FloatOps.mulf (FloatOps.mulf (FloatOps.ofBits .f32 0x3C23D70A#32) (sigma (ValueIdx.ix1 (i 0)))) (rs (ValueIdx.ix1 (i 2))))
          (bv (ValueIdx.ix1 (i 2))) :=
  (congrArg (biasOf sigma rs bv) (ValueIdx.eq_ix3 i)).trans (biasOf_ix3 sigma rs bv (i 0) (i 1) (i 2))

end Cert.Kernel.Hand

end
-- ==== Proof.K.PDats.lean ====
/-
  The data the launch is called with, fixed once for both kernel regions: the index table the gather pipeline
  is pinned at (the clamp of the index argument, as the first host stretch leaves it), what the two regions
  leave in the arrays they write (the pipeline library's account of each array after its region), and the
  pipelines' proof data as one family.
-/
import proofs.«421918_j29918742184132_1_alg».proof.Proof.K.Dat0
import proofs.«421918_j29918742184132_1_alg».proof.Proof.K.Dat1
import proofs.«421918_j29918742184132_1_alg».proof.Proof.K.Host
import proofs.«421918_j29918742184132_1_alg».proof.Proof.Gen.Kernel.Regions

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat)

variable (m : (ℓ : Loc nD τ sig) → Buf (Elt F) ℓ)

/-- The one core of the compiled mesh. -/
abbrev c0 : Dev nD := ⟨0, Nat.one_pos⟩

/-- The index table as the gather region finds it: what the clamp left in it (kept behind a name, so that no
    comparison of terms ever evaluates the host operations that made it). -/
def tblV : Bf (F := F) c0 (Memref.whole main_v0) := Gen.V2 m c0 main_v0

theorem tblV_eq : tblV m = Gen.V2 m c0 main_v0 := rfl

attribute [irreducible] tblV

/-- The gather pipeline's one table. -/
def tbl1 : pre1.Contents (Elt F) := fun k => match k with
  | ⟨0, _⟩ => tblV m
  | ⟨_ + 1, h⟩ => absurd h (Nat.not_lt.2 (Nat.le_add_left _ _))

/-- The gather pipeline's tables, admissible (its side condition is empty). -/
def a1 : (pcfg1 (F := F)).Adm := ⟨tbl1 m, trivial⟩

/-- Both pipelines' tables. -/
def adm : (p : Fin 2) → (pcfgs (F := F) p).Adm
  | ⟨0, _⟩ => cfg0.toPCfg_adm
  | ⟨1, _⟩ => a1 m
  | ⟨_ + 2, h⟩ => absurd h (Nat.not_lt.2 (Nat.le_add_left _ _))

/-- Every word of the table names a row of the transposed array. -/
theorem hT1 (c : Dev nD) : TableInRange c (tblOf (a1 m) c) := by
  obtain rfl : c = c0 := Subsingleton.elim _ _
  show TableInRange c0 (tblV m)
  rw [tblV_eq]
  exact table_in_range m c0

/-- The transposed array and the row sums as region 0 leaves them. -/
abbrev wtOut (c : Dev nD) : Buf (Elt F) ((c : Thread nD τ).loc main_v1_0) := (dat0 (Gen.V2 m) c).arrAt 1 cfg0.N
abbrev rsOut (c : Dev nD) : Buf (Elt F) ((c : Thread nD τ).loc main_v1_1) := (dat0 (Gen.V2 m) c).arrAt 2 cfg0.N

/-- The unscoped buffers after region 0. -/
def V3t (c : Dev nD) : Valuation τ sig (Elt F) :=
  Function.update (Function.update (Gen.V2 m c) main_v1_0 (wtOut m c)) main_v1_1 (rsOut m c)

/-- What region 0 leaves, as the unknowns of the generated valuations. -/
def outsA : Gen.Outs (F := F) := fun _ r c => V3t m c r

/-- The gather pipeline's proof data: entered from the unscoped buffers after the second host stretch. -/
abbrev dat1' (c : Dev nD) : Dat τ (Elt F) Unit ℕ (UU nD τ) ℕ (cfg1 (a1 m)) c :=
  dat1 (fun c => Gen.V4 m (outsA m) c) (a1 m) c

/-- The result array as region 1 leaves it. -/
abbrev resOut (c : Dev nD) : Buf (Elt F) ((c : Thread nD τ).loc main_v13) := (dat1' m c).arrAt 1 (cfg1 (a1 m)).N

/-- The unscoped buffers after region 1. -/
def V5t (c : Dev nD) : Valuation τ sig (Elt F) :=
  Function.update (Function.update (Gen.V4 m (outsA m) c) main_v13 (resOut m c)) main_v1_0 (Gen.V4 m (outsA m) c main_v1_0)

/-- What the two regions leave. -/
def outs : Gen.Outs (F := F) := fun n r c => match n with
  | 3 => V3t m c r
  | _ => V5t m c r

/-- The pipelines' proof data, as one family. -/
def pdats : (p : Fin 2) → (c : Dev nD) → Dat τ (Elt F) Unit ℕ (UU nD τ) ℕ (Pipeline.pin (pcfgs (F := F)) (adm m) p) c
  | ⟨0, _⟩ => fun c => dat0 (Gen.V2 m) c
  | ⟨1, _⟩ => fun c => dat1' m c
  | ⟨_ + 2, h⟩ => absurd h (Nat.not_lt.2 (Nat.le_add_left _ _))

theorem pdats_zero (c : Dev nD) : pdats m 0 c = dat0 (Gen.V2 m) c := rfl
theorem pdats_one (c : Dev nD) : pdats m 1 c = dat1' m c := rfl

/-- After region 0 the generated valuation is the one stated here. -/
theorem V3_eq (c : Dev nD) : Gen.V3 m (outs m) c = V3t m c := by
  funext b
  show Function.update (Function.update (Gen.V2 m c) main_v1_0 (V3t m c main_v1_0)) main_v1_1 (V3t m c main_v1_1) b = V3t m c b
  have h10 : V3t m c main_v1_0 = wtOut m c := by
    unfold V3t
    rw [Function.update_of_ne (StableHlo.devRef_ne_of_ne (by decide) : (Proc.devRef .tc main_v1_0 : DevRef τ sig) ≠ Proc.devRef .tc main_v1_1), Function.update_self]
  have h11 : V3t m c main_v1_1 = rsOut m c := by unfold V3t; rw [Function.update_self]
  rw [h10, h11]; rfl

/-- The second host stretch runs from the same buffers whichever way the regions' results are named. -/
theorem V4_eq (c : Dev nD) : Gen.V4 m (outs m) c = Gen.V4 m (outsA m) c := rfl

/-- After region 1 the generated valuation is the one stated here. -/
theorem V5_eq (c : Dev nD) : Gen.V5 m (outs m) c = V5t m c := by
  funext b
  show Function.update (Function.update (Gen.V4 m (outs m) c) main_v13 (V5t m c main_v13)) main_v1_0 (V5t m c main_v1_0) b = V5t m c b
  have h13 : V5t m c main_v13 = resOut m c := by
    unfold V5t
    rw [Function.update_of_ne (StableHlo.devRef_ne_of_ne (by decide) : (Proc.devRef .tc main_v13 : DevRef τ sig) ≠ Proc.devRef .tc main_v1_0), Function.update_self]
  have h10 : V5t m c main_v1_0 = Gen.V4 m (outsA m) c main_v1_0 := by unfold V5t; rw [Function.update_self]
  rw [h13, h10, V4_eq]; rfl

end Cert.Kernel.Hand

end
-- ==== Proof.K.LaunchAlg.lean ====
/-
  The algebra-side arguments of the program's conditional frame at this certificate's choices: one unnamed duty
  index, the rounds algebra beside the transfer counters, natural-number levels of which none is assigned, no tallies
  taken on at launch, and nothing kept beside the buffers between the items but each core's ledger at zero tallies.
  The launch element is the pipelines' own beside the unit of the counters; its first component funds the staging
  cells and the second is dropped. Each core's first rest state is its launch ledger, which owes nothing.
-/
import proofs.«421918_j29918742184132_1_alg».proof.Proof.K.Alg
import proofs.«421918_j29918742184132_1_alg».proof.Proof.Gen.Kernel.Launch
import Idealize.ShloMosaic.Lib.Pipeline.Regions

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Levels: none assigned -/

/-- No cell is assigned a level index. -/
abbrev LL : GSem nD τ sig → Finset Unit := fun _ => ∅
/-- The level of an index, were one assigned. -/
abbrev lvl : GSem nD τ sig → Unit → ℕ := fun _ _ => 0
/-- In particular no cell off the TensorCores is assigned one. -/
theorem hLL : ∀ g : GSem nD τ sig, g.1.2 ≠ .tc → LL g = ∅ := fun _ _ => rfl

/-! ## The launch element -/

/-- The launch element, at any contents `a` of the prefetched tables: the pipelines' initial element over their staging
    cells and launch tokens, beside the unit of the counters' algebra. -/
def u₀ (a : (p : Fin 2) → (pcfgs (F := F) p).Adm) : UU nD τ :=
  (initOf (Pipeline.cells (Pipeline.pin (pcfgs (F := F)) a) (cellOf_inj a))
      (Pipeline.launchToks (Pipeline.pin (pcfgs (F := F)) a) (cellOf_inj a)), 1)

/-- The launch element yields the pipelines' initial element, owned through the left embedding; no core is given
    anything more. -/
theorem hu₀ (a : (p : Fin 2) → (pcfgs (F := F) p).Adm) :
    (ownU (u₀ a) : sProp (MM F)) ⊢ |={Set.univ}=> iprop(BI.own ((EP : Emb (UR sig nD τ) (MM F))
        (initOf (Pipeline.cells (Pipeline.pin (pcfgs (F := F)) a) (cellOf_inj a))
          (Pipeline.launchToks (Pipeline.pin (pcfgs (F := F)) a) (cellOf_inj a))))
      ∗ bigSep Finset.univ fun _ : Dev nD => (BI.emp : sProp (MM F))) := by
  rw [BI.bigSep_emp_const]
  refine (ownU_pair _ _).trans ?_
  iintro ⟨Hl, -⟩
  imodintro
  isplitl [Hl]
  · iexact Hl
  · iempintro

/-! ## The rest states -/

/-- What rides beside the buffers between the items, the same at each: the core's ledger at zero tallies, at some
    set of waits. -/
abbrev Erest (_ : Fin 3) (c : Dev nD) : sProp (MM F) :=
  iprop(∃ W, owes (c : Thread nD τ) (0 : CellTallies nD τ sig Unit) W)

/-- Of what the launch deals one core with no tallies taken on, its ledger is the rest state; the unscoped
    semaphores, the credit tokens and the generator's register are dropped. -/
theorem rest_of_dealt (ρ : Dev nD → PrngReg) (c : Dev nD) :
    iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp (MM F)))
      ⊢ (Erest 0 c : sProp (MM F)) := by
  iintro ⟨-, Hled, -⟩
  iexists ∅
  iexact Hled

/-- The launch makes the first rest state on every core at once. -/
theorem hE0 (ρ : Dev nD → PrngReg) :
    iprop((bigSep Finset.univ fun c : Dev nD =>
          iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp (MM F))))
        ∗ levAts LL lvl)
      ⊢ (|={Set.univ}=> bigSep Finset.univ (Erest 0) : sProp (MM F)) := by
  have hmono : (bigSep Finset.univ fun c : Dev nD =>
        iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp (MM F))))
      ⊢ (bigSep Finset.univ (Erest 0) : sProp (MM F)) :=
    bigSep_mono fun c _ => rest_of_dealt ρ c
  iintro ⟨Hall, -⟩
  imodintro
  iapply hmono
  iexact Hall

/-- The last rest state owes nothing. -/
theorem hE2 (c : Dev nD) :
    (Erest 2 c : sProp (MM F)) ⊢ iprop(∃ W, owes (c : Thread nD τ) (0 : CellTallies nD τ sig Unit) W) := .rfl

end Cert.Kernel.Hand

end
-- ==== Proof.K.Reg0.lean ====
/-
  The transpose / row-sum call as a segment of the program: entered from every unscoped buffer held at the contents the
  second host stretch left, beside the core's ledger; left with the same buffers held at those contents updated at the
  two arrays the call writes, beside the ledger again.

  At its entry the three arrays of the call's windows are taken out of the unscoped buffers and everything else
  bypasses the region; nothing of the unscoped buffers enters the invariant, which is the accumulator and the other
  scoped buffers no window stages. At its exit the input array is as it was found, the two outputs hold what the
  pipeline's account of the write-backs says, and the three are put back among the rest.
-/
import proofs.«421918_j29918742184132_1_alg».proof.Proof.K.PDats
import proofs.«421918_j29918742184132_1_alg».proof.Proof.K.LaunchAlg
import Idealize.ShloMosaic.Lib.Pipeline.RegionsLoop

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-! ## The arrays of the call's windows -/

/-- The three windows' arrays: the matrix argument, the transposed array, the row sums. -/
theorem arrRef0_0 : Pipeline.arrRef spec0 0 = main_arg2 := rfl
theorem arrRef0_1 : Pipeline.arrRef spec0 1 = main_v1_0 := rfl
theorem arrRef0_2 : Pipeline.arrRef spec0 2 = main_v1_1 := rfl

/-- A buffer that is no window's array is neither of the two the call writes. -/
theorem not_written_of_not_arr (b : Ref sig .tc) (hb : b ∉ Finset.univ.image (Pipeline.arrRef spec0)) :
    b ∉ ([main_v1_0, main_v1_1] : List (Ref sig .tc)) := by
  intro h
  rcases List.mem_cons.mp h with rfl | h
  · exact hb (Finset.mem_image.mpr ⟨1, Finset.mem_univ _, arrRef0_1⟩)
  · rcases List.mem_cons.mp h with rfl | h
    · exact hb (Finset.mem_image.mpr ⟨2, Finset.mem_univ _, arrRef0_2⟩)
    · exact absurd h List.not_mem_nil

/-- The updated contents at the transposed array are what the call leaves there, -/
theorem V3t_wt (c : Dev nD) : V3t m c main_v1_0 = wtOut m c := by
  unfold V3t
  rw [Function.update_of_ne (StableHlo.devRef_ne_of_ne (by decide) : (Proc.devRef .tc main_v1_0 : DevRef τ sig) ≠ Proc.devRef .tc main_v1_1),
    Function.update_self]

/-- and at the row sums likewise. -/
theorem V3t_rs (c : Dev nD) : V3t m c main_v1_1 = rsOut m c := by
  unfold V3t; rw [Function.update_self]

/-- Each array's final contents, as the pipeline accounts for them, are the updated contents there. -/
theorem final_eq (c : Dev nD) (w : Fin 3) :
    (pdats m 0 c).arrAt w cfg0.N = Gen.V3 m (outs m) c (Pipeline.arrRef spec0 w) := by
  rw [pdats_zero]
  match w with
  | ⟨0, _⟩ =>
    refine ((dat0 (Gen.V2 m) c).arrAt_in 0 rfl _).trans ?_
    rw [dat0_A]
    exact (Gen.V3_of m (outs m) c main_arg2 (by decide)).symm
  | ⟨1, _⟩ =>
    show wtOut m c = Gen.V3 m (outs m) c main_v1_0
    rw [V3_eq, V3t_wt]
  | ⟨2, _⟩ =>
    show rsOut m c = Gen.V3 m (outs m) c main_v1_1
    rw [V3_eq, V3t_rs]

/-! ## The ledger in and out of the pipeline's form -/

/-- The ledger at zero tallies, at some set of waits, is the pipeline's first due. -/
theorem owes_in (c : Dev nD) : (Erest (F := F) 0 c) ⊢ (pdats m 0 c).owesAt () 0 := by
  unfold Pipeline.Dat.owesAt Pipeline.owesWithin
  iintro ⟨%W, HO⟩
  iexists W
  isplitr
  · ipureintro; exact fun _ _ => Or.inl trivial
  · iexact HO

/-- The pipeline's last due is the ledger at zero tallies, at some set of waits. -/
theorem owes_out (c : Dev nD) : (pdats m 0 c).owesAt () (Fin.last (Pipeline.pin (pcfgs (F := F)) (adm m) 0).N) ⊢ (Erest (F := F) 1 c) := by
  unfold Pipeline.Dat.owesAt Pipeline.owesWithin
  iintro ⟨%W, -, HO⟩
  iexists W
  iexact HO

/-! ## The record -/

-- a library lemma stated over the pinned configuration of pipeline p unifies with this program's own names only when
-- unification may unfold plain definitions in a metavariable's type
set_option backward.isDefEq.respectTransparency.types false in
/-- The transpose / row-sum call as a region of the program. -/
def reg0 : Pipeline.RegionSeg (pcfgs (F := F)) (adm m) (pdats m) () defs₀ Variants.none LL lvl 0 where
  win := (launch0 (F := F)).win.to₀
  block_pos := (launch0 (F := F)).block_pos
  stage_whole := (launch0 (F := F)).stage_whole
  K := PEmpty
  osem := fun k => k.elim
  ho := Pipeline.OwnSemFacts.none _
  hbody c := (body_obligation0 (Gen.V2 m) c).loose
  hwaits := Pipeline.hwaits_of_owed_zero _ _ _ _ LL lvl 0 fun _ _ => rfl
  pre c := iprop(StableHlo.held (c : Thread nD τ) (Pipeline.ucRefs τ sig) (Gen.V2 m c) ∗ Erest 0 c)
  post c := iprop(StableHlo.held (c : Thread nD τ) (Pipeline.ucRefs τ sig) (Gen.V3 m (outs m) c) ∗ Erest 1 c)
  X _ := iprop(emp)
  Y _ := iprop(emp)
  Z c := Pipeline.unscopedRest spec0 c (fun b => Gen.V2 m c b)
  hentry c := by
    rw [show StableHlo.held (c : Thread nD τ) (Pipeline.ucRefs τ sig) (Gen.V2 m c) = unscopedBufs c (fun b => Gen.V2 m c b) from
      (Pipeline.unscopedBufs_held (Ix := Unit) (Name := ℕ) (U := UU nD τ) (Lvl := ℕ) c (Gen.V2 m c)).symm]
    have hsplit := Pipeline.arrays_of_unscopedBufs (pcfgs (F := F)) (adm m) (pdats m) (p := 0) (launch0 (F := F)).win (launch0 (F := F)).arr_whole c
      ((pdats m 0 c).share_full fun _ => rfl) (fun b => Gen.V2 m c b) fun _ => rfl
    iintro ⟨⟨Hub, HO⟩, -, -⟩
    ihave H := hsplit $$ Hub
    icases H with ⟨Ha, Hz⟩
    ihave HO' := (owes_in m c) $$ HO
    imodintro
    isplitl [Ha]; · iexact Ha
    isplitr
    · unfold Pipeline.prefHeld; rw [show (Finset.univ : Finset (Fin 0)) = ∅ from rfl, BI.bigSep_empty]; iempintro
    isplitl [HO']; · iexact HO'
    isplitr; · iempintro
    iexact Hz
  hin c := by
    rw [show Pipeline.scopedRest (Pipeline.pin (pcfgs (F := F)) (adm m) 0).spec c = _ from
        scopedRest0_eq (Ix := Unit) (Val := Elt F) (Name := ℕ) (U := UU nD τ) (Lvl := ℕ) c,
      show (pdats m 0 c).Φ 0 = (dat0 (Gen.V2 m) c).Φ 0 from rfl, dat0_Φ_first]
    unfold rest0
    iintro ⟨-, -, Hs, Hr⟩
    isplitl [Hs]; · iexact Hs
    iexact Hr
  hout c := by
    rw [Pipeline.ownSems0_none, show Pipeline.scopedRest (Pipeline.pin (pcfgs (F := F)) (adm m) 0).spec c = _ from
        scopedRest0_eq (Ix := Unit) (Val := Elt F) (Name := ℕ) (U := UU nD τ) (Lvl := ℕ) c]
    refine (dat0_Φ_last (Gen.V2 m) c).trans ?_
    unfold rest0
    iintro ⟨Hs, Hr⟩
    isplitr; · iempintro
    isplitr; · iempintro
    isplitl [Hs]; · iexact Hs
    iexact Hr
  hexit c := by
    rw [show StableHlo.held (c : Thread nD τ) (Pipeline.ucRefs τ sig) (Gen.V3 m (outs m) c) = unscopedBufs c (fun b => Gen.V3 m (outs m) c b) from
      (Pipeline.unscopedBufs_held (Ix := Unit) (Name := ℕ) (U := UU nD τ) (Lvl := ℕ) c (Gen.V3 m (outs m) c)).symm]
    have hback := Pipeline.unscopedBufs_of_arrays (pcfgs (F := F)) (adm m) (p := 0) (launch0 (F := F)).win (launch0 (F := F)).arr_whole c (pdats m)
      ((pdats m 0 c).share_full fun _ => rfl) (fun b => Gen.V2 m c b) (fun b => Gen.V3 m (outs m) c b)
      (fun w => (pdats m 0 c).arrAt w cfg0.N) (final_eq m c)
      (fun b hb => Gen.V3_of m (outs m) c b (not_written_of_not_arr b hb))
    iintro ⟨Ha, HO, -, Hz⟩
    ihave Hub := hback $$ [Ha Hz]
    · isplitl [Ha]; · iexact Ha
      iexact Hz
    ihave HO' := (owes_out m c) $$ HO
    imodintro
    isplitl [Hub]; · iexact Hub
    iexact HO'

/-- The region is entered from the thread state the program's frame names before it, -/
theorem hpre0 (c : Dev nD) :
    iprop(StableHlo.held (c : Thread nD τ) (Pipeline.ucRefs τ sig) (Gen.V2 m c) ∗ Erest 0 c) ⊢ (reg0 m).pre c := .rfl

/-- and left at the one it names after it. -/
theorem hpost0 (c : Dev nD) :
    (reg0 m).post c ⊢ iprop(StableHlo.held (c : Thread nD τ) (Pipeline.ucRefs τ sig) (Gen.V3 m (outs m) c) ∗ Erest 1 c) := .rfl

end Cert.Kernel.Hand

end
-- ==== Proof.K.Reg1.lean ====
/-
  The gather region as a segment of the program: entered from the unscoped buffers as the second host stretch leaves
  them, left at the valuation that has the result array as the pipeline's account computes it. At the entry the
  bias array and the result array go to the pipeline as its windows' arrays, the index table as its prefetched
  table, the transposed array and the kernel's two counters into the invariant; every other unscoped buffer bypasses
  the region. At the exit the table and the transposed array come back unchanged, and the unscoped buffers are
  reassembled at the valuation updated at the result array.
-/
import proofs.«421918_j29918742184132_1_alg».proof.Proof.K.PDats
import proofs.«421918_j29918742184132_1_alg».proof.Proof.K.LaunchAlg
import Idealize.ShloMosaic.Lib.Pipeline.RegionsLoop

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation)

variable (m : (ℓ : Loc nD τ sig) → Buf (Elt F) ℓ)

/-! ## The valuation the region is entered from -/

/-- The unscoped buffers when the gather region is entered: after the second host stretch. -/
abbrev W4 (c : Dev nD) (b : Ref sig .tc) : Buf (Elt F) ((c : Thread nD τ).loc b) := Gen.V4 m (outsA m) c b

/-- The index table is then still what the clamp left: the contents the pipeline is pinned at. -/
theorem W4_table (c : Dev nD) : W4 m c main_v0 = tblOf (a1 m) c := by
  obtain rfl : c = c0 := Subsingleton.elim _ _
  show Gen.V4 m (outsA m) c0 main_v0 = tblV m
  rw [tblV_eq]
  exact V4_table m (outsA m) c0

/-! ## The kernel's own semaphores and the prefetched table, listed -/

/-- The kernel's two counters are scoped, distinct, and no staging semaphore. -/
theorem ownSemFacts1 : Pipeline.OwnSemFacts spec1 osem := by decide

/-- The kernel's own cells at zero are its two counters at zero. -/
theorem ownSems0_eq1 (c : Dev nD) :
    (Pipeline.ownSems0 (Ix := Unit) (Name := ℕ) (U := UU nD τ) (Lvl := ℕ) (Val := Elt F) (τ := τ) osem c : sProp (MM F))
      = sems0 c :=
  Pipeline.ownSems0_eq_of_list c osem [0, 1] (by decide) (by decide)

/-- The one prefetched table held at the full share is the table's buffer held whole. -/
theorem prefHeld1_eq (c : Dev nD) (T : pre1.Contents (Elt F)) :
    (Pipeline.prefHeld (Ix := Unit) (Name := ℕ) (U := UU nD τ) (Lvl := ℕ) pre1 c (fun _ => fullShare) T : sProp (MM F))
      = pt c (Memref.whole main_v0) (T 0) := by
  unfold Pipeline.prefHeld
  exact bigSep_univ_eq_bigSepL [(0 : Fin 1)] (by decide) (by decide) _

/-! ## What enters the invariant, what comes back, what bypasses the region -/

/-- Into the invariant: the transposed array as the region finds it, and the kernel's two counters at zero. -/
abbrev X1 (c : Dev nD) : sProp (MM F) := iprop(pt c (Memref.whole main_v1_0) (W4 m c main_v1_0) ∗ sems0 c)

/-- Back out of it: the table and the transposed array, unchanged. -/
abbrev Y1 (c : Dev nD) : sProp (MM F) :=
  iprop(pt c (Memref.whole main_v0) (tblOf (a1 m) c) ∗ pt c (Memref.whole main_v1_0) (W4 m c main_v1_0))

/-- The unscoped buffers that are neither a window's array, nor the table, nor the transposed array, each held whole
    at the entry valuation. -/
def Z1 (c : Dev nD) : sProp (MM F) :=
  iprop((((c : Thread nD τ).loc main_arg0) ↦{fullShare} W4 m c main_arg0)
    ∗ (((c : Thread nD τ).loc main_arg1) ↦{fullShare} W4 m c main_arg1)
    ∗ (((c : Thread nD τ).loc main_arg2) ↦{fullShare} W4 m c main_arg2)
    ∗ (((c : Thread nD τ).loc main_arg3) ↦{fullShare} W4 m c main_arg3)
    ∗ (((c : Thread nD τ).loc main_c) ↦{fullShare} W4 m c main_c)
    ∗ (((c : Thread nD τ).loc main_c_0) ↦{fullShare} W4 m c main_c_0)
    ∗ (((c : Thread nD τ).loc main_call0_v0) ↦{fullShare} W4 m c main_call0_v0)
    ∗ (((c : Thread nD τ).loc main_call0_v1) ↦{fullShare} W4 m c main_call0_v1)
    ∗ (((c : Thread nD τ).loc main_call0_v2) ↦{fullShare} W4 m c main_call0_v2)
    ∗ (((c : Thread nD τ).loc main_call0_v3) ↦{fullShare} W4 m c main_call0_v3)
    ∗ (((c : Thread nD τ).loc main_call0_v4) ↦{fullShare} W4 m c main_call0_v4)
    ∗ (((c : Thread nD τ).loc main_v1_1) ↦{fullShare} W4 m c main_v1_1)
    ∗ (((c : Thread nD τ).loc main_cst) ↦{fullShare} W4 m c main_cst)
    ∗ (((c : Thread nD τ).loc main_v2) ↦{fullShare} W4 m c main_v2)
    ∗ (((c : Thread nD τ).loc main_v3) ↦{fullShare} W4 m c main_v3)
    ∗ (((c : Thread nD τ).loc main_v4) ↦{fullShare} W4 m c main_v4)
    ∗ (((c : Thread nD τ).loc main_v5) ↦{fullShare} W4 m c main_v5)
    ∗ (((c : Thread nD τ).loc main_v6) ↦{fullShare} W4 m c main_v6)
    ∗ (((c : Thread nD τ).loc main_v7) ↦{fullShare} W4 m c main_v7)
    ∗ (((c : Thread nD τ).loc main_v8) ↦{fullShare} W4 m c main_v8)
    ∗ (((c : Thread nD τ).loc main_v9) ↦{fullShare} W4 m c main_v9)
    ∗ (((c : Thread nD τ).loc main_v10) ↦{fullShare} W4 m c main_v10)
    ∗ (((c : Thread nD τ).loc main_v11) ↦{fullShare} W4 m c main_v11))

/-- The unscoped buffers that are no window's array, at the entry valuation: the table at the pinned contents, then
    the others one by one. -/
theorem unscopedRest1_eq (c : Dev nD) :
    (Pipeline.unscopedRest (Ix := Unit) (Name := ℕ) (U := UU nD τ) (Lvl := ℕ) spec1 c (W4 m c) : sProp (MM F))
      = iprop(pt c (Memref.whole main_v0) (tblOf (a1 m) c)
        ∗ (((c : Thread nD τ).loc main_arg0) ↦{fullShare} W4 m c main_arg0)
        ∗ (((c : Thread nD τ).loc main_arg1) ↦{fullShare} W4 m c main_arg1)
        ∗ (((c : Thread nD τ).loc main_arg2) ↦{fullShare} W4 m c main_arg2)
        ∗ (((c : Thread nD τ).loc main_arg3) ↦{fullShare} W4 m c main_arg3)
        ∗ (((c : Thread nD τ).loc main_c) ↦{fullShare} W4 m c main_c)
        ∗ (((c : Thread nD τ).loc main_c_0) ↦{fullShare} W4 m c main_c_0)
        ∗ (((c : Thread nD τ).loc main_call0_v0) ↦{fullShare} W4 m c main_call0_v0)
        ∗ (((c : Thread nD τ).loc main_call0_v1) ↦{fullShare} W4 m c main_call0_v1)
        ∗ (((c : Thread nD τ).loc main_call0_v2) ↦{fullShare} W4 m c main_call0_v2)
        ∗ (((c : Thread nD τ).loc main_call0_v3) ↦{fullShare} W4 m c main_call0_v3)
        ∗ (((c : Thread nD τ).loc main_call0_v4) ↦{fullShare} W4 m c main_call0_v4)
        ∗ (((c : Thread nD τ).loc main_v1_0) ↦{fullShare} W4 m c main_v1_0)
        ∗ (((c : Thread nD τ).loc main_v1_1) ↦{fullShare} W4 m c main_v1_1)
        ∗ (((c : Thread nD τ).loc main_cst) ↦{fullShare} W4 m c main_cst)
        ∗ (((c : Thread nD τ).loc main_v2) ↦{fullShare} W4 m c main_v2)
        ∗ (((c : Thread nD τ).loc main_v3) ↦{fullShare} W4 m c main_v3)
        ∗ (((c : Thread nD τ).loc main_v4) ↦{fullShare} W4 m c main_v4)
        ∗ (((c : Thread nD τ).loc main_v5) ↦{fullShare} W4 m c main_v5)
        ∗ (((c : Thread nD τ).loc main_v6) ↦{fullShare} W4 m c main_v6)
        ∗ (((c : Thread nD τ).loc main_v7) ↦{fullShare} W4 m c main_v7)
        ∗ (((c : Thread nD τ).loc main_v8) ↦{fullShare} W4 m c main_v8)
        ∗ (((c : Thread nD τ).loc main_v9) ↦{fullShare} W4 m c main_v9)
        ∗ (((c : Thread nD τ).loc main_v10) ↦{fullShare} W4 m c main_v10)
        ∗ (((c : Thread nD τ).loc main_v11) ↦{fullShare} W4 m c main_v11)) := by
  rw [Pipeline.unscopedRest_split preFacts1 c (W4 m c), prefHeld1_eq, unscopedRestP1_eq]
  exact congrArg (fun T => iprop(pt c (Memref.whole main_v0) T ∗ _)) (W4_table m c)

/-! ## The valuation the region leaves -/

/-- The result array apart, the region leaves every unscoped buffer as it found it. -/
theorem V5t_of_ne (c : Dev nD) (b : Ref sig .tc) (h : b ≠ main_v13) : V5t m c b = W4 m c b := by
  unfold V5t
  by_cases h10 : b = main_v1_0
  · subst h10
    rw [Function.update_self]
  · rw [Function.update_of_ne (StableHlo.devRef_ne_of_ne h10 : (Proc.devRef .tc b : DevRef τ sig) ≠ Proc.devRef .tc main_v1_0),
      Function.update_of_ne (StableHlo.devRef_ne_of_ne h : (Proc.devRef .tc b : DevRef τ sig) ≠ Proc.devRef .tc main_v13)]

/-- The result array it leaves at the pipeline's account of it. -/
theorem V5t_res (c : Dev nD) : V5t m c main_v13 = resOut m c := by
  unfold V5t
  rw [Function.update_of_ne (StableHlo.devRef_ne_of_ne (by decide) : (Proc.devRef .tc main_v13 : DevRef τ sig) ≠ Proc.devRef .tc main_v1_0),
    Function.update_self]

/-- Each window's array after the region is what the valuation the region leaves has there: the bias array is an
    input, the result array is the pipeline's account. -/
theorem final1 (c : Dev nD) (w : Fin 2) :
    (dat1' m c).arrAt w (cfg1 (a1 m)).N = V5t m c (Pipeline.arrRef spec1 w) := by
  fin_cases w
  · exact ((dat1' m c).arrAt_in 0 rfl _).trans (V5t_of_ne m c (Pipeline.arrRef spec1 0) (by decide)).symm
  · exact (V5t_res m c).symm

/-- Off the windows' arrays the valuation the region leaves is the one it was entered from. -/
theorem off1 (c : Dev nD) (b : Ref sig .tc) (hb : b ∉ Finset.univ.image (Pipeline.arrRef spec1)) : V5t m c b = W4 m c b :=
  V5t_of_ne m c b fun h => hb (Finset.mem_image.mpr ⟨1, Finset.mem_univ _, h.symm⟩)

/-! ## The four entailments -/

/-- ENTRY: out of the unscoped buffers at the entry valuation, the two windows' arrays, the table at the pinned
    contents, the ledger, the transposed array with the counters, and the rest. -/
theorem hentry1 (c : Dev nD) :
    iprop((StableHlo.held (c : Thread nD τ) (Pipeline.ucRefs τ sig) (Gen.V4 m (outs m) c) ∗ Erest 1 c)
        ∗ Pipeline.ownSems0 osem c ∗ levAts LL lvl)
      ⊢ |={Set.univ}=> iprop((dat1' m c).arrays ((dat1' m c).arrAt · 0)
        ∗ Pipeline.prefHeld pre1 c (fun _ => fullShare) (a1 m).1
        ∗ (dat1' m c).owesAt () 0 ∗ X1 m c ∗ Z1 m c) := by
  rw [ownSems0_eq1, prefHeld1_eq]
  rw [show StableHlo.held (c : Thread nD τ) (Pipeline.ucRefs τ sig) (Gen.V4 m (outs m) c) = unscopedBufs c (W4 m c) from
    (Pipeline.unscopedBufs_held c (Gen.V4 m (outsA m) c)).symm]
  have hsplit : (unscopedBufs c (W4 m c) : sProp (MM F))
      ⊢ iprop((dat1' m c).arrays ((dat1' m c).arrAt · 0) ∗ Pipeline.unscopedRest spec1 c (W4 m c)) :=
    Pipeline.arrays_of_unscopedBufs (pcfgs (F := F)) (adm m) (pdats m) (p := 1) (launch1 (F := F)).win (launch1 (F := F)).arr_whole c
      ((dat1' m c).share_full fun _ => rfl) (W4 m c) fun _ => rfl
  rw [unscopedRest1_eq] at hsplit
  unfold Z1
  iintro ⟨⟨Hub, HO⟩, Hos, -⟩
  ihave H := hsplit $$ Hub
  icases H with ⟨Ha, Htbl, H_arg0, H_arg1, H_arg2, H_arg3, H_c, H_c_0, H_call0_v0, H_call0_v1, H_call0_v2, H_call0_v3, H_call0_v4, H_v1_0, H_v1_1, H_cst, H_v2, H_v3, H_v4, H_v5, H_v6, H_v7, H_v8, H_v9, H_v10, H_v11⟩
  imodintro
  isplitl [Ha]; · iexact Ha
  isplitl [Htbl]; · iexact Htbl
  isplitl [HO]
  · unfold Pipeline.Dat.owesAt Pipeline.owesWithin
    icases HO with ⟨%W, HO⟩; iexists W; isplitr; · ipureintro; exact fun _ _ => Or.inl trivial
    iexact HO
  isplitl [H_v1_0 Hos]
  · isplitl [H_v1_0]; · iexact H_v1_0
    iexact Hos
  isplitl [H_arg0]; · iexact H_arg0
  isplitl [H_arg1]; · iexact H_arg1
  isplitl [H_arg2]; · iexact H_arg2
  isplitl [H_arg3]; · iexact H_arg3
  isplitl [H_c]; · iexact H_c
  isplitl [H_c_0]; · iexact H_c_0
  isplitl [H_call0_v0]; · iexact H_call0_v0
  isplitl [H_call0_v1]; · iexact H_call0_v1
  isplitl [H_call0_v2]; · iexact H_call0_v2
  isplitl [H_call0_v3]; · iexact H_call0_v3
  isplitl [H_call0_v4]; · iexact H_call0_v4
  isplitl [H_v1_1]; · iexact H_v1_1
  isplitl [H_cst]; · iexact H_cst
  isplitl [H_v2]; · iexact H_v2
  isplitl [H_v3]; · iexact H_v3
  isplitl [H_v4]; · iexact H_v4
  isplitl [H_v5]; · iexact H_v5
  isplitl [H_v6]; · iexact H_v6
  isplitl [H_v7]; · iexact H_v7
  isplitl [H_v8]; · iexact H_v8
  isplitl [H_v9]; · iexact H_v9
  isplitl [H_v10]; · iexact H_v10
  iexact H_v11

/-- The invariant at the first point, from what enters it, the table and the scoped buffers no window stages. -/
theorem hin1 (c : Dev nD) :
    iprop(X1 m c ∗ Pipeline.prefHeld pre1 c (fun _ => fullShare) (a1 m).1
        ∗ Pipeline.scopedRest (Ix := Unit) (Name := ℕ) (U := UU nD τ) (Lvl := ℕ) (Val := Elt F) spec1 c)
      ⊢ Φ1 (fun c => Gen.V4 m (outsA m) c) (a1 m) c := by
  rw [prefHeld1_eq, scopedRest1_eq]
  unfold Φ1 rest1
  iintro ⟨⟨Hwt, Hos⟩, Htbl, S0, S1, S2, S3, S4, S5, S6, Hscr⟩
  isplitl [Htbl]; · iexact Htbl
  isplitl [Hwt]; · iexact Hwt
  isplitl [Hscr]; · iexact Hscr
  isplitl [Hos]; · iexact Hos
  isplitl [S0]; · iexact S0
  isplitl [S1]; · iexact S1
  isplitl [S2]; · iexact S2
  isplitl [S3]; · iexact S3
  isplitl [S4]; · iexact S4
  isplitl [S5]; · iexact S5
  iexact S6

/-- The invariant at the last point gives back the table and the transposed array, the counters at zero, and those
    scoped buffers. -/
theorem hout1 (c : Dev nD) :
    Φ1 (fun c => Gen.V4 m (outsA m) c) (a1 m) c
      ⊢ iprop(Y1 m c ∗ Pipeline.ownSems0 osem c
        ∗ Pipeline.scopedRest (Ix := Unit) (Name := ℕ) (U := UU nD τ) (Lvl := ℕ) (Val := Elt F) spec1 c) := by
  rw [ownSems0_eq1, scopedRest1_eq]
  unfold Φ1 rest1
  iintro ⟨Htbl, Hwt, Hscr, Hos, S0, S1, S2, S3, S4, S5, S6⟩
  isplitl [Htbl Hwt]
  · isplitl [Htbl]; · iexact Htbl
    iexact Hwt
  isplitl [Hos]; · iexact Hos
  isplitl [S0]; · iexact S0
  isplitl [S1]; · iexact S1
  isplitl [S2]; · iexact S2
  isplitl [S3]; · iexact S3
  isplitl [S4]; · iexact S4
  isplitl [S5]; · iexact S5
  isplitl [S6]; · iexact S6
  iexact Hscr

/-- EXIT: the windows' arrays at their final contents, the table and the transposed array, and what bypassed the
    region are the unscoped buffers at the valuation the region leaves; the ledger owes nothing. -/
theorem hexit1 (c : Dev nD) :
    iprop((dat1' m c).arrays ((dat1' m c).arrAt · (cfg1 (a1 m)).N) ∗ (dat1' m c).owesAt () (Fin.last (cfg1 (a1 m)).N)
        ∗ Y1 m c ∗ Z1 m c)
      ⊢ |={Set.univ}=> iprop(StableHlo.held (c : Thread nD τ) (Pipeline.ucRefs τ sig) (Gen.V5 m (outs m) c) ∗ Erest 2 c) := by
  rw [show StableHlo.held (c : Thread nD τ) (Pipeline.ucRefs τ sig) (Gen.V5 m (outs m) c) = unscopedBufs c (fun b => V5t m c b) from by
    rw [V5_eq]; exact (Pipeline.unscopedBufs_held c (V5t m c)).symm]
  have hjoin : iprop((dat1' m c).arrays ((dat1' m c).arrAt · (cfg1 (a1 m)).N) ∗ Pipeline.unscopedRest spec1 c (W4 m c))
      ⊢ (unscopedBufs c (fun b => V5t m c b) : sProp (MM F)) :=
    Pipeline.unscopedBufs_of_arrays (pcfgs (F := F)) (adm m) (p := 1) (launch1 (F := F)).win (launch1 (F := F)).arr_whole c (pdats m)
      ((dat1' m c).share_full fun _ => rfl) (W4 m c) (fun b => V5t m c b) (fun w => (dat1' m c).arrAt w (cfg1 (a1 m)).N)
      (final1 m c) (off1 m c)
  rw [unscopedRest1_eq] at hjoin
  unfold Z1
  iintro ⟨Ha, HO, ⟨Htbl, H_v1_0⟩, H_arg0, H_arg1, H_arg2, H_arg3, H_c, H_c_0, H_call0_v0, H_call0_v1, H_call0_v2, H_call0_v3, H_call0_v4, H_v1_1, H_cst, H_v2, H_v3, H_v4, H_v5, H_v6, H_v7, H_v8, H_v9, H_v10, H_v11⟩
  imodintro
  isplitr [HO]
  · iapply hjoin
    isplitl [Ha]; · iexact Ha
    isplitl [Htbl]; · iexact Htbl
    isplitl [H_arg0]; · iexact H_arg0
    isplitl [H_arg1]; · iexact H_arg1
    isplitl [H_arg2]; · iexact H_arg2
    isplitl [H_arg3]; · iexact H_arg3
    isplitl [H_c]; · iexact H_c
    isplitl [H_c_0]; · iexact H_c_0
    isplitl [H_call0_v0]; · iexact H_call0_v0
    isplitl [H_call0_v1]; · iexact H_call0_v1
    isplitl [H_call0_v2]; · iexact H_call0_v2
    isplitl [H_call0_v3]; · iexact H_call0_v3
    isplitl [H_call0_v4]; · iexact H_call0_v4
    isplitl [H_v1_0]; · iexact H_v1_0
    isplitl [H_v1_1]; · iexact H_v1_1
    isplitl [H_cst]; · iexact H_cst
    isplitl [H_v2]; · iexact H_v2
    isplitl [H_v3]; · iexact H_v3
    isplitl [H_v4]; · iexact H_v4
    isplitl [H_v5]; · iexact H_v5
    isplitl [H_v6]; · iexact H_v6
    isplitl [H_v7]; · iexact H_v7
    isplitl [H_v8]; · iexact H_v8
    isplitl [H_v9]; · iexact H_v9
    isplitl [H_v10]; · iexact H_v10
    iexact H_v11
  · unfold Pipeline.Dat.owesAt Pipeline.owesWithin
    icases HO with ⟨%W, -, HO⟩; iexists W; iexact HO

/-! ## The region -/

set_option backward.isDefEq.respectTransparency.types false in
/-- THE GATHER REGION: the decided layout of its windows, the kernel's two counters, the body obligation; its protocol the
    four entailments above, between the entry valuation and the valuation updated at the result array. -/
def reg1 : Pipeline.RegionSeg (pcfgs (F := F)) (adm m) (pdats m) () defs₀ Variants.none LL lvl 1 where
  win := (launch1 (F := F)).win.to₀
  block_pos := (launch1 (F := F)).block_pos
  stage_whole := (launch1 (F := F)).stage_whole
  K := Fin 2
  osem := osem
  ho := ownSemFacts1
  hbody c := (body_obligation1 (fun c => Gen.V4 m (outsA m) c) (a1 m) (hT1 m) c).loose
  hwaits := Pipeline.hwaits_of_owed_zero _ _ _ _ LL lvl 1 fun _ _ => rfl
  pre c := iprop(StableHlo.held (c : Thread nD τ) (Pipeline.ucRefs τ sig) (Gen.V4 m (outs m) c) ∗ Erest 1 c)
  post c := iprop(StableHlo.held (c : Thread nD τ) (Pipeline.ucRefs τ sig) (Gen.V5 m (outs m) c) ∗ Erest 2 c)
  X c := X1 m c
  Y c := Y1 m c
  Z c := Z1 m c
  hentry c := hentry1 m c
  hin c := hin1 m c
  hout c := hout1 m c
  hexit c := hexit1 m c

/-- The region is entered from the state the second host stretch leaves, -/
theorem hpre1 (c : Dev nD) :
    iprop(StableHlo.held (c : Thread nD τ) (Pipeline.ucRefs τ sig) (Gen.V4 m (outs m) c) ∗ Erest 1 c) ⊢ (reg1 m).pre c := .rfl

/-- and leaves the state the program ends in. -/
theorem hpost1 (c : Dev nD) :
    (reg1 m).post c ⊢ iprop(StableHlo.held (c : Thread nD τ) (Pipeline.ucRefs τ sig) (Gen.V5 m (outs m) c) ∗ Erest 2 c) := .rfl

end Cert.Kernel.Hand

end
-- ==== Proof.K.Frame.lean ====
/-
  The program's frame, with the two kernel regions' records in place: from any memory whose semaphore counters are
  zero, every weakly fair execution on the TensorCores terminates, and every final memory holds each argument array
  as launched.
-/
import proofs.«421918_j29918742184132_1_alg».proof.Proof.K.Reg0
import proofs.«421918_j29918742184132_1_alg».proof.Proof.K.Reg1
import proofs.«421918_j29918742184132_1_alg».proof.Proof.K.LaunchAlg
import proofs.«421918_j29918742184132_1_alg».proof.Proof.Gen.Kernel.Regions

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

set_option backward.isDefEq.respectTransparency.types false in
/-- THE FRAME: every weakly fair execution from `m` with zero counters terminates, and every final memory holds each
    argument array as launched. -/
theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m (EP := EP) () Variants.none LL lvl hLL ρ (outs m) (adm m) (pdats m) 0
    (fun _ => (BI.emp : sProp (MM F))) (u₀ (adm m)) (hu₀ (adm m)) Erest (hE0 ρ) hE2
    (reg0 m) (hpre0 m) (hpost0 m) (reg1 m) (hpre1 m) (hpost1 m)

end Cert.Kernel.Hand

end
-- ==== Proof.KI.Alg.lean ====
/-
  The resource algebra and the buffer notation shared by the hand modules of this program: the pipeline
  library's rounds algebra for the staging cells beside the counters that the gather kernel's own row
  copies take their tokens from; a memref's buffer held whole at given contents.
-/
import proofs.«421918_j29918742184132_1_alg».proof.Proof.Gen.KernelIdeal
import Idealize.ShloMosaic.Lib.Tactic
import Idealize.ShloMosaic.Lib.Pipeline.Kit

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds algebra (staging cells) beside the transfer counters (the kernel's own copies). -/
abbrev UU (nD : Nat) (τ : Topo) : Type := UR sig nD τ × Counters

/-- The separation-logic model every statement of these modules lives in. -/
abbrev MM (F : FTy → Type) [FloatOps F] : Type := MT nD τ sig Unit (Elt F) ℕ (UU nD τ) ℕ

/-- The contents type of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c` held whole at contents `f`. -/
abbrev pt (c : Dev nD) {sp : Space} {S : Shape} {e : EltTy} (M : Memref sig .tc sp S e) (f : Bf (F := F) c M) :
    sProp (MM F) :=
  M.view.loc (c : Thread nD τ) ↦{fullShare} f

/-- The pipeline library's algebra is the left component. -/
abbrev EP : Emb (UR sig nD τ) (MM F) := embL

end Cert.KernelIdeal.Hand

end
-- ==== Proof.KI.Body0.lean ====
/-
  The transpose / row-sum kernel's body, run once at symbolic operands in each of its three control cases
  (first column block: the accumulator is reset; a middle one; the last: the accumulator is written out).
  What it leaves in the transposed block's buffer, the accumulator and (last case) the row-sum block's
  buffer are the witnesses the run finds, terms over the input block `x` and the accumulator `s`.
-/
import proofs.«421918_j29918742184132_1_alg».proof.Proof.KI.Alg

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The first conditional's condition, as the body computes it: the column-block coordinate is zero. -/
abbrev cond1 (i : grid0.Coords) : BitVec 1 := Scalar.cmpi .ne (Scalar.extui (Scalar.cmpi .eq (BitVec.ofNat 32 (i 1).val) (0#32 : BitVec 32))) (0#32 : BitVec 32)

set_option maxHeartbeats 1600000 in
/-- First column block (reset, no write-out). -/
noncomputable def run0_first (c : Dev nD) (i : grid0.Coords) (hc1 : cond1 i = 1#1) (hc2 : ¬ k0_cond2 i = 1#1)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (x : Bf (F := F) c M2) :
    { W : Bf (F := F) c M3 × Bf (F := F) c M5 //
      ∀ (y : Bf (F := F) c M3) (z : Bf (F := F) c M4) (s : Bf (F := F) c M5) (E : Set ℕ) (Q : PUnit → sProp (MM F)),
        iprop(pt c M2 x ∗ pt c M3 y ∗ pt c M4 z ∗ pt c M5 s
          ∗ (iprop(pt c M2 x ∗ pt c M3 W.1 ∗ pt c M4 z ∗ pt c M5 W.2) -∗ Q ⟨⟩))
        ⊢ wp frame (wpE (defs₀ (F := F)) Variants.none c none) E
            (cc0_transpose_colsum_kernel i M2 h2 M3 h3 M4 h4 M5 h5) Q } := by
  refine ⟨⟨?_, ?_⟩, fun y z s E Q => ?run⟩
  case run =>
    iintro ⟨H2, H3, H4, H5, Hk⟩
    sl_exec! (disch := first | exact hc1 | exact hc2)
    sl_step
    iapply Hk
    isplitl [H2]; · iexact H2
    isplitl [H3]; · iexact H3
    isplitl [H4]; · iexact H4
    iexact H5

set_option maxHeartbeats 1600000 in
/-- A middle column block (no reset, no write-out): the accumulator `s` is added to. -/
noncomputable def run0_mid (c : Dev nD) (i : grid0.Coords) (hc1 : ¬ cond1 i = 1#1) (hc2 : ¬ k0_cond2 i = 1#1)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (x : Bf (F := F) c M2) (s : Bf (F := F) c M5) :
    { W : Bf (F := F) c M3 × Bf (F := F) c M5 //
      ∀ (y : Bf (F := F) c M3) (z : Bf (F := F) c M4) (E : Set ℕ) (Q : PUnit → sProp (MM F)),
        iprop(pt c M2 x ∗ pt c M3 y ∗ pt c M4 z ∗ pt c M5 s
          ∗ (iprop(pt c M2 x ∗ pt c M3 W.1 ∗ pt c M4 z ∗ pt c M5 W.2) -∗ Q ⟨⟩))
        ⊢ wp frame (wpE (defs₀ (F := F)) Variants.none c none) E
            (cc0_transpose_colsum_kernel i M2 h2 M3 h3 M4 h4 M5 h5) Q } := by
  refine ⟨⟨?_, ?_⟩, fun y z E Q => ?run⟩
  case run =>
    iintro ⟨H2, H3, H4, H5, Hk⟩
    sl_exec! (disch := first | exact hc1 | exact hc2)
    sl_step
    iapply Hk
    isplitl [H2]; · iexact H2
    isplitl [H3]; · iexact H3
    isplitl [H4]; · iexact H4
    iexact H5

set_option maxHeartbeats 1600000 in
/-- The last column block (no reset; the accumulator, added to, is copied into the row-sum block's buffer). -/
noncomputable def run0_last (c : Dev nD) (i : grid0.Coords) (hc1 : ¬ cond1 i = 1#1) (hc2 : k0_cond2 i = 1#1)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (x : Bf (F := F) c M2) (s : Bf (F := F) c M5) :
    { W : Bf (F := F) c M3 × Bf (F := F) c M4 × Bf (F := F) c M5 //
      ∀ (y : Bf (F := F) c M3) (z : Bf (F := F) c M4) (E : Set ℕ) (Q : PUnit → sProp (MM F)),
        iprop(pt c M2 x ∗ pt c M3 y ∗ pt c M4 z ∗ pt c M5 s
          ∗ (iprop(pt c M2 x ∗ pt c M3 W.1 ∗ pt c M4 W.2.1 ∗ pt c M5 W.2.2) -∗ Q ⟨⟩))
        ⊢ wp frame (wpE (defs₀ (F := F)) Variants.none c none) E
            (cc0_transpose_colsum_kernel i M2 h2 M3 h3 M4 h4 M5 h5) Q } := by
  refine ⟨⟨?_, ?_, ?_⟩, fun y z E Q => ?run⟩
  case run =>
    iintro ⟨H2, H3, H4, H5, Hk⟩
    sl_exec! (disch := first | exact hc1 | exact hc2)
    sl_step
    iapply Hk
    isplitl [H2]; · iexact H2
    isplitl [H3]; · iexact H3
    isplitl [H4]; · iexact H4
    iexact H5

/-- The reset condition holds exactly at the points of the first column block, -/
theorem cond1_iff : ∀ t : Fin cfg0.N, cond1 (grid0.coords t) = 1#1 ↔ t.val % 16 = 0 :=
  (by decide +kernel : ∀ t : Fin grid0.N, cond1 (grid0.coords t) = 1#1 ↔ t.val % 16 = 0)

/-- and the write-out condition exactly at those of the last. -/
theorem cond2_iff : ∀ t : Fin cfg0.N, k0_cond2 (grid0.coords t) = 1#1 ↔ t.val % 16 = 15 :=
  (by decide +kernel : ∀ t : Fin grid0.N, k0_cond2 (grid0.coords t) = 1#1 ↔ t.val % 16 = 15)

end Cert.KernelIdeal.Hand

end
-- ==== Proof.KI.Dat0.lean ====
/-
  The transpose / row-sum call as a pipeline: its proof data and its body obligation.

  The grid is 16 x 16; point `t` has coordinates `(t / 16, t % 16)`. At every point the body transposes the input
  block into the first output's buffer and adds the block's lane sums to an accumulator carried in scratch; at
  the points of the first column block it first resets the accumulator, at those of the last it copies the
  accumulator into the second output's buffer, which at all other points it leaves as it found it.
  What the buffers hold after each point is read off the three runs of the body, point by point.
-/
import proofs.«421918_j29918742184132_1_alg».proof.Proof.KI.Body0
import proofs.«421918_j29918742184132_1_alg».proof.Proof.Gen.KernelIdeal.Launch
import proofs.«421918_j29918742184132_1_alg».proof.Proof.Gen.KernelIdeal.Points
import Idealize.ShloMosaic.Lib.Pipeline.Regions
import Idealize.ShloMosaic.Lib.Pipeline.Frame

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## A whole memref owned at contents it reads is its buffer held at the contents' preimage -/

theorem owns_eq_pt (c : Dev nD) {sp : Space} {S : Shape} {e : EltTy} (M : Memref sig .tc sp S e) (h : M.IsWhole)
    (X : S.Idx → Elt F e) :
    (owns (c : Thread nD τ) M fullShare X : sProp (MM F)) = pt c M (h.unread X) := by
  unfold owns
  rw [h.set_eq_univ]
  have h₁ : iprop(∃ f, ⌜M.view.read (Elt F) f = X⌝ ∗ (M.view.loc (c : Thread nD τ) ↦[Finset.univ]{fullShare} f))
      ⊢ (pt c M (h.unread X) : sProp (MM F)) := by
    iintro ⟨%f, %hf, H⟩
    obtain rfl := h.eq_unread hf
    iexact H
  have h₂ : (pt c M (h.unread X) : sProp (MM F))
      ⊢ iprop(∃ f, ⌜M.view.read (Elt F) f = X⌝ ∗ (M.view.loc (c : Thread nD τ) ↦[Finset.univ]{fullShare} f)) := by
    iintro H
    iexists _; isplitr
    · ipureintro; exact h.read_unread X
    · iexact H
  exact BI.equiv_iff.mp ⟨h₁, h₂⟩

/-! ## The memrefs at a point -/

/-- Each window's current staging memref at point `t`, as the pipeline passes it to the body, and the accumulator. -/
abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)
abbrev msS : Memref sig .tc .vmem S512x1 .f32 := Memref.whole cc0_scratch0
abbrev hsS : (msS).IsWhole := Memref.isWhole_whole _

variable (V : (c : Dev nD) → Valuation τ sig (Elt F))

/-! ## The input block -/

/-- The input's block at point `t`, read off its array as the region finds it. -/
def xblk (c : Dev nD) (t : Fin cfg0.N) : Vec F S512x512 .f32 :=
  ((cfg0.win 0).blk t).view.read (Elt F) (V c (Pipeline.arrRef spec0 0))

/-- The input's staging buffer holding that block. -/
abbrev xraw (c : Dev nD) (t : Fin cfg0.N) : Bf (F := F) c (ms0 t) := (hs0 t).unread (xblk V c t)

/-- Contents for the second output's buffer where nothing reads them (the points that do not write it out). -/
abbrev zero2 (c : Dev nD) (t : Fin cfg0.N) : Bf (F := F) c (ms2 t) :=
  (hs2 t).unread (fun _ => (Scalar.ofBits .f32 0x00000000#32 : F .f32))

/-! ## The conditions at a point -/

theorem nc1_of (t : Fin cfg0.N) (h : ¬t.val % 16 = 0) : ¬cond1 (grid0.coords t) = 1#1 := fun h' => h ((cond1_iff t).mp h')
theorem nc2_of (t : Fin cfg0.N) (h : ¬t.val % 16 = 15) : ¬k0_cond2 (grid0.coords t) = 1#1 := fun h' => h ((cond2_iff t).mp h')

/-! ## What the buffers hold after each point -/

/-- After the body at position `n`: the first output's buffer, the second output's buffer (read only at the points that
    write it out), the accumulator. The case is the position's column block; the accumulator a middle or last
    point adds to is the one the position before left. -/
def outsAt (c : Dev nD) : (n : ℕ) → (hn : n < cfg0.N) →
    Bf (F := F) c (ms1 ⟨n, hn⟩) × Bf (F := F) c (ms2 ⟨n, hn⟩) × Bf (F := F) c msS
  | 0, hn =>
    ((run0_first c (grid0.coords ⟨0, hn⟩) ((cond1_iff ⟨0, hn⟩).mpr (Nat.zero_mod _)) (nc2_of ⟨0, hn⟩ (fun h => absurd h (by decide : ¬0 % 16 = 15)))
        (ms0 ⟨0, hn⟩) (hs0 ⟨0, hn⟩) (ms1 ⟨0, hn⟩) (hs1 ⟨0, hn⟩) (ms2 ⟨0, hn⟩) (hs2 ⟨0, hn⟩) msS hsS (xraw V c ⟨0, hn⟩)).1.1,
      zero2 c ⟨0, hn⟩,
      (run0_first c (grid0.coords ⟨0, hn⟩) ((cond1_iff ⟨0, hn⟩).mpr (Nat.zero_mod _)) (nc2_of ⟨0, hn⟩ (fun h => absurd h (by decide : ¬0 % 16 = 15)))
        (ms0 ⟨0, hn⟩) (hs0 ⟨0, hn⟩) (ms1 ⟨0, hn⟩) (hs1 ⟨0, hn⟩) (ms2 ⟨0, hn⟩) (hs2 ⟨0, hn⟩) msS hsS (xraw V c ⟨0, hn⟩)).1.2)
  | n + 1, hn =>
    if h0 : (n + 1) % 16 = 0 then
      ((run0_first c (grid0.coords ⟨n + 1, hn⟩) ((cond1_iff ⟨n + 1, hn⟩).mpr h0) (nc2_of ⟨n + 1, hn⟩ (fun h => by dsimp only at h; omega))
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)).1.1,
        zero2 c ⟨n + 1, hn⟩,
        (run0_first c (grid0.coords ⟨n + 1, hn⟩) ((cond1_iff ⟨n + 1, hn⟩).mpr h0) (nc2_of ⟨n + 1, hn⟩ (fun h => by dsimp only at h; omega))
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)).1.2)
    else if h15 : (n + 1) % 16 = 15 then
      ((run0_last c (grid0.coords ⟨n + 1, hn⟩) (nc1_of ⟨n + 1, hn⟩ h0) ((cond2_iff ⟨n + 1, hn⟩).mpr h15)
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)
          (outsAt c n (Nat.lt_of_succ_lt hn)).2.2).1.1,
        (run0_last c (grid0.coords ⟨n + 1, hn⟩) (nc1_of ⟨n + 1, hn⟩ h0) ((cond2_iff ⟨n + 1, hn⟩).mpr h15)
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)
          (outsAt c n (Nat.lt_of_succ_lt hn)).2.2).1.2.1,
        (run0_last c (grid0.coords ⟨n + 1, hn⟩) (nc1_of ⟨n + 1, hn⟩ h0) ((cond2_iff ⟨n + 1, hn⟩).mpr h15)
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)
          (outsAt c n (Nat.lt_of_succ_lt hn)).2.2).1.2.2)
    else
      ((run0_mid c (grid0.coords ⟨n + 1, hn⟩) (nc1_of ⟨n + 1, hn⟩ h0) (nc2_of ⟨n + 1, hn⟩ h15)
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)
          (outsAt c n (Nat.lt_of_succ_lt hn)).2.2).1.1,
        zero2 c ⟨n + 1, hn⟩,
        (run0_mid c (grid0.coords ⟨n + 1, hn⟩) (nc1_of ⟨n + 1, hn⟩ h0) (nc2_of ⟨n + 1, hn⟩ h15)
          (ms0 ⟨n + 1, hn⟩) (hs0 ⟨n + 1, hn⟩) (ms1 ⟨n + 1, hn⟩) (hs1 ⟨n + 1, hn⟩) (ms2 ⟨n + 1, hn⟩) (hs2 ⟨n + 1, hn⟩) msS hsS (xraw V c ⟨n + 1, hn⟩)
          (outsAt c n (Nat.lt_of_succ_lt hn)).2.2).1.2)

/-! ### The case equations -/

/-- At a point of the first column block: the reset run's contents. -/
theorem outsAt_first (c : Dev nD) (t : Fin cfg0.N) (h0 : t.val % 16 = 0) :
    outsAt V c t.val t.isLt =
      ((run0_first c (grid0.coords t) ((cond1_iff t).mpr h0) (nc2_of t (fun h => by omega))
          (ms0 t) (hs0 t) (ms1 t) (hs1 t) (ms2 t) (hs2 t) msS hsS (xraw V c t)).1.1,
        zero2 c t,
        (run0_first c (grid0.coords t) ((cond1_iff t).mpr h0) (nc2_of t (fun h => by omega))
          (ms0 t) (hs0 t) (ms1 t) (hs1 t) (ms2 t) (hs2 t) msS hsS (xraw V c t)).1.2) := by
  obtain ⟨n, hn⟩ := t
  cases n with
  | zero => exact rfl
  | succ n => exact (dif_pos h0).trans rfl

/-- At a point of a middle column block: the middle run's contents, over the accumulator the point before left. -/
theorem outsAt_mid (c : Dev nD) (t : Fin cfg0.N) (h0 : ¬t.val % 16 = 0) (h15 : ¬t.val % 16 = 15) :
    outsAt V c t.val t.isLt =
      ((run0_mid c (grid0.coords t) (nc1_of t h0) (nc2_of t h15)
          (ms0 t) (hs0 t) (ms1 t) (hs1 t) (ms2 t) (hs2 t) msS hsS (xraw V c t) (outsAt V c (t.val - 1) (Nat.lt_of_le_of_lt (Nat.sub_le _ _) t.isLt)).2.2).1.1,
        zero2 c t,
        (run0_mid c (grid0.coords t) (nc1_of t h0) (nc2_of t h15)
          (ms0 t) (hs0 t) (ms1 t) (hs1 t) (ms2 t) (hs2 t) msS hsS (xraw V c t) (outsAt V c (t.val - 1) (Nat.lt_of_le_of_lt (Nat.sub_le _ _) t.isLt)).2.2).1.2) := by
  obtain ⟨n, hn⟩ := t
  cases n with
  | zero => exact absurd (Nat.zero_mod _) h0
  | succ n => exact (dif_neg h0).trans ((dif_neg h15).trans rfl)

/-- At a point of the last column block: the last run's contents, over the accumulator the point before left. -/
theorem outsAt_last (c : Dev nD) (t : Fin cfg0.N) (h0 : ¬t.val % 16 = 0) (h15 : t.val % 16 = 15) :
    outsAt V c t.val t.isLt =
      ((run0_last c (grid0.coords t) (nc1_of t h0) ((cond2_iff t).mpr h15)
          (ms0 t) (hs0 t) (ms1 t) (hs1 t) (ms2 t) (hs2 t) msS hsS (xraw V c t) (outsAt V c (t.val - 1) (Nat.lt_of_le_of_lt (Nat.sub_le _ _) t.isLt)).2.2).1.1,
        (run0_last c (grid0.coords t) (nc1_of t h0) ((cond2_iff t).mpr h15)
          (ms0 t) (hs0 t) (ms1 t) (hs1 t) (ms2 t) (hs2 t) msS hsS (xraw V c t) (outsAt V c (t.val - 1) (Nat.lt_of_le_of_lt (Nat.sub_le _ _) t.isLt)).2.2).1.2.1,
        (run0_last c (grid0.coords t) (nc1_of t h0) ((cond2_iff t).mpr h15)
          (ms0 t) (hs0 t) (ms1 t) (hs1 t) (ms2 t) (hs2 t) msS hsS (xraw V c t) (outsAt V c (t.val - 1) (Nat.lt_of_le_of_lt (Nat.sub_le _ _) t.isLt)).2.2).1.2.2) := by
  obtain ⟨n, hn⟩ := t
  cases n with
  | zero => exact absurd (Nat.zero_mod _) h0
  | succ n => exact (dif_neg h0).trans ((dif_pos h15).trans rfl)

/-! ## The pipeline's proof data -/

/-- The five scoped buffers that are neither a staging buffer of this call nor its accumulator, each held at something. -/
def rest0 (c : Dev nD) : sProp (MM F) :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_scratch0), ((c : Thread nD τ).loc cc1_scratch0) ↦{fullShare} f))

/-- The invariant before position `n`: the accumulator at something before the first point, after it at what the
    point before left; the rest of the scoped buffers at something. -/
def Φ0 (c : Dev nD) : (n : ℕ) → n < cfg0.N + 1 → sProp (MM F)
  | 0, _ => iprop((∃ s, pt c (Memref.whole cc0_scratch0) s) ∗ rest0 (F := F) c)
  | n + 1, hn => iprop(pt c (Memref.whole cc0_scratch0) (outsAt V c n (Nat.lt_of_succ_lt_succ hn)).2.2 ∗ rest0 (F := F) c)

/-- The proof data on core `c`: the arrays as the region finds them; after the body at point `t` the input's buffer
    at its block, the first output's at the transposed block the point's run leaves, the second output's at what
    the run leaves there (read only where the point writes it out); the accumulator in the invariant; nothing owed;
    full shares. -/
def dat0 (c : Dev nD) : Pipeline.Dat τ (Elt F) Unit ℕ (UU nD τ) ℕ cfg0 c where
  A w := V c (Pipeline.arrRef spec0 w)
  after w t := match w with
    | ⟨0, _⟩ => xblk V c t
    | ⟨1, _⟩ => (ms1 t).view.read (Elt F) (outsAt V c t.val t.isLt).1
    | ⟨2, _⟩ => (ms2 t).view.read (Elt F) (outsAt V c t.val t.isLt).2.1
  Φ n := Φ0 V c n.val n.isLt
  q _ := fullShare
  owed _ := 0

theorem dat0_A (c : Dev nD) (w : Fin cfg0.W) : (dat0 V c).A w = V c (Pipeline.arrRef spec0 w) := rfl
theorem dat0_owed (c : Dev nD) (t : Fin (cfg0.N + 1)) : (dat0 V c).owed t = 0 := rfl
theorem dat0_q (c : Dev nD) (w : Fin cfg0.W) : (dat0 V c).q w = fullShare := rfl

/-- What the body leaves, window by window (the proof data's `match` reduced). -/
theorem after0_0 (c : Dev nD) (t : Fin cfg0.N) : (dat0 V c).after 0 t = xblk V c t := by dsimp only [dat0]
theorem after0_1 (c : Dev nD) (t : Fin cfg0.N) :
    (dat0 V c).after 1 t = (ms1 t).view.read (Elt F) (outsAt V c t.val t.isLt).1 := by dsimp only [dat0]
theorem after0_2 (c : Dev nD) (t : Fin cfg0.N) :
    (dat0 V c).after 2 t = (ms2 t).view.read (Elt F) (outsAt V c t.val t.isLt).2.1 := by dsimp only [dat0]

/-- The invariant before the first point: what the region's entry supplies. -/
theorem dat0_Φ_first (c : Dev nD) :
    (dat0 V c).Φ 0 = iprop((∃ s, pt c (Memref.whole cc0_scratch0) s) ∗ rest0 (F := F) c) := rfl

/-- The invariant after point `t`. -/
theorem dat0_Φ_succ (c : Dev nD) (t : Fin cfg0.N) :
    (dat0 V c).Φ t.succ = iprop(pt c (Memref.whole cc0_scratch0) (outsAt V c t.val t.isLt).2.2 ∗ rest0 (F := F) c) := by
  obtain ⟨n, hn⟩ := t; rfl

/-- The invariant before a point that is not the first. -/
theorem dat0_Φ_castSucc_pos (c : Dev nD) (t : Fin cfg0.N) (h : t.val ≠ 0) :
    (dat0 V c).Φ t.castSucc = iprop(pt c (Memref.whole cc0_scratch0) (outsAt V c (t.val - 1) (Nat.lt_of_le_of_lt (Nat.sub_le _ _) t.isLt)).2.2 ∗ rest0 (F := F) c) := by
  obtain ⟨n, hn⟩ := t
  cases n with
  | zero => exact absurd rfl h
  | succ n => rfl

/-- Before any point the accumulator is held at something. -/
theorem dat0_Φ_castSucc (c : Dev nD) (t : Fin cfg0.N) :
    (dat0 V c).Φ t.castSucc ⊢ iprop((∃ s, pt c (Memref.whole cc0_scratch0) s) ∗ rest0 (F := F) c) := by
  by_cases h : t.val = 0
  · obtain ⟨n, hn⟩ := t
    obtain rfl : n = 0 := h
    exact .rfl
  · rw [dat0_Φ_castSucc_pos V c t h]
    iintro ⟨Hs, Hr⟩
    isplitl [Hs]
    · iexists _; iexact Hs
    · iexact Hr

/-- After the last point the accumulator is held at something: what the region's exit hands on. -/
theorem dat0_Φ_last (c : Dev nD) :
    (dat0 V c).Φ (Fin.last cfg0.N) ⊢ iprop((∃ s, pt c (Memref.whole cc0_scratch0) s) ∗ rest0 (F := F) c) := by
  have hN : 255 < cfg0.N := lt_of_lt_of_eq (by decide : 255 < 256) N_0.symm
  have h : Fin.last cfg0.N = (⟨255, hN⟩ : Fin cfg0.N).succ := Fin.ext (N_0.trans rfl)
  rw [h, dat0_Φ_succ]
  iintro ⟨Hs, Hr⟩
  isplitl [Hs]
  · iexists _; iexact Hs
  · iexact Hr

/-! ## What the body finds and where the second output is idle -/

/-- The input's current staging buffer holds its block at every point: it is fetched at every point, uncut. -/
theorem before0_0 (c : Dev nD) (t : Fin cfg0.N) (d) : (dat0 V c).before 0 t d = xblk V c t :=
  ((dat0 V c).before_fetched 0 t (fetch0_0 t) d).trans (by unfold Dat.fetched Dat.blockOf xblk; rw [dat0_A]; rfl)

/-- The second output is idle at the points that do not write it out, -/
theorem idle2_true (t : Fin cfg0.N) (h : ¬t.val % 16 = 15) : cfg0.idle 2 (cfg0.grid.coords t) = true := by
  show (!(k0_cond2 (grid0.coords t) == 1#1)) = true
  rw [Bool.not_eq_true', beq_eq_false_iff_ne]
  exact nc2_of t h

/-- live at those that do, -/
theorem idle2_false (t : Fin cfg0.N) (h : t.val % 16 = 15) : cfg0.idle 2 (cfg0.grid.coords t) = false := by
  show (!(k0_cond2 (grid0.coords t) == 1#1)) = false
  rw [(cond2_iff t).mpr h]; rfl

/-- and is not written back where it is idle. -/
theorem flush2_false (t : Fin cfg0.N) (h : ¬t.val % 16 = 15) : (cfg0.win 2).flush t = false :=
  Bool.eq_false_iff.mpr fun h' => h ((flush0_2 t).mp h')

/-- What the obligation asks of the second output's buffer at a point that writes it out. -/
theorem leavesExact2_live (c : Dev nD) (t : Fin cfg0.N) (h : t.val % 16 = 15) :
    (dat0 V c).leavesExact 2 t = owns (c : Thread nD τ) (ms2 t) fullShare ((dat0 V c).after 2 t) := by
  unfold Dat.leavesExact; rw [idle2_false t h]

/-! ## The body obligation, at a generic point -/

/-- What the body is called with at point `t`, the windows one by one, -/
def bodyPre (c : Dev nD) (t : Fin cfg0.N) : sProp (MM F) :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns: the second output's buffer as found where the point is idle for it. -/
def bodyPost (c : Dev nD) (t : Fin cfg0.N) : sProp (MM F) :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ (dat0 V c).leavesExact 2 t)

set_option maxHeartbeats 1600000 in
/-- The body at any point: the input's buffer holds its block; the point's column block says which run applies; a
    middle or last point finds the accumulator the point before left; the rest of the invariant passes through
    unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  rw [show (dat0 V c).owesAt () t.succ = (dat0 V c).owesAt () t.castSucc from rfl, dat0_Φ_succ, after0_0, after0_1]
  by_cases h0 : t.val % 16 = 0
  · have h15 : ¬t.val % 16 = 15 := by omega
    rw [(dat0 V c).leavesExact_idle 2 t (idle2_true t h15) (flush2_false t h15), outsAt_first V c t h0]
    dsimp only
    simp only [before0_0, owns_eq_pt c (ms0 t) (hs0 t), owns_eq_pt c (ms1 t) (hs1 t), owns_eq_pt c (ms2 t) (hs2 t),
      Memref.IsWhole.unread_read]
    iintro ⟨HΦ, Ho, ⟨%d0, H0⟩, ⟨%d1, H1⟩, ⟨%d2, H2⟩⟩
    ihave HΦ' := (dat0_Φ_castSucc V c t) $$ HΦ
    icases HΦ' with ⟨⟨%s, Hs⟩, Hr⟩
    iapply ((run0_first c (grid0.coords t) ((cond1_iff t).mpr h0) (nc2_of t (fun h => by omega))
          (ms0 t) (hs0 t) (ms1 t) (hs1 t) (ms2 t) (hs2 t) msS hsS (xraw V c t)).2 _ _ s Set.univ _)
    isplitl [H0]; · iexact H0
    isplitl [H1]; · iexact H1
    isplitl [H2]; · iexact H2
    isplitl [Hs]; · iexact Hs
    iintro ⟨H0, H1, H2, Hs⟩
    isplitl [Hs Hr]
    · isplitl [Hs]; · iexact Hs
      iexact Hr
    isplitl [Ho]; · iexact Ho
    isplitl [H0]; · iexact H0
    isplitl [H1]; · iexact H1
    iexists d2; iexact H2
  · have ht0 : t.val ≠ 0 := fun h => h0 (by rw [h])
    rw [dat0_Φ_castSucc_pos V c t ht0]
    by_cases h15 : t.val % 16 = 15
    · rw [leavesExact2_live V c t h15, after0_2, outsAt_last V c t h0 h15]
      dsimp only
      simp only [before0_0, owns_eq_pt c (ms0 t) (hs0 t), owns_eq_pt c (ms1 t) (hs1 t), owns_eq_pt c (ms2 t) (hs2 t),
        Memref.IsWhole.unread_read]
      iintro ⟨⟨Hs, Hr⟩, Ho, ⟨%d0, H0⟩, ⟨%d1, H1⟩, ⟨%d2, H2⟩⟩
      iapply ((run0_last c (grid0.coords t) (nc1_of t h0) ((cond2_iff t).mpr h15)
          (ms0 t) (hs0 t) (ms1 t) (hs1 t) (ms2 t) (hs2 t) msS hsS (xraw V c t) (outsAt V c (t.val - 1) (Nat.lt_of_le_of_lt (Nat.sub_le _ _) t.isLt)).2.2).2 _ _ Set.univ _)
      isplitl [H0]; · iexact H0
      isplitl [H1]; · iexact H1
      isplitl [H2]; · iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexact H2
    · rw [(dat0 V c).leavesExact_idle 2 t (idle2_true t h15) (flush2_false t h15), outsAt_mid V c t h0 h15]
      dsimp only
      simp only [before0_0, owns_eq_pt c (ms0 t) (hs0 t), owns_eq_pt c (ms1 t) (hs1 t), owns_eq_pt c (ms2 t) (hs2 t),
        Memref.IsWhole.unread_read]
      iintro ⟨⟨Hs, Hr⟩, Ho, ⟨%d0, H0⟩, ⟨%d1, H1⟩, ⟨%d2, H2⟩⟩
      iapply ((run0_mid c (grid0.coords t) (nc1_of t h0) (nc2_of t h15)
          (ms0 t) (hs0 t) (ms1 t) (hs1 t) (ms2 t) (hs2 t) msS hsS (xraw V c t) (outsAt V c (t.val - 1) (Nat.lt_of_le_of_lt (Nat.sub_le _ _) t.isLt)).2.2).2 _ _ Set.univ _)
      isplitl [H0]; · iexact H0
      isplitl [H1]; · iexact H1
      isplitl [H2]; · iexact H2
      isplitl [Hs]; · iexact Hs
      iintro ⟨H0, H1, H2, Hs⟩
      isplitl [Hs Hr]
      · isplitl [Hs]; · iexact Hs
        iexact Hr
      isplitl [Ho]; · iexact Ho
      isplitl [H0]; · iexact H0
      isplitl [H1]; · iexact H1
      iexists d2; iexact H2

/-- The library's body obligation, at every point. -/
theorem body_obligation0 (c : Dev nD) :
    Pipeline.BodyObligation (dat0 V c) (defs₀ (F := F)) Variants.none () Set.univ := fun t => by
  rw [bigSep_W0, bigSep_W0]
  exact sound_body V c t

end Cert.KernelIdeal.Hand

end
-- ==== Proof.KI.Table.lean ====
/-
  The index table's range fact, in the form the gather kernel's body consumes it: every single word read off
  the table is below 8192, so the one-row block of the [8192, 8192] array that the word names lies inside it.
-/
import proofs.«421918_j29918742184132_1_alg».proof.Proof.KI.Alg

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A word below 8192 names a row of the [8192, 8192] array: the one-row block at it lies inside. -/
theorem chk_row (v : BitVec 32) (h : v.toNat < 8192) :
    ∀ a, (![v.toNat, 0] : Fin 2 → Nat) a + S1x8192.size a ≤ S8192x8192.size a := by
  intro a
  fin_cases a
  · show v.toNat + 1 ≤ 8192; omega
  · show 0 + 8192 ≤ 8192; omega

/-- Every single word read off the table `tbl` is below 8192. -/
def TableInRange (c : Dev nD) (tbl : Bf (F := F) c (Memref.whole main_v0)) : Prop :=
  ∀ (off : Fin 2 → Nat) (inb : ∀ a, off a + S1x1.size a ≤ S4x4096.size a) (h1 : 0 < S1x1.numel),
    BitVec.toNat (View.readAt (Elt F) (Memref.whole main_v0).view (Rect.unit (s := S4x4096) off S1x1.size inb).toLoadRect tbl
      (Shape.Idx.first h1)) < 8192

end Cert.KernelIdeal.Hand

end
-- ==== Proof.KI.OutSpec.lean ====
/-
  What the gather kernel leaves in one output block, as a function of the index table, the bias block and the
  transposed array: row r of block (b, lt) is the array's row named by the table's word (b, 128·lt + r), plus
  the bias block's one row.
-/
import proofs.«421918_j29918742184132_1_alg».proof.Proof.KI.Alg
import Idealize.ShloMosaic.Lib.ValueIdx

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The row of the [8192, 8192] array a table word names (the word itself when it is below 8192). -/
def rowIx (w : BitVec 32) : Fin 8192 := ⟨w.toNat % 8192, Nat.mod_lt _ (by decide)⟩

theorem rowIx_val (w : BitVec 32) (h : w.toNat < 8192) : (rowIx w).val = w.toNat := Nat.mod_eq_of_lt h

/-- The table position block (b, lt)'s row r reads. -/
def tblPos (i : grid1.Coords) (r : Fin 128) : S4x4096.Idx :=
  ValueIdx.ix2 (⟨(i 0).val % 4, Nat.mod_lt _ (by decide)⟩ : Fin 4) (⟨(128 * (i 1).val + r.val) % 4096, Nat.mod_lt _ (by decide)⟩ : Fin 4096)

/-- One output block. -/
def outSpec (i : grid1.Coords) (tbl : S4x4096.Idx → BitVec 32) (β : Vec F S1x1x8192 .f32) (wt : Vec F S8192x8192 .f32) :
    Vec F S1x128x8192 .f32 :=
  fun y => FloatOps.addf (wt (ValueIdx.ix2 (rowIx (tbl (tblPos i (⟨(y 1).val % 128, Nat.mod_lt _ (by decide)⟩ : Fin 128))))
      (⟨(y 2).val % 8192, Nat.mod_lt _ (by decide)⟩ : Fin 8192)))
    (β (ValueIdx.ix3 (0 : Fin 1) (0 : Fin 1) (⟨(y 2).val % 8192, Nat.mod_lt _ (by decide)⟩ : Fin 8192)))

end Cert.KernelIdeal.Hand

end
-- ==== Proof.KI.Body1.lean ====
/-
  The gather kernel's body, run once at symbolic operands: 128 rows of the transposed array, each named by a
  word of the index table, copied one after the other into the two halves of a scratch buffer (the copy of
  row r+1 started before row r is read), each added to the bias block and stored as row r of the output block.
  Every word read off the table names a row of the array (`hT`): that is what each copy's source needs.
  What the body leaves in the output block's buffer is the witness the run finds, a term over the table, the
  bias block and the array.
-/
import proofs.«421918_j29918742184132_1_alg».proof.Proof.KI.Table
import proofs.«421918_j29918742184132_1_alg».proof.Proof.KI.OutSpec
import Idealize.ShloMosaic.Lib.Pipeline.Value
import Idealize.ShloMosaic.Lib.Pipeline.FrameBody

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's own semaphores: its two scratch DMA semaphores. -/
abbrev osem : Fin 2 → SemLoc sig := fun | 0 => .dma 10 | 1 => .dma 11

/-- Both counters at zero, as the run finds them and hands them back. -/
abbrev sems0 (c : Dev nD) : sProp (MM F) :=
  iprop(semVal ((c : Thread nD τ), osem 0) 0 ∗ semVal ((c : Thread nD τ), osem 1) 0)

set_option sl_exec.dmaWindow true in
set_option maxHeartbeats 8000000 in
/-- The body's run: from the table, the bias block's buffer, the transposed array, the output block's buffer and
    the scratch held whole, both counters at zero and the core's dues, to the same with the output block's
    buffer at the witness and the scratch at something. -/
noncomputable def run1 (c : Dev nD) (i : grid1.Coords)
    (M3 : Memref sig .tc .vmem S1x1x8192 .f32) (h3 : M3.IsWhole) (M5 : Memref sig .tc .vmem S1x128x8192 .f32) (h5 : M5.IsWhole)
    (tbl : Bf (F := F) c (Memref.whole main_v0)) (hT : TableInRange c tbl)
    (β : Bf (F := F) c M3) (wt : Bf (F := F) c (Memref.whole main_v1_0)) (k : Bf (F := F) c (Memref.whole cc1_scratch0)) :
    { Wo : Bf (F := F) c M5 //
      ∀ (o : Bf (F := F) c M5) (W : Waits sig Unit) (Q : PUnit → sProp (MM F)),
        iprop(pt c (Memref.whole main_v0) tbl ∗ pt c M3 β ∗ pt c (Memref.whole main_v1_0) wt ∗ pt c M5 o
          ∗ pt c (Memref.whole cc1_scratch0) k ∗ sems0 c ∗ owes (c : Thread nD τ) 0 W
          ∗ (iprop(pt c (Memref.whole main_v0) tbl ∗ pt c M3 β ∗ pt c (Memref.whole main_v1_0) wt ∗ pt c M5 Wo
                ∗ (∃ f, pt c (Memref.whole cc1_scratch0) f) ∗ sems0 c ∗ ∃ W, owes (c : Thread nD τ) 0 W) -∗ Q ⟨⟩))
        ⊢ wp frame (wpE (defs₀ (F := F)) Variants.none c none) Set.univ
            (cc1_gather_kernel i (Memref.whole main_v0) (Memref.isWhole_whole _) M3 h3 (Memref.whole main_v1_0) (Memref.isWhole_whole _)
              M5 h5 (Memref.whole cc1_scratch0) (Memref.isWhole_whole _) cc1_scratch1) Q } := by
  refine ⟨?_, fun o W Q => ?run⟩
  case run =>
    iintro ⟨H2, H3, H4, H5, H6, ⟨Hd0, Hd1⟩, HO, Hk⟩
    sl_exec_parts! (disch := (sl_unfold_words; exact chk_row _ (hT _ _ _)))
    sl_step
    iapply Hk
    isplitl [H2]; · iexact H2
    isplitl [H3]; · iexact H3
    isplitl [H4]; · iexact H4
    isplitl [H5]; · iexact H5
    isplitl [H6]; · iexists _; iexact H6
    isplitl [Hd0 Hd1]
    · isplitl [Hd0]; · iexact Hd0
      iexact Hd1
    iexists _; iexact HO

end Cert.KernelIdeal.Hand

end
-- ==== Proof.KI.PayIdx.lean ====
/-
  The kernels' pure operations read at an index, over variables.

  Region 0 (transpose and row sums of a 512 x 512 block): the transposed block at (p, q) is the block at (q, p); the
  reset value of the column accumulator is zero; an accumulation step adds to the accumulator at (p, 0) the sum of
  row p of the block, that sum begun from zero; the accumulator leaves as a vector, entry p its entry (p, 0).
  Region 1 (one row of the gathered block): a row [1, 8192] and the bias block [1, 1, 8192] are both flattened to
  [8192], added, and the sum laid back as [1, 1, 8192]; at (0, 0, v) that is the row at (0, v) plus the bias at (0, 0, v).
-/
import proofs.«421918_j29918742184132_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Cert.KernelIdeal Cert.KernelIdeal.Gen Idealize.ShloMosaic

/-! ## Shape casts between a vector and a column, and between a flat vector and a [1, 1, n] block -/

section Casts
variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column cast to an [a] vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ValueIdx.ix1 i) = x (ValueIdx.ix2 i (0 : Fin 1)) :=
  shapeCast_apply x h _ _ (by
    rw [Shape.rowMajor_val_two, Shape.rowMajor_val_one]
    show i.val * 1 + 0 = i.val
    rw [Nat.mul_one, Nat.add_zero])

/-- A [1, 1, a] block cast to an [a] vector reads, at i, the block at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ValueIdx.ix1 i) = x (ValueIdx.ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

end Casts

/-! ## Region 0: the transpose and row-sum kernel -/

section Region0
variable {F : FTy → Type} [FloatOps F]

/-- The stored transpose at (p, q) is the loaded block at (q, p). -/
theorem pay2_apply (x : Vec F S512x512 .f32) (p q : Fin 512) :
    k0_pay2 x (ValueIdx.ix2 p q) = x (ValueIdx.ix2 q p) :=
  ValueIdx.transpose_ix2_apply (a := 512) (b := 512) x transposes_S512x512_p1_0_S512x512 p q

/-- The accumulator leaves as a vector: entry p is the column's entry (p, 0). -/
theorem pay4_apply (s : Vec F S512x1 .f32) (p : Fin 512) :
    k0_pay4 s (ValueIdx.ix1 p) = s (ValueIdx.ix2 p (0 : Fin 1)) :=
  shapeCast_a1_a_apply (a := 512) s shapeCasts_S512x1_S512 p

/-- An accumulation step for any float values: the accumulator plus the row reduction laid as a column. -/
theorem pay3_apply_gen (x : Vec F S512x512 .f32) (s : Vec F S512x1 .f32) (p : Fin 512) (z : Fin 1) :
    k0_pay3 x s (ValueIdx.ix2 p z)
      = FloatOps.addf (s (ValueIdx.ix2 p z))
          (multiReduction .add [1] S512 x 0x00000000#32 reduces_S512x512_S512 (.inl rfl) rfl (ValueIdx.ix1 p)) := by
  unfold k0_pay3
  rw [shapeCast_self]
  show FloatOps.addf (s (ValueIdx.ix2 p z)) (shapeCast S512x1 _ shapeCasts_S512_S512x1 (ValueIdx.ix2 p z)) = _
  rw [shapeCast_a_a1_apply (a := 512) _ shapeCasts_S512_S512x1 p z]

end Region0

/-- The reset value of the accumulator is zero everywhere. -/
theorem pay1_apply (p : Fin 512) (z : Fin 1) : k0_pay1 (F := Ideal) (ValueIdx.ix2 p z) = 0 := by
  unfold k0_pay1
  rw [shapeCast_self]
  show FloatOps.ofBits (F := Ideal) .f32 0x00000000#32 = 0
  rw [Ideal.ofBits_def, Ideal.ofBits_zero_f32]

/-- A row reduction with zero initial value, on the extended reals: the sum of the row. -/
theorem rowReduce_apply (x : FVec Ideal S512x512 .f32) (h : S512x512.Reduces [1] S512) (hφ : FKind.Formats .f32)
    (hacc : (0x00000000#32 : BitVec 32) = 0x00000000#32) (p : Fin 512) :
    multiReduction (F := Ideal) .add [1] S512 x 0x00000000#32 h hφ hacc (ValueIdx.ix1 p)
      = ∑ k : Fin 512, x (ValueIdx.ix2 p k) := by
  refine (Ideal.multiReduction_add_single x 0x00000000#32 h hφ hacc (ValueIdx.ix1 p)).trans ?_
  refine Finset.sum_congr rfl fun k _ => congrArg x (funext fun c => Fin.ext ?_)
  match c with
  | ⟨0, _⟩ => rfl
  | ⟨1, _⟩ => rfl

/-- An accumulation step on the extended reals: the accumulator at (p, 0) plus the sum of row p begun from zero. -/
theorem pay3_apply (x : Vec Ideal S512x512 .f32) (s : Vec Ideal S512x1 .f32) (p : Fin 512) (z : Fin 1) :
    k0_pay3 x s (ValueIdx.ix2 p z) = s (ValueIdx.ix2 p z) + (0 + ∑ k : Fin 512, x (ValueIdx.ix2 p k)) := by
  rw [pay3_apply_gen, zero_add]
  exact congrArg (s (ValueIdx.ix2 p z) + ·) (rowReduce_apply x reduces_S512x512_S512 (.inl rfl) rfl p)

/-! ## Region 1: one row of the gathered block -/

section Region1
variable {F : FTy → Type} [FloatOps F]

/-- The chain flatten, add, lay back as [1, 1, 8192], for any float values: at (0, 0, v) the row at (0, v) plus the
    flattened bias at v. -/
theorem k1_pay1_apply_gen (v12 : FVec F S8192 .f32) (row : Vec F S1x8192 .f32) (v : Fin 8192) :
    k1_pay1 v12 row (ValueIdx.ix3 (0 : Fin 1) (0 : Fin 1) v)
      = FloatOps.addf (row (ValueIdx.ix2 (0 : Fin 1) v)) (v12 (ValueIdx.ix1 v)) := by
  unfold k1_pay1
  rw [ValueIdx.shapeCast_ab_1ab_apply (a := 1) (b := 8192) _ shapeCasts_S1x8192_S1x1x8192 (0 : Fin 1) (0 : Fin 1) v,
    ValueIdx.shapeCast_a_1a_apply (a := 8192) _ shapeCasts_S8192_S1x8192 (0 : Fin 1) v]
  show FloatOps.addf (shapeCast S8192 row shapeCasts_S1x8192_S8192 (ValueIdx.ix1 v)) (v12 (ValueIdx.ix1 v)) = _
  rw [ValueIdx.shapeCast_1a_a_apply (a := 8192) row shapeCasts_S1x8192_S8192 v]

/-- The same chain with the bias block's flattening written out. -/
theorem rowChain_apply_gen (row : Vec F S1x8192 .f32) (beta : Vec F S1x1x8192 .f32) (v : Fin 8192) :
    shapeCast S1x1x8192 (shapeCast S1x8192 (addf (shapeCast S8192 row shapeCasts_S1x8192_S8192)
        (shapeCast S8192 beta shapeCasts_S1x1x8192_S8192)) shapeCasts_S8192_S1x8192) shapeCasts_S1x8192_S1x1x8192
      (ValueIdx.ix3 (0 : Fin 1) (0 : Fin 1) v)
      = FloatOps.addf (row (ValueIdx.ix2 (0 : Fin 1) v)) (beta (ValueIdx.ix3 (0 : Fin 1) (0 : Fin 1) v)) := by
  refine (k1_pay1_apply_gen (shapeCast S8192 beta shapeCasts_S1x1x8192_S8192) row v).trans ?_
  rw [shapeCast_11a_a_apply (a := 8192) beta shapeCasts_S1x1x8192_S8192 v]

/-- The flattened bias block at v is the block at (0, 0, v). -/
theorem k1_pay2_apply (beta : Vec F S1x1x8192 .f32) (v : Fin 8192) :
    k1_pay2 beta (ValueIdx.ix1 v) = beta (ValueIdx.ix3 (0 : Fin 1) (0 : Fin 1) v) :=
  shapeCast_11a_a_apply (a := 8192) beta shapeCasts_S1x1x8192_S8192 v

end Region1

/-- On the extended reals: the two-step form at (0, 0, v) is the row at (0, v) plus the flattened bias at v. -/
theorem k1_pay1_apply (v12 : FVec Ideal S8192 .f32) (row : Vec Ideal S1x8192 .f32) (v : Fin 8192) :
    k1_pay1 v12 row (ValueIdx.ix3 (0 : Fin 1) (0 : Fin 1) v) = row (ValueIdx.ix2 (0 : Fin 1) v) + v12 (ValueIdx.ix1 v) :=
  k1_pay1_apply_gen v12 row v

/-- On the extended reals: the whole chain at (0, 0, v) is the row at (0, v) plus the bias at (0, 0, v). -/
theorem rowChain_apply (row : Vec Ideal S1x8192 .f32) (beta : Vec Ideal S1x1x8192 .f32) (v : Fin 8192) :
    shapeCast S1x1x8192 (shapeCast S1x8192 (addf (F := Ideal) (φ := .f32) (shapeCast S8192 row shapeCasts_S1x8192_S8192)
        (shapeCast S8192 beta shapeCasts_S1x1x8192_S8192)) shapeCasts_S8192_S1x8192) shapeCasts_S1x8192_S1x1x8192
      (ValueIdx.ix3 (0 : Fin 1) (0 : Fin 1) v)
      = row (ValueIdx.ix2 (0 : Fin 1) v) + beta (ValueIdx.ix3 (0 : Fin 1) (0 : Fin 1) v) :=
  rowChain_apply_gen row beta v

end Cert.KernelIdeal.PayIdx

end
-- ==== Proof.KI.RowRead.lean ====
/-
  One stored row of the gather kernel's output block, read at an index.

  Row r of the block is stored as the flat sum of two flat vectors laid back as a [1, 1, 8192] block: the scratch
  half r mod 2 and the bias block. When the row is stored, that scratch half was last written by the row's own copy,
  a row of the transposed array named by the table's word at (first coordinate, 128 · second coordinate + r), and at
  most the other half has been written since; the two halves share no element. So the stored row at lane v is the
  array's entry (word, v) plus the bias entry (0, 0, v): the block's specification at (0, r, v). The lemmas are stated
  over variables; the last part is the proof text that applies them to each of the 128 stored rows alike.
-/
import proofs.«421918_j29918742184132_1_alg».proof.Proof.KI.Table
import proofs.«421918_j29918742184132_1_alg».proof.Proof.KI.OutSpec
import proofs.«421918_j29918742184132_1_alg».proof.Proof.KI.PayIdx
import Idealize.ShloMosaic.Lib.Pipeline.Value
import Idealize.ShloMosaic.Lib.Pipeline.FrameBody
import Idealize.ShloMosaic.Lib.Writes
import Idealize.ShloMosaic.Lib.Ring

noncomputable section

namespace Cert.KernelIdeal.Hand

open Cert.KernelIdeal Cert.KernelIdeal.Gen

open Idealize.ShloMosaic
open Idealize.ShloMosaic.TcCoe Idealize.ShloMosaic.Tactic
open Idealize.SL.Sem

variable {F : FTy → Type} [FloatOps F]

section RowLemmas

/-! ## The stored chain at an index -/

/-- The sum of two flat vectors laid back as a [1, 1, 8192] block reads, at (0, 0, v), the two entries' sum. -/
theorem chain_apply (A B : FVec F S8192 .f32) (v : Fin 8192) :
    shapeCast S1x1x8192 (shapeCast S1x8192 (addf A B) shapeCasts_S8192_S1x8192) shapeCasts_S1x8192_S1x1x8192
      (ValueIdx.ix3 (0 : Fin 1) (0 : Fin 1) v) = FloatOps.addf (A (ValueIdx.ix1 v)) (B (ValueIdx.ix1 v)) := by
  rw [ValueIdx.shapeCast_ab_1ab_apply (a := 1) (b := 8192) _ shapeCasts_S1x8192_S1x1x8192 (0 : Fin 1) (0 : Fin 1) v,
    ValueIdx.shapeCast_a_1a_apply (a := 8192) _ shapeCasts_S8192_S1x8192 (0 : Fin 1) v]
  rfl

/-! ## The scratch buffer's two halves -/

variable {c : Dev nD}

/-- A half of the scratch read flat, after a write of that same half: the write's payload. -/
theorem scr_hit (off : Fin 2 → Nat) (inb : ∀ a, off a + S1x8192.size a ≤ S2x8192.size a)
    (hs : ∀ a, (Rect.unit (s := S2x8192) off S1x8192.size inb).stride a = 1)
    (g : (cc1_scratch0 : Ref sig .tc).ty.Contents (Elt F)) (P : FVec F S8192 .f32) :
    shapeCast S8192 (View.readAt (Elt F) (Memref.whole cc1_scratch0).view (Rect.unit (s := S2x8192) off S1x8192.size inb).toLoadRect
        (View.write (Elt F) (((Memref.whole cc1_scratch0).slice (Rect.unit (s := S2x8192) off S1x8192.size inb) hs).squeeze S8192
          squeezes_S1x8192_S8192).view g P Finset.univ)) shapeCasts_S1x8192_S8192 = P :=
  View.read_write_univ (v := (((Memref.whole cc1_scratch0).slice (Rect.unit (s := S2x8192) off S1x8192.size inb) hs).squeeze S8192
    squeezes_S1x8192_S8192).view) g P

/-- The two halves share no element. -/
theorem scr_disjoint (inb0 : ∀ a, (![0, 0] : Fin 2 → Nat) a + S1x8192.size a ≤ S2x8192.size a)
    (inb1 : ∀ a, (![1, 0] : Fin 2 → Nat) a + S1x8192.size a ≤ S2x8192.size a) (hs0 hs1) :
    Disjoint (((Memref.whole cc1_scratch0).slice (Rect.unit (s := S2x8192) ![0, 0] S1x8192.size inb0) hs0).squeeze S8192 squeezes_S1x8192_S8192).view.set
      (((Memref.whole cc1_scratch0).slice (Rect.unit (s := S2x8192) ![1, 0] S1x8192.size inb1) hs1).squeeze S8192 squeezes_S1x8192_S8192).view.set := by
  simp only [Memref.view_squeeze, Memref.view_slice, Memref.view_whole, View.set_reshape, View.set_slice_whole]
  exact Rect.unit_disjoint 0 (Or.inl (by decide))

/-- The first half read flat is not changed by a write of the second, -/
theorem scr_skip0 (inb0 : ∀ a, (![0, 0] : Fin 2 → Nat) a + S1x8192.size a ≤ S2x8192.size a)
    (inb1 : ∀ a, (![1, 0] : Fin 2 → Nat) a + S1x8192.size a ≤ S2x8192.size a) (hs1)
    (g : (cc1_scratch0 : Ref sig .tc).ty.Contents (Elt F)) (P : FVec F S8192 .f32) :
    shapeCast S8192 (View.readAt (Elt F) (Memref.whole cc1_scratch0).view (Rect.unit (s := S2x8192) ![0, 0] S1x8192.size inb0).toLoadRect
        (View.write (Elt F) (((Memref.whole cc1_scratch0).slice (Rect.unit (s := S2x8192) ![1, 0] S1x8192.size inb1) hs1).squeeze S8192
          squeezes_S1x8192_S8192).view g P Finset.univ)) shapeCasts_S1x8192_S8192
      = shapeCast S8192 (View.readAt (Elt F) (Memref.whole cc1_scratch0).view (Rect.unit (s := S2x8192) ![0, 0] S1x8192.size inb0).toLoadRect g)
          shapeCasts_S1x8192_S8192 := by
  have hs0 : ∀ a, (Rect.unit (s := S2x8192) ![0, 0] S1x8192.size inb0).stride a = 1 := fun _ => rfl
  show (((Memref.whole cc1_scratch0).slice (Rect.unit (s := S2x8192) ![0, 0] S1x8192.size inb0) hs0).squeeze S8192 squeezes_S1x8192_S8192).view.read (Elt F)
      (View.write (Elt F) (((Memref.whole cc1_scratch0).slice (Rect.unit (s := S2x8192) ![1, 0] S1x8192.size inb1) hs1).squeeze S8192
          squeezes_S1x8192_S8192).view g P Finset.univ)
    = (((Memref.whole cc1_scratch0).slice (Rect.unit (s := S2x8192) ![0, 0] S1x8192.size inb0) hs0).squeeze S8192 squeezes_S1x8192_S8192).view.read (Elt F) g
  exact View.read_congr fun j hj => View.write_of_not_mem g P Finset.univ fun hm =>
    Finset.disjoint_left.mp (scr_disjoint inb0 inb1 hs0 hs1) hj (by rwa [View.setOn_univ] at hm)

/-- nor the second by a write of the first. -/
theorem scr_skip1 (inb0 : ∀ a, (![0, 0] : Fin 2 → Nat) a + S1x8192.size a ≤ S2x8192.size a)
    (inb1 : ∀ a, (![1, 0] : Fin 2 → Nat) a + S1x8192.size a ≤ S2x8192.size a) (hs0)
    (g : (cc1_scratch0 : Ref sig .tc).ty.Contents (Elt F)) (P : FVec F S8192 .f32) :
    shapeCast S8192 (View.readAt (Elt F) (Memref.whole cc1_scratch0).view (Rect.unit (s := S2x8192) ![1, 0] S1x8192.size inb1).toLoadRect
        (View.write (Elt F) (((Memref.whole cc1_scratch0).slice (Rect.unit (s := S2x8192) ![0, 0] S1x8192.size inb0) hs0).squeeze S8192
          squeezes_S1x8192_S8192).view g P Finset.univ)) shapeCasts_S1x8192_S8192
      = shapeCast S8192 (View.readAt (Elt F) (Memref.whole cc1_scratch0).view (Rect.unit (s := S2x8192) ![1, 0] S1x8192.size inb1).toLoadRect g)
          shapeCasts_S1x8192_S8192 := by
  have hs1 : ∀ a, (Rect.unit (s := S2x8192) ![1, 0] S1x8192.size inb1).stride a = 1 := fun _ => rfl
  show (((Memref.whole cc1_scratch0).slice (Rect.unit (s := S2x8192) ![1, 0] S1x8192.size inb1) hs1).squeeze S8192 squeezes_S1x8192_S8192).view.read (Elt F)
      (View.write (Elt F) (((Memref.whole cc1_scratch0).slice (Rect.unit (s := S2x8192) ![0, 0] S1x8192.size inb0) hs0).squeeze S8192
          squeezes_S1x8192_S8192).view g P Finset.univ)
    = (((Memref.whole cc1_scratch0).slice (Rect.unit (s := S2x8192) ![1, 0] S1x8192.size inb1) hs1).squeeze S8192 squeezes_S1x8192_S8192).view.read (Elt F) g
  exact View.read_congr fun j hj => View.write_of_not_mem g P Finset.univ fun hm =>
    Finset.disjoint_right.mp (scr_disjoint inb0 inb1 hs0 hs1) hj (by rwa [View.setOn_univ] at hm)

/-! ## The pieces of a stored row, read at an index -/

/-- An index of a [1, 1, 8192] block is (0, 0, its last coordinate). -/
theorem ix3_00 (x : S1x1x8192.Idx) : x = ValueIdx.ix3 (0 : Fin 1) (0 : Fin 1) (x 2) := by
  funext a
  fin_cases a
  · exact Fin.ext (by have h : (x 0).val < 1 := (x 0).isLt; show (x 0).val = 0; omega)
  · exact Fin.ext (by have h : (x 1).val < 1 := (x 1).isLt; show (x 1).val = 0; omega)
  · rfl

/-- In other words it is (0, 0, v) for a lane v. -/
theorem ix3_ex (x : S1x1x8192.Idx) : ∃ v : Fin 8192, x = ValueIdx.ix3 (0 : Fin 1) (0 : Fin 1) v := ⟨x 2, ix3_00 x⟩

/-- The word read off the table at a unit rectangle whose offsets are (a, b) is the table's word (a, b). -/
theorem tbl_word (tbl : Bf (F := F) c (Memref.whole main_v0)) (off : Fin 2 → Nat)
    (inb : ∀ a, off a + S1x1.size a ≤ S4x4096.size a) (h1 : 0 < S1x1.numel) (a b : Nat) (hoff : off = ![a, b])
    (ha : a < 4) (hb : b < 4096) :
    View.readAt (Elt F) (Memref.whole main_v0).view (Rect.unit (s := S4x4096) off S1x1.size inb).toLoadRect tbl (Shape.Idx.first h1)
      = (tbl : S4x4096.Idx → BitVec 32) (ValueIdx.ix2 (⟨a, ha⟩ : Fin 4) (⟨b, hb⟩ : Fin 4096)) := by
  subst hoff
  rw [View.readAt_apply, View.read_apply]
  show (tbl : S4x4096.Idx → BitVec 32) _ = _
  congr 1
  funext d
  apply Fin.ext
  fin_cases d
  · show a + 1 * (Shape.Idx.first h1 (0 : Fin 2)).val = a
    have : (Shape.Idx.first h1 (0 : Fin 2)).val = 0 := rfl
    rw [this]; omega
  · show b + 1 * (Shape.Idx.first h1 (1 : Fin 2)).val = b
    have : (Shape.Idx.first h1 (1 : Fin 2)).val = 0 := rfl
    rw [this]; omega

/-- A row of the transposed array read flat through the one-row slice at offsets (w, 0): entry v is the array's (w, v). -/
theorem wt_row (wt : Bf (F := F) c (Memref.whole main_v1_0)) (off : Fin 2 → Nat)
    (inb : ∀ a, off a + S1x8192.size a ≤ S8192x8192.size a)
    (hs : ∀ a, (Rect.unit (s := S8192x8192) off S1x8192.size inb).stride a = 1) (w : Nat) (hoff : off = ![w, 0]) (hw : w < 8192)
    (v : Fin 8192) :
    (((Memref.whole main_v1_0).slice (Rect.unit (s := S8192x8192) off S1x8192.size inb) hs).squeeze S8192 squeezes_S1x8192_S8192).view.read
        (Elt F) wt (ValueIdx.ix1 v)
      = (wt : S8192x8192.Idx → F .f32) (ValueIdx.ix2 (⟨w, hw⟩ : Fin 8192) v) := by
  subst hoff
  show shapeCast S8192 (View.readAt (Elt F) (Memref.whole main_v1_0).view
    (Rect.unit (s := S8192x8192) ![w, 0] S1x8192.size inb).toLoadRect wt) shapeCasts_S1x8192_S8192 (ValueIdx.ix1 v) = _
  rw [ValueIdx.shapeCast_1a_a_apply (a := 8192) _ shapeCasts_S1x8192_S8192 v, View.readAt_apply, View.read_apply]
  show (wt : S8192x8192.Idx → F .f32) _ = _
  congr 1
  funext d
  apply Fin.ext
  fin_cases d
  · show w + 1 * 0 = w; omega
  · show 0 + 1 * v.val = v.val; omega

/-- The bias block read flat: entry v is the block's (0, 0, v). -/
theorem beta_row (M3 : Memref sig .tc .vmem S1x1x8192 .f32) (β : Bf (F := F) c M3)
    (inb : ∀ a, (![0, 0, 0] : Fin 3 → Nat) a + S1x1x8192.size a ≤ S1x1x8192.size a) (v : Fin 8192) :
    shapeCast S8192 (View.readAt (Elt F) M3.view (Rect.unit (s := S1x1x8192) ![0, 0, 0] S1x1x8192.size inb).toLoadRect β)
        shapeCasts_S1x1x8192_S8192 (ValueIdx.ix1 v)
      = M3.view.read (Elt F) β (ValueIdx.ix3 (0 : Fin 1) (0 : Fin 1) v) := by
  rw [PayIdx.shapeCast_11a_a_apply (a := 8192) _ shapeCasts_S1x1x8192_S8192 v, View.readAt_eq_ld,
    View.ld_unit_zero (by funext d; fin_cases d <;> rfl)]

/-- The block's specification at row r, lane v. -/
theorem outSpec_row (i : grid1.Coords) (tbl : S4x4096.Idx → BitVec 32) (β' : Vec F S1x1x8192 .f32) (wt : Vec F S8192x8192 .f32)
    (rn : Nat) (hr : rn < 128) (inb : ∀ a, (![0, rn, 0] : Fin 3 → Nat) a + S1x1x8192.size a ≤ S1x128x8192.size a) (v : Fin 8192) :
    outSpec i tbl β' wt ((Rect.unit (s := S1x128x8192) ![0, rn, 0] S1x1x8192.size inb).emb
        (ValueIdx.ix3 (0 : Fin 1) (0 : Fin 1) v))
      = FloatOps.addf (wt (ValueIdx.ix2 (rowIx (tbl (tblPos i (⟨rn, hr⟩ : Fin 128)))) v))
          (β' (ValueIdx.ix3 (0 : Fin 1) (0 : Fin 1) v)) := by
  unfold outSpec
  have e1 : ((Rect.unit (s := S1x128x8192) ![0, rn, 0] S1x1x8192.size inb).emb (ValueIdx.ix3 (0 : Fin 1) (0 : Fin 1) v) 1).val = rn := by
    show rn + 1 * 0 = rn; omega
  have e2 : ((Rect.unit (s := S1x128x8192) ![0, rn, 0] S1x1x8192.size inb).emb (ValueIdx.ix3 (0 : Fin 1) (0 : Fin 1) v) 2).val = v.val := by
    show 0 + 1 * v.val = v.val; omega
  have f1 : (⟨((Rect.unit (s := S1x128x8192) ![0, rn, 0] S1x1x8192.size inb).emb (ValueIdx.ix3 (0 : Fin 1) (0 : Fin 1) v) 1).val % 128,
      Nat.mod_lt _ (by decide)⟩ : Fin 128) = ⟨rn, hr⟩ := Fin.ext (by show _ % 128 = rn; rw [e1]; exact Nat.mod_eq_of_lt hr)
  have f2 : (⟨((Rect.unit (s := S1x128x8192) ![0, rn, 0] S1x1x8192.size inb).emb (ValueIdx.ix3 (0 : Fin 1) (0 : Fin 1) v) 2).val % 8192,
      Nat.mod_lt _ (by decide)⟩ : Fin 8192) = v := Fin.ext (by show _ % 8192 = v.val; rw [e2]; exact Nat.mod_eq_of_lt v.isLt)
  rw [f1, f2]

/-! ## A stored row is the specification's row -/

/-- The stored sum of a gathered row and the bias row, at lane v, is the specification at (0, r, v): the row is named
    by the table's word at (first coordinate, 128 · second coordinate + r), which is below 8192. The row's offsets in
    the transposed array are given as a function `fW` of the word, with value (word, 0). -/
theorem row_final (i : grid1.Coords) (tbl : Bf (F := F) c (Memref.whole main_v0)) (hT : TableInRange c tbl)
    (wt : Bf (F := F) c (Memref.whole main_v1_0)) (M3 : Memref sig .tc .vmem S1x1x8192 .f32) (β : Bf (F := F) c M3)
    (rn : Nat) (hr : rn < 128)
    (inbP : ∀ a, (![0, rn, 0] : Fin 3 → Nat) a + S1x1x8192.size a ≤ S1x128x8192.size a)
    (offT : Fin 2 → Nat) (inbT : ∀ a, offT a + S1x1.size a ≤ S4x4096.size a) (h1 : 0 < S1x1.numel)
    (hoffT : offT = ![(i 0).val, 128 * (i 1).val + rn])
    (fW : BitVec 32 → Fin 2 → Nat) (hfW : ∀ w, fW w = ![w.toNat, 0])
    (inbW : ∀ a, fW (View.readAt (Elt F) (Memref.whole main_v0).view (Rect.unit (s := S4x4096) offT S1x1.size inbT).toLoadRect tbl
        (Shape.Idx.first h1)) a + S1x8192.size a ≤ S8192x8192.size a)
    (hsW : ∀ a, (Rect.unit (s := S8192x8192) (fW (View.readAt (Elt F) (Memref.whole main_v0).view
        (Rect.unit (s := S4x4096) offT S1x1.size inbT).toLoadRect tbl (Shape.Idx.first h1))) S1x8192.size inbW).stride a = 1)
    (inbB : ∀ a, (![0, 0, 0] : Fin 3 → Nat) a + S1x1x8192.size a ≤ S1x1x8192.size a) (v : Fin 8192) :
    FloatOps.addf
        ((((Memref.whole main_v1_0).slice (Rect.unit (s := S8192x8192) (fW (View.readAt (Elt F) (Memref.whole main_v0).view
            (Rect.unit (s := S4x4096) offT S1x1.size inbT).toLoadRect tbl (Shape.Idx.first h1))) S1x8192.size inbW) hsW).squeeze S8192
          squeezes_S1x8192_S8192).view.read (Elt F) wt (ValueIdx.ix1 v))
        (shapeCast S8192 (View.readAt (Elt F) M3.view (Rect.unit (s := S1x1x8192) ![0, 0, 0] S1x1x8192.size inbB).toLoadRect β)
          shapeCasts_S1x1x8192_S8192 (ValueIdx.ix1 v))
      = outSpec i tbl (M3.view.read (Elt F) β) wt
          ((Rect.unit (s := S1x128x8192) ![0, rn, 0] S1x1x8192.size inbP).emb (ValueIdx.ix3 (0 : Fin 1) (0 : Fin 1) v)) := by
  have hi0 : (i 0).val < 4 := (i 0).isLt
  have hi1 : (i 1).val < 32 := (i 1).isLt
  have hword := tbl_word tbl offT inbT h1 (i 0).val (128 * (i 1).val + rn) hoffT hi0 (by omega)
  have hlt : (View.readAt (Elt F) (Memref.whole main_v0).view (Rect.unit (s := S4x4096) offT S1x1.size inbT).toLoadRect tbl
      (Shape.Idx.first h1)).toNat < 8192 := hT offT inbT h1
  rw [wt_row wt _ inbW hsW _ (hfW _) hlt v, beta_row M3 β inbB v, outSpec_row i tbl _ wt rn hr inbP v]
  congr 2
  refine congrArg (fun r => ValueIdx.ix2 r v) (Fin.ext ?_)
  have hlt' := hlt
  rw [hword] at hlt'
  have hpos : tblPos i (⟨rn, hr⟩ : Fin 128) = ValueIdx.ix2 (⟨(i 0).val, hi0⟩ : Fin 4) (⟨128 * (i 1).val + rn, by omega⟩ : Fin 4096) := by
    unfold tblPos
    congr 1 <;> exact Fin.ext (Nat.mod_eq_of_lt (by first | exact hi0 | (show 128 * (i 1).val + rn < 4096; omega)))
  rw [hpos, rowIx_val _ hlt']
  exact congrArg BitVec.toNat hword

end RowLemmas

/-! ## The proof text for one row, and for the list of rows

The block's 128 stored rows are given as definitions that name each intermediate value by a definition of its own (a
row's payload is a shape cast of a named value, that one a shape cast of a named sum, and so on down to the loads), and
the list of pieces as a chain of named lists. The three steps below unfold such names in a controlled way: the lists down
to the literal list with the payloads folded; a payload one layer of names at a time, until the lemma that applies next
matches. No name is spelt. -/

open Lean Elab Tactic Meta in
/-- One round of unfolding: every application of a constant named by a body's run (a name with the component `sl`
    before its last) is replaced by its definition applied to the same arguments; what the definitions mention is
    left folded. Fails when the goal mentions no such name. -/
elab "run_step" : tactic => do
  let g ← getMainGoal
  let t ← instantiateMVars (← g.getType)
  let env ← getEnv
  let isRunName (n : Name) : Bool := n.components.dropLast.any (· == `sl)
  let t' := t.replace fun e =>
    match e.getAppFn with
    | .const n us =>
      if isRunName n then
        match env.find? n with
        | some ci => if ci.hasValue then some ((ci.instantiateValueLevelParams! us).beta e.getAppArgs) else none
        | none => none
      else none
    | _ => none
  if t' == t then throwError "run_step: no run name in the goal"
  replaceMainGoal [← g.replaceTargetDefEq t']

/-- Unfold round by round until the given tactic applies. -/
syntax "steps_until " "(" tacticSeq ")" : tactic
macro_rules
  | `(tactic| steps_until ($t:tacticSeq)) => `(tactic| first | ($t) | (run_step; steps_until ($t)))

open Lean Elab Tactic Meta in
/-- Open, in the goal, the names the body's run gave to LISTS of stored pieces, down to the literal list; the pieces'
    payloads stay folded. -/
elab "run_open_lists" : tactic => do
  let g ← getMainGoal
  let env ← getEnv
  let isRunList (n : Name) : Bool :=
    n.components.dropLast.any (· == `sl) &&
      (match env.find? n with
        | some ci => ci.type.getForallBody.isAppOf ``List
        | none => false)
  let mut t ← instantiateMVars (← g.getType)
  for _ in [0:400] do
    let t' ← Meta.deltaExpand t isRunList
    if t' == t then break
    t := t'
  replaceMainGoal [← g.replaceTargetDefEq t]

/-- One stored row against the specification: open the payload's names round by round down to the stored chain, read the
    chain at the lane, read the scratch half past the other half's write, and close with the row's closed forms. -/
syntax "row_tac " term:max : tactic
macro_rules
  | `(tactic| row_tac $hT:term) => `(tactic| (
      intro x
      obtain ⟨v, hv⟩ := ix3_ex x
      subst hv
      dsimp only
      steps_until (rw [chain_apply])
      steps_until (first | rw [scr_hit] | rw [scr_skip0, scr_hit] | rw [scr_skip1, scr_hit])
      steps_until (exact row_final _ _ $hT _ _ _ _ (by decide) _ _ _ _ ClosedOff.eq _ (fun _ => rfl) _ _ _ _)))

end Cert.KernelIdeal.Hand

end
-- ==== Proof.KI.Body1Read.lean ====
/-
  The gather kernel's output block after the body's run, read at an index: whatever the scratch buffer held when
  the body started, row r of the block ends holding the transposed array's row that the table's word for that row
  names, plus the bias block's row. Every index of the block lies in exactly one of the 128 stored rows (they tile
  the block), and every stored row agrees with the block's specification.
-/
import proofs.«421918_j29918742184132_1_alg».proof.Proof.KI.Body1
import proofs.«421918_j29918742184132_1_alg».proof.Proof.KI.RowRead

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000 in
set_option maxRecDepth 8192 in
/-- Whatever the scratch held, the output block's buffer ends reading as the block's specification: each row was
    stored from the scratch half that the row's own copy had just filled, plus the bias row. -/
theorem run1_read (c : Dev nD) (i : grid1.Coords)
    (M3 : Memref sig .tc .vmem S1x1x8192 .f32) (h3 : M3.IsWhole) (M5 : Memref sig .tc .vmem S1x128x8192 .f32) (h5 : M5.IsWhole)
    (tbl : Bf (F := F) c (Memref.whole main_v0)) (hT : TableInRange c tbl)
    (β : Bf (F := F) c M3) (wt : Bf (F := F) c (Memref.whole main_v1_0)) (k : Bf (F := F) c (Memref.whole cc1_scratch0)) :
    M5.view.read (Elt F) (run1 c i M3 h3 M5 h5 tbl hT β wt k).1 = outSpec i tbl (M3.view.read (Elt F) β) wt := by
  unfold run1
  dsimp only
  funext y
  -- every index lies in one of the 128 stored rows (the rows tile the block), and every stored row agrees with the
  -- specification: so the buffer reads as the specification at every index
  refine View.read_writes_apply_of_pieces _ _ (outSpec i tbl (M3.view.read (Elt F) β) wt) _ ?hG y
    (View.cover_of_tiledL (s := S1x128x8192) _ S1x1x8192.size (by sl_kernel_rfl) y)
  run_open_lists
  repeat' (first | (refine List.forall_mem_cons.mpr ⟨?_, ?_⟩) | exact fun _ h => absurd h List.not_mem_nil)
  all_goals row_tac hT

end Cert.KernelIdeal.Hand

end
-- ==== Proof.KI.Dat1.lean ====
/-
  The gather pipeline's proof data and body obligation. Between two points the kernel holds the index table,
  the transposed array, its scratch (at something) and its two counters at zero; at each point the bias
  window's buffer holds the bias array's block (whether or not the point fetched it: the block index does
  not move between fetches), and the body leaves in the output window's buffer what its run finds.
-/
import proofs.«421918_j29918742184132_1_alg».proof.Proof.KI.Body1Read
import proofs.«421918_j29918742184132_1_alg».proof.Proof.Gen.KernelIdeal.Launch
import Idealize.ShloMosaic.Lib.Pipeline.Regions
import Idealize.ShloMosaic.Lib.Pipeline.FrameBody

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation)

/-- A whole memref's buffer held by the memref's own elements is the buffer held whole. -/
theorem ptSet_eq_pt1 (c : Dev nD) {sp : Space} {S : Shape} {e : EltTy} (M : Memref sig .tc sp S e) (h : M.IsWhole)
    (f : Bf (F := F) c M) :
    ((M.view.loc (c : Thread nD τ) ↦[M.view.set]{fullShare} f : sProp (MM F))) = pt c M f := by
  obtain ⟨b, rfl, rfl, rfl, hm⟩ := h
  cases hm
  simp only [Memref.view_whole, View.set_whole]

/-- Owning a whole memref at contents `X` is holding its buffer whole at the raw contents that read `X`. -/
theorem owns_eq_pt1 (c : Dev nD) {sp : Space} {S : Shape} {e : EltTy} (M : Memref sig .tc sp S e) (h : M.IsWhole)
    (X : S.Idx → Elt F e) :
    (owns (c : Thread nD τ) M fullShare X : sProp (MM F)) ⊣⊢ pt c M (h.unread X) := by
  rw [← ptSet_eq_pt1 c M h (h.unread X)]
  unfold owns
  constructor
  · iintro ⟨%f, %hf, H⟩
    obtain rfl := h.eq_unread hf
    iexact H
  · iintro H
    iexists h.unread X
    isplitr; · ipureintro; exact h.read_unread X
    iexact H

variable (V : (c : Dev nD) → Valuation τ sig (Elt F)) (a1 : (pcfg1 (F := F)).Adm)

/-- The index table as the pipeline is pinned at it. -/
abbrev tblOf (c : Dev nD) : Bf (F := F) c (Memref.whole main_v0) := a1.1 0

/-- The scoped buffers that are neither a staging buffer of this call nor its scratch, each held at something. -/
def rest1 (c : Dev nD) : sProp (MM F) :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The invariant between two points: the table, the transposed array as the region found it, the scratch at
    something, both counters at zero, the other scoped buffers. -/
def Φ1 (c : Dev nD) : sProp (MM F) :=
  iprop(pt c (Memref.whole main_v0) (tblOf a1 c) ∗ pt c (Memref.whole main_v1_0) (V c main_v1_0)
    ∗ (∃ f, pt c (Memref.whole cc1_scratch0) f) ∗ sems0 c ∗ rest1 c)

/-- The staging memrefs the pipeline calls the body with at point `t`. -/
abbrev stB (t : Fin (cfg1 a1).N) : Memref sig .tc .vmem S1x1x8192 .f32 := spec1_0.stage ((cfg1 a1).slots t 0)
abbrev stO (t : Fin (cfg1 a1).N) : Memref sig .tc .vmem S1x128x8192 .f32 := spec1_1.stage ((cfg1 a1).slots t 1)
theorem hstB (t : Fin (cfg1 a1).N) : (stB a1 t).IsWhole := hstage1_0 (((cfg1 a1).slots t 0).cast nbuf1_0)
theorem hstO (t : Fin (cfg1 a1).N) : (stO a1 t).IsWhole := hstage1_1 (((cfg1 a1).slots t 1).cast nbuf1_1)

/-- The bias array's block at point `t`. -/
abbrev biasBlk (c : Dev nD) (t : Fin (cfg1 a1).N) : Vec F S1x1x8192 .f32 :=
  (((cfg1 a1).win 0).blk t).view.read (Elt F) (V c (Pipeline.arrRef spec1 0))

/-- What the body leaves in the output window's buffer at point `t`: the block's specification. -/
def outBlk (c : Dev nD) (t : Fin (cfg1 a1).N) : Vec F S1x128x8192 .f32 :=
  outSpec (grid1.coords t) (tblOf a1 c) (biasBlk V a1 c t) (V c main_v1_0)

/-- The proof data on core `c`. -/
def dat1 (c : Dev nD) : Dat τ (Elt F) Unit ℕ (UU nD τ) ℕ (cfg1 a1) c where
  A w := V c (Pipeline.arrRef spec1 w)
  after w t := match w with
    | ⟨0, _⟩ => biasBlk V a1 c t
    | ⟨1, _⟩ => outBlk V a1 c t
  Φ _ := Φ1 V a1 c
  q _ := fullShare
  owed _ := 0

theorem dat1_A (c : Dev nD) (w : Fin 2) : (dat1 V a1 c).A w = V c (Pipeline.arrRef spec1 w) := rfl
theorem dat1_owed (c : Dev nD) (t : Fin ((cfg1 a1).N + 1)) : (dat1 V a1 c).owed t = 0 := rfl
theorem dat1_q (c : Dev nD) (w : Fin 2) : (dat1 V a1 c).q w = fullShare := rfl
theorem dat1_Φ (c : Dev nD) (t : Fin ((cfg1 a1).N + 1)) : (dat1 V a1 c).Φ t = Φ1 V a1 c := rfl

/-- The bias window's buffer holds the bias array's block when the body runs, fetched there or not. -/
theorem before_bias (c : Dev nD) (t : Fin (cfg1 a1).N) (d : ((cfg1 a1).win 0).block.Idx → Elt F ((cfg1 a1).win 0).elt) :
    (dat1 V a1 c).before (0 : Fin 2) t d = biasBlk V a1 c t :=
  (dat1 V a1 c).before_in_eq_fetched (0 : Fin 2) rfl (fun _ => rfl) (fun _ _ _ => rfl) (fun _ => rfl) t d

/-- The body obligation: the windows and the invariant taken apart, the body's run applied, its post reassembled. -/
theorem body_obligation1 (hT : ∀ c, TableInRange c (tblOf a1 c)) (c : Dev nD) : BodyObligation (dat1 V a1 c) (defs₀ (F := F)) Variants.none () Set.univ := fun t => by
  have hidle : ∀ w i, (cfg1 a1).idle w i = false := fun _ _ => rfl
  simp only [hidle]
  rw [bigSep_W1, bigSep_W1]
  rw [dat1_Φ, dat1_Φ]
  unfold Φ1 Dat.owesAt Pipeline.owesWithin
  rw [dat1_owed, dat1_owed]
  iintro ⟨⟨H2, H4, ⟨%k, H6⟩, Hsems, Hrest⟩, ⟨%W, %hW, HO⟩, ⟨%d0, H3⟩, ⟨%d1, H5⟩⟩
  have e0 := before_bias V a1 c t d0
  ihave H3a := (owns_eq_pt1 c (stB a1 t) (hstB a1 t) ((dat1 V a1 c).before (0 : Fin 2) t d0)).1 $$ H3
  ihave H3' := (Entails.of_eq (congrArg (fun X => pt c (stB a1 t) ((hstB a1 t).unread X)) e0)) $$ H3a
  ihave H5' := (owns_eq_pt1 c (stO a1 t) (hstO a1 t) ((dat1 V a1 c).before (1 : Fin 2) t d1)).1 $$ H5
  iapply ((run1 c (grid1.coords t) (stB a1 t) (hstB a1 t) (stO a1 t) (hstO a1 t) (tblOf a1 c) (hT c)
      ((hstB a1 t).unread (biasBlk V a1 c t)) (V c main_v1_0) k).2 _ W _)
  isplitl [H2]; · iexact H2
  isplitl [H3']; · iexact H3'
  isplitl [H4]; · iexact H4
  isplitl [H5']; · iexact H5'
  isplitl [H6]; · iexact H6
  isplitl [Hsems]; · iexact Hsems
  isplitl [HO]; · iexact HO
  iintro ⟨H2, H3, H4, H5, H6, Hsems, ⟨%W', HO⟩⟩
  isplitl [H2 H4 H6 Hsems Hrest]
  · isplitl [H2]; · iexact H2
    isplitl [H4]; · iexact H4
    isplitl [H6]; · iexact H6
    isplitl [Hsems]; · iexact Hsems
    iexact Hrest
  isplitl [HO]
  · iexists W'; isplitr; · ipureintro; exact fun _ _ => Or.inl trivial
    iexact HO
  isplitl [H3]
  · iapply (owns_eq_pt1 c (stB a1 t) (hstB a1 t) _).2; iexact H3
  · iapply (owns_eq_pt1 c (stO a1 t) (hstO a1 t) ((dat1 V a1 c).after (1 : Fin 2) t)).2
    have e5 : (hstO a1 t).unread ((dat1 V a1 c).after (1 : Fin 2) t)
        = (run1 c (grid1.coords t) (stB a1 t) (hstB a1 t) (stO a1 t) (hstO a1 t) (tblOf a1 c) (hT c)
            ((hstB a1 t).unread (biasBlk V a1 c t)) (V c main_v1_0) k).1 := by
      have hr := run1_read c (grid1.coords t) (stB a1 t) (hstB a1 t) (stO a1 t) (hstO a1 t) (tblOf a1 c) (hT c)
        ((hstB a1 t).unread (biasBlk V a1 c t)) (V c main_v1_0) k
      rw [(hstB a1 t).read_unread] at hr
      exact ((hstO a1 t).eq_unread hr).symm
    iapply (Entails.of_eq (congrArg (fun X => pt c (stO a1 t) X) e5.symm))
    iexact H5

end Cert.KernelIdeal.Hand

end
-- ==== Proof.KI.Host.lean ====
/-
  What the host operations of the program leave in the buffers its two kernel regions read: the index table is the
  argument clamped word by word into [0, 8191]; the bias array is the composed broadcast-multiply-add of the scale
  vector, the row sums the first region wrote, and the bias vector; the arrays no host operation writes keep their
  contents.
-/
import proofs.«421918_j29918742184132_1_alg».proof.Proof.KI.Table
import proofs.«421918_j29918742184132_1_alg».proof.Proof.Spec
import proofs.«421918_j29918742184132_1_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe Idealize.ShloMosaic.Tactic
open Idealize.ShloMosaic.StableHlo
open Idealize.SL.Sem

variable {F : FTy → Type} [FloatOps F]

variable (m : (ℓ : Loc nD τ sig) → Buf (Elt F) ℓ) (outs : Gen.Outs (F := F))

/-! ## The index table -/

/-- The index table after the clamp's six operations, as the composed term over the argument: the minimum of the
    constant 8191 and the maximum of the constant 0 and the argument, elementwise. -/
theorem V2_table (c : Dev nD) :
    (Gen.V2 m c main_v0 : IVec S4x4096 32)
      = minsi (broadcastInDim S4x4096 ![] bcast_S_S4x4096 (constantI S_ 32 8191#32))
          (maxsi (broadcastInDim S4x4096 ![] bcast_S_S4x4096 (constantI S_ 32 0#32))
            (m ((c : Thread nD τ).loc main_arg0) : IVec S4x4096 32)) := by
  show StableHlo.after hostOps0_1 (StableHlo.after hostOps0 (Gen.V0 m c)) (Proc.devRef .tc main_v0) = _
  after_results
  rfl

/-- The table's word at index j is the clamp of the argument's word at j. -/
theorem V2_table_apply (c : Dev nD) (j : S4x4096.Idx) :
    (Gen.V2 m c main_v0 : IVec S4x4096 32) j
      = Cert.Spec.clampW ((m ((c : Thread nD τ).loc main_arg0) : IVec S4x4096 32) j) :=
  (congrFun (V2_table m c) j).trans rfl

/-- Every single word read off the table is below 8192: a unit rectangle of the whole array reads the array's word at
    its offset, and that word is a clamp. -/
theorem table_in_range (c : Dev nD) : TableInRange c (Gen.V2 m c main_v0) := by
  intro off inb h1
  rw [View.readAt_apply, View.read_apply]
  show BitVec.toNat ((Gen.V2 m c main_v0 : IVec S4x4096 32) _) < 8192
  rw [V2_table_apply]
  exact Cert.Spec.clampW_lt _

/-- Neither the first region nor the second host stretch writes the table. -/
theorem V4_table (c : Dev nD) : Gen.V4 m outs c main_v0 = Gen.V2 m c main_v0 :=
  (Gen.V4_of m outs c main_v0 (by decide)).trans (Gen.V3_of m outs c main_v0 (by decide))

/-! ## The arrays the regions exchange -/

/-- The transposed array the second region reads is what the first region left: the second host stretch does not
    write it. -/
theorem V4_wt (c : Dev nD) : Gen.V4 m outs c main_v1_0 = outs 3 main_v1_0 c := by
  refine (Gen.V4_of m outs c main_v1_0 (by decide)).trans ?_
  show Function.update (Function.update (Gen.V2 m c) (Proc.devRef .tc main_v1_0) (outs 3 main_v1_0 c))
    (Proc.devRef .tc main_v1_1) (outs 3 main_v1_1 c) (Proc.devRef .tc main_v1_0) = _
  rw [Function.update_of_ne (StableHlo.devRef_ne_of_ne (by decide) :
    (Proc.devRef .tc main_v1_0 : DevRef τ sig) ≠ Proc.devRef .tc main_v1_1), Function.update_self]

/-- The row sums the second host stretch reads are what the first region left. -/
theorem V3_rs (c : Dev nD) : Gen.V3 m outs c main_v1_1 = outs 3 main_v1_1 c := by
  show Function.update (Function.update (Gen.V2 m c) (Proc.devRef .tc main_v1_0) (outs 3 main_v1_0 c))
    (Proc.devRef .tc main_v1_1) (outs 3 main_v1_1 c) (Proc.devRef .tc main_v1_1) = _
  rw [Function.update_self]

/-- The matrix argument is as launched when the first region starts: no host operation before it writes it. -/
theorem V2_W (c : Dev nD) : Gen.V2 m c main_arg2 = m ((c : Thread nD τ).loc main_arg2) :=
  (Gen.V2_of m c main_arg2 (by decide)).trans ((Gen.V1_of m c main_arg2 (by decide)).trans rfl)

/-- The scale argument is as launched when the second host stretch starts. -/
theorem V3_sigma (c : Dev nD) : Gen.V3 m outs c main_arg1 = m ((c : Thread nD τ).loc main_arg1) :=
  (Gen.V3_of m outs c main_arg1 (by decide)).trans <|
    (Gen.V2_of m c main_arg1 (by decide)).trans ((Gen.V1_of m c main_arg1 (by decide)).trans rfl)

/-- The bias argument is as launched when the second host stretch starts. -/
theorem V3_bvec (c : Dev nD) : Gen.V3 m outs c main_arg3 = m ((c : Thread nD τ).loc main_arg3) :=
  (Gen.V3_of m outs c main_arg3 (by decide)).trans <|
    (Gen.V2_of m c main_arg3 (by decide)).trans ((Gen.V1_of m c main_arg3 (by decide)).trans rfl)

/-! ## The bias array -/

/-- The bias array as a function of the scale vector, the row sums and the bias vector: the second host stretch's
    twelve operations composed. Entry [b, 0, v] is (0.01 * sigma[b]) * rs[v] + bv[v]. -/
def biasOf (sigma : FVec F S4 .f32) (rs : FVec F S8192 .f32) (bv : FVec F S8192 .f32) : FVec F S4x1x8192 .f32 :=
  broadcastInDim S4x1x8192 ![0, 2] bcast_S4x8192_S4x1x8192_0_2
    (addf
      (mulf
        (broadcastInDim S4x8192 ![0, 1] bcast_S4x1_S4x8192_0_1
          (broadcastInDim S4x1 ![0] bcast_S4_S4x1_0
            (mulf (broadcastInDim S4 ![] bcast_S_S4 (constant (F := F) S_ .f32 0x3C23D70A#32)) sigma)))
        (broadcastInDim S4x8192 ![0, 1] bcast_S1x8192_S4x8192_0_1
          (broadcastInDim S1x8192 ![1] bcast_S8192_S1x8192_1 rs)))
      (broadcastInDim S4x8192 ![0, 1] bcast_S1x8192_S4x8192_0_1
        (broadcastInDim S1x8192 ![1] bcast_S8192_S1x8192_1 bv)))

/-- The second host stretch run from any contents leaves in its last result the bias array of the contents it reads. -/
theorem after_hostOps1_bias (V : Valuation τ sig (Elt F)) :
    (StableHlo.after hostOps1 V (Proc.devRef .tc main_v12) : FVec F S4x1x8192 .f32)
      = biasOf (V (Proc.devRef .tc main_arg1)) (V (Proc.devRef .tc main_v1_1)) (V (Proc.devRef .tc main_arg3)) := by
  after_results
  rfl

/-- The bias array the second region stages: of the scale argument, the row sums the first region left, and the bias
    argument. -/
theorem V4_bias (c : Dev nD) :
    (Gen.V4 m outs c main_v12 : FVec F S4x1x8192 .f32)
      = biasOf (m ((c : Thread nD τ).loc main_arg1)) (outs 3 main_v1_1 c) (m ((c : Thread nD τ).loc main_arg3)) := by
  refine (after_hostOps1_bias (Gen.V3 m outs c)).trans ?_
  have h1 : Gen.V3 m outs c (Proc.devRef .tc main_arg1) = m ((c : Thread nD τ).loc main_arg1) := V3_sigma m outs c
  have h2 : Gen.V3 m outs c (Proc.devRef .tc main_v1_1) = outs 3 main_v1_1 c := V3_rs m outs c
  have h3 : Gen.V3 m outs c (Proc.devRef .tc main_arg3) = m ((c : Thread nD τ).loc main_arg3) := V3_bvec m outs c
  rw [h1, h2, h3]

/-! ## The bias array read at an index -/

/-- The bias array's entry [b, z, v] (z the one index of the unit axis): the scaled row sum plus the bias, in the
    operations' own order. -/
theorem biasOf_ix3 (sigma : FVec F S4 .f32) (rs bv : FVec F S8192 .f32) (b : Fin 4) (z : Fin 1) (v : Fin 8192) :
    biasOf sigma rs bv (ValueIdx.ix3 b z v)
      = FloatOps.addf
          (FloatOps.mulf (FloatOps.mulf (FloatOps.ofBits .f32 0x3C23D70A#32) (sigma (ValueIdx.ix1 b))) (rs (ValueIdx.ix1 v)))
          (bv (ValueIdx.ix1 v)) := by
  unfold biasOf
  rw [broadcastInDim_apply _ _ _ (ValueIdx.ix3 b z v) (ValueIdx.ix2 b v) (by intro a; fin_cases a <;> rfl)]
  show FloatOps.addf (FloatOps.mulf (broadcastInDim S4x8192 _ bcast_S4x1_S4x8192_0_1 _ (ValueIdx.ix2 b v))
      (broadcastInDim S4x8192 _ bcast_S1x8192_S4x8192_0_1 _ (ValueIdx.ix2 b v)))
      (broadcastInDim S4x8192 _ bcast_S1x8192_S4x8192_0_1 _ (ValueIdx.ix2 b v)) = _
  rw [broadcastInDim_apply _ bcast_S4x1_S4x8192_0_1 _ (ValueIdx.ix2 b v) (ValueIdx.ix2 b (0 : Fin 1)) (by intro a; fin_cases a <;> rfl),
    broadcastInDim_apply _ bcast_S4_S4x1_0 _ (ValueIdx.ix2 b (0 : Fin 1)) (ValueIdx.ix1 b) (by intro a; fin_cases a; rfl),
    broadcastInDim_apply _ bcast_S1x8192_S4x8192_0_1 _ (ValueIdx.ix2 b v) (ValueIdx.ix2 (0 : Fin 1) v) (by intro a; fin_cases a <;> rfl),
    broadcastInDim_apply _ bcast_S8192_S1x8192_1 rs (ValueIdx.ix2 (0 : Fin 1) v) (ValueIdx.ix1 v) (by intro a; fin_cases a; rfl),
    broadcastInDim_apply _ bcast_S1x8192_S4x8192_0_1 _ (ValueIdx.ix2 b v) (ValueIdx.ix2 (0 : Fin 1) v) (by intro a; fin_cases a <;> rfl),
    broadcastInDim_apply _ bcast_S8192_S1x8192_1 bv (ValueIdx.ix2 (0 : Fin 1) v) (ValueIdx.ix1 v) (by intro a; fin_cases a; rfl)]
  rfl

/-- The bias array at any index i: its entry depends on i's first and last coordinates only. -/
theorem biasOf_apply (sigma : FVec F S4 .f32) (rs bv : FVec F S8192 .f32) (i : S4x1x8192.Idx) :
    biasOf sigma rs bv i
      = FloatOps.addf
          (FloatOps.mulf (FloatOps.mulf (FloatOps.ofBits .f32 0x3C23D70A#32) (sigma (ValueIdx.ix1 (i 0)))) (rs (ValueIdx.ix1 (i 2))))
          (bv (ValueIdx.ix1 (i 2))) :=
  (congrArg (biasOf sigma rs bv) (ValueIdx.eq_ix3 i)).trans (biasOf_ix3 sigma rs bv (i 0) (i 1) (i 2))

end Cert.KernelIdeal.Hand

end
-- ==== Proof.KI.PDats.lean ====
/-
  The data the launch is called with, fixed once for both kernel regions: the index table the gather pipeline
  is pinned at (the clamp of the index argument, as the first host stretch leaves it), what the two regions
  leave in the arrays they write (the pipeline library's account of each array after its region), and the
  pipelines' proof data as one family.
-/
import proofs.«421918_j29918742184132_1_alg».proof.Proof.KI.Dat0
import proofs.«421918_j29918742184132_1_alg».proof.Proof.KI.Dat1
import proofs.«421918_j29918742184132_1_alg».proof.Proof.KI.Host
import proofs.«421918_j29918742184132_1_alg».proof.Proof.Gen.KernelIdeal.Regions

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat)

variable (m : (ℓ : Loc nD τ sig) → Buf (Elt F) ℓ)

/-- The one core of the compiled mesh. -/
abbrev c0 : Dev nD := ⟨0, Nat.one_pos⟩

/-- The index table as the gather region finds it: what the clamp left in it (kept behind a name, so that no
    comparison of terms ever evaluates the host operations that made it). -/
def tblV : Bf (F := F) c0 (Memref.whole main_v0) := Gen.V2 m c0 main_v0

theorem tblV_eq : tblV m = Gen.V2 m c0 main_v0 := rfl

attribute [irreducible] tblV

/-- The gather pipeline's one table. -/
def tbl1 : pre1.Contents (Elt F) := fun k => match k with
  | ⟨0, _⟩ => tblV m
  | ⟨_ + 1, h⟩ => absurd h (Nat.not_lt.2 (Nat.le_add_left _ _))

/-- The gather pipeline's tables, admissible (its side condition is empty). -/
def a1 : (pcfg1 (F := F)).Adm := ⟨tbl1 m, trivial⟩

/-- Both pipelines' tables. -/
def adm : (p : Fin 2) → (pcfgs (F := F) p).Adm
  | ⟨0, _⟩ => cfg0.toPCfg_adm
  | ⟨1, _⟩ => a1 m
  | ⟨_ + 2, h⟩ => absurd h (Nat.not_lt.2 (Nat.le_add_left _ _))

/-- Every word of the table names a row of the transposed array. -/
theorem hT1 (c : Dev nD) : TableInRange c (tblOf (a1 m) c) := by
  obtain rfl : c = c0 := Subsingleton.elim _ _
  show TableInRange c0 (tblV m)
  rw [tblV_eq]
  exact table_in_range m c0

/-- The transposed array and the row sums as region 0 leaves them. -/
abbrev wtOut (c : Dev nD) : Buf (Elt F) ((c : Thread nD τ).loc main_v1_0) := (dat0 (Gen.V2 m) c).arrAt 1 cfg0.N
abbrev rsOut (c : Dev nD) : Buf (Elt F) ((c : Thread nD τ).loc main_v1_1) := (dat0 (Gen.V2 m) c).arrAt 2 cfg0.N

/-- The unscoped buffers after region 0. -/
def V3t (c : Dev nD) : Valuation τ sig (Elt F) :=
  Function.update (Function.update (Gen.V2 m c) main_v1_0 (wtOut m c)) main_v1_1 (rsOut m c)

/-- What region 0 leaves, as the unknowns of the generated valuations. -/
def outsA : Gen.Outs (F := F) := fun _ r c => V3t m c r

/-- The gather pipeline's proof data: entered from the unscoped buffers after the second host stretch. -/
abbrev dat1' (c : Dev nD) : Dat τ (Elt F) Unit ℕ (UU nD τ) ℕ (cfg1 (a1 m)) c :=
  dat1 (fun c => Gen.V4 m (outsA m) c) (a1 m) c

/-- The result array as region 1 leaves it. -/
abbrev resOut (c : Dev nD) : Buf (Elt F) ((c : Thread nD τ).loc main_v13) := (dat1' m c).arrAt 1 (cfg1 (a1 m)).N

/-- The unscoped buffers after region 1. -/
def V5t (c : Dev nD) : Valuation τ sig (Elt F) :=
  Function.update (Function.update (Gen.V4 m (outsA m) c) main_v13 (resOut m c)) main_v1_0 (Gen.V4 m (outsA m) c main_v1_0)

/-- What the two regions leave. -/
def outs : Gen.Outs (F := F) := fun n r c => match n with
  | 3 => V3t m c r
  | _ => V5t m c r

/-- The pipelines' proof data, as one family. -/
def pdats : (p : Fin 2) → (c : Dev nD) → Dat τ (Elt F) Unit ℕ (UU nD τ) ℕ (Pipeline.pin (pcfgs (F := F)) (adm m) p) c
  | ⟨0, _⟩ => fun c => dat0 (Gen.V2 m) c
  | ⟨1, _⟩ => fun c => dat1' m c
  | ⟨_ + 2, h⟩ => absurd h (Nat.not_lt.2 (Nat.le_add_left _ _))

theorem pdats_zero (c : Dev nD) : pdats m 0 c = dat0 (Gen.V2 m) c := rfl
theorem pdats_one (c : Dev nD) : pdats m 1 c = dat1' m c := rfl

/-- After region 0 the generated valuation is the one stated here. -/
theorem V3_eq (c : Dev nD) : Gen.V3 m (outs m) c = V3t m c := by
  funext b
  show Function.update (Function.update (Gen.V2 m c) main_v1_0 (V3t m c main_v1_0)) main_v1_1 (V3t m c main_v1_1) b = V3t m c b
  have h10 : V3t m c main_v1_0 = wtOut m c := by
    unfold V3t
    rw [Function.update_of_ne (StableHlo.devRef_ne_of_ne (by decide) : (Proc.devRef .tc main_v1_0 : DevRef τ sig) ≠ Proc.devRef .tc main_v1_1), Function.update_self]
  have h11 : V3t m c main_v1_1 = rsOut m c := by unfold V3t; rw [Function.update_self]
  rw [h10, h11]; rfl

/-- The second host stretch runs from the same buffers whichever way the regions' results are named. -/
theorem V4_eq (c : Dev nD) : Gen.V4 m (outs m) c = Gen.V4 m (outsA m) c := rfl

/-- After region 1 the generated valuation is the one stated here. -/
theorem V5_eq (c : Dev nD) : Gen.V5 m (outs m) c = V5t m c := by
  funext b
  show Function.update (Function.update (Gen.V4 m (outs m) c) main_v13 (V5t m c main_v13)) main_v1_0 (V5t m c main_v1_0) b = V5t m c b
  have h13 : V5t m c main_v13 = resOut m c := by
    unfold V5t
    rw [Function.update_of_ne (StableHlo.devRef_ne_of_ne (by decide) : (Proc.devRef .tc main_v13 : DevRef τ sig) ≠ Proc.devRef .tc main_v1_0), Function.update_self]
  have h10 : V5t m c main_v1_0 = Gen.V4 m (outsA m) c main_v1_0 := by unfold V5t; rw [Function.update_self]
  rw [h13, h10, V4_eq]; rfl

end Cert.KernelIdeal.Hand

end
-- ==== Proof.KI.LaunchAlg.lean ====
/-
  The algebra-side arguments of the program's conditional frame at this certificate's choices: one unnamed duty
  index, the rounds algebra beside the transfer counters, natural-number levels of which none is assigned, no tallies
  taken on at launch, and nothing kept beside the buffers between the items but each core's ledger at zero tallies.
  The launch element is the pipelines' own beside the unit of the counters; its first component funds the staging
  cells and the second is dropped. Each core's first rest state is its launch ledger, which owes nothing.
-/
import proofs.«421918_j29918742184132_1_alg».proof.Proof.KI.Alg
import proofs.«421918_j29918742184132_1_alg».proof.Proof.Gen.KernelIdeal.Launch
import Idealize.ShloMosaic.Lib.Pipeline.Regions

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Levels: none assigned -/

/-- No cell is assigned a level index. -/
abbrev LL : GSem nD τ sig → Finset Unit := fun _ => ∅
/-- The level of an index, were one assigned. -/
abbrev lvl : GSem nD τ sig → Unit → ℕ := fun _ _ => 0
/-- In particular no cell off the TensorCores is assigned one. -/
theorem hLL : ∀ g : GSem nD τ sig, g.1.2 ≠ .tc → LL g = ∅ := fun _ _ => rfl

/-! ## The launch element -/

/-- The launch element, at any contents `a` of the prefetched tables: the pipelines' initial element over their staging
    cells and launch tokens, beside the unit of the counters' algebra. -/
def u₀ (a : (p : Fin 2) → (pcfgs (F := F) p).Adm) : UU nD τ :=
  (initOf (Pipeline.cells (Pipeline.pin (pcfgs (F := F)) a) (cellOf_inj a))
      (Pipeline.launchToks (Pipeline.pin (pcfgs (F := F)) a) (cellOf_inj a)), 1)

/-- The launch element yields the pipelines' initial element, owned through the left embedding; no core is given
    anything more. -/
theorem hu₀ (a : (p : Fin 2) → (pcfgs (F := F) p).Adm) :
    (ownU (u₀ a) : sProp (MM F)) ⊢ |={Set.univ}=> iprop(BI.own ((EP : Emb (UR sig nD τ) (MM F))
        (initOf (Pipeline.cells (Pipeline.pin (pcfgs (F := F)) a) (cellOf_inj a))
          (Pipeline.launchToks (Pipeline.pin (pcfgs (F := F)) a) (cellOf_inj a))))
      ∗ bigSep Finset.univ fun _ : Dev nD => (BI.emp : sProp (MM F))) := by
  rw [BI.bigSep_emp_const]
  refine (ownU_pair _ _).trans ?_
  iintro ⟨Hl, -⟩
  imodintro
  isplitl [Hl]
  · iexact Hl
  · iempintro

/-! ## The rest states -/

/-- What rides beside the buffers between the items, the same at each: the core's ledger at zero tallies, at some
    set of waits. -/
abbrev Erest (_ : Fin 3) (c : Dev nD) : sProp (MM F) :=
  iprop(∃ W, owes (c : Thread nD τ) (0 : CellTallies nD τ sig Unit) W)

/-- Of what the launch deals one core with no tallies taken on, its ledger is the rest state; the unscoped
    semaphores, the credit tokens and the generator's register are dropped. -/
theorem rest_of_dealt (ρ : Dev nD → PrngReg) (c : Dev nD) :
    iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp (MM F)))
      ⊢ (Erest 0 c : sProp (MM F)) := by
  iintro ⟨-, Hled, -⟩
  iexists ∅
  iexact Hled

/-- The launch makes the first rest state on every core at once. -/
theorem hE0 (ρ : Dev nD → PrngReg) :
    iprop((bigSep Finset.univ fun c : Dev nD =>
          iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp (MM F))))
        ∗ levAts LL lvl)
      ⊢ (|={Set.univ}=> bigSep Finset.univ (Erest 0) : sProp (MM F)) := by
  have hmono : (bigSep Finset.univ fun c : Dev nD =>
        iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp (MM F))))
      ⊢ (bigSep Finset.univ (Erest 0) : sProp (MM F)) :=
    bigSep_mono fun c _ => rest_of_dealt ρ c
  iintro ⟨Hall, -⟩
  imodintro
  iapply hmono
  iexact Hall

/-- The last rest state owes nothing. -/
theorem hE2 (c : Dev nD) :
    (Erest 2 c : sProp (MM F)) ⊢ iprop(∃ W, owes (c : Thread nD τ) (0 : CellTallies nD τ sig Unit) W) := .rfl

end Cert.KernelIdeal.Hand

end
-- ==== Proof.KI.Reg0.lean ====
/-
  The transpose / row-sum call as a segment of the program: entered from every unscoped buffer held at the contents the
  second host stretch left, beside the core's ledger; left with the same buffers held at those contents updated at the
  two arrays the call writes, beside the ledger again.

  At its entry the three arrays of the call's windows are taken out of the unscoped buffers and everything else
  bypasses the region; nothing of the unscoped buffers enters the invariant, which is the accumulator and the other
  scoped buffers no window stages. At its exit the input array is as it was found, the two outputs hold what the
  pipeline's account of the write-backs says, and the three are put back among the rest.
-/
import proofs.«421918_j29918742184132_1_alg».proof.Proof.KI.PDats
import proofs.«421918_j29918742184132_1_alg».proof.Proof.KI.LaunchAlg
import Idealize.ShloMosaic.Lib.Pipeline.RegionsLoop

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-! ## The arrays of the call's windows -/

/-- The three windows' arrays: the matrix argument, the transposed array, the row sums. -/
theorem arrRef0_0 : Pipeline.arrRef spec0 0 = main_arg2 := rfl
theorem arrRef0_1 : Pipeline.arrRef spec0 1 = main_v1_0 := rfl
theorem arrRef0_2 : Pipeline.arrRef spec0 2 = main_v1_1 := rfl

/-- A buffer that is no window's array is neither of the two the call writes. -/
theorem not_written_of_not_arr (b : Ref sig .tc) (hb : b ∉ Finset.univ.image (Pipeline.arrRef spec0)) :
    b ∉ ([main_v1_0, main_v1_1] : List (Ref sig .tc)) := by
  intro h
  rcases List.mem_cons.mp h with rfl | h
  · exact hb (Finset.mem_image.mpr ⟨1, Finset.mem_univ _, arrRef0_1⟩)
  · rcases List.mem_cons.mp h with rfl | h
    · exact hb (Finset.mem_image.mpr ⟨2, Finset.mem_univ _, arrRef0_2⟩)
    · exact absurd h List.not_mem_nil

/-- The updated contents at the transposed array are what the call leaves there, -/
theorem V3t_wt (c : Dev nD) : V3t m c main_v1_0 = wtOut m c := by
  unfold V3t
  rw [Function.update_of_ne (StableHlo.devRef_ne_of_ne (by decide) : (Proc.devRef .tc main_v1_0 : DevRef τ sig) ≠ Proc.devRef .tc main_v1_1),
    Function.update_self]

/-- and at the row sums likewise. -/
theorem V3t_rs (c : Dev nD) : V3t m c main_v1_1 = rsOut m c := by
  unfold V3t; rw [Function.update_self]

/-- Each array's final contents, as the pipeline accounts for them, are the updated contents there. -/
theorem final_eq (c : Dev nD) (w : Fin 3) :
    (pdats m 0 c).arrAt w cfg0.N = Gen.V3 m (outs m) c (Pipeline.arrRef spec0 w) := by
  rw [pdats_zero]
  match w with
  | ⟨0, _⟩ =>
    refine ((dat0 (Gen.V2 m) c).arrAt_in 0 rfl _).trans ?_
    rw [dat0_A]
    exact (Gen.V3_of m (outs m) c main_arg2 (by decide)).symm
  | ⟨1, _⟩ =>
    show wtOut m c = Gen.V3 m (outs m) c main_v1_0
    rw [V3_eq, V3t_wt]
  | ⟨2, _⟩ =>
    show rsOut m c = Gen.V3 m (outs m) c main_v1_1
    rw [V3_eq, V3t_rs]

/-! ## The ledger in and out of the pipeline's form -/

/-- The ledger at zero tallies, at some set of waits, is the pipeline's first due. -/
theorem owes_in (c : Dev nD) : (Erest (F := F) 0 c) ⊢ (pdats m 0 c).owesAt () 0 := by
  unfold Pipeline.Dat.owesAt Pipeline.owesWithin
  iintro ⟨%W, HO⟩
  iexists W
  isplitr
  · ipureintro; exact fun _ _ => Or.inl trivial
  · iexact HO

/-- The pipeline's last due is the ledger at zero tallies, at some set of waits. -/
theorem owes_out (c : Dev nD) : (pdats m 0 c).owesAt () (Fin.last (Pipeline.pin (pcfgs (F := F)) (adm m) 0).N) ⊢ (Erest (F := F) 1 c) := by
  unfold Pipeline.Dat.owesAt Pipeline.owesWithin
  iintro ⟨%W, -, HO⟩
  iexists W
  iexact HO

/-! ## The record -/

-- a library lemma stated over the pinned configuration of pipeline p unifies with this program's own names only when
-- unification may unfold plain definitions in a metavariable's type
set_option backward.isDefEq.respectTransparency.types false in
/-- The transpose / row-sum call as a region of the program. -/
def reg0 : Pipeline.RegionSeg (pcfgs (F := F)) (adm m) (pdats m) () defs₀ Variants.none LL lvl 0 where
  win := (launch0 (F := F)).win.to₀
  block_pos := (launch0 (F := F)).block_pos
  stage_whole := (launch0 (F := F)).stage_whole
  K := PEmpty
  osem := fun k => k.elim
  ho := Pipeline.OwnSemFacts.none _
  hbody c := (body_obligation0 (Gen.V2 m) c).loose
  hwaits := Pipeline.hwaits_of_owed_zero _ _ _ _ LL lvl 0 fun _ _ => rfl
  pre c := iprop(StableHlo.held (c : Thread nD τ) (Pipeline.ucRefs τ sig) (Gen.V2 m c) ∗ Erest 0 c)
  post c := iprop(StableHlo.held (c : Thread nD τ) (Pipeline.ucRefs τ sig) (Gen.V3 m (outs m) c) ∗ Erest 1 c)
  X _ := iprop(emp)
  Y _ := iprop(emp)
  Z c := Pipeline.unscopedRest spec0 c (fun b => Gen.V2 m c b)
  hentry c := by
    rw [show StableHlo.held (c : Thread nD τ) (Pipeline.ucRefs τ sig) (Gen.V2 m c) = unscopedBufs c (fun b => Gen.V2 m c b) from
      (Pipeline.unscopedBufs_held (Ix := Unit) (Name := ℕ) (U := UU nD τ) (Lvl := ℕ) c (Gen.V2 m c)).symm]
    have hsplit := Pipeline.arrays_of_unscopedBufs (pcfgs (F := F)) (adm m) (pdats m) (p := 0) (launch0 (F := F)).win (launch0 (F := F)).arr_whole c
      ((pdats m 0 c).share_full fun _ => rfl) (fun b => Gen.V2 m c b) fun _ => rfl
    iintro ⟨⟨Hub, HO⟩, -, -⟩
    ihave H := hsplit $$ Hub
    icases H with ⟨Ha, Hz⟩
    ihave HO' := (owes_in m c) $$ HO
    imodintro
    isplitl [Ha]; · iexact Ha
    isplitr
    · unfold Pipeline.prefHeld; rw [show (Finset.univ : Finset (Fin 0)) = ∅ from rfl, BI.bigSep_empty]; iempintro
    isplitl [HO']; · iexact HO'
    isplitr; · iempintro
    iexact Hz
  hin c := by
    rw [show Pipeline.scopedRest (Pipeline.pin (pcfgs (F := F)) (adm m) 0).spec c = _ from
        scopedRest0_eq (Ix := Unit) (Val := Elt F) (Name := ℕ) (U := UU nD τ) (Lvl := ℕ) c,
      show (pdats m 0 c).Φ 0 = (dat0 (Gen.V2 m) c).Φ 0 from rfl, dat0_Φ_first]
    unfold rest0
    iintro ⟨-, -, Hs, Hr⟩
    isplitl [Hs]; · iexact Hs
    iexact Hr
  hout c := by
    rw [Pipeline.ownSems0_none, show Pipeline.scopedRest (Pipeline.pin (pcfgs (F := F)) (adm m) 0).spec c = _ from
        scopedRest0_eq (Ix := Unit) (Val := Elt F) (Name := ℕ) (U := UU nD τ) (Lvl := ℕ) c]
    refine (dat0_Φ_last (Gen.V2 m) c).trans ?_
    unfold rest0
    iintro ⟨Hs, Hr⟩
    isplitr; · iempintro
    isplitr; · iempintro
    isplitl [Hs]; · iexact Hs
    iexact Hr
  hexit c := by
    rw [show StableHlo.held (c : Thread nD τ) (Pipeline.ucRefs τ sig) (Gen.V3 m (outs m) c) = unscopedBufs c (fun b => Gen.V3 m (outs m) c b) from
      (Pipeline.unscopedBufs_held (Ix := Unit) (Name := ℕ) (U := UU nD τ) (Lvl := ℕ) c (Gen.V3 m (outs m) c)).symm]
    have hback := Pipeline.unscopedBufs_of_arrays (pcfgs (F := F)) (adm m) (p := 0) (launch0 (F := F)).win (launch0 (F := F)).arr_whole c (pdats m)
      ((pdats m 0 c).share_full fun _ => rfl) (fun b => Gen.V2 m c b) (fun b => Gen.V3 m (outs m) c b)
      (fun w => (pdats m 0 c).arrAt w cfg0.N) (final_eq m c)
      (fun b hb => Gen.V3_of m (outs m) c b (not_written_of_not_arr b hb))
    iintro ⟨Ha, HO, -, Hz⟩
    ihave Hub := hback $$ [Ha Hz]
    · isplitl [Ha]; · iexact Ha
      iexact Hz
    ihave HO' := (owes_out m c) $$ HO
    imodintro
    isplitl [Hub]; · iexact Hub
    iexact HO'

/-- The region is entered from the thread state the program's frame names before it, -/
theorem hpre0 (c : Dev nD) :
    iprop(StableHlo.held (c : Thread nD τ) (Pipeline.ucRefs τ sig) (Gen.V2 m c) ∗ Erest 0 c) ⊢ (reg0 m).pre c := .rfl

/-- and left at the one it names after it. -/
theorem hpost0 (c : Dev nD) :
    (reg0 m).post c ⊢ iprop(StableHlo.held (c : Thread nD τ) (Pipeline.ucRefs τ sig) (Gen.V3 m (outs m) c) ∗ Erest 1 c) := .rfl

end Cert.KernelIdeal.Hand

end
-- ==== Proof.KI.Reg1.lean ====
/-
  The gather region as a segment of the program: entered from the unscoped buffers as the second host stretch leaves
  them, left at the valuation that has the result array as the pipeline's account computes it. At the entry the
  bias array and the result array go to the pipeline as its windows' arrays, the index table as its prefetched
  table, the transposed array and the kernel's two counters into the invariant; every other unscoped buffer bypasses
  the region. At the exit the table and the transposed array come back unchanged, and the unscoped buffers are
  reassembled at the valuation updated at the result array.
-/
import proofs.«421918_j29918742184132_1_alg».proof.Proof.KI.PDats
import proofs.«421918_j29918742184132_1_alg».proof.Proof.KI.LaunchAlg
import Idealize.ShloMosaic.Lib.Pipeline.RegionsLoop

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation)

variable (m : (ℓ : Loc nD τ sig) → Buf (Elt F) ℓ)

/-! ## The valuation the region is entered from -/

/-- The unscoped buffers when the gather region is entered: after the second host stretch. -/
abbrev W4 (c : Dev nD) (b : Ref sig .tc) : Buf (Elt F) ((c : Thread nD τ).loc b) := Gen.V4 m (outsA m) c b

/-- The index table is then still what the clamp left: the contents the pipeline is pinned at. -/
theorem W4_table (c : Dev nD) : W4 m c main_v0 = tblOf (a1 m) c := by
  obtain rfl : c = c0 := Subsingleton.elim _ _
  show Gen.V4 m (outsA m) c0 main_v0 = tblV m
  rw [tblV_eq]
  exact V4_table m (outsA m) c0

/-! ## The kernel's own semaphores and the prefetched table, listed -/

/-- The kernel's two counters are scoped, distinct, and no staging semaphore. -/
theorem ownSemFacts1 : Pipeline.OwnSemFacts spec1 osem := by decide

/-- The kernel's own cells at zero are its two counters at zero. -/
theorem ownSems0_eq1 (c : Dev nD) :
    (Pipeline.ownSems0 (Ix := Unit) (Name := ℕ) (U := UU nD τ) (Lvl := ℕ) (Val := Elt F) (τ := τ) osem c : sProp (MM F))
      = sems0 c :=
  Pipeline.ownSems0_eq_of_list c osem [0, 1] (by decide) (by decide)

/-- The one prefetched table held at the full share is the table's buffer held whole. -/
theorem prefHeld1_eq (c : Dev nD) (T : pre1.Contents (Elt F)) :
    (Pipeline.prefHeld (Ix := Unit) (Name := ℕ) (U := UU nD τ) (Lvl := ℕ) pre1 c (fun _ => fullShare) T : sProp (MM F))
      = pt c (Memref.whole main_v0) (T 0) := by
  unfold Pipeline.prefHeld
  exact bigSep_univ_eq_bigSepL [(0 : Fin 1)] (by decide) (by decide) _

/-! ## What enters the invariant, what comes back, what bypasses the region -/

/-- Into the invariant: the transposed array as the region finds it, and the kernel's two counters at zero. -/
abbrev X1 (c : Dev nD) : sProp (MM F) := iprop(pt c (Memref.whole main_v1_0) (W4 m c main_v1_0) ∗ sems0 c)

/-- Back out of it: the table and the transposed array, unchanged. -/
abbrev Y1 (c : Dev nD) : sProp (MM F) :=
  iprop(pt c (Memref.whole main_v0) (tblOf (a1 m) c) ∗ pt c (Memref.whole main_v1_0) (W4 m c main_v1_0))

/-- The unscoped buffers that are neither a window's array, nor the table, nor the transposed array, each held whole
    at the entry valuation. -/
def Z1 (c : Dev nD) : sProp (MM F) :=
  iprop((((c : Thread nD τ).loc main_arg0) ↦{fullShare} W4 m c main_arg0)
    ∗ (((c : Thread nD τ).loc main_arg1) ↦{fullShare} W4 m c main_arg1)
    ∗ (((c : Thread nD τ).loc main_arg2) ↦{fullShare} W4 m c main_arg2)
    ∗ (((c : Thread nD τ).loc main_arg3) ↦{fullShare} W4 m c main_arg3)
    ∗ (((c : Thread nD τ).loc main_c) ↦{fullShare} W4 m c main_c)
    ∗ (((c : Thread nD τ).loc main_c_0) ↦{fullShare} W4 m c main_c_0)
    ∗ (((c : Thread nD τ).loc main_call0_v0) ↦{fullShare} W4 m c main_call0_v0)
    ∗ (((c : Thread nD τ).loc main_call0_v1) ↦{fullShare} W4 m c main_call0_v1)
    ∗ (((c : Thread nD τ).loc main_call0_v2) ↦{fullShare} W4 m c main_call0_v2)
    ∗ (((c : Thread nD τ).loc main_call0_v3) ↦{fullShare} W4 m c main_call0_v3)
    ∗ (((c : Thread nD τ).loc main_call0_v4) ↦{fullShare} W4 m c main_call0_v4)
    ∗ (((c : Thread nD τ).loc main_v1_1) ↦{fullShare} W4 m c main_v1_1)
    ∗ (((c : Thread nD τ).loc main_cst) ↦{fullShare} W4 m c main_cst)
    ∗ (((c : Thread nD τ).loc main_v2) ↦{fullShare} W4 m c main_v2)
    ∗ (((c : Thread nD τ).loc main_v3) ↦{fullShare} W4 m c main_v3)
    ∗ (((c : Thread nD τ).loc main_v4) ↦{fullShare} W4 m c main_v4)
    ∗ (((c : Thread nD τ).loc main_v5) ↦{fullShare} W4 m c main_v5)
    ∗ (((c : Thread nD τ).loc main_v6) ↦{fullShare} W4 m c main_v6)
    ∗ (((c : Thread nD τ).loc main_v7) ↦{fullShare} W4 m c main_v7)
    ∗ (((c : Thread nD τ).loc main_v8) ↦{fullShare} W4 m c main_v8)
    ∗ (((c : Thread nD τ).loc main_v9) ↦{fullShare} W4 m c main_v9)
    ∗ (((c : Thread nD τ).loc main_v10) ↦{fullShare} W4 m c main_v10)
    ∗ (((c : Thread nD τ).loc main_v11) ↦{fullShare} W4 m c main_v11))

/-- The unscoped buffers that are no window's array, at the entry valuation: the table at the pinned contents, then
    the others one by one. -/
theorem unscopedRest1_eq (c : Dev nD) :
    (Pipeline.unscopedRest (Ix := Unit) (Name := ℕ) (U := UU nD τ) (Lvl := ℕ) spec1 c (W4 m c) : sProp (MM F))
      = iprop(pt c (Memref.whole main_v0) (tblOf (a1 m) c)
        ∗ (((c : Thread nD τ).loc main_arg0) ↦{fullShare} W4 m c main_arg0)
        ∗ (((c : Thread nD τ).loc main_arg1) ↦{fullShare} W4 m c main_arg1)
        ∗ (((c : Thread nD τ).loc main_arg2) ↦{fullShare} W4 m c main_arg2)
        ∗ (((c : Thread nD τ).loc main_arg3) ↦{fullShare} W4 m c main_arg3)
        ∗ (((c : Thread nD τ).loc main_c) ↦{fullShare} W4 m c main_c)
        ∗ (((c : Thread nD τ).loc main_c_0) ↦{fullShare} W4 m c main_c_0)
        ∗ (((c : Thread nD τ).loc main_call0_v0) ↦{fullShare} W4 m c main_call0_v0)
        ∗ (((c : Thread nD τ).loc main_call0_v1) ↦{fullShare} W4 m c main_call0_v1)
        ∗ (((c : Thread nD τ).loc main_call0_v2) ↦{fullShare} W4 m c main_call0_v2)
        ∗ (((c : Thread nD τ).loc main_call0_v3) ↦{fullShare} W4 m c main_call0_v3)
        ∗ (((c : Thread nD τ).loc main_call0_v4) ↦{fullShare} W4 m c main_call0_v4)
        ∗ (((c : Thread nD τ).loc main_v1_0) ↦{fullShare} W4 m c main_v1_0)
        ∗ (((c : Thread nD τ).loc main_v1_1) ↦{fullShare} W4 m c main_v1_1)
        ∗ (((c : Thread nD τ).loc main_cst) ↦{fullShare} W4 m c main_cst)
        ∗ (((c : Thread nD τ).loc main_v2) ↦{fullShare} W4 m c main_v2)
        ∗ (((c : Thread nD τ).loc main_v3) ↦{fullShare} W4 m c main_v3)
        ∗ (((c : Thread nD τ).loc main_v4) ↦{fullShare} W4 m c main_v4)
        ∗ (((c : Thread nD τ).loc main_v5) ↦{fullShare} W4 m c main_v5)
        ∗ (((c : Thread nD τ).loc main_v6) ↦{fullShare} W4 m c main_v6)
        ∗ (((c : Thread nD τ).loc main_v7) ↦{fullShare} W4 m c main_v7)
        ∗ (((c : Thread nD τ).loc main_v8) ↦{fullShare} W4 m c main_v8)
        ∗ (((c : Thread nD τ).loc main_v9) ↦{fullShare} W4 m c main_v9)
        ∗ (((c : Thread nD τ).loc main_v10) ↦{fullShare} W4 m c main_v10)
        ∗ (((c : Thread nD τ).loc main_v11) ↦{fullShare} W4 m c main_v11)) := by
  rw [Pipeline.unscopedRest_split preFacts1 c (W4 m c), prefHeld1_eq, unscopedRestP1_eq]
  exact congrArg (fun T => iprop(pt c (Memref.whole main_v0) T ∗ _)) (W4_table m c)

/-! ## The valuation the region leaves -/

/-- The result array apart, the region leaves every unscoped buffer as it found it. -/
theorem V5t_of_ne (c : Dev nD) (b : Ref sig .tc) (h : b ≠ main_v13) : V5t m c b = W4 m c b := by
  unfold V5t
  by_cases h10 : b = main_v1_0
  · subst h10
    rw [Function.update_self]
  · rw [Function.update_of_ne (StableHlo.devRef_ne_of_ne h10 : (Proc.devRef .tc b : DevRef τ sig) ≠ Proc.devRef .tc main_v1_0),
      Function.update_of_ne (StableHlo.devRef_ne_of_ne h : (Proc.devRef .tc b : DevRef τ sig) ≠ Proc.devRef .tc main_v13)]

/-- The result array it leaves at the pipeline's account of it. -/
theorem V5t_res (c : Dev nD) : V5t m c main_v13 = resOut m c := by
  unfold V5t
  rw [Function.update_of_ne (StableHlo.devRef_ne_of_ne (by decide) : (Proc.devRef .tc main_v13 : DevRef τ sig) ≠ Proc.devRef .tc main_v1_0),
    Function.update_self]

/-- Each window's array after the region is what the valuation the region leaves has there: the bias array is an
    input, the result array is the pipeline's account. -/
theorem final1 (c : Dev nD) (w : Fin 2) :
    (dat1' m c).arrAt w (cfg1 (a1 m)).N = V5t m c (Pipeline.arrRef spec1 w) := by
  fin_cases w
  · exact ((dat1' m c).arrAt_in 0 rfl _).trans (V5t_of_ne m c (Pipeline.arrRef spec1 0) (by decide)).symm
  · exact (V5t_res m c).symm

/-- Off the windows' arrays the valuation the region leaves is the one it was entered from. -/
theorem off1 (c : Dev nD) (b : Ref sig .tc) (hb : b ∉ Finset.univ.image (Pipeline.arrRef spec1)) : V5t m c b = W4 m c b :=
  V5t_of_ne m c b fun h => hb (Finset.mem_image.mpr ⟨1, Finset.mem_univ _, h.symm⟩)

/-! ## The four entailments -/

/-- ENTRY: out of the unscoped buffers at the entry valuation, the two windows' arrays, the table at the pinned
    contents, the ledger, the transposed array with the counters, and the rest. -/
theorem hentry1 (c : Dev nD) :
    iprop((StableHlo.held (c : Thread nD τ) (Pipeline.ucRefs τ sig) (Gen.V4 m (outs m) c) ∗ Erest 1 c)
        ∗ Pipeline.ownSems0 osem c ∗ levAts LL lvl)
      ⊢ |={Set.univ}=> iprop((dat1' m c).arrays ((dat1' m c).arrAt · 0)
        ∗ Pipeline.prefHeld pre1 c (fun _ => fullShare) (a1 m).1
        ∗ (dat1' m c).owesAt () 0 ∗ X1 m c ∗ Z1 m c) := by
  rw [ownSems0_eq1, prefHeld1_eq]
  rw [show StableHlo.held (c : Thread nD τ) (Pipeline.ucRefs τ sig) (Gen.V4 m (outs m) c) = unscopedBufs c (W4 m c) from
    (Pipeline.unscopedBufs_held c (Gen.V4 m (outsA m) c)).symm]
  have hsplit : (unscopedBufs c (W4 m c) : sProp (MM F))
      ⊢ iprop((dat1' m c).arrays ((dat1' m c).arrAt · 0) ∗ Pipeline.unscopedRest spec1 c (W4 m c)) :=
    Pipeline.arrays_of_unscopedBufs (pcfgs (F := F)) (adm m) (pdats m) (p := 1) (launch1 (F := F)).win (launch1 (F := F)).arr_whole c
      ((dat1' m c).share_full fun _ => rfl) (W4 m c) fun _ => rfl
  rw [unscopedRest1_eq] at hsplit
  unfold Z1
  iintro ⟨⟨Hub, HO⟩, Hos, -⟩
  ihave H := hsplit $$ Hub
  icases H with ⟨Ha, Htbl, H_arg0, H_arg1, H_arg2, H_arg3, H_c, H_c_0, H_call0_v0, H_call0_v1, H_call0_v2, H_call0_v3, H_call0_v4, H_v1_0, H_v1_1, H_cst, H_v2, H_v3, H_v4, H_v5, H_v6, H_v7, H_v8, H_v9, H_v10, H_v11⟩
  imodintro
  isplitl [Ha]; · iexact Ha
  isplitl [Htbl]; · iexact Htbl
  isplitl [HO]
  · unfold Pipeline.Dat.owesAt Pipeline.owesWithin
    icases HO with ⟨%W, HO⟩; iexists W; isplitr; · ipureintro; exact fun _ _ => Or.inl trivial
    iexact HO
  isplitl [H_v1_0 Hos]
  · isplitl [H_v1_0]; · iexact H_v1_0
    iexact Hos
  isplitl [H_arg0]; · iexact H_arg0
  isplitl [H_arg1]; · iexact H_arg1
  isplitl [H_arg2]; · iexact H_arg2
  isplitl [H_arg3]; · iexact H_arg3
  isplitl [H_c]; · iexact H_c
  isplitl [H_c_0]; · iexact H_c_0
  isplitl [H_call0_v0]; · iexact H_call0_v0
  isplitl [H_call0_v1]; · iexact H_call0_v1
  isplitl [H_call0_v2]; · iexact H_call0_v2
  isplitl [H_call0_v3]; · iexact H_call0_v3
  isplitl [H_call0_v4]; · iexact H_call0_v4
  isplitl [H_v1_1]; · iexact H_v1_1
  isplitl [H_cst]; · iexact H_cst
  isplitl [H_v2]; · iexact H_v2
  isplitl [H_v3]; · iexact H_v3
  isplitl [H_v4]; · iexact H_v4
  isplitl [H_v5]; · iexact H_v5
  isplitl [H_v6]; · iexact H_v6
  isplitl [H_v7]; · iexact H_v7
  isplitl [H_v8]; · iexact H_v8
  isplitl [H_v9]; · iexact H_v9
  isplitl [H_v10]; · iexact H_v10
  iexact H_v11

/-- The invariant at the first point, from what enters it, the table and the scoped buffers no window stages. -/
theorem hin1 (c : Dev nD) :
    iprop(X1 m c ∗ Pipeline.prefHeld pre1 c (fun _ => fullShare) (a1 m).1
        ∗ Pipeline.scopedRest (Ix := Unit) (Name := ℕ) (U := UU nD τ) (Lvl := ℕ) (Val := Elt F) spec1 c)
      ⊢ Φ1 (fun c => Gen.V4 m (outsA m) c) (a1 m) c := by
  rw [prefHeld1_eq, scopedRest1_eq]
  unfold Φ1 rest1
  iintro ⟨⟨Hwt, Hos⟩, Htbl, S0, S1, S2, S3, S4, S5, S6, Hscr⟩
  isplitl [Htbl]; · iexact Htbl
  isplitl [Hwt]; · iexact Hwt
  isplitl [Hscr]; · iexact Hscr
  isplitl [Hos]; · iexact Hos
  isplitl [S0]; · iexact S0
  isplitl [S1]; · iexact S1
  isplitl [S2]; · iexact S2
  isplitl [S3]; · iexact S3
  isplitl [S4]; · iexact S4
  isplitl [S5]; · iexact S5
  iexact S6

/-- The invariant at the last point gives back the table and the transposed array, the counters at zero, and those
    scoped buffers. -/
theorem hout1 (c : Dev nD) :
    Φ1 (fun c => Gen.V4 m (outsA m) c) (a1 m) c
      ⊢ iprop(Y1 m c ∗ Pipeline.ownSems0 osem c
        ∗ Pipeline.scopedRest (Ix := Unit) (Name := ℕ) (U := UU nD τ) (Lvl := ℕ) (Val := Elt F) spec1 c) := by
  rw [ownSems0_eq1, scopedRest1_eq]
  unfold Φ1 rest1
  iintro ⟨Htbl, Hwt, Hscr, Hos, S0, S1, S2, S3, S4, S5, S6⟩
  isplitl [Htbl Hwt]
  · isplitl [Htbl]; · iexact Htbl
    iexact Hwt
  isplitl [Hos]; · iexact Hos
  isplitl [S0]; · iexact S0
  isplitl [S1]; · iexact S1
  isplitl [S2]; · iexact S2
  isplitl [S3]; · iexact S3
  isplitl [S4]; · iexact S4
  isplitl [S5]; · iexact S5
  isplitl [S6]; · iexact S6
  iexact Hscr

/-- EXIT: the windows' arrays at their final contents, the table and the transposed array, and what bypassed the
    region are the unscoped buffers at the valuation the region leaves; the ledger owes nothing. -/
theorem hexit1 (c : Dev nD) :
    iprop((dat1' m c).arrays ((dat1' m c).arrAt · (cfg1 (a1 m)).N) ∗ (dat1' m c).owesAt () (Fin.last (cfg1 (a1 m)).N)
        ∗ Y1 m c ∗ Z1 m c)
      ⊢ |={Set.univ}=> iprop(StableHlo.held (c : Thread nD τ) (Pipeline.ucRefs τ sig) (Gen.V5 m (outs m) c) ∗ Erest 2 c) := by
  rw [show StableHlo.held (c : Thread nD τ) (Pipeline.ucRefs τ sig) (Gen.V5 m (outs m) c) = unscopedBufs c (fun b => V5t m c b) from by
    rw [V5_eq]; exact (Pipeline.unscopedBufs_held c (V5t m c)).symm]
  have hjoin : iprop((dat1' m c).arrays ((dat1' m c).arrAt · (cfg1 (a1 m)).N) ∗ Pipeline.unscopedRest spec1 c (W4 m c))
      ⊢ (unscopedBufs c (fun b => V5t m c b) : sProp (MM F)) :=
    Pipeline.unscopedBufs_of_arrays (pcfgs (F := F)) (adm m) (p := 1) (launch1 (F := F)).win (launch1 (F := F)).arr_whole c (pdats m)
      ((dat1' m c).share_full fun _ => rfl) (W4 m c) (fun b => V5t m c b) (fun w => (dat1' m c).arrAt w (cfg1 (a1 m)).N)
      (final1 m c) (off1 m c)
  rw [unscopedRest1_eq] at hjoin
  unfold Z1
  iintro ⟨Ha, HO, ⟨Htbl, H_v1_0⟩, H_arg0, H_arg1, H_arg2, H_arg3, H_c, H_c_0, H_call0_v0, H_call0_v1, H_call0_v2, H_call0_v3, H_call0_v4, H_v1_1, H_cst, H_v2, H_v3, H_v4, H_v5, H_v6, H_v7, H_v8, H_v9, H_v10, H_v11⟩
  imodintro
  isplitr [HO]
  · iapply hjoin
    isplitl [Ha]; · iexact Ha
    isplitl [Htbl]; · iexact Htbl
    isplitl [H_arg0]; · iexact H_arg0
    isplitl [H_arg1]; · iexact H_arg1
    isplitl [H_arg2]; · iexact H_arg2
    isplitl [H_arg3]; · iexact H_arg3
    isplitl [H_c]; · iexact H_c
    isplitl [H_c_0]; · iexact H_c_0
    isplitl [H_call0_v0]; · iexact H_call0_v0
    isplitl [H_call0_v1]; · iexact H_call0_v1
    isplitl [H_call0_v2]; · iexact H_call0_v2
    isplitl [H_call0_v3]; · iexact H_call0_v3
    isplitl [H_call0_v4]; · iexact H_call0_v4
    isplitl [H_v1_0]; · iexact H_v1_0
    isplitl [H_v1_1]; · iexact H_v1_1
    isplitl [H_cst]; · iexact H_cst
    isplitl [H_v2]; · iexact H_v2
    isplitl [H_v3]; · iexact H_v3
    isplitl [H_v4]; · iexact H_v4
    isplitl [H_v5]; · iexact H_v5
    isplitl [H_v6]; · iexact H_v6
    isplitl [H_v7]; · iexact H_v7
    isplitl [H_v8]; · iexact H_v8
    isplitl [H_v9]; · iexact H_v9
    isplitl [H_v10]; · iexact H_v10
    iexact H_v11
  · unfold Pipeline.Dat.owesAt Pipeline.owesWithin
    icases HO with ⟨%W, -, HO⟩; iexists W; iexact HO

/-! ## The region -/

set_option backward.isDefEq.respectTransparency.types false in
/-- THE GATHER REGION: the decided layout of its windows, the kernel's two counters, the body obligation; its protocol the
    four entailments above, between the entry valuation and the valuation updated at the result array. -/
def reg1 : Pipeline.RegionSeg (pcfgs (F := F)) (adm m) (pdats m) () defs₀ Variants.none LL lvl 1 where
  win := (launch1 (F := F)).win.to₀
  block_pos := (launch1 (F := F)).block_pos
  stage_whole := (launch1 (F := F)).stage_whole
  K := Fin 2
  osem := osem
  ho := ownSemFacts1
  hbody c := (body_obligation1 (fun c => Gen.V4 m (outsA m) c) (a1 m) (hT1 m) c).loose
  hwaits := Pipeline.hwaits_of_owed_zero _ _ _ _ LL lvl 1 fun _ _ => rfl
  pre c := iprop(StableHlo.held (c : Thread nD τ) (Pipeline.ucRefs τ sig) (Gen.V4 m (outs m) c) ∗ Erest 1 c)
  post c := iprop(StableHlo.held (c : Thread nD τ) (Pipeline.ucRefs τ sig) (Gen.V5 m (outs m) c) ∗ Erest 2 c)
  X c := X1 m c
  Y c := Y1 m c
  Z c := Z1 m c
  hentry c := hentry1 m c
  hin c := hin1 m c
  hout c := hout1 m c
  hexit c := hexit1 m c

/-- The region is entered from the state the second host stretch leaves, -/
theorem hpre1 (c : Dev nD) :
    iprop(StableHlo.held (c : Thread nD τ) (Pipeline.ucRefs τ sig) (Gen.V4 m (outs m) c) ∗ Erest 1 c) ⊢ (reg1 m).pre c := .rfl

/-- and leaves the state the program ends in. -/
theorem hpost1 (c : Dev nD) :
    (reg1 m).post c ⊢ iprop(StableHlo.held (c : Thread nD τ) (Pipeline.ucRefs τ sig) (Gen.V5 m (outs m) c) ∗ Erest 2 c) := .rfl

end Cert.KernelIdeal.Hand

end
-- ==== Proof.KI.Frame.lean ====
/-
  The program's frame, with the two kernel regions' records in place: from any memory whose semaphore counters are
  zero, every weakly fair execution on the TensorCores terminates, and every final memory holds each argument array
  as launched.
-/
import proofs.«421918_j29918742184132_1_alg».proof.Proof.KI.Reg0
import proofs.«421918_j29918742184132_1_alg».proof.Proof.KI.Reg1
import proofs.«421918_j29918742184132_1_alg».proof.Proof.KI.LaunchAlg
import proofs.«421918_j29918742184132_1_alg».proof.Proof.Gen.KernelIdeal.Regions

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

set_option backward.isDefEq.respectTransparency.types false in
/-- THE FRAME: every weakly fair execution from `m` with zero counters terminates, and every final memory holds each
    argument array as launched. -/
theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m (EP := EP) () Variants.none LL lvl hLL ρ (outs m) (adm m) (pdats m) 0
    (fun _ => (BI.emp : sProp (MM F))) (u₀ (adm m)) (hu₀ (adm m)) Erest (hE0 ρ) hE2
    (reg0 m) (hpre0 m) (hpost0 m) (reg1 m) (hpre1 m) (hpost1 m)

end Cert.KernelIdeal.Hand

end
-- ==== Proof.KI.ValueRun.lean ====
/-
  The idealized program's run with its result named: every weakly fair execution terminates, every final memory
  holds each argument array as launched, and holds in the result array what the gather pipeline's account computes.
-/
import proofs.«421918_j29918742184132_1_alg».proof.Proof.KI.Frame
import proofs.«421918_j29918742184132_1_alg».proof.Proof.KI.RunValue

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- What the result array holds at the end, as the valuation after the gather region names it, is the pipeline's
    account of that array. -/
theorem result_eq (c : Dev nD) : Gen.V5 m (outs m) c main_v13 = resOut m c :=
  (V5_result m (outs m) c).trans (V5t_res m c)

set_option backward.isDefEq.respectTransparency.types false in
/-- THE RUN WITH THE RESULT: moreover every final memory holds in the result array the pipeline's account of it. -/
theorem value_run :
    θ_run defs (onTc (τ := τ) (main (F := F))) ⟨m, fun _ => 0, ρ⟩ (fun r => ∀ c : Dev nD,
      r.2.mem ((c.tc : Thread nD τ).loc main_v13) = resOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m c), (h c).2⟩)
    (run_value m (EP := EP) () Variants.none LL lvl hLL ρ (outs m) (adm m) (pdats m) 0
    (fun _ => (BI.emp : sProp (MM F))) (u₀ (adm m)) (hu₀ (adm m)) Erest (hE0 ρ) hE2
    (reg0 m) (hpre0 m) (hpost0 m) (reg1 m) (hpre1 m) (hpost1 m))

end Cert.KernelIdeal.Hand

end
-- ==== Proof.SumBlocks.lean ====
/-
  A sum over 8192 terms accumulated in 16 blocks of 512.

  An accumulator is reset to zero; step j (j = 0, …, 15) adds to it the sum of the 512 terms 512 j, …, 512 j + 511,
  that block sum itself begun from zero. After the 16 steps the accumulator holds the sum of all 8192 terms. The law
  needs only that addition is associative and commutative with zero neutral, so it holds on the extended reals with no
  finiteness hypothesis.
-/
import Mathlib.Algebra.BigOperators.Fin
import Mathlib.Algebra.BigOperators.Group.Finset.Basic

open scoped BigOperators

namespace Cert.SumBlocks

variable {M : Type*} [AddCommMonoid M]

/-- The terms continued by zero past the end, so that a block's terms can be named by a natural number. -/
def ext (f : Fin 8192 → M) (i : Nat) : M := if h : i < 8192 then f ⟨i, h⟩ else 0

/-- Inside the range the continuation is the term. -/
theorem ext_of_lt (f : Fin 8192 → M) {i : Nat} (h : i < 8192) : ext f i = f ⟨i, h⟩ := dif_pos h

/-- At a position of the range the continuation is the term there. -/
theorem ext_val (f : Fin 8192 → M) (i : Fin 8192) : ext f i.val = f i := dif_pos i.isLt

/-- The accumulator after n steps: zero after the reset, and each step adds the block's sum begun from zero. -/
def accBlocks (f : Fin 8192 → M) : Nat → M
  | 0 => 0
  | j + 1 => accBlocks f j + (0 + ∑ k : Fin 512, ext f (512 * j + k.val))

/-- After the reset the accumulator holds zero. -/
theorem accBlocks_zero (f : Fin 8192 → M) : accBlocks f 0 = 0 := rfl

/-- One step, in the continued terms. -/
theorem accBlocks_succ (f : Fin 8192 → M) (j : Nat) :
    accBlocks f (j + 1) = accBlocks f j + (0 + ∑ k : Fin 512, ext f (512 * j + k.val)) := rfl

/-- One of the 16 steps, in the terms themselves: block j holds the terms 512 j + k, k < 512. -/
theorem accBlocks_succ_of_lt (f : Fin 8192 → M) {j : Nat} (hj : j < 16) :
    accBlocks f (j + 1) = accBlocks f j + (0 + ∑ k : Fin 512, f ⟨512 * j + k.val, by omega⟩) := by
  rw [accBlocks_succ]
  refine congrArg (accBlocks f j + ·) (congrArg (0 + ·) (Finset.sum_congr rfl fun k _ => ?_))
  exact ext_of_lt f (by omega)

/-- The first step: the accumulator, reset to zero, receives block 0. -/
theorem accBlocks_one (f : Fin 8192 → M) :
    accBlocks f 1 = 0 + (0 + ∑ k : Fin 512, f ⟨512 * 0 + k.val, by omega⟩) :=
  accBlocks_succ_of_lt f (by omega)

/-- After n steps the accumulator holds the first 512 n continued terms. -/
theorem accBlocks_eq_range (f : Fin 8192 → M) (n : Nat) :
    accBlocks f n = ∑ i ∈ Finset.range (512 * n), ext f i := by
  induction n with
  | zero => rfl
  | succ n ih =>
    rw [accBlocks_succ, ih, zero_add, Nat.mul_succ, Finset.sum_range_add,
      Fin.sum_univ_eq_sum_range (fun k => ext f (512 * n + k)) 512]

/-- After n ≤ 16 steps the accumulator holds the terms below 512 n. -/
theorem accBlocks_eq_filter (f : Fin 8192 → M) {n : Nat} (hn : n ≤ 16) :
    accBlocks f n = ∑ i ∈ Finset.univ.filter (fun i : Fin 8192 => i.val < 512 * n), f i := by
  rw [accBlocks_eq_range]
  have hle : 512 * n ≤ 8192 := by omega
  rw [← Fin.sum_univ_eq_sum_range (fun i => ext f i) (512 * n)]
  refine Finset.sum_bij' (fun (i : Fin (512 * n)) _ => (⟨i.val, by omega⟩ : Fin 8192))
    (fun (i : Fin 8192) hi => (⟨i.val, (Finset.mem_filter.1 hi).2⟩ : Fin (512 * n))) ?_ ?_ ?_ ?_ ?_
  · intro i _; exact Finset.mem_filter.2 ⟨Finset.mem_univ _, i.isLt⟩
  · intro i _; exact Finset.mem_univ _
  · intro i _; rfl
  · intro i _; rfl
  · intro i _; exact ext_of_lt f (by omega)

/-- After the 16 steps the accumulator holds the sum of all 8192 terms. -/
theorem accBlocks_eq (f : Fin 8192 → M) : accBlocks f 16 = ∑ n : Fin 8192, f n := by
  rw [accBlocks_eq_range, ← Fin.sum_univ_eq_sum_range (fun i => ext f i) 8192]
  exact Finset.sum_congr rfl fun i _ => ext_val f i

end Cert.SumBlocks
-- ==== Proof.KI.Value0.lean ====
/-
  The transpose / row-sum call's values over the extended reals.

  Point `t` of the 16 x 16 grid has coordinates `(t / 16, t % 16)`; its input block is rows `512 (t / 16) ..`, columns
  `512 (t % 16) ..` of the input array. The body leaves the block's transpose in the first output's buffer, which is
  written back to block `(t % 16, t / 16)` of the first output array: that array ends as the transpose of the input.
  The accumulator is reset at the first column block and receives each block's row sums, so that after column block
  `j` its entry `p` is the sum of the first `512 (j + 1)` entries of row `512 (t / 16) + p`, accumulated block by
  block; after the last column block that is the whole row's sum, which the body copies out and the pipeline writes
  back to block `t / 16` of the second output array: that array ends as the row sums of the input.
-/
import proofs.«421918_j29918742184132_1_alg».proof.Proof.KI.Dat0
import proofs.«421918_j29918742184132_1_alg».proof.Proof.KI.PayIdx
import proofs.«421918_j29918742184132_1_alg».proof.Proof.SumBlocks
import Idealize.ShloMosaic.Lib.Pipeline.Value
import Idealize.ShloMosaic.Lib.Pipeline.FrameBody

noncomputable section

open scoped BigOperators

namespace Cert.KernelIdeal.Val0

open Cert.KernelIdeal Cert.KernelIdeal.Gen Cert.KernelIdeal.Hand Cert.KernelIdeal.PayIdx Cert.SumBlocks

open Idealize.ShloMosaic
open Idealize.ShloMosaic.TcCoe Idealize.ShloMosaic.Tactic
open Idealize.SL Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-! ## What each run leaves, read through the buffers -/

section Pieces
variable {F : FTy → Type} [FloatOps F]

/-- The first case leaves the block's transpose in the first output's buffer, -/
theorem first_T (c : Dev nD) (i : grid0.Coords)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (hc1 : cond1 i = 1#1) (hc2 : ¬k0_cond2 i = 1#1) (X : Vec F S512x512 .f32) :
    M3.view.read (Elt F) (run0_first c i hc1 hc2 M2 h2 M3 h3 M4 h4 M5 h5 (h2.unread X)).1.1 = k0_pay2 X := by
  unfold run0_first
  dsimp only
  sl_unfold_words
  rw [View.read_writes_junk_eq_canon, View.canon_unit_zero hz2]
  unfold k0_pay2
  simp only [View.readAt_eq_ld, h2.read_unread, View.ld_unit_zero (S := S512x512) hz2]

/-- and in the accumulator the reset value plus the block's row sums. -/
theorem first_S (c : Dev nD) (i : grid0.Coords)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (hc1 : cond1 i = 1#1) (hc2 : ¬k0_cond2 i = 1#1) (X : Vec F S512x512 .f32) :
    M5.view.read (Elt F) (run0_first c i hc1 hc2 M2 h2 M3 h3 M4 h4 M5 h5 (h2.unread X)).1.2 = k0_pay3 X k0_pay1 := by
  unfold run0_first
  dsimp only
  sl_unfold_words
  rw [View.read_writes_junk_eq_canon, View.canon_cons_unit_zero (S := S512x1) hz2, View.readCov_unit_zero (S := S512x1) _ hz2]
  unfold k0_pay3 k0_pay1
  simp only [View.readAt_eq_ld, h2.read_unread, View.ld_unit_zero (S := S512x512) hz2]

/-- A middle case leaves the block's transpose in the first output's buffer, -/
theorem mid_T (c : Dev nD) (i : grid0.Coords)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (hc1 : ¬cond1 i = 1#1) (hc2 : ¬k0_cond2 i = 1#1) (X : Vec F S512x512 .f32) (s : Bf (F := F) c M5) :
    M3.view.read (Elt F) (run0_mid c i hc1 hc2 M2 h2 M3 h3 M4 h4 M5 h5 (h2.unread X) s).1.1 = k0_pay2 X := by
  unfold run0_mid
  dsimp only
  sl_unfold_words
  rw [View.read_writes_junk_eq_canon, View.canon_unit_zero hz2]
  unfold k0_pay2
  simp only [View.readAt_eq_ld, h2.read_unread, View.ld_unit_zero (S := S512x512) hz2]

/-- and in the accumulator what it held plus the block's row sums. -/
theorem mid_S (c : Dev nD) (i : grid0.Coords)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (hc1 : ¬cond1 i = 1#1) (hc2 : ¬k0_cond2 i = 1#1) (X : Vec F S512x512 .f32) (S : Vec F S512x1 .f32) :
    M5.view.read (Elt F) (run0_mid c i hc1 hc2 M2 h2 M3 h3 M4 h4 M5 h5 (h2.unread X) (h5.unread S)).1.2 = k0_pay3 X S := by
  unfold run0_mid
  dsimp only
  sl_unfold_words
  rw [View.read_writes_junk_eq_canon, View.canon_unit_zero hz2]
  unfold k0_pay3
  simp only [View.readAt_eq_ld, h2.read_unread, h5.read_unread, View.ld_unit_zero (S := S512x512) hz2,
    View.ld_unit_zero (S := S512x1) hz2]

/-- The last case leaves the block's transpose in the first output's buffer, -/
theorem last_T (c : Dev nD) (i : grid0.Coords)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (hc1 : ¬cond1 i = 1#1) (hc2 : k0_cond2 i = 1#1) (X : Vec F S512x512 .f32) (s : Bf (F := F) c M5) :
    M3.view.read (Elt F) (run0_last c i hc1 hc2 M2 h2 M3 h3 M4 h4 M5 h5 (h2.unread X) s).1.1 = k0_pay2 X := by
  unfold run0_last
  dsimp only
  sl_unfold_words
  rw [View.read_writes_junk_eq_canon, View.canon_unit_zero hz2]
  unfold k0_pay2
  simp only [View.readAt_eq_ld, h2.read_unread, View.ld_unit_zero (S := S512x512) hz2]

/-- in the accumulator what it held plus the block's row sums, -/
theorem last_S (c : Dev nD) (i : grid0.Coords)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (hc1 : ¬cond1 i = 1#1) (hc2 : k0_cond2 i = 1#1) (X : Vec F S512x512 .f32) (S : Vec F S512x1 .f32) :
    M5.view.read (Elt F) (run0_last c i hc1 hc2 M2 h2 M3 h3 M4 h4 M5 h5 (h2.unread X) (h5.unread S)).1.2.2 = k0_pay3 X S := by
  unfold run0_last
  dsimp only
  sl_unfold_words
  rw [View.read_writes_junk_eq_canon, View.canon_unit_zero hz2]
  unfold k0_pay3
  simp only [View.readAt_eq_ld, h2.read_unread, h5.read_unread, View.ld_unit_zero (S := S512x512) hz2,
    View.ld_unit_zero (S := S512x1) hz2]

/-- and in the second output's buffer that accumulator as a vector. -/
theorem last_Z (c : Dev nD) (i : grid0.Coords)
    (M2 : Memref sig .tc .vmem S512x512 .f32) (h2 : M2.IsWhole) (M3 : Memref sig .tc .vmem S512x512 .f32) (h3 : M3.IsWhole)
    (M4 : Memref sig .tc .vmem S512 .f32) (h4 : M4.IsWhole) (M5 : Memref sig .tc .vmem S512x1 .f32) (h5 : M5.IsWhole)
    (hc1 : ¬cond1 i = 1#1) (hc2 : k0_cond2 i = 1#1) (X : Vec F S512x512 .f32) (S : Vec F S512x1 .f32) :
    M4.view.read (Elt F) (run0_last c i hc1 hc2 M2 h2 M3 h3 M4 h4 M5 h5 (h2.unread X) (h5.unread S)).1.2.1 = k0_pay4 (k0_pay3 X S) := by
  unfold run0_last
  dsimp only
  sl_unfold_words
  rw [View.read_writes_junk_eq_canon, View.canon_unit_zero hz1, View.readCov_unit_zero (S := S512x1) _ hz2]
  unfold k0_pay4 k0_pay3
  simp only [View.readAt_eq_ld, h2.read_unread, h5.read_unread, View.ld_unit_zero (S := S512x512) hz2,
    View.ld_unit_zero (S := S512x1) hz2]

end Pieces

/-! ## The buffers after each point, as what they read -/

section Reads
variable {F : FTy → Type} [FloatOps F]
variable (V : (c : Dev nD) → Valuation τ sig (Elt F))

/-- The accumulator after position `n`, as the column it reads. -/
def accR (c : Dev nD) (n : ℕ) (hn : n < cfg0.N) : Vec F S512x1 .f32 := msS.view.read (Elt F) (outsAt V c n hn).2.2

/-- At a point of the first column block the accumulator is the reset value plus the block's row sums; -/
theorem accR_first (c : Dev nD) (t : Fin cfg0.N) (h0 : t.val % 16 = 0) :
    accR V c t.val t.isLt = k0_pay3 (xblk V c t) k0_pay1 := by
  unfold accR
  rw [outsAt_first V c t h0]
  dsimp only
  exact first_S c (grid0.coords t) (ms0 t) (hs0 t) (ms1 t) (hs1 t) (ms2 t) (hs2 t) msS hsS ((cond1_iff t).mpr h0) (nc2_of t (fun h => by omega)) (xblk V c t)

/-- at any other point, what the point before left plus the block's row sums. -/
theorem accR_next (c : Dev nD) (t : Fin cfg0.N) (h0 : ¬t.val % 16 = 0) :
    accR V c t.val t.isLt = k0_pay3 (xblk V c t) (accR V c (t.val - 1) (Nat.lt_of_le_of_lt (Nat.sub_le _ _) t.isLt)) := by
  unfold accR
  by_cases h15 : t.val % 16 = 15
  · rw [outsAt_last V c t h0 h15]
    dsimp only
    have e := last_S c (grid0.coords t) (ms0 t) (hs0 t) (ms1 t) (hs1 t) (ms2 t) (hs2 t) msS hsS (nc1_of t h0) ((cond2_iff t).mpr h15) (xblk V c t)
      (msS.view.read (Elt F) (outsAt V c (t.val - 1) (Nat.lt_of_le_of_lt (Nat.sub_le _ _) t.isLt)).2.2)
    rw [hsS.unread_read] at e
    exact e
  · rw [outsAt_mid V c t h0 h15]
    dsimp only
    have e := mid_S c (grid0.coords t) (ms0 t) (hs0 t) (ms1 t) (hs1 t) (ms2 t) (hs2 t) msS hsS (nc1_of t h0) (nc2_of t h15) (xblk V c t)
      (msS.view.read (Elt F) (outsAt V c (t.val - 1) (Nat.lt_of_le_of_lt (Nat.sub_le _ _) t.isLt)).2.2)
    rw [hsS.unread_read] at e
    exact e

/-- The first output's buffer holds the block's transpose after every point. -/
theorem outT (c : Dev nD) (t : Fin cfg0.N) :
    (ms1 t).view.read (Elt F) (outsAt V c t.val t.isLt).1 = k0_pay2 (xblk V c t) := by
  by_cases h0 : t.val % 16 = 0
  · rw [outsAt_first V c t h0]
    dsimp only
    exact first_T c (grid0.coords t) (ms0 t) (hs0 t) (ms1 t) (hs1 t) (ms2 t) (hs2 t) msS hsS ((cond1_iff t).mpr h0) (nc2_of t (fun h => by omega)) (xblk V c t)
  · by_cases h15 : t.val % 16 = 15
    · rw [outsAt_last V c t h0 h15]
      dsimp only
      exact last_T c (grid0.coords t) (ms0 t) (hs0 t) (ms1 t) (hs1 t) (ms2 t) (hs2 t) msS hsS (nc1_of t h0) ((cond2_iff t).mpr h15) (xblk V c t) _
    · rw [outsAt_mid V c t h0 h15]
      dsimp only
      exact mid_T c (grid0.coords t) (ms0 t) (hs0 t) (ms1 t) (hs1 t) (ms2 t) (hs2 t) msS hsS (nc1_of t h0) (nc2_of t h15) (xblk V c t) _

/-- The second output's buffer holds the accumulator as a vector after a point of the last column block. -/
theorem outZ (c : Dev nD) (t : Fin cfg0.N) (h15 : t.val % 16 = 15) :
    (ms2 t).view.read (Elt F) (outsAt V c t.val t.isLt).2.1 = k0_pay4 (accR V c t.val t.isLt) := by
  have h0 : ¬t.val % 16 = 0 := by omega
  rw [accR_next V c t h0]
  unfold accR
  rw [outsAt_last V c t h0 h15]
  dsimp only
  have e := last_Z c (grid0.coords t) (ms0 t) (hs0 t) (ms1 t) (hs1 t) (ms2 t) (hs2 t) msS hsS (nc1_of t h0) ((cond2_iff t).mpr h15) (xblk V c t)
    (msS.view.read (Elt F) (outsAt V c (t.val - 1) (Nat.lt_of_le_of_lt (Nat.sub_le _ _) t.isLt)).2.2)
  rw [hsS.unread_read] at e
  exact e

end Reads

/-! ## Over the extended reals: the entries -/

section Entries
variable (V : (c : Dev nD) → Valuation τ sig (Elt Ideal))

/-- The input array as the region finds it. -/
abbrev Wm (c : Dev nD) : FVec Ideal S8192x8192 .f32 := V c main_arg2

theorem tlt (t : Fin cfg0.N) : t.val < 256 := lt_of_lt_of_eq t.isLt N_0

/-- The input array's row that holds row `p` of point `t`'s block, and its column that holds the block's column `k`. -/
abbrev rowOf (t : Fin cfg0.N) (p : Fin 512) : Fin 8192 :=
  ⟨512 * (t.val / 16) + p.val, by have := tlt t; have := p.isLt; omega⟩
abbrev colOf (t : Fin cfg0.N) (k : Fin 512) : Fin 8192 :=
  ⟨512 * (t.val % 16) + k.val, by have := k.isLt; omega⟩

/-- The printed index maps, decided over the grid. -/
theorem idx_facts : ∀ t : Fin cfg0.N, win0_0.index t (0 : Fin 2) = t.val / 16 ∧ win0_0.index t (1 : Fin 2) = t.val % 16
    ∧ win0_1.index t (0 : Fin 2) = t.val % 16 ∧ win0_1.index t (1 : Fin 2) = t.val / 16
    ∧ win0_2.index t (0 : Fin 1) = t.val / 16 :=
  (by decide +kernel : ∀ t : Fin grid0.N, _)

theorem ix2_congr {n0 n1 : ℕ} {a a' : Fin n0} {b b' : Fin n1} (ha : a = a') (hb : b = b') :
    ValueIdx.ix2 a b = ValueIdx.ix2 a' b' := by rw [ha, hb]

/-- Two functions of a 512 x 512 index that agree at every pair of coordinates are equal. -/
theorem funext2 {α : Type} {f g : S512x512.Idx → α} (h : ∀ p q : Fin 512, f (ValueIdx.ix2 p q) = g (ValueIdx.ix2 p q)) :
    f = g := funext fun j => by rw [ValueIdx.eq_ix2 j]; exact h _ _

/-- Two functions of a 512 index that agree at every coordinate are equal. -/
theorem funext1 {α : Type} {f g : S512.Idx → α} (h : ∀ p : Fin 512, f (ValueIdx.ix1 p) = g (ValueIdx.ix1 p)) :
    f = g := funext fun j => by rw [ValueIdx.eq_ix1 j]; exact h _

/-- The input block at point `t`, entry by entry. -/
theorem xblk_apply (c : Dev nD) (t : Fin cfg0.N) (p k : Fin 512) :
    xblk V c t (ValueIdx.ix2 p k) = Wm V c (ValueIdx.ix2 (rowOf t p) (colOf t k)) := by
  obtain ⟨e0, e1, -, -, -⟩ := idx_facts t
  unfold xblk
  show Wm V c (((cfg0.win 0).blk t).view.emb (ValueIdx.ix2 p k)) = Wm V c (ValueIdx.ix2 (rowOf t p) (colOf t k))
  refine congrArg (Wm V c) (funext fun a => Fin.ext ?_)
  match a with
  | ⟨0, _⟩ => show win0_0.index t (0 : Fin 2) * 512 + 1 * p.val = 512 * (t.val / 16) + p.val; rw [e0]; omega
  | ⟨1, _⟩ => show win0_0.index t (1 : Fin 2) * 512 + 1 * k.val = 512 * (t.val % 16) + k.val; rw [e1]; omega

/-- The transposed block at point `t`, entry by entry. -/
theorem pay2_blk (c : Dev nD) (t : Fin cfg0.N) (p q : Fin 512) :
    k0_pay2 (xblk V c t) (ValueIdx.ix2 p q) = Wm V c (ValueIdx.ix2 (rowOf t q) (colOf t p)) :=
  (pay2_apply (xblk V c t) p q).trans (xblk_apply V c t q p)

/-- A row of the input array, as the terms of its sum. -/
abbrev rowF (c : Dev nD) (t : Fin cfg0.N) (p : Fin 512) : Fin 8192 → Ideal .f32 :=
  fun n => Wm V c (ValueIdx.ix2 (rowOf t p) n)

/-- The block's row sum at point `t` is the sum of the row's terms of column block `t % 16`. -/
theorem blockSum (c : Dev nD) (t : Fin cfg0.N) (p : Fin 512) :
    (∑ k : Fin 512, xblk V c t (ValueIdx.ix2 p k))
      = ∑ k : Fin 512, rowF V c t p ⟨512 * (t.val % 16) + k.val, by have := k.isLt; omega⟩ :=
  Finset.sum_congr rfl fun k _ => xblk_apply V c t p k

/-- THE ACCUMULATOR after position `n`, in column block `j = n % 16` of row block `n / 16`: entry `p` holds the first
    `j + 1` column blocks of its row, accumulated block by block. -/
theorem accR_eq (c : Dev nD) : ∀ (n : ℕ) (hn : n < cfg0.N) (p : Fin 512) (z : Fin 1),
    accR V c n hn (ValueIdx.ix2 p z) = accBlocks (rowF V c ⟨n, hn⟩ p) (n % 16 + 1) := by
  intro n
  induction n with
  | zero =>
    intro hn p z
    have e := accR_first V c ⟨0, hn⟩ (Nat.zero_mod _)
    rw [show accR V c 0 hn = _ from e, pay3_apply, pay1_apply, blockSum V c ⟨0, hn⟩ p]
    exact (accBlocks_succ_of_lt (rowF V c ⟨0, hn⟩ p) (j := 0) (by omega)).symm
  | succ m ih =>
    intro hn p z
    by_cases h0 : (m + 1) % 16 = 0
    · have e := accR_first V c ⟨m + 1, hn⟩ h0
      rw [show accR V c (m + 1) hn = _ from e, pay3_apply, pay1_apply, blockSum V c ⟨m + 1, hn⟩ p]
      have hs := accBlocks_succ_of_lt (rowF V c ⟨m + 1, hn⟩ p) (j := (m + 1) % 16) (by omega)
      refine (congrArg₂ (· + ·) ?_ rfl).trans hs.symm
      rw [h0]
      rfl
    · have e := accR_next V c ⟨m + 1, hn⟩ h0
      have hf : rowF V c ⟨m, Nat.lt_of_succ_lt hn⟩ p = rowF V c ⟨m + 1, hn⟩ p := by
        funext k
        refine congrArg (fun r => Wm V c (ValueIdx.ix2 r k)) (Fin.ext ?_)
        show 512 * (m / 16) + p.val = 512 * ((m + 1) / 16) + p.val
        omega
      have hm : m % 16 + 1 = (m + 1) % 16 := by omega
      rw [show accR V c (m + 1) hn = _ from e, pay3_apply, blockSum V c ⟨m + 1, hn⟩ p]
      have hs := accBlocks_succ_of_lt (rowF V c ⟨m + 1, hn⟩ p) (j := (m + 1) % 16) (by omega)
      refine (congrArg₂ (· + ·) ?_ rfl).trans hs.symm
      rw [← hm, ← hf]
      exact ih (Nat.lt_of_succ_lt hn) p z

end Entries

/-! ## The output arrays after the call -/

section Arrays
variable (V : (c : Dev nD) → Valuation τ sig (Elt Ideal))

/-- The transpose of the input array. -/
abbrev G1 (c : Dev nD) : FVec Ideal S8192x8192 .f32 := fun i => Wm V c (ValueIdx.ix2 (i 1) (i 0))

/-- The row sums of the input array. -/
abbrev G2 (c : Dev nD) : FVec Ideal S8192 .f32 := fun i => ∑ n : Fin 8192, Wm V c (ValueIdx.ix2 (i 0) n)

/-- WHAT POINT `t` WRITES BACK to the first output array is its block of the transpose. -/
theorem flushed1_eq (c : Dev nD) (t : Fin cfg0.N) :
    (dat0 V c).flushed 1 t = ((cfg0.win 1).blk t).view.read (Elt Ideal) (G1 V c) := by
  show (cfg0.win 1).cut (grid0.coords t) ((dat0 V c).after 1 t) = _
  rw [after0_1, outT]
  obtain ⟨-, -, e2, e3, -⟩ := idx_facts t
  refine funext2 fun p q => ?_
  show k0_pay2 (xblk V c t) (ValueIdx.ix2 p q) = G1 V c (((cfg0.win 1).blk t).view.emb (ValueIdx.ix2 p q))
  refine (pay2_blk V c t p q).trans (congrArg (Wm V c) (ix2_congr (Fin.ext ?_) (Fin.ext ?_)))
  · show 512 * (t.val / 16) + q.val = win0_1.index t (1 : Fin 2) * 512 + 1 * q.val
    rw [e3]; omega
  · show 512 * (t.val % 16) + p.val = win0_1.index t (0 : Fin 2) * 512 + 1 * p.val
    rw [e2]; omega

/-- An index of the first output array is in point `t`'s block iff each coordinate is in the block's range. -/
theorem mem_blk1 (t : Fin cfg0.N) (i : S8192x8192.Idx) :
    i ∈ ((cfg0.win 1).blk t).view.set ↔ ∀ a : Fin 2, win0_1.index t a * S512x512.size a ≤ (i a).val
      ∧ (i a).val < win0_1.index t a * S512x512.size a + S512x512.size a := by
  show i ∈ ((View.whole main_v1_0).slice (win0_1.rect t)).set ↔ _
  rw [View.set_slice_whole, Rect.mem_set_unit]
  exact Iff.rfl

/-- Every index of the first output array is in the block of the point of its column block and row block. -/
theorem cover1 (i : S8192x8192.Idx) :
    ∃ t : Fin cfg0.N, (cfg0.win 1).flush t = true ∧ i ∈ ((cfg0.win 1).blk t).view.set := by
  have h0 : (i 0).val < 8192 := (i 0).isLt
  have h1 : (i 1).val < 8192 := (i 1).isLt
  obtain ⟨t, ht⟩ : ∃ t : Fin cfg0.N, t.val = 16 * ((i 1).val / 512) + (i 0).val / 512 :=
    ⟨⟨16 * ((i 1).val / 512) + (i 0).val / 512, by rw [show cfg0.N = 256 from N_0]; omega⟩, rfl⟩
  obtain ⟨-, -, e2, e3, -⟩ := idx_facts t
  refine ⟨t, flush0_1 t, ?_⟩
  rw [mem_blk1]
  intro a
  match a with
  | ⟨0, _⟩ =>
    show win0_1.index t (0 : Fin 2) * 512 ≤ (i 0).val ∧ (i 0).val < win0_1.index t (0 : Fin 2) * 512 + 512
    rw [e2]; omega
  | ⟨1, _⟩ =>
    show win0_1.index t (1 : Fin 2) * 512 ≤ (i 1).val ∧ (i 1).val < win0_1.index t (1 : Fin 2) * 512 + 512
    rw [e3]; omega

/-- THE FIRST OUTPUT ARRAY after the call: the transpose of the input array. -/
theorem final_wt (c : Dev nD) :
    ((dat0 V c).arrAt 1 cfg0.N : FVec Ideal S8192x8192 .f32) = fun i => Wm V c (ValueIdx.ix2 (i 1) (i 0)) :=
  (dat0 V c).arrAt_eq_of_cover 1 (G1 V c) (fun t _ => flushed1_eq V c t) cover1

/-- WHAT A POINT OF THE LAST COLUMN BLOCK WRITES BACK to the second output array is its block of the row sums. -/
theorem flushed2_eq (c : Dev nD) (t : Fin cfg0.N) (hf : (cfg0.win 2).flush t = true) :
    (dat0 V c).flushed 2 t = ((cfg0.win 2).blk t).view.read (Elt Ideal) (G2 V c) := by
  have h15 : t.val % 16 = 15 := (flush0_2 t).mp hf
  show (cfg0.win 2).cut (grid0.coords t) ((dat0 V c).after 2 t) = _
  rw [after0_2, outZ V c t h15]
  obtain ⟨-, -, -, -, e4⟩ := idx_facts t
  refine funext1 fun p => ?_
  show k0_pay4 (accR V c t.val t.isLt) (ValueIdx.ix1 p) = G2 V c (((cfg0.win 2).blk t).view.emb (ValueIdx.ix1 p))
  rw [pay4_apply, accR_eq V c t.val t.isLt p 0]
  have h16 : t.val % 16 + 1 = 16 := by omega
  rw [h16, accBlocks_eq]
  refine Finset.sum_congr rfl fun n _ => congrArg (fun r => Wm V c (ValueIdx.ix2 r n)) (Fin.ext ?_)
  show 512 * (t.val / 16) + p.val = win0_2.index t (0 : Fin 1) * 512 + 1 * p.val
  rw [e4]; omega

/-- An index of the second output array is in point `t`'s block iff its coordinate is in the block's range. -/
theorem mem_blk2 (t : Fin cfg0.N) (i : S8192.Idx) :
    i ∈ ((cfg0.win 2).blk t).view.set ↔ ∀ a : Fin 1, win0_2.index t a * S512.size a ≤ (i a).val
      ∧ (i a).val < win0_2.index t a * S512.size a + S512.size a := by
  show i ∈ ((View.whole main_v1_1).slice (win0_2.rect t)).set ↔ _
  rw [View.set_slice_whole, Rect.mem_set_unit]
  exact Iff.rfl

/-- Every index of the second output array is in the block of the last point of its row block. -/
theorem cover2 (i : S8192.Idx) :
    ∃ t : Fin cfg0.N, (cfg0.win 2).flush t = true ∧ i ∈ ((cfg0.win 2).blk t).view.set := by
  have h0 : (i 0).val < 8192 := (i 0).isLt
  obtain ⟨t, ht⟩ : ∃ t : Fin cfg0.N, t.val = 16 * ((i 0).val / 512) + 15 :=
    ⟨⟨16 * ((i 0).val / 512) + 15, by rw [show cfg0.N = 256 from N_0]; omega⟩, rfl⟩
  obtain ⟨-, -, -, -, e4⟩ := idx_facts t
  refine ⟨t, (flush0_2 t).mpr (by omega), ?_⟩
  rw [mem_blk2]
  intro a
  match a with
  | ⟨0, _⟩ =>
    show win0_2.index t (0 : Fin 1) * 512 ≤ (i 0).val ∧ (i 0).val < win0_2.index t (0 : Fin 1) * 512 + 512
    rw [e4]; omega

/-- THE SECOND OUTPUT ARRAY after the call: the row sums of the input array. -/
theorem final_rs (c : Dev nD) :
    ((dat0 V c).arrAt 2 cfg0.N : FVec Ideal S8192 .f32) = fun i => ∑ n : Fin 8192, Wm V c (ValueIdx.ix2 (i 0) n) :=
  (dat0 V c).arrAt_eq_of_cover 2 (G2 V c) (flushed2_eq V c) cover2

end Arrays

end Cert.KernelIdeal.Val0

end
-- ==== Proof.KI.Value1.lean ====
/-
  The result array after the gather region, at the ideal instance: every index lies in exactly the block of the
  point of its batch row and its 128-token group, each point writes back its block of ONE function of the index
  table, the bias array and the transposed array, so the array ends holding that function.
-/
import proofs.«421918_j29918742184132_1_alg».proof.Proof.KI.Dat1
import Idealize.ShloMosaic.Lib.Pipeline.Value
import Idealize.ShloMosaic.Lib.ValueIdx

noncomputable section

namespace Cert.KernelIdeal.Val1

open Cert.KernelIdeal Cert.KernelIdeal.Gen Cert.KernelIdeal.Hand

open Idealize.ShloMosaic
open Idealize.ShloMosaic.TcCoe
open Idealize.SL Idealize.SL.Sem
open Idealize.ShloMosaic.Pipeline (Dat)

variable (V : (c : Dev nD) → Valuation τ sig (Elt Ideal)) (a1 : (pcfg1 (F := Ideal)).Adm)

/-- The index table, the bias array and the transposed array as the region finds them. -/
abbrev tblA (c : Dev nD) : S4x4096.Idx → BitVec 32 := tblOf a1 c
abbrev biasA (c : Dev nD) : FVec Ideal S4x1x8192 .f32 := V c main_v12
abbrev wtA (c : Dev nD) : FVec Ideal S8192x8192 .f32 := V c main_v1_0

/-- The whole result: entry (b, l, v) is the transposed array's row named by the table's word (b, l), lane v,
    plus the bias array's entry (b, 0, v). -/
abbrev G13 (c : Dev nD) : FVec Ideal S4x4096x8192 .f32 := fun y =>
  wtA V c (ValueIdx.ix2 (rowIx (tblA a1 c (ValueIdx.ix2 (y 0) (y 1)))) (y 2)) + biasA V c (ValueIdx.ix3 (y 0) (0 : Fin 1) (y 2))

/-- The grid's points: point t is batch row t / 32, token group t % 32; the windows' block indices there. -/
theorem pt_facts : ∀ t : Fin grid1.N, ((grid1.coords t) 0).val = t.val / 32 ∧ ((grid1.coords t) 1).val = t.val % 32
    ∧ cc1_transform_0 (grid1.coords t) 0 = t.val / 32 ∧ cc1_transform_0 (grid1.coords t) 1 = 0 ∧ cc1_transform_0 (grid1.coords t) 2 = 0
    ∧ cc1_transform_2 (grid1.coords t) 0 = t.val / 32 ∧ cc1_transform_2 (grid1.coords t) 1 = t.val % 32 ∧ cc1_transform_2 (grid1.coords t) 2 = 0 :=
  (by decide +kernel : ∀ t : Fin grid1.N, _)

theorem tlt (t : Fin (cfg1 a1).N) : t.val < 128 := lt_of_lt_of_eq t.isLt N_1

/-- The output window's block index at a point is its index map's, whatever the tables hold. -/
theorem index1 (t : Fin (cfg1 a1).N) (a : Fin 3) : ((cfg1 a1).win 1).index t a = cc1_transform_2 (grid1.coords t) a := rfl
theorem index0 (t : Fin (cfg1 a1).N) (a : Fin 3) : ((cfg1 a1).win 0).index t a = cc1_transform_0 (grid1.coords t) a := rfl

theorem funext3 {α : Type} {f g : S1x128x8192.Idx → α}
    (h : ∀ (z : Fin 1) (r : Fin 128) (v : Fin 8192), f (ValueIdx.ix3 z r v) = g (ValueIdx.ix3 z r v)) : f = g :=
  funext fun y => by rw [ValueIdx.eq_ix3 y]; exact h _ _ _

/-- Every point writes its output block back: consecutive points differ in the token group. -/
theorem flush1 (t : Fin (cfg1 a1).N) : ((cfg1 a1).win 1).flush t = true := by
  have hN : (cfg1 a1).grid.N = 128 := N_1
  have ht := tlt a1 t
  unfold Pipeline.Window.flush
  show (true && (decide (t.val + 1 = (cfg1 a1).grid.N) || decide (∃ h : t.val + 1 < (cfg1 a1).grid.N,
    ((cfg1 a1).win 1).index ⟨t.val + 1, h⟩ ≠ ((cfg1 a1).win 1).index t))) = true
  rw [Bool.true_and, Bool.or_eq_true, decide_eq_true_eq, decide_eq_true_eq]
  by_cases h : t.val + 1 = (cfg1 a1).grid.N
  · exact Or.inl h
  · have hlt : t.val + 1 < (cfg1 a1).grid.N := by omega
    refine Or.inr ⟨hlt, fun e => ?_⟩
    have e1 := congrFun e (1 : Fin 3)
    rw [index1, index1] at e1
    have f := (pt_facts ⟨t.val + 1, hlt⟩).2.2.2.2.2.2.1
    have g := (pt_facts t).2.2.2.2.2.2.1
    rw [f, g] at e1
    have f' : (⟨t.val + 1, hlt⟩ : Fin grid1.N).val = t.val + 1 := rfl
    rw [f'] at e1
    omega

theorem ix2_congr {n0 n1 : ℕ} {a a' : Fin n0} {b b' : Fin n1} (ha : a = a') (hb : b = b') :
    ValueIdx.ix2 a b = ValueIdx.ix2 a' b' := by subst ha; subst hb; rfl

theorem ix3_congr {n0 n1 n2 : ℕ} {a a' : Fin n0} {b b' : Fin n1} {d d' : Fin n2} (ha : a = a') (hb : b = b') (hd : d = d') :
    ValueIdx.ix3 a b d = ValueIdx.ix3 a' b' d' := by subst ha; subst hb; subst hd; rfl

/-- What point t writes back is its block of the whole result. -/
theorem flushed_eq (c : Dev nD) (t : Fin (cfg1 a1).N) :
    (dat1 V a1 c).flushed 1 t = (((cfg1 a1).win 1).blk t).view.read (Elt Ideal) (G13 V a1 c) := by
  show ((cfg1 a1).win 1).cut ((cfg1 a1).grid.coords t) ((dat1 V a1 c).after 1 t) = _
  refine funext3 fun z r v => ?_
  show outSpec (grid1.coords t) (tblOf a1 c) (biasBlk V a1 c t) (V c main_v1_0) (ValueIdx.ix3 z r v)
    = G13 V a1 c ((((cfg1 a1).win 1).blk t).view.emb (ValueIdx.ix3 z r v))
  obtain ⟨c0e, c1e, i00, i01, i02, i10, i11, i12⟩ := pt_facts t
  have ht : t.val < 128 := tlt a1 t
  have hz := z.isLt; have hr := r.isLt; have hv := v.isLt
  unfold outSpec
  show _ + _ = _ + _
  refine congrArg₂ (· + ·) (congrArg (wtA V c) (ix2_congr (congrArg rowIx (congrArg (tblA a1 c) ?_)) (Fin.ext ?_))) ?_
  · unfold tblPos
    refine ix2_congr (Fin.ext ?_) (Fin.ext ?_)
    · show ((grid1.coords t) 0).val % 4 = ((cfg1 a1).win 1).index t (0 : Fin 3) * 1 + 1 * z.val
      rw [index1, i10, c0e]; omega
    · show (128 * ((grid1.coords t) 1).val + r.val % 128) % 4096 = ((cfg1 a1).win 1).index t (1 : Fin 3) * 128 + 1 * r.val
      rw [index1, i11, c1e]; omega
  · show v.val % 8192 = ((cfg1 a1).win 1).index t (2 : Fin 3) * 8192 + 1 * v.val
    rw [index1, i12]; omega
  · show biasA V c ((((cfg1 a1).win 0).blk t).view.emb (ValueIdx.ix3 (0 : Fin 1) (0 : Fin 1) (⟨v.val % 8192, Nat.mod_lt _ (by decide)⟩ : Fin 8192))) = _
    refine congrArg (biasA V c) (funext fun a => Fin.ext ?_)
    match a with
    | ⟨0, _⟩ =>
      show ((cfg1 a1).win 0).index t (0 : Fin 3) * 1 + 1 * 0 = ((cfg1 a1).win 1).index t (0 : Fin 3) * 1 + 1 * z.val
      rw [index0, index1, i00, i10]; omega
    | ⟨1, _⟩ =>
      show ((cfg1 a1).win 0).index t (1 : Fin 3) * 1 + 1 * 0 = 0
      rw [index0, i01]
    | ⟨2, _⟩ =>
      show ((cfg1 a1).win 0).index t (2 : Fin 3) * 8192 + 1 * (v.val % 8192) = ((cfg1 a1).win 1).index t (2 : Fin 3) * 8192 + 1 * v.val
      rw [index0, index1, i02, i12]; omega

/-- An index of the result array is in point t's block iff each coordinate is in the block's range. -/
theorem mem_blk (t : Fin (cfg1 a1).N) (i : S4x4096x8192.Idx) :
    i ∈ (((cfg1 a1).win 1).blk t).view.set ↔ ∀ a : Fin 3, ((cfg1 a1).win 1).index t a * S1x128x8192.size a ≤ (i a).val
      ∧ (i a).val < ((cfg1 a1).win 1).index t a * S1x128x8192.size a + S1x128x8192.size a := by
  show i ∈ ((View.whole main_v13).slice (((cfg1 a1).win 1).rect t)).set ↔ _
  erw [View.set_slice_whole, Rect.mem_set_unit]
  exact Iff.rfl

/-- Every index of the result array is in the block of the point of its batch row and token group. -/
theorem cover (i : S4x4096x8192.Idx) :
    ∃ t : Fin (cfg1 a1).N, ((cfg1 a1).win 1).flush t = true ∧ i ∈ (((cfg1 a1).win 1).blk t).view.set := by
  have h0 : (i 0).val < 4 := (i 0).isLt
  have h1 : (i 1).val < 4096 := (i 1).isLt
  have h2 : (i 2).val < 8192 := (i 2).isLt
  obtain ⟨t, ht⟩ : ∃ t : Fin (cfg1 a1).N, t.val = 32 * (i 0).val + (i 1).val / 128 :=
    ⟨⟨32 * (i 0).val + (i 1).val / 128, by rw [show (cfg1 a1).N = 128 from N_1]; omega⟩, rfl⟩
  obtain ⟨-, -, -, -, -, i10, i11, i12⟩ := pt_facts t
  refine ⟨t, flush1 a1 t, ?_⟩
  rw [mem_blk]
  intro a
  match a with
  | ⟨0, _⟩ =>
    show ((cfg1 a1).win 1).index t (0 : Fin 3) * 1 ≤ (i 0).val ∧ (i 0).val < ((cfg1 a1).win 1).index t (0 : Fin 3) * 1 + 1
    rw [index1, i10]; omega
  | ⟨1, _⟩ =>
    show ((cfg1 a1).win 1).index t (1 : Fin 3) * 128 ≤ (i 1).val ∧ (i 1).val < ((cfg1 a1).win 1).index t (1 : Fin 3) * 128 + 128
    rw [index1, i11]; omega
  | ⟨2, _⟩ =>
    show ((cfg1 a1).win 1).index t (2 : Fin 3) * 8192 ≤ (i 2).val ∧ (i 2).val < ((cfg1 a1).win 1).index t (2 : Fin 3) * 8192 + 8192
    rw [index1, i12]; omega

/-- THE RESULT ARRAY after the gather region. -/
theorem final13 (c : Dev nD) :
    ((dat1 V a1 c).arrAt 1 (cfg1 a1).N : FVec Ideal S4x4096x8192 .f32) = G13 V a1 c :=
  (dat1 V a1 c).arrAt_eq_of_cover 1 (G13 V a1 c) (fun t _ => flushed_eq V a1 c t) (cover a1)

end Cert.KernelIdeal.Val1

end
-- ==== Proof.KI.ValueFinal.lean ====
/-
  The kernel program's result array is the specification's function G of the four argument arrays.

  The gather region leaves in the result array, at (b, l, v), the transposed array's row named by the table's word
  (b, l), lane v, plus the bias array's entry (b, 0, v). The transposed array is the matrix argument transposed and the
  row sums are the matrix argument's row sums (what the first region left); the table is the index argument clamped
  word by word; the bias array's entry (b, 0, v) is (0.01 * sigma[b]) * rowsum[v] + bvec[v]. Put together, entry
  (b, l, v) is W[v, r(b, l)] + ((0.01 * sigma[b]) * ∑ j, W[v, j] + bvec[v]).
-/
import proofs.«421918_j29918742184132_1_alg».proof.Proof.KI.PDats
import proofs.«421918_j29918742184132_1_alg».proof.Proof.KI.Value0
import proofs.«421918_j29918742184132_1_alg».proof.Proof.KI.Value1
import proofs.«421918_j29918742184132_1_alg».proof.Proof.KI.Host
import proofs.«421918_j29918742184132_1_alg».proof.Proof.Spec

noncomputable section

open scoped BigOperators

namespace Cert.KernelIdeal.ValFinal

open Cert.KernelIdeal Cert.KernelIdeal.Gen Cert.KernelIdeal.Hand

open Idealize.ShloMosaic
open Idealize.ShloMosaic.TcCoe
open Idealize.SL Idealize.SL.Sem

/-! ## The gather region's result in terms of what its three inputs hold -/

/-- The row a clamped word names is the specification's row of the word. -/
theorem rowIx_clampW (w : BitVec 32) : rowIx (Cert.Spec.clampW w) = Cert.Spec.row w :=
  Fin.ext (rowIx_val _ (Cert.Spec.clampW_lt w))

/-- If the transposed array is the transpose of W, the table the clamp of idx, the bias array that of sigma, the row
    sums and bvec, and the row sums those of W, the gather region's result is G. -/
theorem G13_eq_G (V : (c : Dev nD) → Valuation τ sig (Elt Ideal)) (a1 : (pcfg1 (F := Ideal)).Adm) (c : Dev nD)
    (idx : S4x4096.Idx → BitVec 32) (sigma : FVec Ideal S4 .f32) (W : FVec Ideal S8192x8192 .f32)
    (bv rs : FVec Ideal S8192 .f32)
    (hwt : Val1.wtA V c = fun i => W (ValueIdx.ix2 (i 1) (i 0)))
    (htbl : ∀ j, Val1.tblA a1 c j = Cert.Spec.clampW (idx j))
    (hbias : Val1.biasA V c = biasOf sigma rs bv)
    (hrs : rs = fun i => ∑ n : Fin 8192, W (ValueIdx.ix2 (i 0) n)) :
    Val1.G13 V a1 c = Cert.Spec.G idx sigma W bv := by
  funext y
  obtain ⟨b, l, v, rfl⟩ : ∃ (b : Fin 4) (l : Fin 4096) (v : Fin 8192), y = ValueIdx.ix3 b l v :=
    ⟨y 0, y 1, y 2, ValueIdx.eq_ix3 y⟩
  show Val1.wtA V c (ValueIdx.ix2 (rowIx (Val1.tblA a1 c (ValueIdx.ix2 b l))) v)
    + Val1.biasA V c (ValueIdx.ix3 b (0 : Fin 1) v) = _
  rw [hwt, htbl, hbias, biasOf_ix3, hrs, rowIx_clampW, Cert.Spec.G_ix3]
  rfl

/-! ## What the gather region's inputs hold -/

variable (m : (ℓ : Loc nD τ sig) → Buf (Elt Ideal) ℓ)

/-- The four argument arrays as launched, at their array types. -/
abbrev argIdx (c : Dev nD) : S4x4096.Idx → BitVec 32 := m ((c : Thread nD τ).loc main_arg0)
abbrev argSigma (c : Dev nD) : FVec Ideal S4 .f32 := m ((c : Thread nD τ).loc main_arg1)
abbrev argW (c : Dev nD) : FVec Ideal S8192x8192 .f32 := m ((c : Thread nD τ).loc main_arg2)
abbrev argB (c : Dev nD) : FVec Ideal S8192 .f32 := m ((c : Thread nD τ).loc main_arg3)

/-- The row sums as the first region left them, at their array type. -/
abbrev rsA (c : Dev nD) : FVec Ideal S8192 .f32 := outsA m 3 main_v1_1 c

/-- The transposed array the gather region reads is the matrix argument transposed. -/
theorem wt_eq (c : Dev nD) :
    (Gen.V4 m (outsA m) c main_v1_0 : FVec Ideal S8192x8192 .f32)
      = fun i : S8192x8192.Idx => argW m c (ValueIdx.ix2 (i 1) (i 0)) := by
  have h1 : Gen.V4 m (outsA m) c main_v1_0 = outsA m 3 main_v1_0 c := V4_wt m (outsA m) c
  have h2 : outsA m 3 main_v1_0 c = wtOut m c := by
    show V3t m c main_v1_0 = wtOut m c
    unfold V3t
    rw [Function.update_of_ne (StableHlo.devRef_ne_of_ne (by decide) :
      (Proc.devRef .tc main_v1_0 : DevRef τ sig) ≠ Proc.devRef .tc main_v1_1), Function.update_self]
  rw [h1, h2]
  refine (Val0.final_wt (Gen.V2 m) c).trans ?_
  exact funext fun i => congrArg (fun X : FVec Ideal S8192x8192 .f32 => X (ValueIdx.ix2 (i 1) (i 0))) (V2_W m c)

/-- The row sums the second host stretch reads are the matrix argument's row sums. -/
theorem rs_eq (c : Dev nD) :
    rsA m c = fun i : S8192.Idx => ∑ n : Fin 8192, argW m c (ValueIdx.ix2 (i 0) n) := by
  have h2 : outsA m 3 main_v1_1 c = rsOut m c := by
    show V3t m c main_v1_1 = rsOut m c
    unfold V3t
    rw [Function.update_self]
  refine h2.trans ((Val0.final_rs (Gen.V2 m) c).trans ?_)
  exact funext fun i => Finset.sum_congr rfl fun n _ =>
    congrArg (fun X : FVec Ideal S8192x8192 .f32 => X (ValueIdx.ix2 (i 0) n)) (V2_W m c)

/-- The table's word at j is the clamp of the index argument's word at j. -/
theorem tbl_eq (c : Dev nD) (j : S4x4096.Idx) :
    Val1.tblA (a1 m) c j = Cert.Spec.clampW (argIdx m c j) := by
  obtain rfl : c = c0 := Subsingleton.elim _ _
  show (tblV m : IVec S4x4096 32) j = _
  rw [tblV_eq]
  exact V2_table_apply m c0 j

/-- The bias array the gather region stages: of the scale argument, the row sums the first region left, and the bias
    argument. -/
theorem bias_eq (c : Dev nD) :
    Val1.biasA (fun c => Gen.V4 m (outsA m) c) c
      = biasOf (argSigma m c) (rsA m c) (argB m c) :=
  V4_bias m (outsA m) c

/-! ## The result -/

/-- THE KERNEL PROGRAM'S RESULT ARRAY, after both regions, is G of the argument arrays. -/
theorem kernel_value (c : Dev nD) :
    (resOut m c : FVec Ideal S4x4096x8192 .f32)
      = Cert.Spec.G (m ((c : Thread nD τ).loc main_arg0)) (m ((c : Thread nD τ).loc main_arg1))
          (m ((c : Thread nD τ).loc main_arg2)) (m ((c : Thread nD τ).loc main_arg3)) := by
  refine (Val1.final13 (fun c => Gen.V4 m (outsA m) c) (a1 m) c).trans ?_
  exact G13_eq_G (fun c => Gen.V4 m (outsA m) c) (a1 m) c (argIdx m c) (argSigma m c) (argW m c) (argB m c) (rsA m c)
    (wt_eq m c) (tbl_eq m c) (bias_eq m c) (rs_eq m c)

end Cert.KernelIdeal.ValFinal

end
-- ==== Proof.RowGather.lean ====
/-
  A gather of whole rows, read at an index.

  What jnp's table[idx] of a matrix table : [N, M] at an integer array idx : [R, C] lowers to: a gather with
  offset axis 2, the operand's axis 0 collapsed and start-indexed, slice sizes [1, M], the start indices laid out as
  [R, C, 1] with the index vector on axis 2. Result element (r, c, m) is the table at row idx[r, c, 0], read as a signed
  integer and clamped into [0, N - 1], and column m.
-/
import Idealize.ShloMosaic.PureOps.Ideal
import Idealize.ShloMosaic.Lib.ValueIdx

namespace Cert.RowGather

open Idealize.ShloMosaic Idealize.ShloMosaic.ValueIdx

variable {α : Type}

/-- The dimension numbers of a row gather for a table [N, M], start indices [R, C, 1] and result [R, C, M]; their
    conditions are decided on a program's literal shapes. -/
abbrev rowDims (N M R C : Nat)
    (wf : GatherDims.WF ⟨2, ![N, M]⟩ ⟨3, ![R, C, 1]⟩ ⟨3, ![R, C, M]⟩ [2] [0] [] [0] [] 2 ![1, M]) :
    GatherDims ⟨2, ![N, M]⟩ ⟨3, ![R, C, 1]⟩ ⟨3, ![R, C, M]⟩ where
  offsetDims := [2]
  collapsedSliceDims := [0]
  operandBatchingDims := []
  startIndicesBatchingDims := []
  startIndexMap := [0]
  indexVectorDim := 2
  sliceSizes := ![1, M]
  wf := wf

/-- The row gather at (r, c, m): the table at the clamped start index of (r, c) and column m. -/
theorem gather_rows_apply {N M R C w : Nat} (hN : 0 < N)
    (wf : GatherDims.WF ⟨2, ![N, M]⟩ ⟨3, ![R, C, 1]⟩ ⟨3, ![R, C, M]⟩ [2] [0] [] [0] [] 2 ![1, M])
    (x : (⟨2, ![N, M]⟩ : Shape).Idx → α) (idx : IVec ⟨3, ![R, C, 1]⟩ w) (r : Fin R) (c : Fin C) (m : Fin M) :
    Host.gather (rowDims N M R C wf) x idx (ix3 r c m)
      = x (ix2 ⟨min (idx (ix3 r c (0 : Fin 1))).toInt.toNat (N - 1), by omega⟩ m) := by
  unfold Host.gather
  congr 1
  funext a
  refine Fin.ext ?_
  match a with
  | ⟨0, _⟩ =>
    show (rowDims N M R C wf).start (ix3 r c m) idx 0 + (rowDims N M R C wf).batchCoord (ix3 r c m) 0
      + (rowDims N M R C wf).offCoord (ix3 r c m) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M R C wf).startIndexMap from List.mem_singleton.mpr rfl)]
    have hsi : (rowDims N M R C wf).siIdx (ix3 r c m) ⟨List.idxOf (0 : Fin 2) (rowDims N M R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N M R C wf).start (ix3 r c m) idx 1 + (rowDims N M R C wf).batchCoord (ix3 r c m) 1
      + (rowDims N M R C wf).offCoord (ix3 r c m) 1 = m.val
    rw [GatherDims.batchCoord_eq_zero _ _ _ List.not_mem_nil]
    unfold GatherDims.start
    rw [dif_neg (show (1 : Fin 2) ∉ (rowDims N M R C wf).startIndexMap from
      fun h => absurd (List.mem_singleton.mp h) (show ¬((1 : Fin 2) = 0) by decide))]
    simp only [Nat.add_zero, Nat.zero_add]
    rfl

end Cert.RowGather
-- ==== Proof.RefValue.lean ====
/-
  What the reference computes, index by index: its run's result term is the specification's function G of the argument
  arrays.

  The reference clamps the indices into [0, 8191], applies the wrap-around select "if i < 0 then i + 8192 else i"
  (the identity on a clamped index), gathers whole rows of the transposed matrix at them, and adds the broadcast product
  of (0.01 * sigma) with the matrix's row sums and then the broadcast bias. Read at (b, l, v):
      (W[v, r(b, l)] + (0.01 * sigma[b]) * (0 + ∑ j, W[v, j])) + bvec[v];
  on the extended reals addition is associative, which regroups it as G states it.
-/
import proofs.«421918_j29918742184132_1_alg».proof.Proof.Gen.ReferenceIdeal.Run
import proofs.«421918_j29918742184132_1_alg».proof.Proof.Gen.ReferenceIdeal.Read
import proofs.«421918_j29918742184132_1_alg».proof.Proof.Spec
import proofs.«421918_j29918742184132_1_alg».proof.Proof.RowGather

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Spec

/-! ## The indices: clamp, wrap-around select, start indices -/

/-- The clip at an index is the clamp of the word there. -/
theorem clip_apply (a0 : (⟨S4x4096, .i32⟩ : BufTy).Contents (Elt Ideal)) (j : S4x4096.Idx) :
    val_main_v0 (F := Ideal) a0 j = clampW (a0 j) := rfl

/-- The wrap-around select of the clipped indices is the clamp again: a clamped word is not negative. -/
theorem wrapped_apply (a0 : (⟨S4x4096, .i32⟩ : BufTy).Contents (Elt Ideal)) (j : S4x4096.Idx) :
    val_main_v6 (F := Ideal) a0 j = clampW (a0 j) := by
  show Scalar.select (IntOp.cmpi .slt (clampW (a0 j)) 0#32) (IntOp.addi (clampW (a0 j)) 8192#32) (clampW (a0 j)) = _
  exact wrap_clampW _

/-- The start index of result position (b, l): the clamp of idx[b, l]. -/
theorem start_apply (a0 : (⟨S4x4096, .i32⟩ : BufTy).Contents (Elt Ideal)) (b : Fin 4) (l : Fin 4096) :
    val_main_v7 (F := Ideal) a0 (ix3 b l (0 : Fin 1)) = clampW (a0 (ix2 b l)) := by
  have e : idx_main_v7 (ix3 b l (0 : Fin 1)) = ix2 b l :=
    funext fun a => Fin.ext (by match a with | ⟨0, _⟩ => rfl | ⟨1, _⟩ => rfl)
  rw [val_main_v7_apply, e, wrapped_apply]

/-! ## The three summands at (b, l, v) -/

/-- The reference's gather is a row gather of an [8192, 8192] table at [4, 4096, 1] start indices. -/
theorem gather_dims_eq : gather_S8192x8192_S4x4096x1_S4x4096x8192_2_0_n_n_0_2_18192
    = Cert.RowGather.rowDims 8192 8192 4 4096 gather_S8192x8192_S4x4096x1_S4x4096x8192_2_0_n_n_0_2_18192_wf := rfl

/-- The gathered entry: W[v, r(b, l)]. -/
theorem gathered_apply (a0 : (⟨S4x4096, .i32⟩ : BufTy).Contents (Elt Ideal))
    (a2 : (⟨S8192x8192, .f32⟩ : BufTy).Contents (Elt Ideal)) (b : Fin 4) (l : Fin 4096) (v : Fin 8192) :
    val_main_v8 (F := Ideal) a0 a2 (ix3 b l v) = a2 (ix2 v (row (a0 (ix2 b l)))) := by
  unfold val_main_v8
  rw [gather_dims_eq]
  refine (Cert.RowGather.gather_rows_apply (N := 8192) (M := 8192) (R := 4) (C := 4096) (by omega) _ _ _ b l v).trans ?_
  rw [val_main_v1_apply]
  refine congrArg a2 (funext fun a => Fin.ext ?_)
  match a with
  | ⟨0, _⟩ => rfl
  | ⟨1, _⟩ =>
    show min (val_main_v7 (F := Ideal) a0 (ix3 b l (0 : Fin 1))).toInt.toNat (8192 - 1) = (clampW (a0 (ix2 b l))).toNat
    rw [start_apply]
    exact clampW_start _

/-- The scaled row sum: (0.01 * sigma[b]) * ∑ j, W[v, j]. -/
theorem scaled_apply (a1 : (⟨S4, .f32⟩ : BufTy).Contents (Elt Ideal))
    (a2 : (⟨S8192x8192, .f32⟩ : BufTy).Contents (Elt Ideal)) (b : Fin 4) (l : Fin 4096) (v : Fin 8192) :
    val_main_v17 (F := Ideal) a1 a2 (ix3 b l v)
      = (Ideal.ofBits .f32 0x3C23D70A#32 * a1 (ix1 b)) * (∑ j : Fin 8192, a2 (ix2 v j)) := by
  have e1 : idx_main_v12 (idx_main_v14 (idx_main_v17 (ix3 b l v))) = ix1 b :=
    funext fun a => Fin.ext (by match a with | ⟨0, _⟩ => rfl)
  have e2 : ∀ k : Fin 8192, idx_main_v9 (idx_main_v13 (idx_main_v15 (idx_main_v17 (ix3 b l v)))) k = ix2 v k :=
    fun k => funext fun a => Fin.ext (by match a with | ⟨0, _⟩ => rfl | ⟨1, _⟩ => rfl)
  rw [val_main_v17_apply, val_main_v16_apply, val_main_v14_apply, val_main_v12_apply, val_main_v11_apply,
    val_main_v10_apply, val_main_cst_3_apply, val_main_v15_apply, val_main_v13_apply, val_main_v9_apply,
    val_main_cst_apply, e1]
  simp only [e2, Ideal.mulf_def, Ideal.ofBits_def, Ideal.ofBits_zero_f32, zero_add]

/-- The bias: bvec[v]. -/
theorem bias_apply (a3 : (⟨S8192, .f32⟩ : BufTy).Contents (Elt Ideal)) (b : Fin 4) (l : Fin 4096) (v : Fin 8192) :
    val_main_v20 (F := Ideal) a3 (ix3 b l v) = a3 (ix1 v) := by
  have e : idx_main_v19 (idx_main_v20 (ix3 b l v)) = ix1 v :=
    funext fun a => Fin.ext (by match a with | ⟨0, _⟩ => rfl)
  rw [val_main_v20_apply, val_main_v19_apply, e]

/-! ## The reference is G -/

/-- The reference's last stage is G. -/
theorem val_is_G (a0 : (⟨S4x4096, .i32⟩ : BufTy).Contents (Elt Ideal)) (a1 : (⟨S4, .f32⟩ : BufTy).Contents (Elt Ideal))
    (a2 : (⟨S8192x8192, .f32⟩ : BufTy).Contents (Elt Ideal)) (a3 : (⟨S8192, .f32⟩ : BufTy).Contents (Elt Ideal)) :
    val_main_v21 (F := Ideal) a0 a1 a2 a3 = Cert.Spec.G a0 a1 a2 a3 := by
  funext i
  obtain ⟨b, l, v, rfl⟩ : ∃ (b : Fin 4) (l : Fin 4096) (v : Fin 8192), i = ix3 b l v := ⟨i 0, i 1, i 2, eq_ix3 i⟩
  rw [val_main_v21_apply, val_main_v18_apply, gathered_apply, scaled_apply, bias_apply, G_ix3]
  simp only [Ideal.addf_def]
  exact add_assoc _ _ _

/-- The reference run's result term, as the generated run states it, is G of the argument arrays. -/
theorem ref_is_G (a0 : (⟨S4x4096, .i32⟩ : BufTy).Contents (Elt Ideal)) (a1 : (⟨S4, .f32⟩ : BufTy).Contents (Elt Ideal))
    (a2 : (⟨S8192x8192, .f32⟩ : BufTy).Contents (Elt Ideal)) (a3 : (⟨S8192, .f32⟩ : BufTy).Contents (Elt Ideal)) :
    addf (addf (Host.gather gather_S8192x8192_S4x4096x1_S4x4096x8192_2_0_n_n_0_2_18192 (transpose S8192x8192 [1, 0] (a2) transposes_S8192x8192_S8192x8192_1_0) (broadcastInDim S4x4096x1 ![0, 1] bcast_S4x4096_S4x4096x1_0_1 (select (cmpi .slt (minsi (broadcastInDim S4x4096 ![] bcast_S_S4x4096 (id (constantI S_ 32 8191#32))) (maxsi (broadcastInDim S4x4096 ![] bcast_S_S4x4096 (id (constantI S_ 32 0#32))) (a0))) (broadcastInDim S4x4096 ![] bcast_S_S4x4096 (constantI S_ 32 0#32))) (addi (minsi (broadcastInDim S4x4096 ![] bcast_S_S4x4096 (id (constantI S_ 32 8191#32))) (maxsi (broadcastInDim S4x4096 ![] bcast_S_S4x4096 (id (constantI S_ 32 0#32))) (a0))) (broadcastInDim S4x4096 ![] bcast_S_S4x4096 (constantI S_ 32 8192#32))) (minsi (broadcastInDim S4x4096 ![] bcast_S_S4x4096 (id (constantI S_ 32 8191#32))) (maxsi (broadcastInDim S4x4096 ![] bcast_S_S4x4096 (id (constantI S_ 32 0#32))) (a0)))))) (broadcastInDim S4x4096x8192 ![0, 1, 2] bcast_S4x1x8192_S4x4096x8192_0_1_2 (mulf (broadcastInDim S4x1x8192 ![0, 1, 2] bcast_S4x1x1_S4x1x8192_0_1_2 (broadcastInDim S4x1x1 ![0] bcast_S4_S4x1x1_0 (mulf (broadcastInDim S4 ![] bcast_S_S4 (constant (F := Ideal) S_ .f32 0x3C23D70A#32)) (a1)))) (broadcastInDim S4x1x8192 ![0, 1, 2] bcast_S1x1x8192_S4x1x8192_0_1_2 (broadcastInDim S1x1x8192 ![2] bcast_S8192_S1x1x8192_2 (Host.reduceAdd (F := Ideal) (a2) (constant (F := Ideal) S_ .f32 0x00000000#32) reducesTo_S8192x8192_S8192_d1 h_S_)))))) (broadcastInDim S4x4096x8192 ![0, 1, 2] bcast_S1x1x8192_S4x4096x8192_0_1_2 (broadcastInDim S1x1x8192 ![2] bcast_S8192_S1x1x8192_2 (a3)))
      = Cert.Spec.G a0 a1 a2 a3 :=
  (val_main_v21_eq (F := Ideal) a0 a1 a2 a3).trans (val_is_G a0 a1 a2 a3)

end Cert.ReferenceIdeal.RefValue

end
-- ==== Proof.RefClaims.lean ====
/-
  The reference's two claims-side facts: it runs with its arguments unchanged, and it ends with its result array at
  the specification's function G of the argument arrays (the arguments unchanged).
-/
import proofs.«421918_j29918742184132_1_alg».proof.Defs
import proofs.«421918_j29918742184132_1_alg».proof.Proof.Gen.ReferenceIdeal
import proofs.«421918_j29918742184132_1_alg».proof.Proof.Gen.Pre_finite_inputs
import proofs.«421918_j29918742184132_1_alg».proof.Proof.RefValue

noncomputable section

namespace Cert.ReferenceIdeal.RefClaims

open Idealize.ShloMosaic Idealize.ShloMosaic.TcCoe Idealize.SL.Sem

/-- The reference runs and leaves its four argument arrays as they were: the run's post without its first conjunct. -/
theorem frame_ri : Cert.frame_ReferenceIdeal := by
  intro m ρ _
  refine (θ_run (Cert.ReferenceIdeal.defs (F := Ideal)) _ _).mono ?_ (Cert.ReferenceIdeal.Value.run (F := Ideal) m ρ)
  intro r h c
  obtain ⟨_, hargs⟩ := h c
  exact hargs

/-- The reference runs, its result array ends at G of the argument arrays as the run found them, and the arguments are
    unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v21)
        = Cert.Spec.G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run (Cert.ReferenceIdeal.defs (F := Ideal)) _ _).mono ?_ (Cert.ReferenceIdeal.Value.run (F := Ideal) m' ρ')
  intro r h c
  obtain ⟨hres, hargs⟩ := h c
  exact ⟨hres.trans (Cert.ReferenceIdeal.RefValue.ref_is_G _ _ _ _), hargs⟩

end Cert.ReferenceIdeal.RefClaims

end
-- ==== Proof.lean ====
/-
  The certificate of the embedding-lookup kernel against its reference, over the extended reals.

  Both programs compute, for batch row b, token l and vocabulary slot v,
      out[b, l, v] = W[v, r(b, l)] + (c · sigma[b]) · (Σ_j W[v, j]) + bias[v],      r(b, l) = clamp(indices[b, l], 0, 8191),
  with c the same single-precision literal on both sides. The kernel transposes W block by block while it
  accumulates each row's sum over the sixteen column blocks (first region), forms the per-batch bias vector on
  the host, and then copies, for each token, the row of the transposed array that the clamped index names,
  adds the bias vector and stores it (second region). The reference gathers rows of the transposed array,
  adds the scaled row sums, then the bias. The two groupings of the three summands agree because addition of
  extended reals is associative and commutative; the sixteen block sums of 512 lanes, accumulated from zero,
  are the one sum over 8192 lanes for the same reason; no finiteness is used.

  The frames: each kernel region's body is run once at symbolic operands (the transposition in its three control
  cases; the 128 row copies, each started one row ahead and waited for before its scratch half is read, every
  index word in range because the host clamped it), the pipelines' proof data name what every window holds at
  every point, and the launch composes the host stretches and the two regions. The idealized program's run also
  names the result array, which the value modules read as the function above.
-/
import proofs.«421918_j29918742184132_1_alg».proof.Defs
import proofs.«421918_j29918742184132_1_alg».proof.Proof.Gen.Kernel
import proofs.«421918_j29918742184132_1_alg».proof.Proof.Gen.KernelIdeal
import proofs.«421918_j29918742184132_1_alg».proof.Proof.Gen.ReferenceIdeal
import proofs.«421918_j29918742184132_1_alg».proof.Proof.Gen.Pre_finite_inputs
import proofs.«421918_j29918742184132_1_alg».proof.Proof.K.Frame
import proofs.«421918_j29918742184132_1_alg».proof.Proof.KI.Frame
import proofs.«421918_j29918742184132_1_alg».proof.Proof.KI.ValueRun
import proofs.«421918_j29918742184132_1_alg».proof.Proof.KI.ValueFinal
import proofs.«421918_j29918742184132_1_alg».proof.Proof.RefClaims

noncomputable section

namespace Cert.Proof

open Idealize.ShloMosaic Idealize.ShloMosaic.TcCoe Idealize.SL.Sem

/-- The word-level kernel runs to its end, faults nowhere, and leaves its arguments as they were. -/
theorem frame_k : Cert.frame_Kernel := fun m ρ _ => Cert.Kernel.Hand.frame_run m ρ

/-- So does its idealization. -/
theorem frame_ki : Cert.frame_KernelIdeal := fun m ρ _ => Cert.KernelIdeal.Hand.frame_run m ρ

/-- From memories that agree on the arguments, the idealized kernel and the idealized reference both end with the
    result array at the same function of the arguments. -/
theorem algebraic : Cert.algebraic_KernelIdeal_ReferenceIdeal := by
  intro m ρ m' ρ' _ hagree
  refine ⟨fun c => Cert.KernelIdeal.Hand.resOut m c, Cert.KernelIdeal.Hand.value_run m ρ, ?_⟩
  refine (θ_run Cert.ReferenceIdeal.defs _ _).mono (fun r h c => ⟨(h c).1.trans ?_, (h c).2⟩)
    (Cert.ReferenceIdeal.RefClaims.ref_run m' ρ')
  rw [(hagree c).1, (hagree c).2.1, (hagree c).2.2.1, (hagree c).2.2.2]
  exact (Cert.KernelIdeal.ValFinal.kernel_value m c).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefClaims.frame_ri, trivial, algebraic⟩

end Cert.Proof

end
